-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x16 : Shape := ⟨2, ![1600000, 16]⟩
abbrev S1x16 : Shape := ⟨2, ![1, 16]⟩
abbrev S2x1600000 : Shape := ⟨2, ![2, 1600000]⟩
abbrev S100000 : Shape := ⟨1, ![100000]⟩
abbrev S32x32 : Shape := ⟨2, ![32, 32]⟩
abbrev S32 : Shape := ⟨1, ![32]⟩
abbrev S16x16 : Shape := ⟨2, ![16, 16]⟩
abbrev S16 : Shape := ⟨1, ![16]⟩
abbrev S96x16 : Shape := ⟨2, ![96, 16]⟩
abbrev S64x32 : Shape := ⟨2, ![64, 32]⟩
abbrev S32x8 : Shape := ⟨2, ![32, 8]⟩
abbrev S8 : Shape := ⟨1, ![8]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S1x16 : S_.BroadcastsInDim S1x16 (![] : Fin 0 → Fin S1x16.rank)
  reducesTo_S1x16_S_d0_1 : S1x16.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S96x16 : S_.BroadcastsInDim S96x16 (![] : Fin 0 → Fin S96x16.rank)
  reducesTo_S96x16_S_d0_1 : S96x16.ReducesTo [0, 1] S_
  bcast_S_S64x32 : S_.BroadcastsInDim S64x32 (![] : Fin 0 → Fin S64x32.rank)
  reducesTo_S64x32_S_d0_1 : S64x32.ReducesTo [0, 1] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part4 {F : FTy → Type} [FloatOps F] (main_arg3 : IVec S2x1600000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x1600000 32 := broadcastInDim S2x1600000 ![] bcast_S_S2x1600000 main_c_26
  let main_v70 : IVec S2x1600000 1 := cmpi .sge main_arg3 main_v69
  let main_c_27 : IVec S_ 32 := constantI S_ 32 100000#32
  let main_v71 : IVec S2x1600000 32 := broadcastInDim S2x1600000 ![] bcast_S_S2x1600000 main_c_27
  let main_v72 : IVec S2x1600000 1 := cmpi .slt main_arg3 main_v71
  let main_v73 : IVec S2x1600000 1 := andi main_v70 main_v72
  let main_c_28 : IVec S_ 1 := constantI S_ 1 1#1
  let main_v74 : IVec S_ 1 := (fun x v => Host.reduce IntOp.andi x v reducesTo_S2x1600000_S_d0_1 h_S_) main_v73 main_c_28
  let main_v75 : IVec S_ 1 := andi main_v68 main_v74
  main_v75

def fn_part3 {F : FTy → Type} [FloatOps F] (main_arg3 : IVec S2x1600000 32) (main_arg13 : FVec F S32x8 .f32) (main_arg14 : FVec F S8 .f32) (main_arg15 : FVec F S32x8 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x8 .f32 := Host.absf main_arg13
  let main_cst_20 : FVec F S_ .f32 := constant S_ .f32 0x7F800000#32
  let main_v55 : FVec F S32x8 .f32 := broadcastInDim S32x8 ![] bcast_S_S32x8 main_cst_20
  let main_v56 : IVec S32x8 1 := cmpf .olt main_v54 main_v55
  let main_c_21 : IVec S_ 1 := constantI S_ 1 1#1
  let main_v57 : IVec S_ 1 := (fun x v => Host.reduce IntOp.andi x v reducesTo_S32x8_S_d0_1 h_S_) main_v56 main_c_21
  let main_v58 : IVec S_ 1 := andi main_v53 main_v57
  let main_v59 : FVec F S8 .f32 := Host.absf main_arg14
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S32x8 .f32 := Host.absf main_arg15
  let main_cst_24 : FVec F S_ .f32 := constant S_ .f32 0x7F800000#32
  let main_v65 : FVec F S32x8 .f32 := broadcastInDim S32x8 ![] bcast_S_S32x8 main_cst_24
  let main_v66 : IVec S32x8 1 := cmpf .olt main_v64 main_v65
  let main_c_25 : IVec S_ 1 := constantI S_ 1 1#1
  let main_v67 : IVec S_ 1 := (fun x v => Host.reduce IntOp.andi x v reducesTo_S32x8_S_d0_1 h_S_) main_v66 main_c_25
  fn_part4 (F := F) main_arg3 main_v63 main_v67

def fn_part2 {F : FTy → Type} [FloatOps F] (main_arg3 : IVec S2x1600000 32) (main_arg9 : FVec F S96x16 .f32) (main_arg10 : FVec F S16 .f32) (main_arg11 : FVec F S64x32 .f32) (main_arg12 : FVec F S32 .f32) (main_arg13 : FVec F S32x8 .f32) (main_arg14 : FVec F S8 .f32) (main_arg15 : FVec F S32x8 .f32) (main_v33 : IVec S_ 1) : IVec S_ 1 :=
  let main_v34 : FVec F S96x16 .f32 := Host.absf main_arg9
  let main_cst_12 : FVec F S_ .f32 := constant S_ .f32 0x7F800000#32
  let main_v35 : FVec F S96x16 .f32 := broadcastInDim S96x16 ![] bcast_S_S96x16 main_cst_12
  let main_v36 : IVec S96x16 1 := cmpf .olt main_v34 main_v35
  let main_c_13 : IVec S_ 1 := constantI S_ 1 1#1
  let main_v37 : IVec S_ 1 := (fun x v => Host.reduce IntOp.andi x v reducesTo_S96x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg3 main_arg13 main_arg14 main_arg15 main_v48 main_v49 main_v50

def fn_part1 {F : FTy → Type} [FloatOps F] (main_arg3 : IVec S2x1600000 32) (main_arg6 : FVec F S32 .f32) (main_arg7 : FVec F S16x16 .f32) (main_arg8 : FVec F S16 .f32) (main_arg9 : FVec F S96x16 .f32) (main_arg10 : FVec F S16 .f32) (main_arg11 : FVec F S64x32 .f32) (main_arg12 : FVec F S32 .f32) (main_arg13 : FVec F S32x8 .f32) (main_arg14 : FVec F S8 .f32) (main_arg15 : FVec F S32x8 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S16x16 .f32 := Host.absf main_arg7
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg3 main_arg9 main_arg10 main_arg11 main_arg12 main_arg13 main_arg14 main_arg15 main_v33

def fn {F : FTy → Type} [FloatOps F] (main_arg0 : FVec F S100000x32 .f32) (main_arg1 : FVec F S1600000x16 .f32) (main_arg2 : FVec F S1x16 .f32) (main_arg3 : IVec S2x1600000 32) (main_arg4 : IVec S100000 32) (main_arg5 : FVec F S32x32 .f32) (main_arg6 : FVec F S32 .f32) (main_arg7 : FVec F S16x16 .f32) (main_arg8 : FVec F S16 .f32) (main_arg9 : FVec F S96x16 .f32) (main_arg10 : FVec F S16 .f32) (main_arg11 : FVec F S64x32 .f32) (main_arg12 : FVec F S32 .f32) (main_arg13 : FVec F S32x8 .f32) (main_arg14 : FVec F S8 .f32) (main_arg15 : FVec F S32x8 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg3 main_arg6 main_arg7 main_arg8 main_arg9 main_arg10 main_arg11 main_arg12 main_arg13 main_arg14 main_arg15 main_v13 main_v16
-- ==== Kernel.lean ====
abbrev S100000x32 : Shape := ⟨2, ![100000, 32]⟩
abbrev S1600000x16 : Shape := ⟨2, ![1600000, 16]⟩
abbrev S1x16 : Shape := ⟨2, ![1, 16]⟩
abbrev S2x1600000 : Shape := ⟨2, ![2, 1600000]⟩
abbrev S100000 : Shape := ⟨1, ![100000]⟩
abbrev S32x32 : Shape := ⟨2, ![32, 32]⟩
abbrev S32 : Shape := ⟨1, ![32]⟩
abbrev S16x16 : Shape := ⟨2, ![16, 16]⟩
abbrev S16 : Shape := ⟨1, ![16]⟩
abbrev S96x16 : Shape := ⟨2, ![96, 16]⟩
abbrev S64x32 : Shape := ⟨2, ![64, 32]⟩
abbrev S32x8 : Shape := ⟨2, ![32, 8]⟩
abbrev S8 : Shape := ⟨1, ![8]⟩
abbrev S1x1600000 : Shape := ⟨2, ![1, 1600000]⟩
abbrev S1600000 : Shape := ⟨1, ![1600000]⟩
abbrev S32x16 : Shape := ⟨2, ![32, 16]⟩
abbrev S16x32 : Shape := ⟨2, ![16, 32]⟩
abbrev S1x32 : Shape := ⟨2, ![1, 32]⟩
abbrev S100000x16 : Shape := ⟨2, ![100000, 16]⟩
abbrev S5000x32 : Shape := ⟨2, ![5000, 32]⟩
abbrev S5000x16 : Shape := ⟨2, ![5000, 16]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S6400x16 : Shape := ⟨2, ![6400, 16]⟩
abbrev S100000x1 : Shape := ⟨2, ![100000, 1]⟩
abbrev S100000x8 : Shape := ⟨2, ![100000, 8]⟩
abbrev S5000x8 : Shape := ⟨2, ![5000, 8]⟩
abbrev S1600000x8 : Shape := ⟨2, ![1600000, 8]⟩
abbrev S1x8 : Shape := ⟨2, ![1, 8]⟩

abbrev nBuf : Space → Nat
  | .hbm => 177
  | .vmem => 42
  | .smem => 0
  | _ => 0

abbrev hbmTy0_0 (i : Nat) : BufTy := match i % 128 with
  | 0 => ⟨S100000x32, .f32⟩
  | 1 => ⟨S1600000x16, .f32⟩
  | 2 => ⟨S1x16, .f32⟩
  | 3 => ⟨S2x1600000, .i32⟩
  | 4 => ⟨S100000, .i32⟩
  | 5 => ⟨S32x32, .f32⟩
  | 6 => ⟨S32, .f32⟩
  | 7 => ⟨S16x16, .f32⟩
  | 8 => ⟨S16, .f32⟩
  | 9 => ⟨S96x16, .f32⟩
  | 10 => ⟨S16, .f32⟩
  | 11 => ⟨S64x32, .f32⟩
  | 12 => ⟨S32, .f32⟩
  | 13 => ⟨S32x8, .f32⟩
  | 14 => ⟨S8, .f32⟩
  | 15 => ⟨S32x8, .f32⟩
  | 16 => ⟨S1x1600000, .i32⟩
  | 17 => ⟨S1600000, .i32⟩
  | 18 => ⟨S1x1600000, .i32⟩
  | 19 => ⟨S1600000, .i32⟩
  | 20 => ⟨S32x16, .f32⟩
  | 21 => ⟨S32x16, .f32⟩
  | 22 => ⟨S16x16, .f32⟩
  | 23 => ⟨S16x16, .f32⟩
  | 24 => ⟨S32x32, .f32⟩
  | 25 => ⟨S16x32, .f32⟩
  | 26 => ⟨S16x32, .f32⟩
  | 27 => ⟨S1x16, .f32⟩
  | 28 => ⟨S1x16, .f32⟩
  | 29 => ⟨S1x16, .f32⟩
  | 30 => ⟨S1x16, .f32⟩
  | 31 => ⟨S1x16, .f32⟩
  | 32 => ⟨S1x16, .f32⟩
  | 33 => ⟨S1x32, .f32⟩
  | 34 => ⟨S1x32, .f32⟩
  | 35 => ⟨S1x32, .f32⟩
  | 36 => ⟨S1x32, .f32⟩
  | 37 => ⟨S100000x32, .f32⟩
  | 38 => ⟨S100000x16, .f32⟩
  | 39 => ⟨S100000x16, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1, .i32⟩
  | 49 => ⟨S_, .i32⟩
  | 50 => ⟨S1600000x1, .i32⟩
  | 51 => ⟨S1600000x1, .i1⟩
  | 52 => ⟨S1x1, .i32⟩
  | 53 => ⟨S1600000x1, .i32⟩
  | 54 => ⟨S1600000x1, .i1⟩
  | 55 => ⟨S1600000x1, .i1⟩
  | 56 => ⟨S_, .i1⟩
  | 57 => ⟨S1600000, .i1⟩
  | 58 => ⟨S1600000x16, .f32⟩
  | 59 => ⟨S1600000x16, .i1⟩
  | 60 => ⟨S_, .f32⟩
  | 61 => ⟨S1600000x16, .f32⟩
  | 62 => ⟨S1600000x16, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1, .i32⟩
  | 72 => ⟨S_, .i32⟩
  | 73 => ⟨S1600000x1, .i32⟩
  | 74 => ⟨S1600000x1, .i1⟩
  | 75 => ⟨S1x1, .i32⟩
  | 76 => ⟨S1600000x1, .i32⟩
  | 77 => ⟨S1600000x1, .i1⟩
  | 78 => ⟨S1600000x1, .i1⟩
  | 79 => ⟨S_, .i1⟩
  | 80 => ⟨S1600000, .i1⟩
  | 81 => ⟨S1600000x16, .f32⟩
  | 82 => ⟨S1600000x16, .i1⟩
  | 83 => ⟨S_, .f32⟩
  | 84 => ⟨S1600000x16, .f32⟩
  | 85 => ⟨S1600000x16, .f32⟩
  | 86 => ⟨S1600000x16, .f32⟩
  | 87 => ⟨S_, .f32⟩
  | 88 => ⟨S100000x16, .f32⟩
  | 89 => ⟨S1600000x1, .i32⟩
  | 90 => ⟨S100000x16, .f32⟩
  | 91 => ⟨S_, .f32⟩
  | 92 => ⟨S1600000, .f32⟩
  | 93 => ⟨S_, .f32⟩
  | 94 => ⟨S100000, .f32⟩
  | 95 => ⟨S1600000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x16, .f32⟩
  | 102 => ⟨S100000x16, .f32⟩
  | 103 => ⟨S100000x32, .f32⟩
  | 104 => ⟨S100000x8, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1, .i32⟩
  | 114 => ⟨S_, .i32⟩
  | 115 => ⟨S1600000x1, .i32⟩
  | 116 => ⟨S1600000x1, .i1⟩
  | 117 => ⟨S1x1, .i32⟩
  | 118 => ⟨S1600000x1, .i32⟩
  | 119 => ⟨S1600000x1, .i1⟩
  | 120 => ⟨S1600000x1, .i1⟩
  | 121 => ⟨S_, .i1⟩
  | 122 => ⟨S1600000, .i1⟩
  | 123 => ⟨S1600000x8, .f32⟩
  | 124 => ⟨S1600000x8, .i1⟩
  | 125 => ⟨S_, .f32⟩
  | 126 => ⟨S1600000x8, .f32⟩
  | 127 => ⟨S1600000x8, .f32⟩
  | _ => ⟨S100000x32, .f32⟩

abbrev hbmTy0_1 (i : Nat) : BufTy := match i % 128 with
  | 0 => ⟨S_, .f32⟩
  | 1 => ⟨S100000x8, .f32⟩
  | 2 => ⟨S1600000x1, .i32⟩
  | 3 => ⟨S100000x8, .f32⟩
  | 4 => ⟨S_, .f32⟩
  | 5 => ⟨S1600000, .f32⟩
  | 6 => ⟨S_, .f32⟩
  | 7 => ⟨S100000, .f32⟩
  | 8 => ⟨S1600000x1, .i32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x8, .f32⟩
  | 15 => ⟨S100000x8, .f32⟩
  | 16 => ⟨S1x8, .f32⟩
  | 17 => ⟨S100000x8, .f32⟩
  | 18 => ⟨S_, .f32⟩
  | 19 => ⟨S1x8, .f32⟩
  | 20 => ⟨S100000x1, .i32⟩
  | 21 => ⟨S1x8, .f32⟩
  | 22 => ⟨S_, .f32⟩
  | 23 => ⟨S100000, .f32⟩
  | 24 => ⟨S_, .f32⟩
  | 25 => ⟨S1, .f32⟩
  | 26 => ⟨S100000x1, .i32⟩
  | 27 => ⟨S1, .f32⟩
  | 28 => ⟨S_, .f32⟩
  | 29 => ⟨S1, .f32⟩
  | 30 => ⟨S1, .f32⟩
  | 31 => ⟨S1x1, .f32⟩
  | 32 => ⟨S1x8, .f32⟩
  | 33 => ⟨S1x8, .f32⟩
  | 34 => ⟨S_, .f32⟩
  | 35 => ⟨S1, .f32⟩
  | 36 => ⟨S_, .f32⟩
  | 37 => ⟨S1, .f32⟩
  | 38 => ⟨S1, .f32⟩
  | 39 => ⟨S1x1, .f32⟩
  | 40 => ⟨S1x8, .f32⟩
  | 41 => ⟨S1x8, .f32⟩
  | 42 => ⟨S1x8, .f32⟩
  | 43 => ⟨S_, .f32⟩
  | 44 => ⟨S1, .f32⟩
  | 45 => ⟨S1x1, .f32⟩
  | 46 => ⟨S1x1, .f32⟩
  | 47 => ⟨S1x8, .f32⟩
  | 48 => ⟨S1x8, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S1x32, .f32⟩
  | .local _ .vmem, ⟨4, _⟩ => ⟨S32x16, .f32⟩
  | .local _ .vmem, ⟨5, _⟩ => ⟨S32x16, .f32⟩
  | .local _ .vmem, ⟨6, _⟩ => ⟨S5000x32, .f32⟩
  | .local _ .vmem, ⟨7, _⟩ => ⟨S5000x32, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S6400x16, .f32⟩
  | .local _ .vmem, ⟨13, _⟩ => ⟨S6400x16, .f32⟩
  | .local _ .vmem, ⟨14, _⟩ => ⟨S6400x16, .f32⟩
  | .local _ .vmem, ⟨15, _⟩ => ⟨S6400x16, .f32⟩
  | .local _ .vmem, ⟨16, _⟩ => ⟨S6400x16, .f32⟩
  | .local _ .vmem, ⟨17, _⟩ => ⟨S6400x16, .f32⟩
  | .local _ .vmem, ⟨18, _⟩ => ⟨S16x16, .f32⟩
  | .local _ .vmem, ⟨19, _⟩ => ⟨S1x16, .f32⟩
  | .local _ .vmem, ⟨20, _⟩ => ⟨S6400x16, .f32⟩
  | .local _ .vmem, ⟨21, _⟩ => ⟨S6400x16, .f32⟩
  | .local _ .vmem, ⟨22, _⟩ => ⟨S5000x32, .f32⟩
  | .local _ .vmem, ⟨23, _⟩ => ⟨S5000x32, .f32⟩
  | .local _ .vmem, ⟨24, _⟩ => ⟨S5000x16, .f32⟩
  | .local _ .vmem, ⟨25, _⟩ => ⟨S5000x16, .f32⟩
  | .local _ .vmem, ⟨26, _⟩ => ⟨S32x32, .f32⟩
  | .local _ .vmem, ⟨27, _⟩ => ⟨S16x32, .f32⟩
  | .local _ .vmem, ⟨28, _⟩ => ⟨S1x32, .f32⟩
  | .local _ .vmem, ⟨29, _⟩ => ⟨S32x8, .f32⟩
  | .local _ .vmem, ⟨30, _⟩ => ⟨S5000x32, .f32⟩
  | .local _ .vmem, ⟨31, _⟩ => ⟨S5000x32, .f32⟩
  | .local _ .vmem, ⟨32, _⟩ => ⟨S5000x8, .f32⟩
  | .local _ .vmem, ⟨33, _⟩ => ⟨S5000x8, .f32⟩
  | .local _ .vmem, ⟨34, _⟩ => ⟨S5000x8, .f32⟩
  | .local _ .vmem, ⟨35, _⟩ => ⟨S5000x8, .f32⟩
  | .local _ .vmem, ⟨36, _⟩ => ⟨S1x8, .f32⟩
  | .local _ .vmem, ⟨37, _⟩ => ⟨S5000x32, .f32⟩
  | .local _ .vmem, ⟨38, _⟩ => ⟨S5000x32, .f32⟩
  | .local _ .vmem, ⟨39, _⟩ => ⟨S32x8, .f32⟩
  | .local _ .vmem, ⟨40, _⟩ => ⟨S5000x8, .f32⟩
  | .local _ .vmem, ⟨41, _⟩ => ⟨S5000x8, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v22 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v23 : Ref sig .tc := ⟨.hbm, 85, rfl⟩
abbrev main_v24 : Ref sig .tc := ⟨.hbm, 86, rfl⟩
abbrev main_cst : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_cst_0 : Ref sig .tc := ⟨.hbm, 91, rfl⟩
abbrev main_v28 : Ref sig .tc := ⟨.hbm, 92, rfl⟩
abbrev main_cst_1 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_cst_2 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37_0 : Ref sig .tc := ⟨.hbm, 103, rfl⟩
abbrev main_v37_1 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_v14 : Ref sig .tc := ⟨.hbm, 124, rfl⟩
abbrev main_call2_cst : Ref sig .tc := ⟨.hbm, 125, rfl⟩
abbrev main_call2_v15 : Ref sig .tc := ⟨.hbm, 126, rfl⟩
abbrev main_v38 : Ref sig .tc := ⟨.hbm, 127, rfl⟩
abbrev main_cst_3 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_cst_4 : Ref sig .tc := ⟨.hbm, 132, rfl⟩
abbrev main_v42 : Ref sig .tc := ⟨.hbm, 133, rfl⟩
abbrev main_cst_5 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_cst_6 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_cst_7 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_cst_8 : Ref sig .tc := ⟨.hbm, 150, rfl⟩
abbrev main_v56 : Ref sig .tc := ⟨.hbm, 151, rfl⟩
abbrev main_cst_9 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_cst_10 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_call3_cst : Ref sig .tc := ⟨.hbm, 162, rfl⟩
abbrev main_call3_v0 : Ref sig .tc := ⟨.hbm, 163, rfl⟩
abbrev main_call3_cst_0 : Ref sig .tc := ⟨.hbm, 164, rfl⟩
abbrev main_call3_v1 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_v6 : Ref sig .tc := ⟨.hbm, 170, rfl⟩
abbrev main_call3_cst_1 : Ref sig .tc := ⟨.hbm, 171, rfl⟩
abbrev main_call3_v7 : Ref sig .tc := ⟨.hbm, 172, rfl⟩
abbrev main_call3_v8 : Ref sig .tc := ⟨.hbm, 173, rfl⟩
abbrev main_call3_v9 : Ref sig .tc := ⟨.hbm, 174, rfl⟩
abbrev main_call3_v10 : Ref sig .tc := ⟨.hbm, 175, rfl⟩
abbrev main_v65 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6400x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S32x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S96x16_S32x16_0_0 : S96x16.Slices ![0, 0] S32x16
  slices_S96x16_S32x16_32_0 : S96x16.Slices ![32, 0] S32x16
  slices_S96x16_S16x16_64_0 : S96x16.Slices ![64, 0] S16x16
  slices_S96x16_S16x16_80_0 : S96x16.Slices ![80, 0] S16x16
  slices_S64x32_S32x32_0_0 : S64x32.Slices ![0, 0] S32x32
  slices_S64x32_S16x32_32_0 : S64x32.Slices ![32, 0] S16x32
  slices_S64x32_S16x32_48_0 : S64x32.Slices ![48, 0] S16x32
  bcast_S16_S1x16_1 : S16.BroadcastsInDim S1x16 (![1] : Fin 1 → Fin S1x16.rank)
  shapeCasts_S16_S1x16 : S16.ShapeCasts S1x16
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S5000x16_S5000x16_0_0 : ∀ a, (![0, 0] : Fin 2 → Nat) a + S5000x16.size a ≤ S5000x16.size a
  h_S5000x16 : 0 < S5000x16.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x16_0 : S1600000.BroadcastsInDim S1600000x16 (![0] : Fin 1 → Fin S1600000x16.rank)
  bcast_S_S1600000x16 : S_.BroadcastsInDim S1600000x16 (![] : Fin 0 → Fin S1600000x16.rank)
  inb_S6400x16_S6400x16_0_0 : ∀ a, (![0, 0] : Fin 2 → Nat) a + S6400x16.size a ≤ S6400x16.size a
  h_S6400x16 : 0 < S6400x16.numel
  shapeCasts_S6400x16_S6400x16 : S6400x16.ShapeCasts S6400x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S6400x16 : S1x16.Broadcasts S6400x16
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  shapeCasts_S5000x32_S5000x32 : S5000x32.ShapeCasts S5000x32
  shapeCasts_S5000x16_S5000x16 : S5000x16.ShapeCasts S5000x16
  shapeCasts_S32x32_S32x32 : S32x32.ShapeCasts S32x32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S32x8_S32x8_0_0 : ∀ a, (![0, 0] : Fin 2 → Nat) a + S32x8.size a ≤ S32x8.size a
  h_S32x8 : 0 < S32x8.numel
  inb_S5000x8_S5000x8_0_0 : ∀ a, (![0, 0] : Fin 2 → Nat) a + S5000x8.size a ≤ S5000x8.size a
  h_S5000x8 : 0 < S5000x8.numel
  bcast_S1600000_S1600000x8_0 : S1600000.BroadcastsInDim S1600000x8 (![0] : Fin 1 → Fin S1600000x8.rank)
  bcast_S_S1600000x8 : S_.BroadcastsInDim S1600000x8 (![] : Fin 0 → Fin S1600000x8.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  bcast_S_S1x8 : S_.BroadcastsInDim S1x8 (![] : Fin 0 → Fin S1x8.rank)
  bcast_S_S1 : S_.BroadcastsInDim S1 (![] : Fin 0 → Fin S1.rank)
  bcast_S1_S1x1_0 : S1.BroadcastsInDim S1x1 (![0] : Fin 1 → Fin S1x1.rank)
  bcast_S1x1_S1x8_0_1 : S1x1.BroadcastsInDim S1x8 (![0, 1] : Fin 2 → Fin S1x8.rank)
  reducesTo_S1x8_S1_d1 : S1x8.ReducesTo [1] S1
  dot_S1x16_S16x16_S1x16_1_0_0_1_n_n_wf : DotDims.WF S1x16 S16x16 S1x16 [1] [0] [0] [1] [] []
  dot_S1x16_S16x32_S1x32_1_0_0_1_n_n_wf : DotDims.WF S1x16 S16x32 S1x32 [1] [0] [0] [1] [] []
  dot_S5000x32_S32x32_S5000x32_1_0_0_1_n_n_wf : DotDims.WF S5000x32 S32x32 S5000x32 [1] [0] [0] [1] [] []
  dot_S5000x32_S32x16_S5000x16_1_0_0_1_n_n_wf : DotDims.WF S5000x32 S32x16 S5000x16 [1] [0] [0] [1] [] []
  gather_S100000x16_S1600000x1_S1600000x16_1_0_n_n_0_1_116_wf : GatherDims.WF S100000x16 S1600000x1 S1600000x16 [1] [0] [] [0] [] 1 ![1, 16]
  dot_S6400x16_S16x16_S6400x16_1_0_0_1_n_n_wf : DotDims.WF S6400x16 S16x16 S6400x16 [1] [0] [0] [1] [] []
  scatter_S100000x16_S1600000x1_S1600000x16_1_0_0_1_wf : ScatterDims.WF S100000x16 S1600000x1 S1600000x16 [1] [0] [0] 1
  scatter_S100000_S1600000x1_S1600000_n_0_0_1_wf : ScatterDims.WF S100000 S1600000x1 S1600000 [] [0] [0] 1
  dot_S5000x16_S16x32_S5000x32_1_0_0_1_n_n_wf : DotDims.WF S5000x16 S16x32 S5000x32 [1] [0] [0] [1] [] []
  dot_S5000x32_S32x8_S5000x8_1_0_0_1_n_n_wf : DotDims.WF S5000x32 S32x8 S5000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  scatter_S1x8_S100000x1_S100000x8_1_0_0_1_wf : ScatterDims.WF S1x8 S100000x1 S100000x8 [1] [0] [0] 1
  scatter_S1_S100000x1_S100000_n_0_0_1_wf : ScatterDims.WF S1 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x16.size a ≤ S100000x16.size a
  hwx0_6 : ∀ i : grid0.Coords, EltTy.bits .f32 = 32 ∨ (Rect.block (s := S100000x16) S5000x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x16.size a ≤ S100000x16.size a
  hwx0_7 : ∀ i : grid0.Coords, EltTy.bits .f32 = 32 ∨ (Rect.block (s := S100000x16) S5000x16.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x16.size a ≤ S1600000x16.size a
  hwx1_0 : ∀ i : grid1.Coords, EltTy.bits .f32 = 32 ∨ (Rect.block (s := S1600000x16) S6400x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x16.size a ≤ S1600000x16.size a
  hwx1_1 : ∀ i : grid1.Coords, EltTy.bits .f32 = 32 ∨ (Rect.block (s := S1600000x16) S6400x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x16.size a ≤ S1600000x16.size a
  hwx1_2 : ∀ i : grid1.Coords, EltTy.bits .f32 = 32 ∨ (Rect.block (s := S1600000x16) S6400x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6400x16.size a ≤ S1600000x16.size a
  hwx1_5 : ∀ i : grid1.Coords, EltTy.bits .f32 = 32 ∨ (Rect.block (s := S1600000x16) S6400x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x32.size a ≤ S16x32.size a
  hwx2_3 : ∀ i : grid2.Coords, EltTy.bits .f32 = 32 ∨ (Rect.block (s := S16x32) S16x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x8.size a ≤ S32x8.size a
  hwx2_5 : ∀ i : grid2.Coords, EltTy.bits .f32 = 32 ∨ (Rect.block (s := S32x8) S32x8.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x32.size a ≤ S100000x32.size a
  hwx2_6 : ∀ i : grid2.Coords, EltTy.bits .f32 = 32 ∨ (Rect.block (s := S100000x32) S5000x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x8.size a ≤ S100000x8.size a
  hwx2_7 : ∀ i : grid2.Coords, EltTy.bits .f32 = 32 ∨ (Rect.block (s := S100000x8) S5000x8.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x8.size a ≤ S32x8.size a
  hwx3_3 : ∀ i : grid3.Coords, EltTy.bits .f32 = 32 ∨ (Rect.block (s := S32x8) S32x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x8.size a ≤ S100000x8.size a
  hwx3_4 : ∀ i : grid3.Coords, EltTy.bits .f32 = 32 ∨ (Rect.block (s := S100000x8) S5000x8.size (cc3_transform_4 i) (hinb3_4 i)).WholeWords (EltTy.packing .f32)

variable [Facts₀]

def dot_S1x16_S16x16_S1x16_1_0_0_1_n_n : DotDims S1x16 S16x16 S1x16 where
  lhsContracting := [1]
  rhsContracting := [0]
  lhsNonContracting := [0]
  rhsNonContracting := [1]
  lhsBatch := []
  rhsBatch := []
  wf := dot_S1x16_S16x16_S1x16_1_0_0_1_n_n_wf
def dot_S1x16_S16x32_S1x32_1_0_0_1_n_n : DotDims S1x16 S16x32 S1x32 where
  lhsContracting := [1]
  rhsContracting := [0]
  lhsNonContracting := [0]
  rhsNonContracting := [1]
  lhsBatch := []
  rhsBatch := []
  wf := dot_S1x16_S16x32_S1x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def dot_S6400x16_S16x16_S6400x16_1_0_0_1_n_n : DotDims S6400x16 S16x16 S6400x16 where
  lhsContracting := [1]
  rhsContracting := [0]
  lhsNonContracting := [0]
  rhsNonContracting := [1]
  lhsBatch := []
  rhsBatch := []
  wf := dot_S6400x16_S16x16_S6400x16_1_0_0_1_n_n_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def dot_S5000x32_S32x8_S5000x8_1_0_0_1_n_n : DotDims S5000x32 S32x8 S5000x8 where
  lhsContracting := [1]
  rhsContracting := [0]
  lhsNonContracting := [0]
  rhsNonContracting := [1]
  lhsBatch := []
  rhsBatch := []
  wf := dot_S5000x32_S32x8_S5000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def scatter_S1x8_S100000x1_S100000x8_1_0_0_1 : ScatterDims S1x8 S100000x1 S100000x8 where
  updateWindowDims := [1]
  insertedWindowDims := [0]
  scatterDimsToOperandDims := [0]
  indexVectorDim := 1
  wf := scatter_S1x8_S100000x1_S100000x8_1_0_0_1_wf
def scatter_S1_S100000x1_S100000_n_0_0_1 : ScatterDims S1 S100000x1 S100000 where
  updateWindowDims := []
  insertedWindowDims := [0]
  scatterDimsToOperandDims := [0]
  indexVectorDim := 1
  wf := scatter_S1_S100000x1_S100000_n_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S5000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S5000x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_2) S5000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S6400x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S6400x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S6400x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S6400x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21_0) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S16x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S32x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37_0) S5000x32.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v37_1) S5000x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v50) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37_0) S5000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S32x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S5000x8.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x32 : Shape := ⟨2, ![100000, 32]⟩
abbrev S1600000x16 : Shape := ⟨2, ![1600000, 16]⟩
abbrev S1x16 : Shape := ⟨2, ![1, 16]⟩
abbrev S2x1600000 : Shape := ⟨2, ![2, 1600000]⟩
abbrev S100000 : Shape := ⟨1, ![100000]⟩
abbrev S32x32 : Shape := ⟨2, ![32, 32]⟩
abbrev S32 : Shape := ⟨1, ![32]⟩
abbrev S16x16 : Shape := ⟨2, ![16, 16]⟩
abbrev S16 : Shape := ⟨1, ![16]⟩
abbrev S96x16 : Shape := ⟨2, ![96, 16]⟩
abbrev S64x32 : Shape := ⟨2, ![64, 32]⟩
abbrev S32x8 : Shape := ⟨2, ![32, 8]⟩
abbrev S8 : Shape := ⟨1, ![8]⟩
abbrev S1x1600000 : Shape := ⟨2, ![1, 1600000]⟩
abbrev S1600000 : Shape := ⟨1, ![1600000]⟩
abbrev S1x32 : Shape := ⟨2, ![1, 32]⟩
abbrev S_ : Shape := ⟨0, ![]⟩
abbrev S1600000x1 : Shape := ⟨2, ![1600000, 1]⟩
abbrev S1600000x32 : Shape := ⟨2, ![1600000, 32]⟩
abbrev S1600000x96 : Shape := ⟨2, ![1600000, 96]⟩
abbrev S100000x16 : Shape := ⟨2, ![100000, 16]⟩
abbrev S100000x1 : Shape := ⟨2, ![100000, 1]⟩
abbrev S100000x64 : Shape := ⟨2, ![100000, 64]⟩
abbrev S100000x8 : Shape := ⟨2, ![100000, 8]⟩
abbrev S1x8 : Shape := ⟨2, ![1, 8]⟩
abbrev S1 : Shape := ⟨1, ![1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S100000x32, .f32⟩
  | 1 => ⟨S1600000x16, .f32⟩
  | 2 => ⟨S1x16, .f32⟩
  | 3 => ⟨S2x1600000, .i32⟩
  | 4 => ⟨S100000, .i32⟩
  | 5 => ⟨S32x32, .f32⟩
  | 6 => ⟨S32, .f32⟩
  | 7 => ⟨S16x16, .f32⟩
  | 8 => ⟨S16, .f32⟩
  | 9 => ⟨S96x16, .f32⟩
  | 10 => ⟨S16, .f32⟩
  | 11 => ⟨S64x32, .f32⟩
  | 12 => ⟨S32, .f32⟩
  | 13 => ⟨S32x8, .f32⟩
  | 14 => ⟨S8, .f32⟩
  | 15 => ⟨S32x8, .f32⟩
  | 16 => ⟨S1x1600000, .i32⟩
  | 17 => ⟨S1600000, .i32⟩
  | 18 => ⟨S1x1600000, .i32⟩
  | 19 => ⟨S1600000, .i32⟩
  | 20 => ⟨S100000x32, .f32⟩
  | 21 => ⟨S1x32, .f32⟩
  | 22 => ⟨S100000x32, .f32⟩
  | 23 => ⟨S100000x32, .f32⟩
  | 24 => ⟨S1x16, .f32⟩
  | 25 => ⟨S1x16, .f32⟩
  | 26 => ⟨S1x16, .f32⟩
  | 27 => ⟨S1600000x16, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x32, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x32, .f32⟩
  | 46 => ⟨S1600000x96, .f32⟩
  | 47 => ⟨S1600000x16, .f32⟩
  | 48 => ⟨S1x16, .f32⟩
  | 49 => ⟨S1600000x16, .f32⟩
  | 50 => ⟨S1600000x16, .f32⟩
  | 51 => ⟨S_, .f32⟩
  | 52 => ⟨S1600000x16, .f32⟩
  | 53 => ⟨S1600000x16, .f32⟩
  | 54 => ⟨S_, .f32⟩
  | 55 => ⟨S100000x16, .f32⟩
  | 56 => ⟨S1600000x1, .i32⟩
  | 57 => ⟨S100000x16, .f32⟩
  | 58 => ⟨S_, .f32⟩
  | 59 => ⟨S1600000, .f32⟩
  | 60 => ⟨S_, .f32⟩
  | 61 => ⟨S100000, .f32⟩
  | 62 => ⟨S1600000x1, .i32⟩
  | 63 => ⟨S100000, .f32⟩
  | 64 => ⟨S_, .f32⟩
  | 65 => ⟨S100000, .f32⟩
  | 66 => ⟨S100000, .f32⟩
  | 67 => ⟨S100000x1, .f32⟩
  | 68 => ⟨S100000x16, .f32⟩
  | 69 => ⟨S100000x16, .f32⟩
  | 70 => ⟨S100000x16, .f32⟩
  | 71 => ⟨S100000x64, .f32⟩
  | 72 => ⟨S100000x32, .f32⟩
  | 73 => ⟨S1x32, .f32⟩
  | 74 => ⟨S100000x32, .f32⟩
  | 75 => ⟨S100000x32, .f32⟩
  | 76 => ⟨S_, .f32⟩
  | 77 => ⟨S100000x32, .f32⟩
  | 78 => ⟨S100000x32, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x32, .f32⟩
  | 88 => ⟨S_, .f32⟩
  | 89 => ⟨S100000x32, .f32⟩
  | 90 => ⟨S1600000x1, .i32⟩
  | 91 => ⟨S100000x32, .f32⟩
  | 92 => ⟨S_, .f32⟩
  | 93 => ⟨S1600000, .f32⟩
  | 94 => ⟨S_, .f32⟩
  | 95 => ⟨S100000, .f32⟩
  | 96 => ⟨S1600000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x32, .f32⟩
  | 103 => ⟨S100000x32, .f32⟩
  | 104 => ⟨S100000x8, .f32⟩
  | 105 => ⟨S1x8, .f32⟩
  | 106 => ⟨S100000x8, .f32⟩
  | 107 => ⟨S100000x8, .f32⟩
  | 108 => ⟨S100000x8, .f32⟩
  | 109 => ⟨S100000x8, .f32⟩
  | 110 => ⟨S_, .f32⟩
  | 111 => ⟨S1x8, .f32⟩
  | 112 => ⟨S100000x1, .i32⟩
  | 113 => ⟨S1x8, .f32⟩
  | 114 => ⟨S_, .f32⟩
  | 115 => ⟨S100000, .f32⟩
  | 116 => ⟨S_, .f32⟩
  | 117 => ⟨S1, .f32⟩
  | 118 => ⟨S100000x1, .i32⟩
  | 119 => ⟨S1, .f32⟩
  | 120 => ⟨S_, .f32⟩
  | 121 => ⟨S1, .f32⟩
  | 122 => ⟨S1, .f32⟩
  | 123 => ⟨S1x1, .f32⟩
  | 124 => ⟨S1x8, .f32⟩
  | 125 => ⟨S1x8, .f32⟩
  | 126 => ⟨S_, .f32⟩
  | 127 => ⟨S1, .f32⟩
  | _ => ⟨S100000x32, .f32⟩

abbrev hbmTy0_1 (i : Nat) : BufTy := match i % 128 with
  | 0 => ⟨S_, .f32⟩
  | 1 => ⟨S1, .f32⟩
  | 2 => ⟨S1, .f32⟩
  | 3 => ⟨S1x1, .f32⟩
  | 4 => ⟨S1x8, .f32⟩
  | 5 => ⟨S1x8, .f32⟩
  | 6 => ⟨S1x8, .f32⟩
  | 7 => ⟨S_, .f32⟩
  | 8 => ⟨S1, .f32⟩
  | 9 => ⟨S1x1, .f32⟩
  | 10 => ⟨S1x1, .f32⟩
  | 11 => ⟨S1x8, .f32⟩
  | 12 => ⟨S1x8, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_cst : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_c_6 : Ref sig .tc := ⟨.hbm, 79, rfl⟩
abbrev main_v51 : Ref sig .tc := ⟨.hbm, 80, rfl⟩
abbrev main_v52 : Ref sig .tc := ⟨.hbm, 81, rfl⟩
abbrev main_c_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_cst_14 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_15 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call2_cst : Ref sig .tc := ⟨.hbm, 126, rfl⟩
abbrev main_call2_v0 : Ref sig .tc := ⟨.hbm, 127, rfl⟩
abbrev main_call2_cst_0 : Ref sig .tc := ⟨.hbm, 128, rfl⟩
abbrev main_call2_v1 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_cst_1 : Ref sig .tc := ⟨.hbm, 135, rfl⟩
abbrev main_call2_v7 : Ref sig .tc := ⟨.hbm, 136, rfl⟩
abbrev main_call2_v8 : Ref sig .tc := ⟨.hbm, 137, rfl⟩
abbrev main_call2_v9 : Ref sig .tc := ⟨.hbm, 138, rfl⟩
abbrev main_call2_v10 : Ref sig .tc := ⟨.hbm, 139, rfl⟩
abbrev main_v88 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x16_S1600000x16_S1600000x96_d1 : Shape.Concatenates [S1600000x32, S1600000x32, S1600000x16, S1600000x16] S1600000x96 1
  bcast_S_S1600000x16 : S_.BroadcastsInDim S1600000x16 (![] : Fin 0 → Fin S1600000x16.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S1x16_S100000x16_0_1 : S1x16.BroadcastsInDim S100000x16 (![0, 1] : Fin 2 → Fin S100000x16.rank)
  concatenates_S100000x32_S100000x16_S100000x16_S100000x64_d1 : Shape.Concatenates [S100000x32, S100000x16, S100000x16] S100000x64 1
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S1x8 : S_.BroadcastsInDim S1x8 (![] : Fin 0 → Fin S1x8.rank)
  bcast_S_S1 : S_.BroadcastsInDim S1 (![] : Fin 0 → Fin S1.rank)
  bcast_S1_S1x1_0 : S1.BroadcastsInDim S1x1 (![0] : Fin 1 → Fin S1x1.rank)
  bcast_S1x1_S1x8_0_1 : S1x1.BroadcastsInDim S1x8 (![0, 1] : Fin 2 → Fin S1x8.rank)
  reducesTo_S1x8_S1_d1 : S1x8.ReducesTo [1] S1
  h_S_ : 0 < S_.numel
  dot_S100000x32_S32x32_S100000x32_1_0_0_1_n_n_wf : DotDims.WF S100000x32 S32x32 S100000x32 [1] [0] [0] [1] [] []
  dot_S1x16_S16x16_S1x16_1_0_0_1_n_n_wf : DotDims.WF S1x16 S16x16 S1x16 [1] [0] [0] [1] [] []
  gather_S100000x32_S1600000x1_S1600000x32_1_0_n_n_0_1_132_wf : GatherDims.WF S100000x32 S1600000x1 S1600000x32 [1] [0] [] [0] [] 1 ![1, 32]
  dot_S1600000x96_S96x16_S1600000x16_1_0_0_1_n_n_wf : DotDims.WF S1600000x96 S96x16 S1600000x16 [1] [0] [0] [1] [] []
  scatter_S100000x16_S1600000x1_S1600000x16_1_0_0_1_wf : ScatterDims.WF S100000x16 S1600000x1 S1600000x16 [1] [0] [0] 1
  scatter_S100000_S1600000x1_S1600000_n_0_0_1_wf : ScatterDims.WF S100000 S1600000x1 S1600000 [] [0] [0] 1
  dot_S100000x64_S64x32_S100000x32_1_0_0_1_n_n_wf : DotDims.WF S100000x64 S64x32 S100000x32 [1] [0] [0] [1] [] []
  scatter_S100000x32_S1600000x1_S1600000x32_1_0_0_1_wf : ScatterDims.WF S100000x32 S1600000x1 S1600000x32 [1] [0] [0] 1
  dot_S100000x32_S32x8_S100000x8_1_0_0_1_n_n_wf : DotDims.WF S100000x32 S32x8 S100000x8 [1] [0] [0] [1] [] []
  scatter_S1x8_S100000x1_S100000x8_1_0_0_1_wf : ScatterDims.WF S1x8 S100000x1 S100000x8 [1] [0] [0] 1
  scatter_S1_S100000x1_S100000_n_0_0_1_wf : ScatterDims.WF S1 S100000x1 S100000 [] [0] [0] 1

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S1x16_S16x16_S1x16_1_0_0_1_n_n : DotDims S1x16 S16x16 S1x16 where
  lhsContracting := [1]
  rhsContracting := [0]
  lhsNonContracting := [0]
  rhsNonContracting := [1]
  lhsBatch := []
  rhsBatch := []
  wf := dot_S1x16_S16x16_S1x16_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x96_S96x16_S1600000x16_1_0_0_1_n_n : DotDims S1600000x96 S96x16 S1600000x16 where
  lhsContracting := [1]
  rhsContracting := [0]
  lhsNonContracting := [0]
  rhsNonContracting := [1]
  lhsBatch := []
  rhsBatch := []
  wf := dot_S1600000x96_S96x16_S1600000x16_1_0_0_1_n_n_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def scatter_S1x8_S100000x1_S100000x8_1_0_0_1 : ScatterDims S1x8 S100000x1 S100000x8 where
  updateWindowDims := [1]
  insertedWindowDims := [0]
  scatterDimsToOperandDims := [0]
  indexVectorDim := 1
  wf := scatter_S1x8_S100000x1_S100000x8_1_0_0_1_wf
def scatter_S1_S100000x1_S100000_n_0_0_1 : ScatterDims S1 S100000x1 S100000 where
  updateWindowDims := []
  insertedWindowDims := [0]
  scatterDimsToOperandDims := [0]
  indexVectorDim := 1
  wf := scatter_S1_S100000x1_S100000_n_0_0_1_wf

class Facts : Prop extends Facts₀ where

variable [Facts]
-- ==== Proof.Spec.lean ====
/-
  The common vocabulary of this certificate's value proofs: a matrix is a function of a row and a column,
  `Mat n m := Fin n → Fin m → EReal`, and `mm` is the matrix product as the plain sum over the contracted
  index. Every array fact of the other modules is stated at an index `ix2 r j` with a right-hand side in these
  terms, so that the kernel's side and the reference's side meet in one form.
-/
import Mathlib.Data.EReal.Basic
import Mathlib.Algebra.BigOperators.Fin

noncomputable section

namespace Cert.Spec

/-- An `n × m` matrix of extended reals, by row and column. -/
abbrev Mat (n m : ℕ) := Fin n → Fin m → EReal

/-- The matrix product: entry `(r, j)` is the sum over the contracted index `t` of `a r t * w t j`. -/
def mm {n k m : ℕ} (a : Mat n k) (w : Mat k m) : Mat n m := fun r j => ∑ t : Fin k, a r t * w t j

theorem mm_apply {n k m : ℕ} (a : Mat n k) (w : Mat k m) (r : Fin n) (j : Fin m) :
    mm a w r j = ∑ t : Fin k, a r t * w t j := rfl

/-- An extended real that is a real number. -/
def IsReal (x : EReal) : Prop := ∃ r : ℝ, x = (r : EReal)

end Cert.Spec

end
-- ==== Proof.Hub.lean ====
/-
  The stage values of the computation as plain formulas in the argument arrays, entry by entry — the form in
  which the kernel's side and the reference's side meet.

  With `x` the node features, `W_n, b_n` the node embedding, `g, W_g, b_g` the graph embedding, `W_e, b_e` the edge
  aggregator (96 = 32 + 32 + 16 + 16 input columns: the two endpoint embeddings, the edge attributes, the graph
  embedding), `W_a, b_a` the node aggregator (64 = 32 + 16 + 16), `W_l, b_l, W_r` the output layer, and the edge
  index read as two rows of signed words (`rowOf k e`: row `k`'s entry `e` clamped into the table, what a gather
  reads; `hitOf k n`: the entries of row `k` equal to `n`, what an accumulating scatter adds into segment `n`):

    h    = x · W_n + b_n                       h_G = g · W_g + b_g
    edge = max (Σ h[src]·W_e[0:32] + Σ h[dst]·W_e[32:64] + Σ e·W_e[64:80] + Σ h_G·W_e[80:96] + b_e) 0
    m    = segment mean of edge over the source index
    h₂   = max (Σ h·W_a[0:32] + Σ m·W_a[32:48] + Σ h_G·W_a[48:64] + b_a) 0
    out  = (mean of h₂[src] over the destination index) · W_l + b_l + h₂ · W_r        (the reference's order)
    outK = mean of (h₂ · W_l)[src] over the destination index + b_l + h₂ · W_r        (the kernel's order)

  `out = outK` is the one place where the two programs differ by more than the grouping of a sum.
-/
import proofs.«415651_j317827579953_3_alg».proof.Proof.Spec
import Idealize.ShloMosaic.PureOps.Ideal
import Idealize.ShloMosaic.Lib.ValueIdx

noncomputable section

namespace Cert.Hub

open Idealize.ShloMosaic Idealize.ShloMosaic.ValueIdx Cert.Spec

/-- The mean of the rows `u e` over the members `e ∈ S` of a segment, as both programs compute it: zero plus the
    rows' sum, divided by the count (zero plus a one per member) raised to at least one. -/
def segMean {E C : ℕ} (S : Finset (Fin E)) (u : Mat E C) (j : Fin C) : EReal :=
  Ideal.div (0 + ∑ e ∈ S, u e j) (max (0 + ∑ _e ∈ S, (1 : EReal)) 1)

section
variable (a0 : (⟨2, ![100000, 32]⟩ : Shape).Idx → EReal) (a1 : (⟨2, ![1600000, 16]⟩ : Shape).Idx → EReal)
  (a2 : (⟨2, ![1, 16]⟩ : Shape).Idx → EReal) (a3 : (⟨2, ![2, 1600000]⟩ : Shape).Idx → BitVec 32)
  (a5 : (⟨2, ![32, 32]⟩ : Shape).Idx → EReal) (a6 : (⟨1, ![32]⟩ : Shape).Idx → EReal)
  (a7 : (⟨2, ![16, 16]⟩ : Shape).Idx → EReal) (a8 : (⟨1, ![16]⟩ : Shape).Idx → EReal)
  (a9 : (⟨2, ![96, 16]⟩ : Shape).Idx → EReal) (a10 : (⟨1, ![16]⟩ : Shape).Idx → EReal)
  (a11 : (⟨2, ![64, 32]⟩ : Shape).Idx → EReal) (a12 : (⟨1, ![32]⟩ : Shape).Idx → EReal)
  (a13 : (⟨2, ![32, 8]⟩ : Shape).Idx → EReal) (a14 : (⟨1, ![8]⟩ : Shape).Idx → EReal)
  (a15 : (⟨2, ![32, 8]⟩ : Shape).Idx → EReal)

/-- Entry `e` of row `k` of the edge index, read signed and clamped into the node table: the row a gather reads. -/
def rowOf (k : Fin 2) (e : Fin 1600000) : Fin 100000 := ⟨min (a3 (ix2 k e)).toInt.toNat 99999, by omega⟩

/-- The entries of row `k` of the edge index that are exactly `n`: the members of segment `n`. -/
def hitOf (k : Fin 2) (n : Fin 100000) : Finset (Fin 1600000) :=
  Finset.univ.filter fun e => (a3 (ix2 k e)).toInt = (n.val : ℤ)

/-- The node embedding. -/
def hi : Mat 100000 32 := fun r j => (∑ t : Fin 32, a0 (ix2 r t) * a5 (ix2 t j)) + a6 (ix1 j)

/-- The graph embedding (one row). -/
def hG : Fin 16 → EReal := fun j => (∑ t : Fin 16, a2 (ix2 0 t) * a7 (ix2 t j)) + a8 (ix1 j)

/-- The edge aggregator. -/
def edge : Mat 1600000 16 := fun e j =>
  max ((((∑ t : Fin 32, hi a0 a5 a6 (rowOf a3 0 e) t * a9 (ix2 ⟨t.val, by omega⟩ j)
          + ∑ t : Fin 32, hi a0 a5 a6 (rowOf a3 1 e) t * a9 (ix2 ⟨32 + t.val, by omega⟩ j))
         + ∑ t : Fin 16, a1 (ix2 e t) * a9 (ix2 ⟨64 + t.val, by omega⟩ j))
        + ∑ t : Fin 16, hG a2 a7 a8 t * a9 (ix2 ⟨80 + t.val, by omega⟩ j))
       + a10 (ix1 j)) 0

/-- The per-node mean of the edges that leave the node. -/
def mN : Mat 100000 16 := fun n j => segMean (hitOf a3 0 n) (edge a0 a1 a2 a3 a5 a6 a7 a8 a9 a10) j

/-- The node aggregator. -/
def hi2 : Mat 100000 32 := fun r j =>
  max ((((∑ t : Fin 32, hi a0 a5 a6 r t * a11 (ix2 ⟨t.val, by omega⟩ j)
          + ∑ t : Fin 16, mN a0 a1 a2 a3 a5 a6 a7 a8 a9 a10 r t * a11 (ix2 ⟨32 + t.val, by omega⟩ j))
         + ∑ t : Fin 16, hG a2 a7 a8 t * a11 (ix2 ⟨48 + t.val, by omega⟩ j))
        + a12 (ix1 j))) 0

/-- The output layer in the reference's order: the mean of the gathered rows, then the product. -/
def nodes : Mat 100000 8 := fun r j =>
  ((∑ t : Fin 32, segMean (hitOf a3 1 r)
        (fun e t' => hi2 a0 a1 a2 a3 a5 a6 a7 a8 a9 a10 a11 a12 (rowOf a3 0 e) t') t * a13 (ix2 t j))
    + a14 (ix1 j))
  + ∑ t : Fin 32, hi2 a0 a1 a2 a3 a5 a6 a7 a8 a9 a10 a11 a12 r t * a15 (ix2 t j)

/-- The output layer in the kernel's order: the product at node resolution, then the mean of the gathered rows. -/
def nodesK : Mat 100000 8 := fun r j =>
  (segMean (hitOf a3 1 r)
      (fun e j' => ∑ t : Fin 32, hi2 a0 a1 a2 a3 a5 a6 a7 a8 a9 a10 a11 a12 (rowOf a3 0 e) t * a13 (ix2 t j')) j
    + a14 (ix1 j))
  + ∑ t : Fin 32, hi2 a0 a1 a2 a3 a5 a6 a7 a8 a9 a10 a11 a12 r t * a15 (ix2 t j)

end

end Cert.Hub

end
-- ==== Proof.KHost0.lean ====
/-
  The kernel program's first stretch of host operations, read at an index: after it (at the entry of region 0)
  the two rows of the edge index, the row blocks of the two aggregators' weights, the graph embedding folded with
  its weight rows and the biases (the edge and node constants), and the node bias as one row, are the stated
  plain formulas of the argument arrays; the argument arrays themselves are untouched.
-/
import proofs.«415651_j317827579953_3_alg».proof.Proof.Gen.KernelIdeal.Frame
import proofs.«415651_j317827579953_3_alg».proof.Proof.Hub
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.KVal

open Idealize.ShloMosaic Idealize.ShloMosaic.TcCoe Idealize.SL.Sem Idealize.ShloMosaic.ValueIdx Idealize.ShloMosaic.StableHlo
open Cert.KernelIdeal Cert.KernelIdeal.Gen Cert.Spec

variable (m : (ℓ : Loc nD τ sig) → Buf (Elt Ideal) ℓ) (ρ : Dev nD → PrngReg) (c : Dev nD)

/-- The sixteen argument arrays as launched (the two integer ones: the edge index and the batch assignment). -/
abbrev A0 : S100000x32.Idx → EReal := m ((c : Thread nD τ).loc main_arg0)
abbrev A1 : S1600000x16.Idx → EReal := m ((c : Thread nD τ).loc main_arg1)
abbrev A2 : S1x16.Idx → EReal := m ((c : Thread nD τ).loc main_arg2)
abbrev A3 : S2x1600000.Idx → BitVec 32 := m ((c : Thread nD τ).loc main_arg3)
abbrev A4 : S100000.Idx → BitVec 32 := m ((c : Thread nD τ).loc main_arg4)
abbrev A5 : S32x32.Idx → EReal := m ((c : Thread nD τ).loc main_arg5)
abbrev A6 : S32.Idx → EReal := m ((c : Thread nD τ).loc main_arg6)
abbrev A7 : S16x16.Idx → EReal := m ((c : Thread nD τ).loc main_arg7)
abbrev A8 : S16.Idx → EReal := m ((c : Thread nD τ).loc main_arg8)
abbrev A9 : S96x16.Idx → EReal := m ((c : Thread nD τ).loc main_arg9)
abbrev A10 : S16.Idx → EReal := m ((c : Thread nD τ).loc main_arg10)
abbrev A11 : S64x32.Idx → EReal := m ((c : Thread nD τ).loc main_arg11)
abbrev A12 : S32.Idx → EReal := m ((c : Thread nD τ).loc main_arg12)
abbrev A13 : S32x8.Idx → EReal := m ((c : Thread nD τ).loc main_arg13)
abbrev A14 : S8.Idx → EReal := m ((c : Thread nD τ).loc main_arg14)
abbrev A15 : S32x8.Idx → EReal := m ((c : Thread nD τ).loc main_arg15)

/-! ## The stretch's two kinds of step

A buffer the stretch does not write holds, after it, what it held at launch; a buffer it writes holds the stretch's
pure operations applied to the launch contents of the argument arrays. -/

/-- The stretch writes none of its operations' results into buffer `b`: after it, `b` is as launched. -/
local macro "untouched0 " b:term : term =>
  `(StableHlo.after_of_forall_not_mem (b := Proc.devRef .tc $b) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## At region 0's entry (`W1`): the argument arrays -/

theorem W1_arg0 : (W1 m ρ c (Proc.devRef .tc main_arg0) : S100000x32.Idx → EReal) = A0 m c :=
  calc W1 m ρ c (Proc.devRef .tc main_arg0)
    _ = W0 m ρ c (Proc.devRef .tc main_arg0) := untouched0 main_arg0
    _ = A0 m c := rfl
theorem W1_arg1 : (W1 m ρ c (Proc.devRef .tc main_arg1) : S1600000x16.Idx → EReal) = A1 m c :=
  calc W1 m ρ c (Proc.devRef .tc main_arg1)
    _ = W0 m ρ c (Proc.devRef .tc main_arg1) := untouched0 main_arg1
    _ = A1 m c := rfl
theorem W1_arg4 : (W1 m ρ c (Proc.devRef .tc main_arg4) : S100000.Idx → BitVec 32) = A4 m c :=
  calc W1 m ρ c (Proc.devRef .tc main_arg4)
    _ = W0 m ρ c (Proc.devRef .tc main_arg4) := untouched0 main_arg4
    _ = A4 m c := rfl
theorem W1_arg5 : (W1 m ρ c (Proc.devRef .tc main_arg5) : S32x32.Idx → EReal) = A5 m c :=
  calc W1 m ρ c (Proc.devRef .tc main_arg5)
    _ = W0 m ρ c (Proc.devRef .tc main_arg5) := untouched0 main_arg5
    _ = A5 m c := rfl
theorem W1_arg13 : (W1 m ρ c (Proc.devRef .tc main_arg13) : S32x8.Idx → EReal) = A13 m c :=
  calc W1 m ρ c (Proc.devRef .tc main_arg13)
    _ = W0 m ρ c (Proc.devRef .tc main_arg13) := untouched0 main_arg13
    _ = A13 m c := rfl
theorem W1_arg14 : (W1 m ρ c (Proc.devRef .tc main_arg14) : S8.Idx → EReal) = A14 m c :=
  calc W1 m ρ c (Proc.devRef .tc main_arg14)
    _ = W0 m ρ c (Proc.devRef .tc main_arg14) := untouched0 main_arg14
    _ = A14 m c := rfl
theorem W1_arg15 : (W1 m ρ c (Proc.devRef .tc main_arg15) : S32x8.Idx → EReal) = A15 m c :=
  calc W1 m ρ c (Proc.devRef .tc main_arg15)
    _ = W0 m ρ c (Proc.devRef .tc main_arg15) := untouched0 main_arg15
    _ = A15 m c := rfl

/-! ## At region 0's entry: what the stretch computed -/

/-- Row 0 of the edge index as a vector: the slice of row 0, its unit axis dropped. -/
private theorem e_v1 : (W1 m ρ c (Proc.devRef .tc main_v1) : S1600000.Idx → BitVec 32)
    = shapeCast S1600000 (extractStridedSlice S1x1600000 ![0, 0] (A3 m c) Facts₀.slices_S2x1600000_S1x1600000_0_0)
        Facts₀.shapeCasts_S1x1600000_S1600000 := by
  show StableHlo.after hostOps0 (W0 m ρ c) (Proc.devRef .tc main_v1) = _
  after_results
  rfl

/-- Row 1 of the edge index as a vector. -/
private theorem e_v3 : (W1 m ρ c (Proc.devRef .tc main_v3) : S1600000.Idx → BitVec 32)
    = shapeCast S1600000 (extractStridedSlice S1x1600000 ![1, 0] (A3 m c) Facts₀.slices_S2x1600000_S1x1600000_1_0)
        Facts₀.shapeCasts_S1x1600000_S1600000 := by
  show StableHlo.after hostOps0 (W0 m ρ c) (Proc.devRef .tc main_v3) = _
  after_results
  rfl

/-- The source row and the destination row of the edge index. -/
theorem W1_v1 (e : Fin 1600000) : (W1 m ρ c (Proc.devRef .tc main_v1) : S1600000.Idx → BitVec 32) (ix1 e) = A3 m c (ix2 0 e) := by
  rw [e_v1]
  exact (shapeCast_1a_a_apply _ _ e).trans (slice2_axis0_apply 0 _ _ (0 : Fin 1) e (0 : Fin 2) rfl)
theorem W1_v3 (e : Fin 1600000) : (W1 m ρ c (Proc.devRef .tc main_v3) : S1600000.Idx → BitVec 32) (ix1 e) = A3 m c (ix2 1 e) := by
  rw [e_v3]
  exact (shapeCast_1a_a_apply _ _ e).trans (slice2_axis0_apply 1 _ _ (0 : Fin 1) e (1 : Fin 2) rfl)

/-! ### The row blocks of the two aggregators' weights: each a slice of rows, read at row `o + t` -/

private theorem e_v4 : (W1 m ρ c (Proc.devRef .tc main_v4) : S32x16.Idx → EReal)
    = extractStridedSlice S32x16 ![0, 0] (A9 m c) Facts₀.slices_S96x16_S32x16_0_0 := by
  show StableHlo.after hostOps0 (W0 m ρ c) (Proc.devRef .tc main_v4) = _
  after_results
private theorem e_v5 : (W1 m ρ c (Proc.devRef .tc main_v5) : S32x16.Idx → EReal)
    = extractStridedSlice S32x16 ![32, 0] (A9 m c) Facts₀.slices_S96x16_S32x16_32_0 := by
  show StableHlo.after hostOps0 (W0 m ρ c) (Proc.devRef .tc main_v5) = _
  after_results
private theorem e_v6 : (W1 m ρ c (Proc.devRef .tc main_v6) : S16x16.Idx → EReal)
    = extractStridedSlice S16x16 ![64, 0] (A9 m c) Facts₀.slices_S96x16_S16x16_64_0 := by
  show StableHlo.after hostOps0 (W0 m ρ c) (Proc.devRef .tc main_v6) = _
  after_results
private theorem e_v8 : (W1 m ρ c (Proc.devRef .tc main_v8) : S32x32.Idx → EReal)
    = extractStridedSlice S32x32 ![0, 0] (A11 m c) Facts₀.slices_S64x32_S32x32_0_0 := by
  show StableHlo.after hostOps0 (W0 m ρ c) (Proc.devRef .tc main_v8) = _
  after_results
private theorem e_v9 : (W1 m ρ c (Proc.devRef .tc main_v9) : S16x32.Idx → EReal)
    = extractStridedSlice S16x32 ![32, 0] (A11 m c) Facts₀.slices_S64x32_S16x32_32_0 := by
  show StableHlo.after hostOps0 (W0 m ρ c) (Proc.devRef .tc main_v9) = _
  after_results

/-- The four row blocks of the edge aggregator's weight: rows 0–31, 32–63, 64–79, 80–95. -/
theorem W1_v4 (t : Fin 32) (j : Fin 16) : (W1 m ρ c (Proc.devRef .tc main_v4) : S32x16.Idx → EReal) (ix2 t j) = A9 m c (ix2 ⟨t.val, by omega⟩ j) := by
  rw [e_v4]
  exact slice2_axis0_apply 0 _ _ t j _ (Nat.zero_add _).symm
theorem W1_v5 (t : Fin 32) (j : Fin 16) : (W1 m ρ c (Proc.devRef .tc main_v5) : S32x16.Idx → EReal) (ix2 t j) = A9 m c (ix2 ⟨32 + t.val, by omega⟩ j) := by
  rw [e_v5]
  exact slice2_axis0_apply 32 _ _ t j _ rfl
theorem W1_v6 (t : Fin 16) (j : Fin 16) : (W1 m ρ c (Proc.devRef .tc main_v6) : S16x16.Idx → EReal) (ix2 t j) = A9 m c (ix2 ⟨64 + t.val, by omega⟩ j) := by
  rw [e_v6]
  exact slice2_axis0_apply 64 _ _ t j _ rfl

/-- The first two row blocks of the node aggregator's weight: rows 0–31, 32–47. -/
theorem W1_v8 (t : Fin 32) (j : Fin 32) : (W1 m ρ c (Proc.devRef .tc main_v8) : S32x32.Idx → EReal) (ix2 t j) = A11 m c (ix2 ⟨t.val, by omega⟩ j) := by
  rw [e_v8]
  exact slice2_axis0_apply 0 _ _ t j _ (Nat.zero_add _).symm
theorem W1_v9 (t : Fin 16) (j : Fin 32) : (W1 m ρ c (Proc.devRef .tc main_v9) : S16x32.Idx → EReal) (ix2 t j) = A11 m c (ix2 ⟨32 + t.val, by omega⟩ j) := by
  rw [e_v9]
  exact slice2_axis0_apply 32 _ _ t j _ rfl

/-! ### The stretch's matrix products: a one-row left factor against sixteen rows, contracted over the left factor's
    columns and the right factor's rows. Which coordinate of each factor the contraction index moves, axis by axis. -/

private theorem lhsA_0 (i : S1x16.Idx) (q : dot_S1x16_S16x16_S1x16_1_0_0_1_n_n.contr.Idx) :
    (dot_S1x16_S16x16_S1x16_1_0_0_1_n_n.lhsIdx i q 0).val = (i 0).val := by
  unfold DotDims.lhsIdx
  rw [dif_neg (show ¬(0 : Fin S1x16.rank) ∈ dot_S1x16_S16x16_S1x16_1_0_0_1_n_n.lhsBatch by decide),
    dif_pos (show (0 : Fin S1x16.rank) ∈ dot_S1x16_S16x16_S1x16_1_0_0_1_n_n.lhsNonContracting by decide)]
  rfl
private theorem lhsA_1 (i : S1x16.Idx) (q : dot_S1x16_S16x16_S1x16_1_0_0_1_n_n.contr.Idx) :
    (dot_S1x16_S16x16_S1x16_1_0_0_1_n_n.lhsIdx i q 1).val = (q ⟨0, by decide⟩).val :=
  dot_S1x16_S16x16_S1x16_1_0_0_1_n_n.lhsIdx_val_of_single rfl i q
private theorem rhsA_0 (i : S1x16.Idx) (q : dot_S1x16_S16x16_S1x16_1_0_0_1_n_n.contr.Idx) :
    (dot_S1x16_S16x16_S1x16_1_0_0_1_n_n.rhsIdx i q 0).val = (q ⟨0, by decide⟩).val :=
  dot_S1x16_S16x16_S1x16_1_0_0_1_n_n.rhsIdx_val_of_single rfl i q
private theorem rhsA_1 (i : S1x16.Idx) (q : dot_S1x16_S16x16_S1x16_1_0_0_1_n_n.contr.Idx) :
    (dot_S1x16_S16x16_S1x16_1_0_0_1_n_n.rhsIdx i q 1).val = (i 1).val := by
  unfold DotDims.rhsIdx
  rw [dif_neg (show ¬(1 : Fin S16x16.rank) ∈ dot_S1x16_S16x16_S1x16_1_0_0_1_n_n.rhsBatch by decide),
    dif_pos (show (1 : Fin S16x16.rank) ∈ dot_S1x16_S16x16_S1x16_1_0_0_1_n_n.rhsNonContracting by decide)]
  rfl

/-- Entry `j` of the one-row product: the sum over the sixteen contracted positions. -/
private theorem dotA_apply (l : FVec Ideal S1x16 .f32) (r : FVec Ideal S16x16 .f32) (j : Fin 16) :
    Host.dotGeneral (F := Ideal) dot_S1x16_S16x16_S1x16_1_0_0_1_n_n none l r (ix2 0 j) = ∑ t : Fin 16, l (ix2 0 t) * r (ix2 t j) := by
  simp only [Host.dotGeneral]
  rw [Ideal.dotGeneral_apply, ← Equiv.sum_comp (ValueIdx.contrEquiv1 dot_S1x16_S16x16_S1x16_1_0_0_1_n_n 16 rfl rfl).symm]
  refine Finset.sum_congr rfl fun k _ => ?_
  have hk := ValueIdx.contrEquiv1_symm_val dot_S1x16_S16x16_S1x16_1_0_0_1_n_n 16 rfl rfl k
  have el : dot_S1x16_S16x16_S1x16_1_0_0_1_n_n.lhsIdx (ix2 0 j) ((ValueIdx.contrEquiv1 dot_S1x16_S16x16_S1x16_1_0_0_1_n_n 16 rfl rfl).symm k) = ix2 0 k :=
    funext fun a => Fin.ext (by
      match a with
      | ⟨0, _⟩ => exact lhsA_0 _ _
      | ⟨1, _⟩ => exact (lhsA_1 _ _).trans hk)
  have er : dot_S1x16_S16x16_S1x16_1_0_0_1_n_n.rhsIdx (ix2 0 j) ((ValueIdx.contrEquiv1 dot_S1x16_S16x16_S1x16_1_0_0_1_n_n 16 rfl rfl).symm k) = ix2 k j :=
    funext fun a => Fin.ext (by
      match a with
      | ⟨0, _⟩ => exact (rhsA_0 _ _).trans hk
      | ⟨1, _⟩ => exact rhsA_1 _ _)
  rw [el, er]

private theorem lhsB_0 (i : S1x32.Idx) (q : dot_S1x16_S16x32_S1x32_1_0_0_1_n_n.contr.Idx) :
    (dot_S1x16_S16x32_S1x32_1_0_0_1_n_n.lhsIdx i q 0).val = (i 0).val := by
  unfold DotDims.lhsIdx
  rw [dif_neg (show ¬(0 : Fin S1x16.rank) ∈ dot_S1x16_S16x32_S1x32_1_0_0_1_n_n.lhsBatch by decide),
    dif_pos (show (0 : Fin S1x16.rank) ∈ dot_S1x16_S16x32_S1x32_1_0_0_1_n_n.lhsNonContracting by decide)]
  rfl
private theorem lhsB_1 (i : S1x32.Idx) (q : dot_S1x16_S16x32_S1x32_1_0_0_1_n_n.contr.Idx) :
    (dot_S1x16_S16x32_S1x32_1_0_0_1_n_n.lhsIdx i q 1).val = (q ⟨0, by decide⟩).val :=
  dot_S1x16_S16x32_S1x32_1_0_0_1_n_n.lhsIdx_val_of_single rfl i q
private theorem rhsB_0 (i : S1x32.Idx) (q : dot_S1x16_S16x32_S1x32_1_0_0_1_n_n.contr.Idx) :
    (dot_S1x16_S16x32_S1x32_1_0_0_1_n_n.rhsIdx i q 0).val = (q ⟨0, by decide⟩).val :=
  dot_S1x16_S16x32_S1x32_1_0_0_1_n_n.rhsIdx_val_of_single rfl i q
private theorem rhsB_1 (i : S1x32.Idx) (q : dot_S1x16_S16x32_S1x32_1_0_0_1_n_n.contr.Idx) :
    (dot_S1x16_S16x32_S1x32_1_0_0_1_n_n.rhsIdx i q 1).val = (i 1).val := by
  unfold DotDims.rhsIdx
  rw [dif_neg (show ¬(1 : Fin S16x32.rank) ∈ dot_S1x16_S16x32_S1x32_1_0_0_1_n_n.rhsBatch by decide),
    dif_pos (show (1 : Fin S16x32.rank) ∈ dot_S1x16_S16x32_S1x32_1_0_0_1_n_n.rhsNonContracting by decide)]
  rfl

/-- Entry `j` of the one-row product: the sum over the sixteen contracted positions. -/
private theorem dotB_apply (l : FVec Ideal S1x16 .f32) (r : FVec Ideal S16x32 .f32) (j : Fin 32) :
    Host.dotGeneral (F := Ideal) dot_S1x16_S16x32_S1x32_1_0_0_1_n_n none l r (ix2 0 j) = ∑ t : Fin 16, l (ix2 0 t) * r (ix2 t j) := by
  simp only [Host.dotGeneral]
  rw [Ideal.dotGeneral_apply, ← Equiv.sum_comp (ValueIdx.contrEquiv1 dot_S1x16_S16x32_S1x32_1_0_0_1_n_n 16 rfl rfl).symm]
  refine Finset.sum_congr rfl fun k _ => ?_
  have hk := ValueIdx.contrEquiv1_symm_val dot_S1x16_S16x32_S1x32_1_0_0_1_n_n 16 rfl rfl k
  have el : dot_S1x16_S16x32_S1x32_1_0_0_1_n_n.lhsIdx (ix2 0 j) ((ValueIdx.contrEquiv1 dot_S1x16_S16x32_S1x32_1_0_0_1_n_n 16 rfl rfl).symm k) = ix2 0 k :=
    funext fun a => Fin.ext (by
      match a with
      | ⟨0, _⟩ => exact lhsB_0 _ _
      | ⟨1, _⟩ => exact (lhsB_1 _ _).trans hk)
  have er : dot_S1x16_S16x32_S1x32_1_0_0_1_n_n.rhsIdx (ix2 0 j) ((ValueIdx.contrEquiv1 dot_S1x16_S16x32_S1x32_1_0_0_1_n_n 16 rfl rfl).symm k) = ix2 k j :=
    funext fun a => Fin.ext (by
      match a with
      | ⟨0, _⟩ => exact (rhsB_0 _ _).trans hk
      | ⟨1, _⟩ => exact rhsB_1 _ _)
  rw [el, er]

/-- A bias vector laid out as one row reads, at column `t`, the vector's entry `t`. -/
private theorem biasRow_apply (x : S16.Idx → EReal) (t : Fin 16) :
    broadcastInDim S1x16 ![1] Facts₀.bcast_S16_S1x16_1 x (ix2 0 t) = x (ix1 t) :=
  broadcastInDim_apply _ Facts₀.bcast_S16_S1x16_1 x (ix2 0 t) (ix1 t) (fun a => match a with
    | ⟨0, _⟩ => by show t.val = if (16 : Nat) = 1 then 0 else t.val; rw [if_neg (by decide)])

/-! ### The graph embedding, and the two constants it is folded into -/

/-- The graph embedding as the stretch computes it: the graph features times the embedding's weight, plus its bias
    laid out as a row. -/
private def gemb : FVec Ideal S1x16 .f32 :=
  addf (Host.dotGeneral (F := Ideal) (φ₁ := .f32) (φ₂ := .f32) dot_S1x16_S16x16_S1x16_1_0_0_1_n_n none (A2 m c) (A7 m c))
    (broadcastInDim S1x16 ![1] Facts₀.bcast_S16_S1x16_1 (A8 m c))

/-- Entry `t` of it is the plain formula. -/
private theorem gemb_apply (t : Fin 16) : gemb m c (ix2 0 t) = Hub.hG (A2 m c) (A7 m c) (A8 m c) t :=
  calc gemb m c (ix2 0 t)
    _ = Host.dotGeneral (F := Ideal) (φ₁ := .f32) (φ₂ := .f32) dot_S1x16_S16x16_S1x16_1_0_0_1_n_n none (A2 m c) (A7 m c) (ix2 0 t)
          + broadcastInDim S1x16 ![1] Facts₀.bcast_S16_S1x16_1 (A8 m c) (ix2 0 t) := rfl
    _ = (∑ t' : Fin 16, A2 m c (ix2 0 t') * A7 m c (ix2 t' t)) + A8 m c (ix1 t) := by rw [dotA_apply, biasRow_apply]
    _ = Hub.hG (A2 m c) (A7 m c) (A8 m c) t := rfl

private theorem e_v16 : (W1 m ρ c (Proc.devRef .tc main_v16) : S1x16.Idx → EReal)
    = addf (Host.dotGeneral (F := Ideal) (φ₁ := .f32) (φ₂ := .f32) dot_S1x16_S16x16_S1x16_1_0_0_1_n_n none (gemb m c)
          (extractStridedSlice S16x16 ![80, 0] (A9 m c) Facts₀.slices_S96x16_S16x16_80_0))
        (shapeCast S1x16 (A10 m c) Facts₀.shapeCasts_S16_S1x16) := by
  show StableHlo.after hostOps0 (W0 m ρ c) (Proc.devRef .tc main_v16) = _
  after_results_simp
  rfl
private theorem e_v19 : (W1 m ρ c (Proc.devRef .tc main_v19) : S1x32.Idx → EReal)
    = addf (Host.dotGeneral (F := Ideal) (φ₁ := .f32) (φ₂ := .f32) dot_S1x16_S16x32_S1x32_1_0_0_1_n_n none (gemb m c)
          (extractStridedSlice S16x32 ![48, 0] (A11 m c) Facts₀.slices_S64x32_S16x32_48_0))
        (shapeCast S1x32 (A12 m c) Facts₀.shapeCasts_S32_S1x32) := by
  show StableHlo.after hostOps0 (W0 m ρ c) (Proc.devRef .tc main_v19) = _
  after_results_simp
  rfl
private theorem e_v20 : (W1 m ρ c (Proc.devRef .tc main_v20) : S1x32.Idx → EReal)
    = shapeCast S1x32 (A6 m c) Facts₀.shapeCasts_S32_S1x32 := by
  show StableHlo.after hostOps0 (W0 m ρ c) (Proc.devRef .tc main_v20) = _
  after_results
  rfl

/-- The edge constant: the graph embedding times weight rows 80–95, plus the edge bias. -/
theorem W1_v16 (j : Fin 16) : (W1 m ρ c (Proc.devRef .tc main_v16) : S1x16.Idx → EReal) (ix2 0 j)
    = (∑ t : Fin 16, Hub.hG (A2 m c) (A7 m c) (A8 m c) t * A9 m c (ix2 ⟨80 + t.val, by omega⟩ j)) + A10 m c (ix1 j) := by
  rw [e_v16]
  refine (addf_apply _ _ _).trans ?_
  rw [dotA_apply, shapeCast_a_1a_apply]
  refine congrArg (· + A10 m c (ix1 j)) (Finset.sum_congr rfl fun t _ => ?_)
  exact congrArg₂ (· * ·) (gemb_apply m c t) (slice2_axis0_apply 80 _ _ t j _ rfl)

/-- The node constant: the graph embedding times weight rows 48–63, plus the node aggregator's bias. -/
theorem W1_v19 (j : Fin 32) : (W1 m ρ c (Proc.devRef .tc main_v19) : S1x32.Idx → EReal) (ix2 0 j)
    = (∑ t : Fin 16, Hub.hG (A2 m c) (A7 m c) (A8 m c) t * A11 m c (ix2 ⟨48 + t.val, by omega⟩ j)) + A12 m c (ix1 j) := by
  rw [e_v19]
  refine (addf_apply _ _ _).trans ?_
  rw [dotB_apply, shapeCast_a_1a_apply]
  refine congrArg (· + A12 m c (ix1 j)) (Finset.sum_congr rfl fun t _ => ?_)
  exact congrArg₂ (· * ·) (gemb_apply m c t) (slice2_axis0_apply 48 _ _ t j _ rfl)

/-- The node bias as one row. -/
theorem W1_v20 (j : Fin 32) : (W1 m ρ c (Proc.devRef .tc main_v20) : S1x32.Idx → EReal) (ix2 0 j) = A6 m c (ix1 j) := by
  rw [e_v20]
  exact shapeCast_a_1a_apply _ _ 0 j

end Cert.KernelIdeal.KVal

end
-- ==== Proof.Reg0.lean ====
/-
  Region 0 (the node embedding and its two projections), read as whole arrays at an index: for ANY contents
  `V` of the core's buffers at the region's entry, the three output arrays after the region are
  `h = x · W_node + b`, `p = h · W₁` and `q = h · W₂`, row by row.
-/
import proofs.«415651_j317827579953_3_alg».proof.Proof.Gen.KernelIdeal.Frame
import proofs.«415651_j317827579953_3_alg».proof.Proof.Spec
import Idealize.ShloMosaic.Lib.ValueIdx
import Idealize.ShloMosaic.Lib.Pipeline.Value
import Idealize.ShloMosaic.PureOps.Ideal.Laws

noncomputable section

namespace Cert.KernelIdeal.Reg0

open Idealize.ShloMosaic Idealize.ShloMosaic.TcCoe Idealize.SL.Sem Idealize.ShloMosaic.ValueIdx
open Cert.KernelIdeal Cert.KernelIdeal.Gen Cert.Spec

/-! ## The two block products' operand indices, axis by axis -/

private theorem lhsA_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
private theorem lhsA_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
private theorem rhsA_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
private theorem rhsA_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

private theorem lhsB_0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
private theorem lhsB_1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
private theorem rhsB_0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
private theorem rhsB_1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- A [5000,32] block times a [32,32] matrix into the zero accumulator, at row `p` column `q`: the sum over the
    contracted coordinate. -/
private theorem mmA_apply (a : FVec Ideal S5000x32 .bf16) (w : FVec Ideal S32x32 .bf16) (p : Fin 5000) (q : Fin 32) :
    matmul dot_S5000x32_S32x32_S5000x32_1_0_0_1_n_n none a w (constant (F := Ideal) S5000x32 .f32 0x00000000#32) (ix2 p q)
      = ∑ k : Fin 32, a (ix2 p k) * w (ix2 k q) := by
  simp only [matmul]
  rw [Ideal.matmul_constant_zero_apply, ← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ix2 p q) ((ValueIdx.contrEquiv1 dot_S5000x32_S32x32_S5000x32_1_0_0_1_n_n 32 rfl rfl).symm k) = ix2 p k := funext fun b => Fin.ext (by
    match b with
    | ⟨0, _⟩ => exact lhsA_0 _ _
    | ⟨1, _⟩ => exact (lhsA_1 _ _).trans hk)
  have er : dot_S5000x32_S32x32_S5000x32_1_0_0_1_n_n.rhsIdx (ix2 p q) ((ValueIdx.contrEquiv1 dot_S5000x32_S32x32_S5000x32_1_0_0_1_n_n 32 rfl rfl).symm k) = ix2 k q := funext fun b => Fin.ext (by
    match b with
    | ⟨0, _⟩ => exact (rhsA_0 _ _).trans hk
    | ⟨1, _⟩ => exact rhsA_1 _ _)
  rw [el, er]

/-- A [5000,32] block times a [32,16] matrix into the zero accumulator, at row `p` column `q`. -/
private theorem mmB_apply (a : FVec Ideal S5000x32 .bf16) (w : FVec Ideal S32x16 .bf16) (p : Fin 5000) (q : Fin 16) :
    matmul dot_S5000x32_S32x16_S5000x16_1_0_0_1_n_n none a w (constant (F := Ideal) S5000x16 .f32 0x00000000#32) (ix2 p q)
      = ∑ k : Fin 32, a (ix2 p k) * w (ix2 k q) := by
  simp only [matmul]
  rw [Ideal.matmul_constant_zero_apply, ← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx (ix2 p q) ((ValueIdx.contrEquiv1 dot_S5000x32_S32x16_S5000x16_1_0_0_1_n_n 32 rfl rfl).symm k) = ix2 p k := funext fun b => Fin.ext (by
    match b with
    | ⟨0, _⟩ => exact lhsB_0 _ _
    | ⟨1, _⟩ => exact (lhsB_1 _ _).trans hk)
  have er : dot_S5000x32_S32x16_S5000x16_1_0_0_1_n_n.rhsIdx (ix2 p q) ((ValueIdx.contrEquiv1 dot_S5000x32_S32x16_S5000x16_1_0_0_1_n_n 32 rfl rfl).symm k) = ix2 k q := funext fun b => Fin.ext (by
    match b with
    | ⟨0, _⟩ => exact (rhsB_0 _ _).trans hk
    | ⟨1, _⟩ => exact rhsB_1 _ _)
  rw [el, er]

/-- The one-row array broadcast down 5000 rows, at row `p` column `q`: the row's entry `q`. -/
private theorem bias_apply (b : FVec Ideal S1x32 .f32) (p : Fin 5000) (q : Fin 32) :
    broadcastTo S5000x32 b broadcasts_S1x32_S5000x32 (ix2 p q) = b (ix2 0 q) :=
  broadcastTo_apply b broadcasts_S1x32_S5000x32 (ix2 p q) (ix2 0 q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])

/-! ## The body's three stored values at a row and a column -/

/-- The first stored block: the loaded block of `x` times `W_node`, plus the bias row. -/
private theorem pay1_apply (x0 : Vec Ideal S5000x32 .f32) (x1 : Vec Ideal S32x32 .f32) (x2 : Vec Ideal S1x32 .f32) (p : Fin 5000) (q : Fin 32) :
    k0_pay1 (F := Ideal) x0 x1 x2 (ix2 p q) = (∑ k : Fin 32, x0 (ix2 p k) * x1 (ix2 k q)) + x2 (ix2 0 q) := by
  unfold k0_pay1
  rw [addf_apply, mmA_apply, bias_apply, shapeCast_self]
  rfl

/-- The second stored block: the first one (its format change is the identity on the extended reals) times `W₁`. -/
private theorem pay3_apply (x0 : Vec Ideal S5000x32 .f32) (x1 : Vec Ideal S32x32 .f32) (x2 : Vec Ideal S1x32 .f32) (x3 : Vec Ideal S32x16 .f32)
    (p : Fin 5000) (q : Fin 16) :
    k0_pay3 (F := Ideal) x0 x1 x2 x3 (ix2 p q)
      = ∑ t : Fin 32, ((∑ k : Fin 32, x0 (ix2 p k) * x1 (ix2 k t)) + x2 (ix2 0 t)) * x3 (ix2 t q) := by
  unfold k0_pay3
  rw [mmB_apply]
  refine Finset.sum_congr rfl fun t _ => ?_
  rw [truncf_apply, shapeCast_self]
  unfold k0_pay2
  rw [truncf_apply, pay1_apply]

/-- The third stored block: the same with `W₂`. -/
private theorem pay4_apply (x0 : Vec Ideal S5000x32 .f32) (x1 : Vec Ideal S32x32 .f32) (x2 : Vec Ideal S1x32 .f32) (x4 : Vec Ideal S32x16 .f32)
    (p : Fin 5000) (q : Fin 16) :
    k0_pay4 (F := Ideal) x0 x1 x2 x4 (ix2 p q)
      = ∑ t : Fin 32, ((∑ k : Fin 32, x0 (ix2 p k) * x1 (ix2 k t)) + x2 (ix2 0 t)) * x4 (ix2 t q) := by
  unfold k0_pay4
  rw [mmB_apply]
  refine Finset.sum_congr rfl fun t _ => ?_
  rw [truncf_apply, shapeCast_self]
  unfold k0_pay2
  rw [truncf_apply, pay1_apply]

/-! ## Blocks: where each window's block sits in its array -/

private theorem hz : (![0, 0] : Fin 2 → Nat) = fun _ => 0 := funext fun a => by fin_cases a <;> rfl

/-- The windows' index maps over the grid: the row-blocked windows (0, 5, 6, 7) are at block (t, 0) at point
    `t`, the others at block (0, 0). -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

private theorem lt20 (t : Fin cfg0.N) : t.val < 20 := lt_of_lt_of_eq t.isLt N_0

/-- A function of a row and a column depends on them through their values only. -/
private theorem fin2_congr {n m : ℕ} {α : Type} (f : Fin n → Fin m → α) {r r' : Fin n} {j j' : Fin m}
    (hr : r.val = r'.val) (hj : j.val = j'.val) : f r j = f r' j' := by
  obtain rfl := Fin.ext hr; obtain rfl := Fin.ext hj; rfl

variable (V : (c : Dev nD) → (b : Ref sig .tc) → Buf (Elt Ideal) ((c : Thread nD τ).loc b)) (c : Dev nD)

/-- The region's five input arrays as it finds them. -/
abbrev ax : S100000x32.Idx → EReal := V c (Pipeline.arrRef spec0 0)
abbrev awn : S32x32.Idx → EReal := V c (Pipeline.arrRef spec0 1)
abbrev ab : S1x32.Idx → EReal := V c (Pipeline.arrRef spec0 2)
abbrev aw1 : S32x16.Idx → EReal := V c (Pipeline.arrRef spec0 3)
abbrev aw2 : S32x16.Idx → EReal := V c (Pipeline.arrRef spec0 4)

/-- The node embedding, row `r` column `j`. -/
def hiOf : Mat 100000 32 := fun r j => (∑ t : Fin 32, ax V c (ix2 r t) * awn V c (ix2 t j)) + ab V c (ix2 0 j)

/-- Window 0's block at point `t`, row `p`: row `t·5000 + p` of `x`. -/
private theorem in0_apply (t : Fin cfg0.N) (p : Fin 5000) (k : Fin 32) (r : Fin 100000) (hr : r.val = t.val * 5000 + p.val) :
    (iblk0 (F := Ideal) V c 0 t : Vec Ideal S5000x32 .f32) (ix2 p k) = ax V c (ix2 r k) := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 32 + 1 * k.val = k.val; rw [e1]; omega

/-- Window 1's block at any point is the whole of `W_node`. -/
private theorem in1_apply (t : Fin cfg0.N) (k q : Fin 32) :
    (iblk0 (F := Ideal) V c 1 t : Vec Ideal S32x32 .f32) (ix2 k q) = awn V c (ix2 k q) := by
  obtain ⟨-, -, e0, e1, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 32 + 1 * k.val = k.val; rw [e0]; omega
  | ⟨1, _⟩ => show win0_1.index t (1 : Fin 2) * 32 + 1 * q.val = q.val; rw [e1]; omega

/-- Window 2's block at any point is the whole bias row. -/
private theorem in2_apply (t : Fin cfg0.N) (q : Fin 32) :
    (iblk0 (F := Ideal) V c 2 t : Vec Ideal S1x32 .f32) (ix2 0 q) = ab V c (ix2 0 q) := by
  obtain ⟨-, -, -, -, e0, e1, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; rw [e0]
  | ⟨1, _⟩ => show win0_2.index t (1 : Fin 2) * 32 + 1 * q.val = q.val; rw [e1]; omega

/-- Window 3's block at any point is the whole of `W₁`. -/
private theorem in3_apply (t : Fin cfg0.N) (k : Fin 32) (q : Fin 16) :
    (iblk0 (F := Ideal) V c 3 t : Vec Ideal S32x16 .f32) (ix2 k q) = aw1 V c (ix2 k q) := by
  obtain ⟨-, -, -, -, -, -, e0, e1, -⟩ := idx_facts t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 32 + 1 * k.val = k.val; rw [e0]; omega
  | ⟨1, _⟩ => show win0_3.index t (1 : Fin 2) * 16 + 1 * q.val = q.val; rw [e1]; omega

/-- Window 4's block at any point is the whole of `W₂`. -/
private theorem in4_apply (t : Fin cfg0.N) (k : Fin 32) (q : Fin 16) :
    (iblk0 (F := Ideal) V c 4 t : Vec Ideal S32x16 .f32) (ix2 k q) = aw2 V c (ix2 k q) := by
  obtain ⟨-, -, -, -, -, -, -, -, e0, e1, -⟩ := idx_facts t
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 32 + 1 * k.val = k.val; rw [e0]; omega
  | ⟨1, _⟩ => show win0_4.index t (1 : Fin 2) * 16 + 1 * q.val = q.val; rw [e1]; omega

/-! ## The stored values over blocks that are rows of the arrays -/

/-- The first stored block at row `p` is the embedding's row `r`, when the loaded block's row `p` is row `r`
    of `x` and the small blocks are the whole small arrays. -/
private theorem pay1_rows (x0 : Vec Ideal S5000x32 .f32) (x1 : Vec Ideal S32x32 .f32) (x2 : Vec Ideal S1x32 .f32)
    (r : Fin 100000) (p : Fin 5000) (q : Fin 32)
    (h0 : ∀ k : Fin 32, x0 (ix2 p k) = ax V c (ix2 r k))
    (h1 : ∀ k : Fin 32, x1 (ix2 k q) = awn V c (ix2 k q))
    (h2 : x2 (ix2 0 q) = ab V c (ix2 0 q)) :
    k0_pay1 (F := Ideal) x0 x1 x2 (ix2 p q) = hiOf V c r q := by
  rw [pay1_apply]
  unfold hiOf
  rw [h2]
  exact congrArg (· + ab V c (ix2 0 q)) (Finset.sum_congr rfl fun k _ => by rw [h0 k, h1 k])

/-- The second stored block at row `p`: the embedding's row `r` times `W₁`. -/
private theorem pay3_rows (x0 : Vec Ideal S5000x32 .f32) (x1 : Vec Ideal S32x32 .f32) (x2 : Vec Ideal S1x32 .f32) (x3 : Vec Ideal S32x16 .f32)
    (r : Fin 100000) (p : Fin 5000) (q : Fin 16)
    (h0 : ∀ k : Fin 32, x0 (ix2 p k) = ax V c (ix2 r k))
    (h1 : ∀ k t : Fin 32, x1 (ix2 k t) = awn V c (ix2 k t))
    (h2 : ∀ t : Fin 32, x2 (ix2 0 t) = ab V c (ix2 0 t))
    (h3 : ∀ t : Fin 32, x3 (ix2 t q) = aw1 V c (ix2 t q)) :
    k0_pay3 (F := Ideal) x0 x1 x2 x3 (ix2 p q) = ∑ t : Fin 32, hiOf V c r t * aw1 V c (ix2 t q) := by
  rw [pay3_apply]
  refine Finset.sum_congr rfl fun t _ => ?_
  unfold hiOf
  rw [h2 t, h3 t]
  exact congrArg (fun s => (s + ab V c (ix2 0 t)) * aw1 V c (ix2 t q)) (Finset.sum_congr rfl fun k _ => by rw [h0 k, h1 k t])

/-- The third stored block at row `p`: the embedding's row `r` times `W₂`. -/
private theorem pay4_rows (x0 : Vec Ideal S5000x32 .f32) (x1 : Vec Ideal S32x32 .f32) (x2 : Vec Ideal S1x32 .f32) (x4 : Vec Ideal S32x16 .f32)
    (r : Fin 100000) (p : Fin 5000) (q : Fin 16)
    (h0 : ∀ k : Fin 32, x0 (ix2 p k) = ax V c (ix2 r k))
    (h1 : ∀ k t : Fin 32, x1 (ix2 k t) = awn V c (ix2 k t))
    (h2 : ∀ t : Fin 32, x2 (ix2 0 t) = ab V c (ix2 0 t))
    (h4 : ∀ t : Fin 32, x4 (ix2 t q) = aw2 V c (ix2 t q)) :
    k0_pay4 (F := Ideal) x0 x1 x2 x4 (ix2 p q) = ∑ t : Fin 32, hiOf V c r t * aw2 V c (ix2 t q) := by
  rw [pay4_apply]
  refine Finset.sum_congr rfl fun t _ => ?_
  unfold hiOf
  rw [h2 t, h4 t]
  exact congrArg (fun s => (s + ab V c (ix2 0 t)) * aw2 V c (ix2 t q)) (Finset.sum_congr rfl fun k _ => by rw [h0 k, h1 k t])

/-! ## The three output arrays as whole-array functions -/

/-- `h` as a function of the array index. -/
private def G5 : S100000x32.Idx → EReal := fun i => hiOf V c ⟨(i 0).val, idx2_lt0 i⟩ ⟨(i 1).val, idx2_lt1 i⟩
/-- `p = h · W₁` as a function of the array index. -/
private def G6 : S100000x16.Idx → EReal := fun i =>
  ∑ t : Fin 32, hiOf V c ⟨(i 0).val, idx2_lt0 i⟩ t * aw1 V c (ix2 t ⟨(i 1).val, idx2_lt1 i⟩)
/-- `q = h · W₂` as a function of the array index. -/
private def G7 : S100000x16.Idx → EReal := fun i =>
  ∑ t : Fin 32, hiOf V c ⟨(i 0).val, idx2_lt0 i⟩ t * aw2 V c (ix2 t ⟨(i 1).val, idx2_lt1 i⟩)

/-- What point `t` writes back into `h`'s array is block `t` of `G5`. -/
private theorem flushed5_eq (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after0_5]
  unfold out0_5
  rw [View.canon_unit_zero hz]
  simp only [View.ld_unit_zero (S := S5000x32) hz, View.ld_unit_zero (S := S32x32) hz, View.ld_unit_zero (S := S1x32) hz]
  have ht := lt20 t
  obtain ⟨-, -, -, -, -, -, -, -, -, -, e0, e1, -⟩ := idx_facts t
  funext y
  have hy0 : (y 0).val < 5000 := (y 0).isLt
  have hy1 : (y 1).val < 32 := (y 1).isLt
  have hx : (cfg0.win 5).xinj (grid0.coords t) y = (ix2 (⟨(y 0).val, hy0⟩ : Fin 5000) (⟨(y 1).val, hy1⟩ : Fin 32) : S5000x32.Idx) :=
    funext fun a => match a with | ⟨0, _⟩ => rfl | ⟨1, _⟩ => rfl
  refine (congrArg (k0_pay1 (F := Ideal) (iblk0 V c 0 t) (iblk0 V c 1 t) (iblk0 V c 2 t)) hx).trans ?_
  refine (pay1_rows V c (iblk0 V c 0 t) (iblk0 V c 1 t) (iblk0 V c 2 t) ⟨t.val * 5000 + (y 0).val, by omega⟩ ⟨(y 0).val, hy0⟩ ⟨(y 1).val, hy1⟩
    (fun k => in0_apply V c t _ k _ rfl) (fun k => in1_apply V c t k _) (in2_apply V c t _)).trans ?_
  show hiOf V c _ _ = G5 V c (((cfg0.win 5).blk t).view.emb y)
  unfold G5
  refine fin2_congr (hiOf V c) ?_ ?_
  · show t.val * 5000 + (y 0).val = win0_5.index t (0 : Fin 2) * 5000 + 1 * (y 0).val; rw [e0]; omega
  · show (y 1).val = win0_5.index t (1 : Fin 2) * 32 + 1 * (y 1).val; rw [e1]; omega

/-- What point `t` writes back into `p`'s array is block `t` of `G6`. -/
private theorem flushed6_eq (t : Fin cfg0.N) :
    (dat0 (F := Ideal) V c).flushed 6 t = ((cfg0.win 6).blk t).view.read (Elt Ideal) (G6 V c) := by
  show (cfg0.win 6).cut (grid0.coords t) ((dat0 (F := Ideal) V c).after 6 t) = _
  rw [after0_6]
  unfold out0_6
  rw [View.canon_unit_zero hz]
  simp only [View.ld_unit_zero (S := S5000x32) hz, View.ld_unit_zero (S := S32x32) hz, View.ld_unit_zero (S := S1x32) hz,
    View.ld_unit_zero (S := S32x16) hz]
  have ht := lt20 t
  obtain ⟨-, -, -, -, -, -, -, -, -, -, -, -, e0, e1, -⟩ := idx_facts t
  funext y
  have hy0 : (y 0).val < 5000 := (y 0).isLt
  have hy1 : (y 1).val < 16 := (y 1).isLt
  have hx : (cfg0.win 6).xinj (grid0.coords t) y = (ix2 (⟨(y 0).val, hy0⟩ : Fin 5000) (⟨(y 1).val, hy1⟩ : Fin 16) : S5000x16.Idx) :=
    funext fun a => match a with | ⟨0, _⟩ => rfl | ⟨1, _⟩ => rfl
  refine (congrArg (k0_pay3 (F := Ideal) (iblk0 V c 0 t) (iblk0 V c 1 t) (iblk0 V c 2 t) (iblk0 V c 3 t)) hx).trans ?_
  refine (pay3_rows V c (iblk0 V c 0 t) (iblk0 V c 1 t) (iblk0 V c 2 t) (iblk0 V c 3 t) ⟨t.val * 5000 + (y 0).val, by omega⟩ ⟨(y 0).val, hy0⟩ ⟨(y 1).val, hy1⟩
    (fun k => in0_apply V c t _ k _ rfl) (fun k s => in1_apply V c t k s) (fun s => in2_apply V c t s) (fun s => in3_apply V c t s _)).trans ?_
  show _ = G6 V c (((cfg0.win 6).blk t).view.emb y)
  unfold G6
  refine fin2_congr (fun (r : Fin 100000) (q : Fin 16) => ∑ s : Fin 32, hiOf V c r s * aw1 V c (ix2 s q)) ?_ ?_
  · show t.val * 5000 + (y 0).val = win0_6.index t (0 : Fin 2) * 5000 + 1 * (y 0).val; rw [e0]; omega
  · show (y 1).val = win0_6.index t (1 : Fin 2) * 16 + 1 * (y 1).val; rw [e1]; omega

/-- What point `t` writes back into `q`'s array is block `t` of `G7`. -/
private theorem flushed7_eq (t : Fin cfg0.N) :
    (dat0 (F := Ideal) V c).flushed 7 t = ((cfg0.win 7).blk t).view.read (Elt Ideal) (G7 V c) := by
  show (cfg0.win 7).cut (grid0.coords t) ((dat0 (F := Ideal) V c).after 7 t) = _
  rw [after0_7]
  unfold out0_7
  rw [View.canon_unit_zero hz]
  simp only [View.ld_unit_zero (S := S5000x32) hz, View.ld_unit_zero (S := S32x32) hz, View.ld_unit_zero (S := S1x32) hz,
    View.ld_unit_zero (S := S32x16) hz]
  have ht := lt20 t
  obtain ⟨-, -, -, -, -, -, -, -, -, -, -, -, -, -, e0, e1⟩ := idx_facts t
  funext y
  have hy0 : (y 0).val < 5000 := (y 0).isLt
  have hy1 : (y 1).val < 16 := (y 1).isLt
  have hx : (cfg0.win 7).xinj (grid0.coords t) y = (ix2 (⟨(y 0).val, hy0⟩ : Fin 5000) (⟨(y 1).val, hy1⟩ : Fin 16) : S5000x16.Idx) :=
    funext fun a => match a with | ⟨0, _⟩ => rfl | ⟨1, _⟩ => rfl
  refine (congrArg (k0_pay4 (F := Ideal) (iblk0 V c 0 t) (iblk0 V c 1 t) (iblk0 V c 2 t) (iblk0 V c 4 t)) hx).trans ?_
  refine (pay4_rows V c (iblk0 V c 0 t) (iblk0 V c 1 t) (iblk0 V c 2 t) (iblk0 V c 4 t) ⟨t.val * 5000 + (y 0).val, by omega⟩ ⟨(y 0).val, hy0⟩ ⟨(y 1).val, hy1⟩
    (fun k => in0_apply V c t _ k _ rfl) (fun k s => in1_apply V c t k s) (fun s => in2_apply V c t s) (fun s => in4_apply V c t s _)).trans ?_
  show _ = G7 V c (((cfg0.win 7).blk t).view.emb y)
  unfold G7
  refine fin2_congr (fun (r : Fin 100000) (q : Fin 16) => ∑ s : Fin 32, hiOf V c r s * aw2 V c (ix2 s q)) ?_ ?_
  · show t.val * 5000 + (y 0).val = win0_7.index t (0 : Fin 2) * 5000 + 1 * (y 0).val; rw [e0]; omega
  · show (y 1).val = win0_7.index t (1 : Fin 2) * 16 + 1 * (y 1).val; rw [e1]; omega

/-! ## The cover: row `r` is in the block of point `r / 5000` -/

private theorem cover5 (i : S100000x32.Idx) :
    ∃ t : Fin cfg0.N, (cfg0.win 5).flush t = true ∧ i ∈ ((cfg0.win 5).blk t).view.set := by
  have h0 : (i 0).val < 100000 := (i 0).isLt
  have h1 : (i 1).val < 32 := (i 1).isLt
  have hN : (i 0).val / 5000 < cfg0.N := lt_of_lt_of_eq (by omega : (i 0).val / 5000 < 20) N_0.symm
  obtain ⟨-, -, -, -, -, -, -, -, -, -, e0, e1, -⟩ := idx_facts ⟨(i 0).val / 5000, hN⟩
  refine ⟨⟨(i 0).val / 5000, hN⟩, flush0_5 _, ?_⟩
  show i ∈ ((View.whole main_v21_0).slice (win0_5.rect ⟨(i 0).val / 5000, hN⟩)).set
  rw [View.set_slice_whole, Rect.mem_set_unit]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hN⟩ (1 : Fin 2) * 32 ≤ (i 1).val ∧ (i 1).val < win0_5.index ⟨(i 0).val / 5000, hN⟩ (1 : Fin 2) * 32 + 32
    rw [e1]; omega

private theorem cover6 (i : S100000x16.Idx) :
    ∃ t : Fin cfg0.N, (cfg0.win 6).flush t = true ∧ i ∈ ((cfg0.win 6).blk t).view.set := by
  have h0 : (i 0).val < 100000 := (i 0).isLt
  have h1 : (i 1).val < 16 := (i 1).isLt
  have hN : (i 0).val / 5000 < cfg0.N := lt_of_lt_of_eq (by omega : (i 0).val / 5000 < 20) N_0.symm
  obtain ⟨-, -, -, -, -, -, -, -, -, -, -, -, e0, e1, -⟩ := idx_facts ⟨(i 0).val / 5000, hN⟩
  refine ⟨⟨(i 0).val / 5000, hN⟩, flush0_6 _, ?_⟩
  show i ∈ ((View.whole main_v21_1).slice (win0_6.rect ⟨(i 0).val / 5000, hN⟩)).set
  rw [View.set_slice_whole, Rect.mem_set_unit]
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ (1 : Fin 2) * 16 ≤ (i 1).val ∧ (i 1).val < win0_6.index ⟨(i 0).val / 5000, hN⟩ (1 : Fin 2) * 16 + 16
    rw [e1]; omega

private theorem cover7 (i : S100000x16.Idx) :
    ∃ t : Fin cfg0.N, (cfg0.win 7).flush t = true ∧ i ∈ ((cfg0.win 7).blk t).view.set := by
  have h0 : (i 0).val < 100000 := (i 0).isLt
  have h1 : (i 1).val < 16 := (i 1).isLt
  have hN : (i 0).val / 5000 < cfg0.N := lt_of_lt_of_eq (by omega : (i 0).val / 5000 < 20) N_0.symm
  obtain ⟨-, -, -, -, -, -, -, -, -, -, -, -, -, -, e0, e1⟩ := idx_facts ⟨(i 0).val / 5000, hN⟩
  refine ⟨⟨(i 0).val / 5000, hN⟩, flush0_7 _, ?_⟩
  show i ∈ ((View.whole main_v21_2).slice (win0_7.rect ⟨(i 0).val / 5000, hN⟩)).set
  rw [View.set_slice_whole, Rect.mem_set_unit]
  intro a
  match a with
  | ⟨0, _⟩ =>
    show win0_7.index ⟨(i 0).val / 5000, hN⟩ (0 : Fin 2) * 5000 ≤ (i 0).val ∧ (i 0).val < win0_7.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hN⟩ (1 : Fin 2) * 16 ≤ (i 1).val ∧ (i 1).val < win0_7.index ⟨(i 0).val / 5000, hN⟩ (1 : Fin 2) * 16 + 16
    rw [e1]; omega

/-! ## The arrays after the region -/

private theorem final5 : ((dat0 (F := Ideal) V c).arrAt 5 cfg0.N : S100000x32.Idx → EReal) = G5 V c :=
  (dat0 (F := Ideal) V c).arrAt_eq_of_cover 5 (G5 V c) (fun t _ => flushed5_eq V c t) (cover5)
private theorem final6 : ((dat0 (F := Ideal) V c).arrAt 6 cfg0.N : S100000x16.Idx → EReal) = G6 V c :=
  (dat0 (F := Ideal) V c).arrAt_eq_of_cover 6 (G6 V c) (fun t _ => flushed6_eq V c t) (cover6)
private theorem final7 : ((dat0 (F := Ideal) V c).arrAt 7 cfg0.N : S100000x16.Idx → EReal) = G7 V c :=
  (dat0 (F := Ideal) V c).arrAt_eq_of_cover 7 (G7 V c) (fun t _ => flushed7_eq V c t) (cover7)

theorem out_hi (r : Fin 100000) (j : Fin 32) :
    ((dat0 (F := Ideal) V c).arrAt 5 cfg0.N : S100000x32.Idx → EReal) (ix2 r j) = hiOf V c r j := by
  rw [final5]
  rfl

theorem out_p (r : Fin 100000) (j : Fin 16) :
    ((dat0 (F := Ideal) V c).arrAt 6 cfg0.N : S100000x16.Idx → EReal) (ix2 r j) = ∑ t : Fin 32, hiOf V c r t * aw1 V c (ix2 t j) := by
  rw [final6]
  rfl

theorem out_q (r : Fin 100000) (j : Fin 16) :
    ((dat0 (F := Ideal) V c).arrAt 7 cfg0.N : S100000x16.Idx → EReal) (ix2 r j) = ∑ t : Fin 32, hiOf V c r t * aw2 V c (ix2 t j) := by
  rw [final7]
  rfl

end Cert.KernelIdeal.Reg0

end
-- ==== Proof.Reg1.lean ====
/-
  Region 1 (the edge aggregator), read as a whole array at an index: for ANY contents `V` of the core's buffers
  at the region's entry, the output array after the region is, row by row,
  `max (((p_row + q_col) + e · W₃) + c_edge) 0`.
-/
import proofs.«415651_j317827579953_3_alg».proof.Proof.Gen.KernelIdeal.Frame
import proofs.«415651_j317827579953_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg1

open Idealize.ShloMosaic Idealize.ShloMosaic.TcCoe Idealize.SL.Sem Idealize.ShloMosaic.ValueIdx
open Cert.KernelIdeal Cert.KernelIdeal.Gen Cert.Spec

/-! ## The body's one matrix product at an index -/

private theorem lhs_mm_0 (i : S6400x16.Idx) (q : dot_S6400x16_S16x16_S6400x16_1_0_0_1_n_n.contr.Idx) :
    (dot_S6400x16_S16x16_S6400x16_1_0_0_1_n_n.lhsIdx i q 0).val = (i 0).val := by
  unfold DotDims.lhsIdx
  rw [dif_neg (show ¬(0 : Fin S6400x16.rank) ∈ dot_S6400x16_S16x16_S6400x16_1_0_0_1_n_n.lhsBatch by decide), dif_pos (show (0 : Fin S6400x16.rank) ∈ dot_S6400x16_S16x16_S6400x16_1_0_0_1_n_n.lhsNonContracting by decide)]
  rfl
private theorem lhs_mm_1 (i : S6400x16.Idx) (q : dot_S6400x16_S16x16_S6400x16_1_0_0_1_n_n.contr.Idx) :
    (dot_S6400x16_S16x16_S6400x16_1_0_0_1_n_n.lhsIdx i q 1).val = (q ⟨0, by decide⟩).val :=
  dot_S6400x16_S16x16_S6400x16_1_0_0_1_n_n.lhsIdx_val_of_single rfl i q
private theorem rhs_mm_0 (i : S6400x16.Idx) (q : dot_S6400x16_S16x16_S6400x16_1_0_0_1_n_n.contr.Idx) :
    (dot_S6400x16_S16x16_S6400x16_1_0_0_1_n_n.rhsIdx i q 0).val = (q ⟨0, by decide⟩).val :=
  dot_S6400x16_S16x16_S6400x16_1_0_0_1_n_n.rhsIdx_val_of_single rfl i q
private theorem rhs_mm_1 (i : S6400x16.Idx) (q : dot_S6400x16_S16x16_S6400x16_1_0_0_1_n_n.contr.Idx) :
    (dot_S6400x16_S16x16_S6400x16_1_0_0_1_n_n.rhsIdx i q 1).val = (i 1).val := by
  unfold DotDims.rhsIdx
  rw [dif_neg (show ¬(1 : Fin S16x16.rank) ∈ dot_S6400x16_S16x16_S6400x16_1_0_0_1_n_n.rhsBatch by decide), dif_pos (show (1 : Fin S16x16.rank) ∈ dot_S6400x16_S16x16_S6400x16_1_0_0_1_n_n.rhsNonContracting by decide)]
  rfl

/-- The product into the zero accumulator, at row `p` and column `q`: the sum over the contracted index. -/
private theorem mm_apply (l : FVec Ideal S6400x16 .bf16) (r : FVec Ideal S16x16 .bf16) (p : Fin 6400) (q : Fin 16) :
    matmul dot_S6400x16_S16x16_S6400x16_1_0_0_1_n_n none l r (constant (F := Ideal) S6400x16 .f32 0x00000000#32) (ix2 p q)
      = ∑ k : Fin 16, l (ix2 p k) * r (ix2 k q) := by
  show FloatOps.matmul dot_S6400x16_S16x16_S6400x16_1_0_0_1_n_n none l r (constant (F := Ideal) S6400x16 .f32 0x00000000#32) (ix2 p q) = _
  rw [Ideal.matmul_constant_zero_apply, ← Equiv.sum_comp (contrEquiv1 dot_S6400x16_S16x16_S6400x16_1_0_0_1_n_n 16 rfl rfl).symm]
  refine Finset.sum_congr rfl fun k _ => ?_
  have hk := contrEquiv1_symm_val dot_S6400x16_S16x16_S6400x16_1_0_0_1_n_n 16 rfl rfl k
  have el : dot_S6400x16_S16x16_S6400x16_1_0_0_1_n_n.lhsIdx (ix2 p q) ((contrEquiv1 dot_S6400x16_S16x16_S6400x16_1_0_0_1_n_n 16 rfl rfl).symm k) = ix2 p k := funext fun a => Fin.ext (by
    match a with
    | ⟨0, _⟩ => exact lhs_mm_0 _ _
    | ⟨1, _⟩ => exact (lhs_mm_1 _ _).trans hk)
  have er : dot_S6400x16_S16x16_S6400x16_1_0_0_1_n_n.rhsIdx (ix2 p q) ((contrEquiv1 dot_S6400x16_S16x16_S6400x16_1_0_0_1_n_n 16 rfl rfl).symm k) = ix2 k q := funext fun a => Fin.ext (by
    match a with
    | ⟨0, _⟩ => exact (rhs_mm_0 _ _).trans hk
    | ⟨1, _⟩ => exact rhs_mm_1 _ _)
  rw [el, er]

/-! ## The body's stored value at an index -/

/-- The stored block at row `p`, column `q`: the two gathered rows added, plus the edge row times the weight
    column, plus the constant row's entry, clamped below at zero. -/
private theorem pay1_apply (x0 x1 x2 : Vec Ideal S6400x16 .f32) (x3 : Vec Ideal S16x16 .f32) (x4 : Vec Ideal S1x16 .f32)
    (p : Fin 6400) (q : Fin 16) :
    k1_pay1 (F := Ideal) x0 x1 x2 x3 x4 (ix2 p q)
      = max (((x0 (ix2 p q) + x1 (ix2 p q)) + ∑ t : Fin 16, x2 (ix2 p t) * x3 (ix2 t q)) + x4 (ix2 (0 : Fin 1) q)) 0 := by
  unfold k1_pay1
  rw [maximumf_apply, addf_apply, addf_apply, addf_apply, broadcast_apply, mm_apply]
  simp only [shapeCast_self, truncf_apply]
  rw [broadcastTo_1b_ab_apply]
  show max _ (Ideal.ofBits .f32 0x00000000#32) = _
  rw [Ideal.ofBits_zero_f32]

variable (V : (c : Dev nD) → (b : Ref sig .tc) → Buf (Elt Ideal) ((c : Thread nD τ).loc b)) (c : Dev nD)

/-- The region's five input arrays as it finds them: the two gathered projections, the edge attributes, the
    edge attributes' weight rows and the folded constant row. -/
abbrev a0 : S1600000x16.Idx → EReal := V c (Pipeline.arrRef spec1 0)
abbrev a1 : S1600000x16.Idx → EReal := V c (Pipeline.arrRef spec1 1)
abbrev a2 : S1600000x16.Idx → EReal := V c (Pipeline.arrRef spec1 2)
abbrev a3 : S16x16.Idx → EReal := V c (Pipeline.arrRef spec1 3)
abbrev a4 : S1x16.Idx → EReal := V c (Pipeline.arrRef spec1 4)

/-! ## The whole output array as one function of the input arrays -/

/-- Entry `(r, j)` of the region's result. -/
private def edgeAt (r : Fin 1600000) (j : Fin 16) : EReal :=
  max (((a0 V c (ix2 r j) + a1 V c (ix2 r j)) + ∑ t : Fin 16, a2 V c (ix2 r t) * a3 V c (ix2 t j)) + a4 V c (ix2 0 j)) 0

/-- The result array, index by index. -/
private def edgeArr : S1600000x16.Idx → EReal := fun i => edgeAt V c (i 0) (i 1)

private theorem hz : (![0, 0] : Fin 2 → Nat) = fun _ => 0 := funext fun a => by fin_cases a <;> rfl

/-- The block index maps over the grid: the three edge-row windows and the output move with the grid point along the
    rows; the weight and the constant row stay at block 0. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Input block 0 at point `t` is rows `6400 t … 6400 t + 6399` of its array. -/
private theorem iblk_row0 (t : Fin cfg1.N) (x : S6400x16.Idx) (k : S1600000x16.Idx)
    (hk0 : (k 0).val = 6400 * t.val + (x 0).val) (hk1 : (k 1).val = (x 1).val) :
    (iblk1 V c 0 t : Vec Ideal S6400x16 .f32) x = a0 V c k := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t 0 * 6400 + 1 * (x 0).val = (k 0).val; rw [e0, hk0]; omega
  | ⟨1, _⟩ => show win1_0.index t 1 * 16 + 1 * (x 1).val = (k 1).val; rw [e1, hk1]; omega

/-- Input block 1 at point `t`: the same rows of its array. -/
private theorem iblk_row1 (t : Fin cfg1.N) (x : S6400x16.Idx) (k : S1600000x16.Idx)
    (hk0 : (k 0).val = 6400 * t.val + (x 0).val) (hk1 : (k 1).val = (x 1).val) :
    (iblk1 V c 1 t : Vec Ideal S6400x16 .f32) x = a1 V c k := by
  obtain ⟨-, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t 0 * 6400 + 1 * (x 0).val = (k 0).val; rw [e0, hk0]; omega
  | ⟨1, _⟩ => show win1_1.index t 1 * 16 + 1 * (x 1).val = (k 1).val; rw [e1, hk1]; omega

/-- Input block 2 at point `t`: the same rows of the edge attributes. -/
private theorem iblk_row2 (t : Fin cfg1.N) (x : S6400x16.Idx) (k : S1600000x16.Idx)
    (hk0 : (k 0).val = 6400 * t.val + (x 0).val) (hk1 : (k 1).val = (x 1).val) :
    (iblk1 V c 2 t : Vec Ideal S6400x16 .f32) x = a2 V c k := by
  obtain ⟨-, -, -, -, e0, e1, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t 0 * 6400 + 1 * (x 0).val = (k 0).val; rw [e0, hk0]; omega
  | ⟨1, _⟩ => show win1_2.index t 1 * 16 + 1 * (x 1).val = (k 1).val; rw [e1, hk1]; omega

/-- The weight window's block at every point is the whole weight array. -/
private theorem iblk_w3 (t : Fin cfg1.N) (x : S16x16.Idx) :
    (iblk1 V c 3 t : Vec Ideal S16x16 .f32) x = a3 V c x := by
  obtain ⟨-, -, -, -, -, -, e0, e1, -⟩ := idx_facts t
  unfold iblk1
  rw [View.read_apply]
  show V c (Pipeline.arrRef spec1 3) _ = V c (Pipeline.arrRef spec1 3) _
  congr 1
  funext a
  apply Fin.ext
  match a with
  | ⟨0, _⟩ => show win1_3.index t 0 * 16 + 1 * (x 0).val = (x 0).val; rw [e0]; omega
  | ⟨1, _⟩ => show win1_3.index t 1 * 16 + 1 * (x 1).val = (x 1).val; rw [e1]; omega

/-- The constant row's window at every point is the whole one-row array. -/
private theorem iblk_w4 (t : Fin cfg1.N) (x : S1x16.Idx) :
    (iblk1 V c 4 t : Vec Ideal S1x16 .f32) x = a4 V c x := by
  obtain ⟨-, -, -, -, -, -, -, -, e0, e1, -⟩ := idx_facts t
  unfold iblk1
  rw [View.read_apply]
  show V c (Pipeline.arrRef spec1 4) _ = V c (Pipeline.arrRef spec1 4) _
  congr 1
  funext a
  apply Fin.ext
  match a with
  | ⟨0, _⟩ => show win1_4.index t 0 * 1 + 1 * (x 0).val = (x 0).val; rw [e0]; omega
  | ⟨1, _⟩ => show win1_4.index t 1 * 16 + 1 * (x 1).val = (x 1).val; rw [e1]; omega

/-! ## What a point writes back is its row block of the result -/

/-- The stored block over VARIABLE blocks that are the stated rows of the arrays: at block coordinates `(p, q)` of
    point `t` it is the result's entry at row `6400 t + p`, column `q`. -/
private theorem pay1_rows (x0 x1 x2 : Vec Ideal S6400x16 .f32) (x3 : Vec Ideal S16x16 .f32) (x4 : Vec Ideal S1x16 .f32)
    (p : Fin 6400) (q : Fin 16) (r : Fin 1600000)
    (h0 : ∀ j : Fin 16, x0 (ix2 p j) = a0 V c (ix2 r j)) (h1 : ∀ j : Fin 16, x1 (ix2 p j) = a1 V c (ix2 r j))
    (h2 : ∀ j : Fin 16, x2 (ix2 p j) = a2 V c (ix2 r j)) (h3 : ∀ y, x3 y = a3 V c y) (h4 : ∀ y, x4 y = a4 V c y) :
    k1_pay1 (F := Ideal) x0 x1 x2 x3 x4 (ix2 p q) = edgeAt V c r q := by
  rw [pay1_apply, h0, h1, h4]
  unfold edgeAt
  congr 3
  exact Finset.sum_congr rfl fun k _ => by rw [h2, h3]

/-- The stored block of point `t`'s input blocks, read at a block index `x` that sits at array index `i`. -/
private theorem point_eq (t : Fin cfg1.N) (x : S6400x16.Idx) (i : S1600000x16.Idx)
    (hi0 : (i 0).val = 6400 * t.val + (x 0).val) (hi1 : (i 1).val = (x 1).val) :
    k1_pay1 (F := Ideal) (iblk1 V c 0 t) (iblk1 V c 1 t) (iblk1 V c 2 t) (iblk1 V c 3 t) (iblk1 V c 4 t) x = edgeArr V c i := by
  obtain ⟨p, q, rfl⟩ : ∃ (p : Fin 6400) (q : Fin 16), x = ix2 p q := ⟨x 0, x 1, eq_ix2 x⟩
  obtain ⟨r, j, rfl⟩ : ∃ (r : Fin 1600000) (j : Fin 16), i = ix2 r j := ⟨i 0, i 1, eq_ix2 i⟩
  have hq : j = q := Fin.ext hi1
  subst hq
  show _ = edgeAt V c r j
  exact pay1_rows V c _ _ _ _ _ p j r
    (fun j' => iblk_row0 V c t _ _ hi0 rfl) (fun j' => iblk_row1 V c t _ _ hi0 rfl) (fun j' => iblk_row2 V c t _ _ hi0 rfl)
    (fun y => iblk_w3 V c t y) (fun y => iblk_w4 V c t y)

/-- What point `t` writes back is its row block of the result array. -/
private theorem flushed_eq (t : Fin cfg1.N) :
    (dat1 (F := Ideal) V c).flushed 5 t = ((cfg1.win 5).blk t).view.read (Elt Ideal) (edgeArr V c) := by
  show (cfg1.win 5).cut (grid1.coords t) ((dat1 V c).after 5 t) = _
  rw [after1_5]
  unfold out1_5
  rw [View.canon_unit_zero hz]
  simp only [View.ld_unit_zero (S := S6400x16) hz, View.ld_unit_zero (S := S16x16) hz, View.ld_unit_zero (S := S1x16) hz]
  obtain ⟨-, -, -, -, -, -, -, -, -, -, e0, e1⟩ := idx_facts t
  funext y
  rw [View.read_apply]
  refine point_eq V c t ((cfg1.win 5).xinj (grid1.coords t) y) (((cfg1.win 5).blk t).view.emb y) ?_ ?_
  · show win1_5.index t 0 * 6400 + 1 * (y 0).val = 6400 * t.val + (y 0).val
    rw [e0]; omega
  · show win1_5.index t 1 * 16 + 1 * (y 1).val = (y 1).val
    rw [e1]; omega

/-! ## The row blocks cover the array -/

/-- An index of the array is in point `t`'s block iff each coordinate is in the block's range on its axis. -/
private theorem mem_blk (t : Fin cfg1.N) (i : S1600000x16.Idx) :
    i ∈ ((cfg1.win 5).blk t).view.set ↔ ∀ a : Fin 2, win1_5.index t a * S6400x16.size a ≤ (i a).val ∧ (i a).val < win1_5.index t a * S6400x16.size a + S6400x16.size a := by
  show i ∈ ((View.whole main_v24).slice (win1_5.rect t)).set ↔ _
  rw [View.set_slice_whole, Rect.mem_set_unit]
  exact Iff.rfl

/-- Row `r` is in the block of point `r / 6400`. -/
private theorem covered (i : S1600000x16.Idx) :
    ∃ t : Fin cfg1.N, (cfg1.win 5).flush t = true ∧ i ∈ ((cfg1.win 5).blk t).view.set := by
  have hi0 : (i 0).val < 1600000 := (i 0).isLt
  have hi1 : (i 1).val < 16 := (i 1).isLt
  have hN : cfg1.N = 250 := N_1
  let t : Fin cfg1.N := ⟨(i 0).val / 6400, by rw [hN]; omega⟩
  obtain ⟨-, -, -, -, -, -, -, -, -, -, e0, e1⟩ := idx_facts t
  have ht : t.val = (i 0).val / 6400 := rfl
  refine ⟨t, flush1_5 t, ?_⟩
  rw [mem_blk]
  intro a
  match a with
  | ⟨0, _⟩ => show win1_5.index t 0 * 6400 ≤ (i 0).val ∧ (i 0).val < win1_5.index t 0 * 6400 + 6400; rw [e0, ht]; omega
  | ⟨1, _⟩ => show win1_5.index t 1 * 16 ≤ (i 1).val ∧ (i 1).val < win1_5.index t 1 * 16 + 16; rw [e1]; omega

/-- The output array after the region is the result array. -/
private theorem final : ((dat1 (F := Ideal) V c).arrAt 5 cfg1.N : S1600000x16.Idx → EReal) = edgeArr V c :=
  (dat1 (F := Ideal) V c).arrAt_eq_of_cover 5 (edgeArr V c) (fun t _ => flushed_eq V c t) covered

/-- The output array after the region, at row `r` and column `j`. -/
theorem out_edge (r : Fin 1600000) (j : Fin 16) :
    ((dat1 (F := Ideal) V c).arrAt 5 cfg1.N : S1600000x16.Idx → EReal) (ix2 r j)
      = max (((a0 V c (ix2 r j) + a1 V c (ix2 r j)) + ∑ t : Fin 16, a2 V c (ix2 r t) * a3 V c (ix2 t j)) + a4 V c (ix2 0 j)) 0 := by
  rw [final]
  rfl

end Cert.KernelIdeal.Reg1

end
-- ==== Proof.Indexing.lean ====
/-
  The programs' index-driven host operations read at an index. A row gather `x[idx]` of a `[100000, C]` table at
  `[1600000, 1]` start indices reads row `rowAt idx e` (the start index read signed and clamped into the table);
  an accumulating scatter into rows adds, to row `n`, the updates of the members of `hits idx n` (those whose start
  index, read signed, is exactly `n`: an index outside the table lands nowhere) — the SAME set of members whatever
  the width of the rows, and for the rank-one count; a concatenation along the columns reads each column from the
  piece it falls in.
-/
import proofs.«415651_j317827579953_3_alg».proof.KernelIdeal
import proofs.«415651_j317827579953_3_alg».proof.ReferenceIdeal
import Idealize.ShloMosaic.PureOps.Ideal
import Idealize.ShloMosaic.Lib.ValueIdx
import Idealize.ShloMosaic.Lib.ValueIdxRank1
import Idealize.ShloMosaic.Lib.Pipeline.Value

noncomputable section

namespace Cert.Indexing

open Idealize.ShloMosaic Idealize.ShloMosaic.ValueIdx

/-! # The operations' generic forms, in the extents

Each index-driven operation is first read at an index for arbitrary extents `N` (table rows), `M` (members) and
`C` (columns); the programs' records are instances. -/

section Generic

/-! ## A row gather, generically in the extents -/

/-- The dimension numbers of a row gather: operand `[N, C]`, start indices `[M, 1]`, result `[M, C]`. -/
private abbrev rowGather (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather read at `(e, j)`: the table at the row the start index of member `e` names — read signed and
    clamped into `[0, N − 1]` — and at column `j`. -/
private theorem rowGather_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowGather N M C wf) x idx (ix2 e j)
      = x (ix2 ⟨min (idx (ix2 e 0)).toInt.toNat (N - 1), by omega⟩ j) := by
  unfold Host.gather
  congr 1
  funext a
  refine Fin.ext ?_
  match a with
  | ⟨0, _⟩ =>
    -- axis 0 is collapsed: neither batching nor offset coordinate, the clamped start index alone
    show (rowGather N M C wf).start (ix2 e j) idx 0 + (rowGather N M C wf).batchCoord (ix2 e j) 0
      + (rowGather N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M C wf).startIndexMap from List.mem_singleton.mpr rfl)]
    have hsi : (rowGather N M C wf).siIdx (ix2 e j) ⟨List.idxOf (0 : Fin 2) (rowGather N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- axis 1 is the offset axis: the start index map does not name it, its coordinate is the result's column
    show (rowGather N M C wf).start (ix2 e j) idx 1 + (rowGather N M C wf).batchCoord (ix2 e j) 1
      + (rowGather N M C wf).offCoord (ix2 e j) 1 = j.val
    rw [GatherDims.batchCoord_eq_zero _ _ _ List.not_mem_nil]
    have hs : (rowGather N M C wf).start (ix2 e j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).2 ⟨show (1 : Fin 2) ∉ ([0] : List (Fin 2)) by decide, List.not_mem_nil⟩)]
    rfl

/-! ## Where an update lands -/

/-- An update lands on `i` exactly when, on every axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    constructor
    · intro hh a
      have h1 := Option.some.inj hh
      have h2 := congrArg (fun f => ((f a).val : ℤ)) h1
      simp only at h2
      rw [← h2]
      have := (h a).1
      omega
    · intro hh
      congr 1
      funext a
      refine Fin.ext ?_
      show (d.start j idx a + (d.window j a : ℤ)).toNat = (i a).val
      rw [hh a]; rfl
  · next h =>
    constructor
    · intro hh; exact absurd hh (by simp)
    · intro hh
      exfalso; apply h
      intro a
      rw [hh a]
      have := (i a).isLt
      omega

/-- The dimension numbers of an accumulating scatter into rows: operand `[N, C]`, indices `[M, 1]`, updates `[M, C]`. -/
private abbrev rowScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update `(e, b)` lands on `(n, j)` exactly when the start index of member `e`, read signed, is `n` and the
    columns agree: axis 0 is inserted (the start alone, not clamped), axis 1 is the window axis (the update's column
    alone). -/
private theorem rowScatter_lands {N M C w : Nat} (wf : ScatterDims.WF ⟨2, ![N, C]⟩ ⟨2, ![M, 1]⟩ ⟨2, ![M, C]⟩ [1] [0] [0] 1)
    (idx : IVec ⟨2, ![M, 1]⟩ w) (e : Fin M) (b : Fin C) (n : Fin N) (j : Fin C) :
    (rowScatter N M C wf).resultIdx? (ix2 e b) idx = some (ix2 n j)
      ↔ (idx (ix2 e 0)).toInt = (n.val : ℤ) ∧ b = j := by
  rw [resultIdx?_eq_some_iff]
  have hs0 : (rowScatter N M C wf).start (ix2 e b) idx 0 = (idx (ix2 e 0)).toInt := by
    unfold ScatterDims.start
    rw [dif_pos (show (0 : Fin 2) ∈ ([0] : List (Fin 2)) from List.mem_singleton.mpr rfl)]
    have hsi : (rowScatter N M C wf).siIdx (ix2 e b) ⟨List.idxOf (0 : Fin 2) (rowScatter N M C wf).scatterDimsToOperandDims,
        List.idxOf_lt_length_iff.2 (List.mem_singleton.mpr rfl)⟩ = ix2 e 0 := by
      funext c; refine Fin.ext ?_
      match c with
      | ⟨0, _⟩ => rfl
      | ⟨1, _⟩ => rfl
    rw [hsi]
  have hs1 : (rowScatter N M C wf).start (ix2 e b) idx 1 = 0 := by
    unfold ScatterDims.start
    rw [dif_neg (show (1 : Fin 2) ∉ ([0] : List (Fin 2)) by decide)]
  have hw0 : (rowScatter N M C wf).window (ix2 e b) 0 = 0 := by
    unfold ScatterDims.window
    rw [dif_neg]
    simp [ScatterDims.sKept, Shape.kept]
  have hw1 : (rowScatter N M C wf).window (ix2 e b) 1 = b.val := by
    unfold ScatterDims.window
    rw [dif_pos (by simp [ScatterDims.sKept, Shape.kept])]
    rfl
  constructor
  · intro h
    have h0 : (rowScatter N M C wf).start (ix2 e b) idx 0 + ((rowScatter N M C wf).window (ix2 e b) 0 : ℤ)
        = (n.val : ℤ) := h 0
    have h1 : (rowScatter N M C wf).start (ix2 e b) idx 1 + ((rowScatter N M C wf).window (ix2 e b) 1 : ℤ)
        = (j.val : ℤ) := h 1
    rw [hs0, hw0] at h0
    rw [hs1, hw1] at h1
    refine ⟨by simpa using h0, Fin.ext ?_⟩
    omega
  · rintro ⟨h0, rfl⟩ a
    match a with
    | ⟨0, _⟩ =>
      show (rowScatter N M C wf).start (ix2 e b) idx 0 + ((rowScatter N M C wf).window (ix2 e b) 0 : ℤ) = (n.val : ℤ)
      rw [hs0, hw0, h0]; simp
    | ⟨1, _⟩ =>
      show (rowScatter N M C wf).start (ix2 e b) idx 1 + ((rowScatter N M C wf).window (ix2 e b) 1 : ℤ) = (b.val : ℤ)
      rw [hs1, hw1]; simp

/-- An accumulating scatter into rows, at the ideal instance: row `n` gains the updates of the members whose
    start index, read signed, is `n`. -/
private theorem rowScatter_apply {N M C w : Nat} (wf : ScatterDims.WF ⟨2, ![N, C]⟩ ⟨2, ![M, 1]⟩ ⟨2, ![M, C]⟩ [1] [0] [0] 1)
    (x : FVec Ideal (⟨2, ![N, C]⟩ : Shape) .f32) (idx : IVec ⟨2, ![M, 1]⟩ w)
    (upd : FVec Ideal (⟨2, ![M, C]⟩ : Shape) .f32) (n : Fin N) (j : Fin C) :
    Host.scatterAdd (F := Ideal) (rowScatter N M C wf) x idx upd (ix2 n j)
      = x (ix2 n j) + ∑ e ∈ Finset.univ.filter (fun e : Fin M => (idx (ix2 e 0)).toInt = (n.val : ℤ)), upd (ix2 e j) := by
  show Ideal.hostScatterAdd (rowScatter N M C wf) x idx upd (ix2 n j) = _
  unfold Ideal.hostScatterAdd
  congr 1
  -- the updates landing on `(n, j)`, summed member by member: of member `e`'s row only column `j` can land there
  rw [Finset.sum_filter, sum_idx2, Finset.sum_filter]
  refine Finset.sum_congr rfl fun e _ => ?_
  simp only [rowScatter_lands]
  by_cases h : (idx (ix2 e 0)).toInt = (n.val : ℤ)
  · simp only [h, true_and, if_true]
    exact Finset.sum_ite_eq' Finset.univ j (fun b => upd (ix2 e b)) |>.trans (if_pos (Finset.mem_univ j))
  · simp only [h, false_and, if_false]
    exact Finset.sum_const_zero

/-- A sum over a rank-one index set is the sum over its coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of an accumulating scatter of scalars: operand `[N]`, indices `[M, 1]`, updates `[M]`. -/
private abbrev countScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `e` lands on entry `n` exactly when the start index of member `e`, read signed, is `n`: the one
    operand axis is inserted, there is no window. -/
private theorem countScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (countScatter N M wf).resultIdx? (ix1 e) idx = some (ix1 n) ↔ (idx (ix2 e 0)).toInt = (n.val : ℤ) := by
  rw [resultIdx?_eq_some_iff]
  have hs0 : (countScatter N M wf).start (ix1 e) idx 0 = (idx (ix2 e 0)).toInt := by
    unfold ScatterDims.start
    rw [dif_pos (show (0 : Fin 1) ∈ ([0] : List (Fin 1)) from List.mem_singleton.mpr rfl)]
    have hsi : (countScatter N M wf).siIdx (ix1 e) ⟨List.idxOf (0 : Fin 1) (countScatter N M wf).scatterDimsToOperandDims,
        List.idxOf_lt_length_iff.2 (List.mem_singleton.mpr rfl)⟩ = ix2 e 0 := by
      funext c; refine Fin.ext ?_
      match c with
      | ⟨0, _⟩ => rfl
      | ⟨1, _⟩ => rfl
    rw [hsi]
  have hw0 : (countScatter N M wf).window (ix1 e) 0 = 0 := by
    unfold ScatterDims.window
    rw [dif_neg]
    simp [ScatterDims.sKept, Shape.kept]
  constructor
  · intro h
    have h0 : (countScatter N M wf).start (ix1 e) idx 0 + ((countScatter N M wf).window (ix1 e) 0 : ℤ)
        = (n.val : ℤ) := h 0
    rw [hs0, hw0] at h0
    simpa using h0
  · intro h0 a
    match a with
    | ⟨0, _⟩ =>
      show (countScatter N M wf).start (ix1 e) idx 0 + ((countScatter N M wf).window (ix1 e) 0 : ℤ) = (n.val : ℤ)
      rw [hs0, hw0, h0]; simp

/-- An accumulating scatter of scalars, at the ideal instance: entry `n` gains the updates of the members whose
    start index, read signed, is `n`. -/
private theorem countScatter_apply {N M w : Nat} (wf : ScatterDims.WF ⟨1, ![N]⟩ ⟨2, ![M, 1]⟩ ⟨1, ![M]⟩ [] [0] [0] 1)
    (x : FVec Ideal (⟨1, ![N]⟩ : Shape) .f32) (idx : IVec ⟨2, ![M, 1]⟩ w)
    (upd : FVec Ideal (⟨1, ![M]⟩ : Shape) .f32) (n : Fin N) :
    Host.scatterAdd (F := Ideal) (countScatter N M wf) x idx upd (ix1 n)
      = x (ix1 n) + ∑ e ∈ Finset.univ.filter (fun e : Fin M => (idx (ix2 e 0)).toInt = (n.val : ℤ)), upd (ix1 e) := by
  show Ideal.hostScatterAdd (countScatter N M wf) x idx upd (ix1 n) = _
  unfold Ideal.hostScatterAdd
  congr 1
  rw [Finset.sum_filter, sum_idx1, Finset.sum_filter]
  refine Finset.sum_congr rfl fun e _ => ?_
  simp only [countScatter_lands]

end Generic

-- the programs' records carry their well-formedness from the programs' stated side conditions
variable [hK : Cert.KernelIdeal.Facts₀] [hR : Cert.ReferenceIdeal.Facts₀]

/-- The table row a start index names: read as a signed integer and clamped into `[0, 99999]`. -/
def rowAt (idx : IVec (⟨2, ![1600000, 1]⟩ : Shape) 32) (e : Fin 1600000) : Fin 100000 :=
  ⟨min (idx (ix2 e 0)).toInt.toNat 99999, by omega⟩

/-- The members whose start index, read as a signed integer, is exactly `n`. -/
def hits (idx : IVec (⟨2, ![1600000, 1]⟩ : Shape) 32) (n : Fin 100000) : Finset (Fin 1600000) :=
  Finset.univ.filter fun e => (idx (ix2 e 0)).toInt = (n.val : ℤ)

/-! ## Row gathers -/

theorem K_gather16 {α : Type} (x : (⟨2, ![100000, 16]⟩ : Shape).Idx → α) (idx : IVec (⟨2, ![1600000, 1]⟩ : Shape) 32)
    (e : Fin 1600000) (j : Fin 16) :
    Host.gather Cert.KernelIdeal.gather_S100000x16_S1600000x1_S1600000x16_1_0_n_n_0_1_116 x idx (ix2 e j) = x (ix2 (rowAt idx e) j) := by
  exact rowGather_apply (by omega) Cert.KernelIdeal.Facts₀.gather_S100000x16_S1600000x1_S1600000x16_1_0_n_n_0_1_116_wf x idx e j

theorem K_gather8 {α : Type} (x : (⟨2, ![100000, 8]⟩ : Shape).Idx → α) (idx : IVec (⟨2, ![1600000, 1]⟩ : Shape) 32)
    (e : Fin 1600000) (j : Fin 8) :
    Host.gather Cert.KernelIdeal.gather_S100000x8_S1600000x1_S1600000x8_1_0_n_n_0_1_18 x idx (ix2 e j) = x (ix2 (rowAt idx e) j) := by
  exact rowGather_apply (by omega) Cert.KernelIdeal.Facts₀.gather_S100000x8_S1600000x1_S1600000x8_1_0_n_n_0_1_18_wf x idx e j

theorem R_gather32 {α : Type} (x : (⟨2, ![100000, 32]⟩ : Shape).Idx → α) (idx : IVec (⟨2, ![1600000, 1]⟩ : Shape) 32)
    (e : Fin 1600000) (j : Fin 32) :
    Host.gather Cert.ReferenceIdeal.gather_S100000x32_S1600000x1_S1600000x32_1_0_n_n_0_1_132 x idx (ix2 e j) = x (ix2 (rowAt idx e) j) := by
  exact rowGather_apply (by omega) Cert.ReferenceIdeal.Facts₀.gather_S100000x32_S1600000x1_S1600000x32_1_0_n_n_0_1_132_wf x idx e j

/-! ## Accumulating scatters into rows, at the ideal instance -/

theorem K_scatter16 (x : FVec Ideal (⟨2, ![100000, 16]⟩ : Shape) .f32) (idx : IVec (⟨2, ![1600000, 1]⟩ : Shape) 32)
    (upd : FVec Ideal (⟨2, ![1600000, 16]⟩ : Shape) .f32) (n : Fin 100000) (j : Fin 16) :
    Host.scatterAdd (F := Ideal) Cert.KernelIdeal.scatter_S100000x16_S1600000x1_S1600000x16_1_0_0_1 x idx upd (ix2 n j)
      = x (ix2 n j) + ∑ e ∈ hits idx n, upd (ix2 e j) := by
  exact rowScatter_apply Cert.KernelIdeal.Facts₀.scatter_S100000x16_S1600000x1_S1600000x16_1_0_0_1_wf x idx upd n j

theorem K_scatter8 (x : FVec Ideal (⟨2, ![100000, 8]⟩ : Shape) .f32) (idx : IVec (⟨2, ![1600000, 1]⟩ : Shape) 32)
    (upd : FVec Ideal (⟨2, ![1600000, 8]⟩ : Shape) .f32) (n : Fin 100000) (j : Fin 8) :
    Host.scatterAdd (F := Ideal) Cert.KernelIdeal.scatter_S100000x8_S1600000x1_S1600000x8_1_0_0_1 x idx upd (ix2 n j)
      = x (ix2 n j) + ∑ e ∈ hits idx n, upd (ix2 e j) := by
  exact rowScatter_apply Cert.KernelIdeal.Facts₀.scatter_S100000x8_S1600000x1_S1600000x8_1_0_0_1_wf x idx upd n j

theorem K_scatterCount (x : FVec Ideal (⟨1, ![100000]⟩ : Shape) .f32) (idx : IVec (⟨2, ![1600000, 1]⟩ : Shape) 32)
    (upd : FVec Ideal (⟨1, ![1600000]⟩ : Shape) .f32) (n : Fin 100000) :
    Host.scatterAdd (F := Ideal) Cert.KernelIdeal.scatter_S100000_S1600000x1_S1600000_n_0_0_1 x idx upd (ix1 n)
      = x (ix1 n) + ∑ e ∈ hits idx n, upd (ix1 e) := by
  exact countScatter_apply Cert.KernelIdeal.Facts₀.scatter_S100000_S1600000x1_S1600000_n_0_0_1_wf x idx upd n

theorem R_scatter16 (x : FVec Ideal (⟨2, ![100000, 16]⟩ : Shape) .f32) (idx : IVec (⟨2, ![1600000, 1]⟩ : Shape) 32)
    (upd : FVec Ideal (⟨2, ![1600000, 16]⟩ : Shape) .f32) (n : Fin 100000) (j : Fin 16) :
    Host.scatterAdd (F := Ideal) Cert.ReferenceIdeal.scatter_S100000x16_S1600000x1_S1600000x16_1_0_0_1 x idx upd (ix2 n j)
      = x (ix2 n j) + ∑ e ∈ hits idx n, upd (ix2 e j) := by
  exact rowScatter_apply Cert.ReferenceIdeal.Facts₀.scatter_S100000x16_S1600000x1_S1600000x16_1_0_0_1_wf x idx upd n j

theorem R_scatter32 (x : FVec Ideal (⟨2, ![100000, 32]⟩ : Shape) .f32) (idx : IVec (⟨2, ![1600000, 1]⟩ : Shape) 32)
    (upd : FVec Ideal (⟨2, ![1600000, 32]⟩ : Shape) .f32) (n : Fin 100000) (j : Fin 32) :
    Host.scatterAdd (F := Ideal) Cert.ReferenceIdeal.scatter_S100000x32_S1600000x1_S1600000x32_1_0_0_1 x idx upd (ix2 n j)
      = x (ix2 n j) + ∑ e ∈ hits idx n, upd (ix2 e j) := by
  exact rowScatter_apply Cert.ReferenceIdeal.Facts₀.scatter_S100000x32_S1600000x1_S1600000x32_1_0_0_1_wf x idx upd n j

theorem R_scatterCount (x : FVec Ideal (⟨1, ![100000]⟩ : Shape) .f32) (idx : IVec (⟨2, ![1600000, 1]⟩ : Shape) 32)
    (upd : FVec Ideal (⟨1, ![1600000]⟩ : Shape) .f32) (n : Fin 100000) :
    Host.scatterAdd (F := Ideal) Cert.ReferenceIdeal.scatter_S100000_S1600000x1_S1600000_n_0_0_1 x idx upd (ix1 n)
      = x (ix1 n) + ∑ e ∈ hits idx n, upd (ix1 e) := by
  exact countScatter_apply Cert.ReferenceIdeal.Facts₀.scatter_S100000_S1600000x1_S1600000_n_0_0_1_wf x idx upd n

/-! ## The programs' two families of scatter records are the same records -/

theorem scatter16_eq : Cert.KernelIdeal.scatter_S100000x16_S1600000x1_S1600000x16_1_0_0_1 = Cert.ReferenceIdeal.scatter_S100000x16_S1600000x1_S1600000x16_1_0_0_1 := by
  rfl
theorem scatterCount_eq : Cert.KernelIdeal.scatter_S100000_S1600000x1_S1600000_n_0_0_1 = Cert.ReferenceIdeal.scatter_S100000_S1600000x1_S1600000_n_0_0_1 := by
  rfl
theorem scatterPool_eq : Cert.KernelIdeal.scatter_S1x8_S100000x1_S100000x8_1_0_0_1 = Cert.ReferenceIdeal.scatter_S1x8_S100000x1_S100000x8_1_0_0_1 := by
  rfl
theorem scatterPoolCount_eq : Cert.KernelIdeal.scatter_S1_S100000x1_S100000_n_0_0_1 = Cert.ReferenceIdeal.scatter_S1_S100000x1_S100000_n_0_0_1 := by
  rfl

/-! ## The reference's two concatenations along the columns -/

/-- The four pieces of the edge aggregator's input, left to right: 32, 32, 16 and 16 columns. -/
abbrev pieces96 {α : Type} (u0 u1 : (⟨2, ![1600000, 32]⟩ : Shape).Idx → α) (u2 u3 : (⟨2, ![1600000, 16]⟩ : Shape).Idx → α) :
    List ((s : Shape) × (s.Idx → α)) :=
  [Sigma.mk (⟨2, ![1600000, 32]⟩ : Shape) u0, Sigma.mk (⟨2, ![1600000, 32]⟩ : Shape) u1,
   Sigma.mk (⟨2, ![1600000, 16]⟩ : Shape) u2, Sigma.mk (⟨2, ![1600000, 16]⟩ : Shape) u3]

/-- Column `t` of the concatenation is read from the piece it falls in. -/
theorem R_concat96 {α : Type} (u0 u1 : (⟨2, ![1600000, 32]⟩ : Shape).Idx → α) (u2 u3 : (⟨2, ![1600000, 16]⟩ : Shape).Idx → α)
    (h : Shape.Concatenates ((pieces96 u0 u1 u2 u3).map Sigma.fst) (⟨2, ![1600000, 96]⟩ : Shape) 1)
    (r : Fin 1600000) :
    (∀ t : Fin 32, concatenate (⟨2, ![1600000, 96]⟩ : Shape) 1 (pieces96 u0 u1 u2 u3) h (ix2 r ⟨t.val, by omega⟩) = u0 (ix2 r t))
    ∧ (∀ t : Fin 32, concatenate (⟨2, ![1600000, 96]⟩ : Shape) 1 (pieces96 u0 u1 u2 u3) h (ix2 r ⟨32 + t.val, by omega⟩) = u1 (ix2 r t))
    ∧ (∀ t : Fin 16, concatenate (⟨2, ![1600000, 96]⟩ : Shape) 1 (pieces96 u0 u1 u2 u3) h (ix2 r ⟨64 + t.val, by omega⟩) = u2 (ix2 r t))
    ∧ (∀ t : Fin 16, concatenate (⟨2, ![1600000, 96]⟩ : Shape) 1 (pieces96 u0 u1 u2 u3) h (ix2 r ⟨80 + t.val, by omega⟩) = u3 (ix2 r t)) := by
  refine ⟨fun t => ?_, fun t => ?_, fun t => ?_, fun t => ?_⟩
  · exact concatenate_apply_piece (t := (⟨2, ![1600000, 96]⟩ : Shape)) 1 (pieces96 u0 u1 u2 u3) h (ix2 r ⟨t.val, by omega⟩) 0
      (show 0 < 4 by omega) (⟨2, ![1600000, 32]⟩ : Shape) u0 rfl rfl 0 rfl (ix2 r t)
      (fun b => match b with | ⟨0, _⟩ => fun _ => rfl | ⟨1, _⟩ => fun hb => absurd rfl hb) (Nat.zero_add _)
  · exact concatenate_apply_piece (t := (⟨2, ![1600000, 96]⟩ : Shape)) 1 (pieces96 u0 u1 u2 u3) h (ix2 r ⟨32 + t.val, by omega⟩) 1
      (show 1 < 4 by omega) (⟨2, ![1600000, 32]⟩ : Shape) u1 rfl rfl 32 rfl (ix2 r t)
      (fun b => match b with | ⟨0, _⟩ => fun _ => rfl | ⟨1, _⟩ => fun hb => absurd rfl hb) rfl
  · exact concatenate_apply_piece (t := (⟨2, ![1600000, 96]⟩ : Shape)) 1 (pieces96 u0 u1 u2 u3) h (ix2 r ⟨64 + t.val, by omega⟩) 2
      (show 2 < 4 by omega) (⟨2, ![1600000, 16]⟩ : Shape) u2 rfl rfl 64 rfl (ix2 r t)
      (fun b => match b with | ⟨0, _⟩ => fun _ => rfl | ⟨1, _⟩ => fun hb => absurd rfl hb) rfl
  · exact concatenate_apply_piece (t := (⟨2, ![1600000, 96]⟩ : Shape)) 1 (pieces96 u0 u1 u2 u3) h (ix2 r ⟨80 + t.val, by omega⟩) 3
      (show 3 < 4 by omega) (⟨2, ![1600000, 16]⟩ : Shape) u3 rfl rfl 80 rfl (ix2 r t)
      (fun b => match b with | ⟨0, _⟩ => fun _ => rfl | ⟨1, _⟩ => fun hb => absurd rfl hb) rfl

/-- The three pieces of the node aggregator's input, left to right: 32, 16 and 16 columns. -/
abbrev pieces64 {α : Type} (u0 : (⟨2, ![100000, 32]⟩ : Shape).Idx → α) (u1 u2 : (⟨2, ![100000, 16]⟩ : Shape).Idx → α) :
    List ((s : Shape) × (s.Idx → α)) :=
  [Sigma.mk (⟨2, ![100000, 32]⟩ : Shape) u0, Sigma.mk (⟨2, ![100000, 16]⟩ : Shape) u1, Sigma.mk (⟨2, ![100000, 16]⟩ : Shape) u2]

theorem R_concat64 {α : Type} (u0 : (⟨2, ![100000, 32]⟩ : Shape).Idx → α) (u1 u2 : (⟨2, ![100000, 16]⟩ : Shape).Idx → α)
    (h : Shape.Concatenates ((pieces64 u0 u1 u2).map Sigma.fst) (⟨2, ![100000, 64]⟩ : Shape) 1)
    (r : Fin 100000) :
    (∀ t : Fin 32, concatenate (⟨2, ![100000, 64]⟩ : Shape) 1 (pieces64 u0 u1 u2) h (ix2 r ⟨t.val, by omega⟩) = u0 (ix2 r t))
    ∧ (∀ t : Fin 16, concatenate (⟨2, ![100000, 64]⟩ : Shape) 1 (pieces64 u0 u1 u2) h (ix2 r ⟨32 + t.val, by omega⟩) = u1 (ix2 r t))
    ∧ (∀ t : Fin 16, concatenate (⟨2, ![100000, 64]⟩ : Shape) 1 (pieces64 u0 u1 u2) h (ix2 r ⟨48 + t.val, by omega⟩) = u2 (ix2 r t)) := by
  refine ⟨fun t => ?_, fun t => ?_, fun t => ?_⟩
  · exact concatenate_apply_piece (t := (⟨2, ![100000, 64]⟩ : Shape)) 1 (pieces64 u0 u1 u2) h (ix2 r ⟨t.val, by omega⟩) 0
      (show 0 < 3 by omega) (⟨2, ![100000, 32]⟩ : Shape) u0 rfl rfl 0 rfl (ix2 r t)
      (fun b => match b with | ⟨0, _⟩ => fun _ => rfl | ⟨1, _⟩ => fun hb => absurd rfl hb) (Nat.zero_add _)
  · exact concatenate_apply_piece (t := (⟨2, ![100000, 64]⟩ : Shape)) 1 (pieces64 u0 u1 u2) h (ix2 r ⟨32 + t.val, by omega⟩) 1
      (show 1 < 3 by omega) (⟨2, ![100000, 16]⟩ : Shape) u1 rfl rfl 32 rfl (ix2 r t)
      (fun b => match b with | ⟨0, _⟩ => fun _ => rfl | ⟨1, _⟩ => fun hb => absurd rfl hb) rfl
  · exact concatenate_apply_piece (t := (⟨2, ![100000, 64]⟩ : Shape)) 1 (pieces64 u0 u1 u2) h (ix2 r ⟨48 + t.val, by omega⟩) 2
      (show 2 < 3 by omega) (⟨2, ![100000, 16]⟩ : Shape) u2 rfl rfl 48 rfl (ix2 r t)
      (fun b => match b with | ⟨0, _⟩ => fun _ => rfl | ⟨1, _⟩ => fun hb => absurd rfl hb) rfl

end Cert.Indexing

end
-- ==== Proof.KStage1.lean ====
/-
  The kernel program from region 0 to the exit of region 1, read at an index: region 0 leaves the node
  embedding `h` and its two projections; the two takes gather the projections' rows along the edges (for an
  edge index inside the node table the take's range mask is all ones, so no fill value is read); region 1
  leaves the edge aggregator's rows. The buffers later stages read are carried to region 1's exit unchanged.
-/
import proofs.«415651_j317827579953_3_alg».proof.Proof.KHost0
import proofs.«415651_j317827579953_3_alg».proof.Proof.Reg0
import proofs.«415651_j317827579953_3_alg».proof.Proof.Reg1
import proofs.«415651_j317827579953_3_alg».proof.Proof.Indexing
import proofs.«415651_j317827579953_3_alg».proof.Proof.Gen.ReferenceIdeal
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KVal

open Idealize.ShloMosaic Idealize.ShloMosaic.TcCoe Idealize.SL.Sem Idealize.ShloMosaic.ValueIdx Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## What the two takes write, and the walks of an untouched buffer -/

/-- The buffers the first take's operations write, in order. -/
private abbrev take0_W : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v22]
/-- The buffers the second take's operations write, in order. -/
private abbrev take1_W : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v23]

private theorem take0_writes : (hostOps1 : List (HloOp τ sig (Elt Ideal))).Forall fun op =>
    op.writes ⊆ (take0_W.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
private theorem take1_writes : (hostOps1_1 : List (HloOp τ sig (Elt Ideal))).Forall fun op =>
    op.writes ⊆ (take1_W.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)

/-- A buffer the first take does not write holds after it what it held at region 0's exit. -/
private theorem W3_keep (b : Ref sig .tc) (h : b ∉ take0_W) : W3 m ρ c (Proc.devRef .tc b) = W2 m ρ c (Proc.devRef .tc b) :=
  StableHlo.after_of_writes_sub hostOps1 _ take0_writes h
/-- A buffer the second take does not write holds at region 1's entry what it held before that take. -/
private theorem W4_keep (b : Ref sig .tc) (h : b ∉ take1_W) : W4 m ρ c (Proc.devRef .tc b) = W3 m ρ c (Proc.devRef .tc b) :=
  StableHlo.after_of_writes_sub hostOps1_1 _ take1_writes h
/-- A buffer neither take writes and that is no array of region 0: at region 1's entry it holds what it held at
    region 0's entry. -/
private theorem W4_of_W1 (b : Ref sig .tc) (h0 : ∀ w, Pipeline.arrRef spec0 w ≠ b) (h1 : b ∉ take0_W) (h2 : b ∉ take1_W) :
    W4 m ρ c (Proc.devRef .tc b) = W1 m ρ c (Proc.devRef .tc b) :=
  (W4_keep m ρ c b h2).trans ((W3_keep m ρ c b h1).trans (W2_of_ne m ρ c b h0))
/-- The same to region 1's exit, for a buffer that is no array of region 1 either. -/
private theorem W5_of_W1 (b : Ref sig .tc) (h0 : ∀ w, Pipeline.arrRef spec0 w ≠ b) (h1 : b ∉ take0_W) (h2 : b ∉ take1_W)
    (h3 : ∀ w, Pipeline.arrRef spec1 w ≠ b) : W5 m ρ c (Proc.devRef .tc b) = W1 m ρ c (Proc.devRef .tc b) :=
  (W5_of_ne m ρ c b h3).trans (W4_of_W1 m ρ c b h0 h1 h2)

/-! ## At region 0's exit (`W2`) -/

/-- Region 0's node embedding over the entry contents is the plain formula of the arguments: its three inputs are
    the node features, the node weight and the node bias as one row. -/
private theorem hiOf_eq (r : Fin 100000) (j : Fin 32) :
    Reg0.hiOf (V1 m ρ) c r j = Hub.hi (A0 m c) (A5 m c) (A6 m c) r j := by
  have e0 : Reg0.ax (V1 m ρ) c = A0 m c := W1_arg0 m ρ c
  have e1 : Reg0.awn (V1 m ρ) c = A5 m c := W1_arg5 m ρ c
  have e2 : Reg0.ab (V1 m ρ) c (ix2 0 j) = A6 m c (ix1 j) := W1_v20 m ρ c j
  unfold Reg0.hiOf Hub.hi
  rw [e0, e1, e2]

theorem W2_v21_0 (r : Fin 100000) (j : Fin 32) :
    (W2 m ρ c (Proc.devRef .tc main_v21_0) : S100000x32.Idx → EReal) (ix2 r j) = Hub.hi (A0 m c) (A5 m c) (A6 m c) r j := by
  have h : (W2 m ρ c (Proc.devRef .tc main_v21_0) : S100000x32.Idx → EReal) = (dat0 (V1 m ρ) c).arrAt 5 cfg0.N := W2_arr m ρ c 5
  exact (congrFun h (ix2 r j)).trans ((Reg0.out_hi (V1 m ρ) c r j).trans (hiOf_eq m ρ c r j))
theorem W2_v21_1 (r : Fin 100000) (j : Fin 16) :
    (W2 m ρ c (Proc.devRef .tc main_v21_1) : S100000x16.Idx → EReal) (ix2 r j)
      = ∑ t : Fin 32, Hub.hi (A0 m c) (A5 m c) (A6 m c) r t * A9 m c (ix2 ⟨t.val, by omega⟩ j) := by
  have h : (W2 m ρ c (Proc.devRef .tc main_v21_1) : S100000x16.Idx → EReal) = (dat0 (V1 m ρ) c).arrAt 6 cfg0.N := W2_arr m ρ c 6
  have key : (∑ t : Fin 32, Reg0.hiOf (V1 m ρ) c r t * Reg0.aw1 (V1 m ρ) c (ix2 t j) : EReal)
      = ∑ t : Fin 32, Hub.hi (A0 m c) (A5 m c) (A6 m c) r t * A9 m c (ix2 ⟨t.val, by omega⟩ j) :=
    Finset.sum_congr rfl fun t _ => by rw [hiOf_eq]; exact congrArg _ (W1_v4 m ρ c t j)
  exact (congrFun h (ix2 r j)).trans ((Reg0.out_p (V1 m ρ) c r j).trans key)
theorem W2_v21_2 (r : Fin 100000) (j : Fin 16) :
    (W2 m ρ c (Proc.devRef .tc main_v21_2) : S100000x16.Idx → EReal) (ix2 r j)
      = ∑ t : Fin 32, Hub.hi (A0 m c) (A5 m c) (A6 m c) r t * A9 m c (ix2 ⟨32 + t.val, by omega⟩ j) := by
  have h : (W2 m ρ c (Proc.devRef .tc main_v21_2) : S100000x16.Idx → EReal) = (dat0 (V1 m ρ) c).arrAt 7 cfg0.N := W2_arr m ρ c 7
  have key : (∑ t : Fin 32, Reg0.hiOf (V1 m ρ) c r t * Reg0.aw2 (V1 m ρ) c (ix2 t j) : EReal)
      = ∑ t : Fin 32, Hub.hi (A0 m c) (A5 m c) (A6 m c) r t * A9 m c (ix2 ⟨32 + t.val, by omega⟩ j) :=
    Finset.sum_congr rfl fun t _ => by rw [hiOf_eq]; exact congrArg _ (W1_v5 m ρ c t j)
  exact (congrFun h (ix2 r j)).trans ((Reg0.out_q (V1 m ρ) c r j).trans key)

/-! ## A take, read at an index

`x[idx]` along the rows of a `[100000, 16]` table: the index's negative entries are wrapped by the table's
length and laid out as one column of start indices; the gather reads the row each start index names (clamped into
the table); a range mask (start index in `[0, 99999]`, conjoined along the column's unit axis) selects between
the gathered row and a fill value. For an index inside the table nothing is wrapped and the mask is all ones. -/

section Take

/-- The start indices a take hands its gather: negative entries wrapped, as one column. -/
private def takeStart (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The take's range mask over the start indices. -/
private def takeMask (s : IVec S1600000x1 32) : IVec S1600000 1 :=
  Host.reduce IntOp.andi
    (andi (cmpi .sge s (broadcastInDim S1600000x1 ![] bcast_S_S1600000x1 (constantI S_ 32 0#32)))
      (cmpi .sle s (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

variable {F : FTy → Type} [FloatOps F] (mF : (ℓ : Loc nD τ sig) → Buf (Elt F) ℓ)

/-- Contents moved to a typed reference's buffer type and back are the contents. -/
private theorem ofBuf_toBuf {Val : EltTy → Type} {T : BufTy} (x : StableHlo.TRef sig T) (v : T.Contents Val) :
    x.ofBuf (x.toBuf v) = v := by
  obtain ⟨r, rfl, _, _⟩ := x
  rfl
/-- At a literal buffer the move is the identity. -/
private theorem ofBuf_main_v1 {Val : EltTy → Type} (h1 h2 h3) (v : (main_v1 : Ref sig .tc).ty.Contents Val) :
    (StableHlo.TRef.of (T := ⟨S1600000, .i32⟩) main_v1 h1 h2 h3).ofBuf v = v := rfl
private theorem ofBuf_main_v3 {Val : EltTy → Type} (h1 h2 h3) (v : (main_v3 : Ref sig .tc).ty.Contents Val) :
    (StableHlo.TRef.of (T := ⟨S1600000, .i32⟩) main_v3 h1 h2 h3).ofBuf v = v := rfl
private theorem ofBuf_main_v21_1 {Val : EltTy → Type} (h1 h2 h3) (v : (main_v21_1 : Ref sig .tc).ty.Contents Val) :
    (StableHlo.TRef.of (T := ⟨S100000x16, .f32⟩) main_v21_1 h1 h2 h3).ofBuf v = v := rfl
private theorem ofBuf_main_v21_2 {Val : EltTy → Type} (h1 h2 h3) (v : (main_v21_2 : Ref sig .tc).ty.Contents Val) :
    (StableHlo.TRef.of (T := ⟨S100000x16, .f32⟩) main_v21_2 h1 h2 h3).ofBuf v = v := rfl
private theorem toBuf_main_v22 {Val : EltTy → Type} (h1 h2 h3) (v : (⟨S1600000x16, .f32⟩ : BufTy).Contents Val) :
    (StableHlo.TRef.of (T := ⟨S1600000x16, .f32⟩) main_v22 h1 h2 h3).toBuf v = v := rfl
private theorem toBuf_main_v23 {Val : EltTy → Type} (h1 h2 h3) (v : (⟨S1600000x16, .f32⟩ : BufTy).Contents Val) :
    (StableHlo.TRef.of (T := ⟨S1600000x16, .f32⟩) main_v23 h1 h2 h3).toBuf v = v := rfl

/-- The take of the rows of `x` along `idx`, at any float family. -/
private def take16 (x : FVec F S100000x16 .f32) (idx : IVec S1600000 32) : FVec F S1600000x16 .f32 :=
  select (broadcastInDim S1600000x16 ![0] bcast_S1600000_S1600000x16_0 (takeMask (takeStart idx)))
    (Host.gather gather_S100000x16_S1600000x1_S1600000x16_1_0_n_n_0_1_116 x (takeStart idx))
    (broadcastInDim S1600000x16 ![] bcast_S_S1600000x16 (constant (F := F) S_ .f32 0x7FC00000#32))

/-- What the first take leaves in its result buffer: the take of region 0's second output along the source row. -/
private theorem W3_v22_gen : (W3 mF ρ c (Proc.devRef .tc main_v22) : FVec F S1600000x16 .f32)
    = take16 (W2 mF ρ c (Proc.devRef .tc main_v21_1)) (W2 mF ρ c (Proc.devRef .tc main_v1)) := by
  dsimp only [W3]
  after_results_simp
  simp only [ofBuf_toBuf, ofBuf_main_v1, ofBuf_main_v21_1, toBuf_main_v22]
  rfl

/-- What the second take leaves in its result buffer: the take of region 0's third output along the destination row. -/
private theorem W4_v23_gen : (W4 mF ρ c (Proc.devRef .tc main_v23) : FVec F S1600000x16 .f32)
    = take16 (W3 mF ρ c (Proc.devRef .tc main_v21_2)) (W3 mF ρ c (Proc.devRef .tc main_v3)) := by
  dsimp only [W4]
  after_results_simp
  simp only [ofBuf_toBuf, ofBuf_main_v3, ofBuf_main_v21_2, toBuf_main_v23]
  rfl

/-- A left fold by `and` from one over words that are all one is one. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; rfl
    rw [List.foldl_cons, ha]
    exact foldl_andi_one f l fun n hn => h n (List.mem_cons_of_mem _ hn)

/-- An index entry that is not negative is handed to the gather as it is. -/
private theorem takeStart_apply (idx : IVec S1600000 32) (e : Fin 1600000) (z : Fin 1) (h : 0 ≤ (idx (ix1 e)).toInt) :
    takeStart idx (ix2 e z) = idx (ix1 e) := by
  unfold takeStart
  refine (broadcastInDim_apply ![0] bcast_S1600000_S1600000x1_0 _ (ix2 e z) (ix1 e) fun a => ?_).trans ?_
  · match a with
    | ⟨0, _⟩ => rfl
  · rw [select_apply]
    have hc : cmpi .slt idx (broadcastInDim S1600000 ![] bcast_S_S1600000 (constantI S_ 32 0#32)) (ix1 e) = 0#1 := by
      refine eq_zero_of_ne_one fun h1 => ?_
      have h2 : (idx (ix1 e)).toInt < (0#32 : BitVec 32).toInt := IntOp.cmpi_slt.1 h1
      rw [show (0#32 : BitVec 32).toInt = 0 from by decide] at h2
      omega
    rw [hc, select_zero]

/-- Start indices inside the table: the range mask is all ones. -/
private theorem takeMask_one (s : IVec S1600000x1 32) (hs : ∀ i, 0 ≤ (s i).toInt ∧ (s i).toInt ≤ 99999) (j : S1600000.Idx) :
    takeMask s j = 1#1 := by
  unfold takeMask
  rw [Host.reduce_eq_foldl]
  refine foldl_andi_one _ _ fun i _ => ?_
  show IntOp.andi (IntOp.cmpi .sge (s i) 0#32) (IntOp.cmpi .sle (s i) 99999#32) = 1#1
  refine IntOp.andi_eq_one.2 ⟨IntOp.cmpi_sge.2 ?_, IntOp.cmpi_sle.2 ?_⟩
  · rw [show (0#32 : BitVec 32).toInt = 0 from by decide]; exact (hs i).1
  · rw [show (99999#32 : BitVec 32).toInt = 99999 from by decide]; exact (hs i).2

/-- THE TAKE READ AT `(e, j)`, for an index inside the table: the row the index's entry `e` names, column `j`. -/
private theorem take16_apply (x : FVec Ideal S100000x16 .f32) (idx : IVec S1600000 32)
    (hidx : ∀ e, 0 ≤ (idx (ix1 e)).toInt ∧ (idx (ix1 e)).toInt < 100000) (e : Fin 1600000) (j : Fin 16) :
    take16 x idx (ix2 e j) = x (ix2 (⟨min (idx (ix1 e)).toInt.toNat 99999, by omega⟩ : Fin 100000) j) := by
  have hs : ∀ i, 0 ≤ (takeStart idx i).toInt ∧ (takeStart idx i).toInt ≤ 99999 := fun i => by
    obtain ⟨e', z, rfl⟩ : ∃ (e' : Fin 1600000) (z : Fin 1), i = ix2 e' z := ⟨i 0, i 1, eq_ix2 i⟩
    rw [takeStart_apply idx e' z (hidx e').1]
    exact ⟨(hidx e').1, by have := (hidx e').2; omega⟩
  have hm : broadcastInDim S1600000x16 ![0] bcast_S1600000_S1600000x16_0 (takeMask (takeStart idx)) (ix2 e j) = 1#1 :=
    takeMask_one _ hs _
  have hr : Indexing.rowAt (takeStart idx) e = (⟨min (idx (ix1 e)).toInt.toNat 99999, by omega⟩ : Fin 100000) :=
    Fin.ext (congrArg (fun w : BitVec 32 => min w.toInt.toNat 99999) (takeStart_apply idx e 0 (hidx e).1))
  unfold take16
  rw [select_apply, hm, select_one, Indexing.K_gather16, hr]

end Take

/-! ## At region 1's entry (`W4`): the two takes -/

/-- The two rows of the edge index, as the takes find them: untouched since region 0's entry. -/
private theorem W2_v1 (e : Fin 1600000) :
    (W2 m ρ c (Proc.devRef .tc main_v1) : S1600000.Idx → BitVec 32) (ix1 e) = A3 m c (ix2 0 e) := by
  have h : (W2 m ρ c (Proc.devRef .tc main_v1) : S1600000.Idx → BitVec 32) = W1 m ρ c (Proc.devRef .tc main_v1) :=
    W2_of_ne m ρ c main_v1 (by decide)
  exact (congrFun h (ix1 e)).trans (W1_v1 m ρ c e)
private theorem W3_v3 (e : Fin 1600000) :
    (W3 m ρ c (Proc.devRef .tc main_v3) : S1600000.Idx → BitVec 32) (ix1 e) = A3 m c (ix2 1 e) := by
  have h : (W3 m ρ c (Proc.devRef .tc main_v3) : S1600000.Idx → BitVec 32) = W1 m ρ c (Proc.devRef .tc main_v3) :=
    (W3_keep m ρ c main_v3 (by decide)).trans (W2_of_ne m ρ c main_v3 (by decide))
  exact (congrFun h (ix1 e)).trans (W1_v3 m ρ c e)

theorem W4_v22 (hidx : ∀ i, 0 ≤ (A3 m c i).toInt ∧ (A3 m c i).toInt < 100000) (e : Fin 1600000) (j : Fin 16) :
    (W4 m ρ c (Proc.devRef .tc main_v22) : S1600000x16.Idx → EReal) (ix2 e j)
      = ∑ t : Fin 32, Hub.hi (A0 m c) (A5 m c) (A6 m c) (Hub.rowOf (A3 m c) 0 e) t * A9 m c (ix2 ⟨t.val, by omega⟩ j) := by
  have h1 : (W4 m ρ c (Proc.devRef .tc main_v22) : S1600000x16.Idx → EReal) = W3 m ρ c (Proc.devRef .tc main_v22) :=
    W4_keep m ρ c main_v22 (by decide)
  have h2 : (W3 m ρ c (Proc.devRef .tc main_v22) : S1600000x16.Idx → EReal)
      = take16 (F := Ideal) (W2 m ρ c (Proc.devRef .tc main_v21_1)) (W2 m ρ c (Proc.devRef .tc main_v1)) := W3_v22_gen ρ c m
  have hi : ∀ e', 0 ≤ ((W2 m ρ c (Proc.devRef .tc main_v1) : S1600000.Idx → BitVec 32) (ix1 e')).toInt
      ∧ ((W2 m ρ c (Proc.devRef .tc main_v1) : S1600000.Idx → BitVec 32) (ix1 e')).toInt < 100000 := fun e' => by
    rw [W2_v1]; exact hidx _
  have hrow : (⟨min ((W2 m ρ c (Proc.devRef .tc main_v1) : S1600000.Idx → BitVec 32) (ix1 e)).toInt.toNat 99999,
      by omega⟩ : Fin 100000) = Hub.rowOf (A3 m c) 0 e :=
    Fin.ext (congrArg (fun w : BitVec 32 => min w.toInt.toNat 99999) (W2_v1 m ρ c e))
  refine (congrFun h1 (ix2 e j)).trans ((congrFun h2 (ix2 e j)).trans ?_)
  refine (take16_apply _ _ hi e j).trans ?_
  rw [hrow]
  exact W2_v21_1 m ρ c _ j

theorem W4_v23 (hidx : ∀ i, 0 ≤ (A3 m c i).toInt ∧ (A3 m c i).toInt < 100000) (e : Fin 1600000) (j : Fin 16) :
    (W4 m ρ c (Proc.devRef .tc main_v23) : S1600000x16.Idx → EReal) (ix2 e j)
      = ∑ t : Fin 32, Hub.hi (A0 m c) (A5 m c) (A6 m c) (Hub.rowOf (A3 m c) 1 e) t * A9 m c (ix2 ⟨32 + t.val, by omega⟩ j) := by
  have h2 : (W4 m ρ c (Proc.devRef .tc main_v23) : S1600000x16.Idx → EReal)
      = take16 (F := Ideal) (W3 m ρ c (Proc.devRef .tc main_v21_2)) (W3 m ρ c (Proc.devRef .tc main_v3)) := W4_v23_gen ρ c m
  have h3 : (W3 m ρ c (Proc.devRef .tc main_v21_2) : S100000x16.Idx → EReal) = W2 m ρ c (Proc.devRef .tc main_v21_2) :=
    W3_keep m ρ c main_v21_2 (by decide)
  have hi : ∀ e', 0 ≤ ((W3 m ρ c (Proc.devRef .tc main_v3) : S1600000.Idx → BitVec 32) (ix1 e')).toInt
      ∧ ((W3 m ρ c (Proc.devRef .tc main_v3) : S1600000.Idx → BitVec 32) (ix1 e')).toInt < 100000 := fun e' => by
    rw [W3_v3]; exact hidx _
  have hrow : (⟨min ((W3 m ρ c (Proc.devRef .tc main_v3) : S1600000.Idx → BitVec 32) (ix1 e)).toInt.toNat 99999,
      by omega⟩ : Fin 100000) = Hub.rowOf (A3 m c) 1 e :=
    Fin.ext (congrArg (fun w : BitVec 32 => min w.toInt.toNat 99999) (W3_v3 m ρ c e))
  refine (congrFun h2 (ix2 e j)).trans ?_
  refine (take16_apply _ _ hi e j).trans ?_
  rw [hrow]
  exact (congrFun h3 _).trans (W2_v21_2 m ρ c _ j)

/-! ## At region 1's exit (`W5`) -/

/-- The edge aggregator's rows. -/
theorem W5_v24 (hidx : ∀ i, 0 ≤ (A3 m c i).toInt ∧ (A3 m c i).toInt < 100000) (e : Fin 1600000) (j : Fin 16) :
    (W5 m ρ c (Proc.devRef .tc main_v24) : S1600000x16.Idx → EReal) (ix2 e j) = Hub.edge (A0 m c) (A1 m c) (A2 m c) (A3 m c) (A5 m c) (A6 m c) (A7 m c) (A8 m c) (A9 m c) (A10 m c) e j := by
  have h : (W5 m ρ c (Proc.devRef .tc main_v24) : S1600000x16.Idx → EReal) = (dat1 (V4 m ρ) c).arrAt 5 cfg1.N := W5_arr m ρ c 5
  -- region 1's five inputs at its entry: the two takes, the edge attributes, their weight rows, the folded constant row
  have e0 : Reg1.a0 (V4 m ρ) c (ix2 e j)
      = ∑ t : Fin 32, Hub.hi (A0 m c) (A5 m c) (A6 m c) (Hub.rowOf (A3 m c) 0 e) t * A9 m c (ix2 ⟨t.val, by omega⟩ j) :=
    W4_v22 m ρ c hidx e j
  have e1 : Reg1.a1 (V4 m ρ) c (ix2 e j)
      = ∑ t : Fin 32, Hub.hi (A0 m c) (A5 m c) (A6 m c) (Hub.rowOf (A3 m c) 1 e) t * A9 m c (ix2 ⟨32 + t.val, by omega⟩ j) :=
    W4_v23 m ρ c hidx e j
  have e2 : Reg1.a2 (V4 m ρ) c = A1 m c :=
    (W4_of_W1 m ρ c main_arg1 (by decide) (by decide) (by decide)).trans (W1_arg1 m ρ c)
  have h6 : Reg1.a3 (V4 m ρ) c = (W1 m ρ c (Proc.devRef .tc main_v6) : S16x16.Idx → EReal) :=
    W4_of_W1 m ρ c main_v6 (by decide) (by decide) (by decide)
  have e3 : ∀ t : Fin 16, Reg1.a3 (V4 m ρ) c (ix2 t j) = A9 m c (ix2 ⟨64 + t.val, by omega⟩ j) := fun t =>
    (congrFun h6 _).trans (W1_v6 m ρ c t j)
  have h16 : Reg1.a4 (V4 m ρ) c = (W1 m ρ c (Proc.devRef .tc main_v16) : S1x16.Idx → EReal) :=
    W4_of_W1 m ρ c main_v16 (by decide) (by decide) (by decide)
  have e4 : Reg1.a4 (V4 m ρ) c (ix2 0 j)
      = (∑ t : Fin 16, Hub.hG (A2 m c) (A7 m c) (A8 m c) t * A9 m c (ix2 ⟨80 + t.val, by omega⟩ j)) + A10 m c (ix1 j) :=
    (congrFun h16 _).trans (W1_v16 m ρ c j)
  -- the kernel adds the folded constant row (graph term plus bias) last: regroup the sum
  have key : max (((Reg1.a0 (V4 m ρ) c (ix2 e j) + Reg1.a1 (V4 m ρ) c (ix2 e j))
        + ∑ t : Fin 16, Reg1.a2 (V4 m ρ) c (ix2 e t) * Reg1.a3 (V4 m ρ) c (ix2 t j)) + Reg1.a4 (V4 m ρ) c (ix2 0 j)) 0
      = Hub.edge (A0 m c) (A1 m c) (A2 m c) (A3 m c) (A5 m c) (A6 m c) (A7 m c) (A8 m c) (A9 m c) (A10 m c) e j := by
    have s3 : ∑ t : Fin 16, Reg1.a2 (V4 m ρ) c (ix2 e t) * Reg1.a3 (V4 m ρ) c (ix2 t j)
        = ∑ t : Fin 16, A1 m c (ix2 e t) * A9 m c (ix2 ⟨64 + t.val, by omega⟩ j) :=
      Finset.sum_congr rfl fun t _ => by rw [e2, e3]
    rw [s3, e0, e1, e4, ← add_assoc]
    rfl
  exact (congrFun h (ix2 e j)).trans ((Reg1.out_edge (V4 m ρ) c e j).trans key)

/-- Carried to region 1's exit unchanged. -/
theorem W5_v21_0 (r : Fin 100000) (j : Fin 32) :
    (W5 m ρ c (Proc.devRef .tc main_v21_0) : S100000x32.Idx → EReal) (ix2 r j) = Hub.hi (A0 m c) (A5 m c) (A6 m c) r j := by
  have h : (W5 m ρ c (Proc.devRef .tc main_v21_0) : S100000x32.Idx → EReal) = W2 m ρ c (Proc.devRef .tc main_v21_0) :=
    (W5_of_ne m ρ c main_v21_0 (by decide)).trans ((W4_keep m ρ c main_v21_0 (by decide)).trans (W3_keep m ρ c main_v21_0 (by decide)))
  exact (congrFun h _).trans (W2_v21_0 m ρ c r j)
theorem W5_v1 (e : Fin 1600000) : (W5 m ρ c (Proc.devRef .tc main_v1) : S1600000.Idx → BitVec 32) (ix1 e) = A3 m c (ix2 0 e) := by
  have h : (W5 m ρ c (Proc.devRef .tc main_v1) : S1600000.Idx → BitVec 32) = W1 m ρ c (Proc.devRef .tc main_v1) :=
    W5_of_W1 m ρ c main_v1 (by decide) (by decide) (by decide) (by decide)
  exact (congrFun h _).trans (W1_v1 m ρ c e)
theorem W5_v3 (e : Fin 1600000) : (W5 m ρ c (Proc.devRef .tc main_v3) : S1600000.Idx → BitVec 32) (ix1 e) = A3 m c (ix2 1 e) := by
  have h : (W5 m ρ c (Proc.devRef .tc main_v3) : S1600000.Idx → BitVec 32) = W1 m ρ c (Proc.devRef .tc main_v3) :=
    W5_of_W1 m ρ c main_v3 (by decide) (by decide) (by decide) (by decide)
  exact (congrFun h _).trans (W1_v3 m ρ c e)
theorem W5_v8 (t : Fin 32) (j : Fin 32) : (W5 m ρ c (Proc.devRef .tc main_v8) : S32x32.Idx → EReal) (ix2 t j) = A11 m c (ix2 ⟨t.val, by omega⟩ j) := by
  have h : (W5 m ρ c (Proc.devRef .tc main_v8) : S32x32.Idx → EReal) = W1 m ρ c (Proc.devRef .tc main_v8) :=
    W5_of_W1 m ρ c main_v8 (by decide) (by decide) (by decide) (by decide)
  exact (congrFun h _).trans (W1_v8 m ρ c t j)
theorem W5_v9 (t : Fin 16) (j : Fin 32) : (W5 m ρ c (Proc.devRef .tc main_v9) : S16x32.Idx → EReal) (ix2 t j) = A11 m c (ix2 ⟨32 + t.val, by omega⟩ j) := by
  have h : (W5 m ρ c (Proc.devRef .tc main_v9) : S16x32.Idx → EReal) = W1 m ρ c (Proc.devRef .tc main_v9) :=
    W5_of_W1 m ρ c main_v9 (by decide) (by decide) (by decide) (by decide)
  exact (congrFun h _).trans (W1_v9 m ρ c t j)
theorem W5_v19 (j : Fin 32) : (W5 m ρ c (Proc.devRef .tc main_v19) : S1x32.Idx → EReal) (ix2 0 j)
    = (∑ t : Fin 16, Hub.hG (A2 m c) (A7 m c) (A8 m c) t * A11 m c (ix2 ⟨48 + t.val, by omega⟩ j)) + A12 m c (ix1 j) := by
  have h : (W5 m ρ c (Proc.devRef .tc main_v19) : S1x32.Idx → EReal) = W1 m ρ c (Proc.devRef .tc main_v19) :=
    W5_of_W1 m ρ c main_v19 (by decide) (by decide) (by decide) (by decide)
  exact (congrFun h _).trans (W1_v19 m ρ c j)
theorem W5_arg4 : (W5 m ρ c (Proc.devRef .tc main_arg4) : S100000.Idx → BitVec 32) = A4 m c :=
  (W5_of_W1 m ρ c main_arg4 (by decide) (by decide) (by decide) (by decide)).trans (W1_arg4 m ρ c)
theorem W5_arg13 : (W5 m ρ c (Proc.devRef .tc main_arg13) : S32x8.Idx → EReal) = A13 m c :=
  (W5_of_W1 m ρ c main_arg13 (by decide) (by decide) (by decide) (by decide)).trans (W1_arg13 m ρ c)
theorem W5_arg14 : (W5 m ρ c (Proc.devRef .tc main_arg14) : S8.Idx → EReal) = A14 m c :=
  (W5_of_W1 m ρ c main_arg14 (by decide) (by decide) (by decide) (by decide)).trans (W1_arg14 m ρ c)
theorem W5_arg15 : (W5 m ρ c (Proc.devRef .tc main_arg15) : S32x8.Idx → EReal) = A15 m c :=
  (W5_of_W1 m ρ c main_arg15 (by decide) (by decide) (by decide) (by decide)).trans (W1_arg15 m ρ c)

end Cert.KernelIdeal.KVal

end
-- ==== Proof.Reg2.lean ====
/-
  Region 2 (the node aggregator and the left projection), read as whole arrays at an index: for ANY contents
  `V` of the core's buffers at the region's entry, the two output arrays after the region are, row by row,
  `h₂ = max ((h · W₁ + m · W₂) + c_node) 0` and `y = h₂ · W_l`.
-/
import proofs.«415651_j317827579953_3_alg».proof.Proof.Gen.KernelIdeal.Frame
import proofs.«415651_j317827579953_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg2

open Idealize.ShloMosaic Idealize.ShloMosaic.TcCoe Idealize.SL.Sem Idealize.ShloMosaic.ValueIdx
open Cert.KernelIdeal Cert.KernelIdeal.Gen Cert.Spec

variable (V : (c : Dev nD) → (b : Ref sig .tc) → Buf (Elt Ideal) ((c : Thread nD τ).loc b)) (c : Dev nD)

/-- The region's six input arrays as it finds them. -/
abbrev a0 : S100000x32.Idx → EReal := V c (Pipeline.arrRef spec2 0)
abbrev a1 : S100000x16.Idx → EReal := V c (Pipeline.arrRef spec2 1)
abbrev a2 : S32x32.Idx → EReal := V c (Pipeline.arrRef spec2 2)
abbrev a3 : S16x32.Idx → EReal := V c (Pipeline.arrRef spec2 3)
abbrev a4 : S1x32.Idx → EReal := V c (Pipeline.arrRef spec2 4)
abbrev a5 : S32x8.Idx → EReal := V c (Pipeline.arrRef spec2 5)

/-- The aggregated node state, row `r` column `j`. -/
def hi2Of : Mat 100000 32 := fun r j =>
  max (((∑ t : Fin 32, a0 V c (ix2 r t) * a2 V c (ix2 t j)) + ∑ t : Fin 16, a1 V c (ix2 r t) * a3 V c (ix2 t j)) + a4 V c (ix2 0 j)) 0

/-! ## The body's stored values at a coordinate

Each of the body's three products, into the zero accumulator, read at an output coordinate. -/
/-! The product `[5000,32] · [32,32]`: the operand indices of output `(p, q)` at contraction coordinate `k` are
    `(p, k)` and `(k, q)`. -/
private theorem lhs_mmA_0 (i : S5000x32.Idx) (k : dot_S5000x32_S32x32_S5000x32_1_0_0_1_n_n.contr.Idx) :
    (dot_S5000x32_S32x32_S5000x32_1_0_0_1_n_n.lhsIdx i k 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
private theorem lhs_mmA_1 (i : S5000x32.Idx) (k : dot_S5000x32_S32x32_S5000x32_1_0_0_1_n_n.contr.Idx) :
    (dot_S5000x32_S32x32_S5000x32_1_0_0_1_n_n.lhsIdx i k 1).val = (k ⟨0, by decide⟩).val :=
  dot_S5000x32_S32x32_S5000x32_1_0_0_1_n_n.lhsIdx_val_of_single rfl i k
private theorem rhs_mmA_0 (i : S5000x32.Idx) (k : dot_S5000x32_S32x32_S5000x32_1_0_0_1_n_n.contr.Idx) :
    (dot_S5000x32_S32x32_S5000x32_1_0_0_1_n_n.rhsIdx i k 0).val = (k ⟨0, by decide⟩).val :=
  dot_S5000x32_S32x32_S5000x32_1_0_0_1_n_n.rhsIdx_val_of_single rfl i k
private theorem rhs_mmA_1 (i : S5000x32.Idx) (k : dot_S5000x32_S32x32_S5000x32_1_0_0_1_n_n.contr.Idx) :
    (dot_S5000x32_S32x32_S5000x32_1_0_0_1_n_n.rhsIdx i k 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl
/-- Into the zero accumulator, entry `(p, q)` of the product is the plain sum over the contracted coordinate. -/
private theorem mmA_apply (l : FVec Ideal S5000x32 .bf16) (r : FVec Ideal S32x32 .bf16) (p : Fin 5000) (q : Fin 32) :
    matmul dot_S5000x32_S32x32_S5000x32_1_0_0_1_n_n none l r (constant S5000x32 .f32 0x00000000#32) (ix2 p q) = ∑ t : Fin 32, l (ix2 p t) * r (ix2 t q) := by
  simp only [matmul]
  rw [Ideal.matmul_constant_zero_apply, ← Equiv.sum_comp (contrEquiv1 dot_S5000x32_S32x32_S5000x32_1_0_0_1_n_n 32 rfl rfl).symm]
  refine Finset.sum_congr rfl fun t _ => ?_
  have ht := contrEquiv1_symm_val dot_S5000x32_S32x32_S5000x32_1_0_0_1_n_n 32 rfl rfl t
  have el : dot_S5000x32_S32x32_S5000x32_1_0_0_1_n_n.lhsIdx (ix2 p q) ((contrEquiv1 dot_S5000x32_S32x32_S5000x32_1_0_0_1_n_n 32 rfl rfl).symm t) = ix2 p t := funext fun a => Fin.ext (by
    match a with
    | ⟨0, _⟩ => exact lhs_mmA_0 _ _
    | ⟨1, _⟩ => exact (lhs_mmA_1 _ _).trans ht)
  have er : dot_S5000x32_S32x32_S5000x32_1_0_0_1_n_n.rhsIdx (ix2 p q) ((contrEquiv1 dot_S5000x32_S32x32_S5000x32_1_0_0_1_n_n 32 rfl rfl).symm t) = ix2 t q := funext fun a => Fin.ext (by
    match a with
    | ⟨0, _⟩ => exact (rhs_mmA_0 _ _).trans ht
    | ⟨1, _⟩ => exact rhs_mmA_1 _ _)
  rw [el, er]

/-! The product `[5000,16] · [16,32]`: the operand indices of output `(p, q)` at contraction coordinate `k` are
    `(p, k)` and `(k, q)`. -/
private theorem lhs_mmB_0 (i : S5000x32.Idx) (k : dot_S5000x16_S16x32_S5000x32_1_0_0_1_n_n.contr.Idx) :
    (dot_S5000x16_S16x32_S5000x32_1_0_0_1_n_n.lhsIdx i k 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
private theorem lhs_mmB_1 (i : S5000x32.Idx) (k : dot_S5000x16_S16x32_S5000x32_1_0_0_1_n_n.contr.Idx) :
    (dot_S5000x16_S16x32_S5000x32_1_0_0_1_n_n.lhsIdx i k 1).val = (k ⟨0, by decide⟩).val :=
  dot_S5000x16_S16x32_S5000x32_1_0_0_1_n_n.lhsIdx_val_of_single rfl i k
private theorem rhs_mmB_0 (i : S5000x32.Idx) (k : dot_S5000x16_S16x32_S5000x32_1_0_0_1_n_n.contr.Idx) :
    (dot_S5000x16_S16x32_S5000x32_1_0_0_1_n_n.rhsIdx i k 0).val = (k ⟨0, by decide⟩).val :=
  dot_S5000x16_S16x32_S5000x32_1_0_0_1_n_n.rhsIdx_val_of_single rfl i k
private theorem rhs_mmB_1 (i : S5000x32.Idx) (k : dot_S5000x16_S16x32_S5000x32_1_0_0_1_n_n.contr.Idx) :
    (dot_S5000x16_S16x32_S5000x32_1_0_0_1_n_n.rhsIdx i k 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl
/-- Into the zero accumulator, entry `(p, q)` of the product is the plain sum over the contracted coordinate. -/
private theorem mmB_apply (l : FVec Ideal S5000x16 .bf16) (r : FVec Ideal S16x32 .bf16) (p : Fin 5000) (q : Fin 32) :
    matmul dot_S5000x16_S16x32_S5000x32_1_0_0_1_n_n none l r (constant S5000x32 .f32 0x00000000#32) (ix2 p q) = ∑ t : Fin 16, l (ix2 p t) * r (ix2 t q) := by
  simp only [matmul]
  rw [Ideal.matmul_constant_zero_apply, ← Equiv.sum_comp (contrEquiv1 dot_S5000x16_S16x32_S5000x32_1_0_0_1_n_n 16 rfl rfl).symm]
  refine Finset.sum_congr rfl fun t _ => ?_
  have ht := contrEquiv1_symm_val dot_S5000x16_S16x32_S5000x32_1_0_0_1_n_n 16 rfl rfl t
  have el : dot_S5000x16_S16x32_S5000x32_1_0_0_1_n_n.lhsIdx (ix2 p q) ((contrEquiv1 dot_S5000x16_S16x32_S5000x32_1_0_0_1_n_n 16 rfl rfl).symm t) = ix2 p t := funext fun a => Fin.ext (by
    match a with
    | ⟨0, _⟩ => exact lhs_mmB_0 _ _
    | ⟨1, _⟩ => exact (lhs_mmB_1 _ _).trans ht)
  have er : dot_S5000x16_S16x32_S5000x32_1_0_0_1_n_n.rhsIdx (ix2 p q) ((contrEquiv1 dot_S5000x16_S16x32_S5000x32_1_0_0_1_n_n 16 rfl rfl).symm t) = ix2 t q := funext fun a => Fin.ext (by
    match a with
    | ⟨0, _⟩ => exact (rhs_mmB_0 _ _).trans ht
    | ⟨1, _⟩ => exact rhs_mmB_1 _ _)
  rw [el, er]

/-! The product `[5000,32] · [32,8]`: the operand indices of output `(p, q)` at contraction coordinate `k` are
    `(p, k)` and `(k, q)`. -/
private theorem lhs_mmC_0 (i : S5000x8.Idx) (k : dot_S5000x32_S32x8_S5000x8_1_0_0_1_n_n.contr.Idx) :
    (dot_S5000x32_S32x8_S5000x8_1_0_0_1_n_n.lhsIdx i k 0).val = (i 0).val := by
  unfold DotDims.lhsIdx
  rw [dif_neg (show ¬(0 : Fin S5000x32.rank) ∈ dot_S5000x32_S32x8_S5000x8_1_0_0_1_n_n.lhsBatch by decide), dif_pos (show (0 : Fin S5000x32.rank) ∈ dot_S5000x32_S32x8_S5000x8_1_0_0_1_n_n.lhsNonContracting by decide)]
  rfl
private theorem lhs_mmC_1 (i : S5000x8.Idx) (k : dot_S5000x32_S32x8_S5000x8_1_0_0_1_n_n.contr.Idx) :
    (dot_S5000x32_S32x8_S5000x8_1_0_0_1_n_n.lhsIdx i k 1).val = (k ⟨0, by decide⟩).val :=
  dot_S5000x32_S32x8_S5000x8_1_0_0_1_n_n.lhsIdx_val_of_single rfl i k
private theorem rhs_mmC_0 (i : S5000x8.Idx) (k : dot_S5000x32_S32x8_S5000x8_1_0_0_1_n_n.contr.Idx) :
    (dot_S5000x32_S32x8_S5000x8_1_0_0_1_n_n.rhsIdx i k 0).val = (k ⟨0, by decide⟩).val :=
  dot_S5000x32_S32x8_S5000x8_1_0_0_1_n_n.rhsIdx_val_of_single rfl i k
private theorem rhs_mmC_1 (i : S5000x8.Idx) (k : dot_S5000x32_S32x8_S5000x8_1_0_0_1_n_n.contr.Idx) :
    (dot_S5000x32_S32x8_S5000x8_1_0_0_1_n_n.rhsIdx i k 1).val = (i 1).val := by
  unfold DotDims.rhsIdx
  rw [dif_neg (show ¬(1 : Fin S32x8.rank) ∈ dot_S5000x32_S32x8_S5000x8_1_0_0_1_n_n.rhsBatch by decide), dif_pos (show (1 : Fin S32x8.rank) ∈ dot_S5000x32_S32x8_S5000x8_1_0_0_1_n_n.rhsNonContracting by decide)]
  rfl
/-- Into the zero accumulator, entry `(p, q)` of the product is the plain sum over the contracted coordinate. -/
private theorem mmC_apply (l : FVec Ideal S5000x32 .bf16) (r : FVec Ideal S32x8 .bf16) (p : Fin 5000) (q : Fin 8) :
    matmul dot_S5000x32_S32x8_S5000x8_1_0_0_1_n_n none l r (constant S5000x8 .f32 0x00000000#32) (ix2 p q) = ∑ t : Fin 32, l (ix2 p t) * r (ix2 t q) := by
  simp only [matmul]
  rw [Ideal.matmul_constant_zero_apply, ← Equiv.sum_comp (contrEquiv1 dot_S5000x32_S32x8_S5000x8_1_0_0_1_n_n 32 rfl rfl).symm]
  refine Finset.sum_congr rfl fun t _ => ?_
  have ht := contrEquiv1_symm_val dot_S5000x32_S32x8_S5000x8_1_0_0_1_n_n 32 rfl rfl t
  have el : dot_S5000x32_S32x8_S5000x8_1_0_0_1_n_n.lhsIdx (ix2 p q) ((contrEquiv1 dot_S5000x32_S32x8_S5000x8_1_0_0_1_n_n 32 rfl rfl).symm t) = ix2 p t := funext fun a => Fin.ext (by
    match a with
    | ⟨0, _⟩ => exact lhs_mmC_0 _ _
    | ⟨1, _⟩ => exact (lhs_mmC_1 _ _).trans ht)
  have er : dot_S5000x32_S32x8_S5000x8_1_0_0_1_n_n.rhsIdx (ix2 p q) ((contrEquiv1 dot_S5000x32_S32x8_S5000x8_1_0_0_1_n_n 32 rfl rfl).symm t) = ix2 t q := funext fun a => Fin.ext (by
    match a with
    | ⟨0, _⟩ => exact (rhs_mmC_0 _ _).trans ht
    | ⟨1, _⟩ => exact rhs_mmC_1 _ _)
  rw [el, er]

/-! The body's two stored values at a coordinate of the block, over any contents of the loaded blocks. -/

/-- The stored node state at `(p, q)` of the block: both products, the row added, the maximum with the zero word. -/
private theorem pay1_apply (x0 : Vec Ideal S5000x32 .f32) (x1 : Vec Ideal S5000x16 .f32) (x2 : Vec Ideal S32x32 .f32)
    (x3 : Vec Ideal S16x32 .f32) (x4 : Vec Ideal S1x32 .f32) (p : Fin 5000) (q : Fin 32) :
    k2_pay1 x0 x1 x2 x3 x4 (ix2 p q)
      = max (((∑ t : Fin 32, x0 (ix2 p t) * x2 (ix2 t q)) + ∑ t : Fin 16, x1 (ix2 p t) * x3 (ix2 t q)) + x4 (ix2 0 q)) 0 := by
  unfold k2_pay1
  simp only [shapeCast_self]
  rw [maximumf_apply, addf_apply, addf_apply, broadcast_apply, broadcastTo_1b_ab_apply, mmA_apply, mmB_apply]
  simp only [truncf_apply]
  rw [show (Scalar.ofBits .f32 0x00000000#32 : Ideal .f32) = 0 from Ideal.ofBits_zero_f32]

/-- The stored projection at `(p, q)` of the block: the product of the node state just computed with the last weight. -/
private theorem pay2_apply (x0 : Vec Ideal S5000x32 .f32) (x1 : Vec Ideal S5000x16 .f32) (x2 : Vec Ideal S32x32 .f32)
    (x3 : Vec Ideal S16x32 .f32) (x4 : Vec Ideal S1x32 .f32) (x5 : Vec Ideal S32x8 .f32) (p : Fin 5000) (q : Fin 8) :
    k2_pay2 x0 x1 x2 x3 x4 x5 (ix2 p q)
      = ∑ t : Fin 32, k2_pay1 x0 x1 x2 x3 x4 (ix2 p t) * x5 (ix2 t q) := by
  unfold k2_pay2
  rw [mmC_apply]
  simp only [truncf_apply]

/-! ## From the blocks to the arrays

Every window's block index at a grid point, decided over the twenty points: the two row-blocked inputs and the two
outputs are at block row `t`, the weights and the added row at block `(0, 0)`, which is the whole array. -/

private theorem zeros2 : (![0, 0] : Fin 2 → Nat) = fun _ => 0 := funext fun a => by fin_cases a <;> rfl

private theorem block_index : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

private theorem points_lt (t : Fin cfg2.N) : t.val < 20 := by
  have h : cfg2.N = 20 := N_2
  have := t.isLt
  omega

/-! Each input block read at a coordinate is the array at the block's rows: block row `t`, row `p` inside it, is
    array row `t * 5000 + p`; a weight's block is the weight. -/

private theorem blk0_apply (t : Fin cfg2.N) (p : Fin 5000) (k : Fin 32) (r : Fin 100000) (hr : r.val = t.val * 5000 + p.val) :
    (iblk2 V c 0 t : Vec Ideal S5000x32 .f32) (ix2 p k) = a0 V c (ix2 r k) := by
  obtain ⟨⟨e0, e1⟩, -⟩ := block_index t
  unfold iblk2
  rw [View.read_apply]
  show V c (Pipeline.arrRef spec2 0) _ = V c (Pipeline.arrRef spec2 0) _
  congr 1
  funext a; apply Fin.ext
  match a with
  | ⟨0, _⟩ => show win2_0.index t (0 : Fin 2) * 5000 + 1 * p.val = r.val; rw [e0, hr]; omega
  | ⟨1, _⟩ => show win2_0.index t (1 : Fin 2) * 32 + 1 * k.val = k.val; rw [e1]; omega

private theorem blk1_apply (t : Fin cfg2.N) (p : Fin 5000) (k : Fin 16) (r : Fin 100000) (hr : r.val = t.val * 5000 + p.val) :
    (iblk2 V c 1 t : Vec Ideal S5000x16 .f32) (ix2 p k) = a1 V c (ix2 r k) := by
  obtain ⟨-, ⟨e0, e1⟩, -⟩ := block_index t
  unfold iblk2
  rw [View.read_apply]
  show V c (Pipeline.arrRef spec2 1) _ = V c (Pipeline.arrRef spec2 1) _
  congr 1
  funext a; apply Fin.ext
  match a with
  | ⟨0, _⟩ => show win2_1.index t (0 : Fin 2) * 5000 + 1 * p.val = r.val; rw [e0, hr]; omega
  | ⟨1, _⟩ => show win2_1.index t (1 : Fin 2) * 16 + 1 * k.val = k.val; rw [e1]; omega

private theorem blk2_apply (t : Fin cfg2.N) (k : Fin 32) (q : Fin 32) :
    (iblk2 V c 2 t : Vec Ideal S32x32 .f32) (ix2 k q) = a2 V c (ix2 k q) := by
  obtain ⟨-, -, ⟨e0, e1⟩, -⟩ := block_index t
  unfold iblk2
  rw [View.read_apply]
  show V c (Pipeline.arrRef spec2 2) _ = V c (Pipeline.arrRef spec2 2) _
  congr 1
  funext a; apply Fin.ext
  match a with
  | ⟨0, _⟩ => show win2_2.index t (0 : Fin 2) * 32 + 1 * k.val = k.val; rw [e0]; omega
  | ⟨1, _⟩ => show win2_2.index t (1 : Fin 2) * 32 + 1 * q.val = q.val; rw [e1]; omega

private theorem blk3_apply (t : Fin cfg2.N) (k : Fin 16) (q : Fin 32) :
    (iblk2 V c 3 t : Vec Ideal S16x32 .f32) (ix2 k q) = a3 V c (ix2 k q) := by
  obtain ⟨-, -, -, ⟨e0, e1⟩, -⟩ := block_index t
  unfold iblk2
  rw [View.read_apply]
  show V c (Pipeline.arrRef spec2 3) _ = V c (Pipeline.arrRef spec2 3) _
  congr 1
  funext a; apply Fin.ext
  match a with
  | ⟨0, _⟩ => show win2_3.index t (0 : Fin 2) * 16 + 1 * k.val = k.val; rw [e0]; omega
  | ⟨1, _⟩ => show win2_3.index t (1 : Fin 2) * 32 + 1 * q.val = q.val; rw [e1]; omega

private theorem blk4_apply (t : Fin cfg2.N) (k : Fin 1) (q : Fin 32) :
    (iblk2 V c 4 t : Vec Ideal S1x32 .f32) (ix2 k q) = a4 V c (ix2 k q) := by
  obtain ⟨-, -, -, -, ⟨e0, e1⟩, -⟩ := block_index t
  unfold iblk2
  rw [View.read_apply]
  show V c (Pipeline.arrRef spec2 4) _ = V c (Pipeline.arrRef spec2 4) _
  congr 1
  funext a; apply Fin.ext
  match a with
  | ⟨0, _⟩ => show win2_4.index t (0 : Fin 2) * 1 + 1 * k.val = k.val; rw [e0]; omega
  | ⟨1, _⟩ => show win2_4.index t (1 : Fin 2) * 32 + 1 * q.val = q.val; rw [e1]; omega

private theorem blk5_apply (t : Fin cfg2.N) (k : Fin 32) (q : Fin 8) :
    (iblk2 V c 5 t : Vec Ideal S32x8 .f32) (ix2 k q) = a5 V c (ix2 k q) := by
  obtain ⟨-, -, -, -, -, ⟨e0, e1⟩, -⟩ := block_index t
  unfold iblk2
  rw [View.read_apply]
  show V c (Pipeline.arrRef spec2 5) _ = V c (Pipeline.arrRef spec2 5) _
  congr 1
  funext a; apply Fin.ext
  match a with
  | ⟨0, _⟩ => show win2_5.index t (0 : Fin 2) * 32 + 1 * k.val = k.val; rw [e0]; omega
  | ⟨1, _⟩ => show win2_5.index t (1 : Fin 2) * 8 + 1 * q.val = q.val; rw [e1]; omega

/-- The node state the body computes at point `t`, row `p` of the block, is the formula at array row `t * 5000 + p`. -/
private theorem pay1_at (t : Fin cfg2.N) (p : Fin 5000) (q : Fin 32) (r : Fin 100000) (hr : r.val = t.val * 5000 + p.val) :
    k2_pay1 (iblk2 V c 0 t) (iblk2 V c 1 t) (iblk2 V c 2 t) (iblk2 V c 3 t) (iblk2 V c 4 t) (ix2 p q) = hi2Of V c r q := by
  refine (pay1_apply _ _ _ _ _ p q).trans ?_
  unfold hi2Of
  simp only [blk0_apply V c t p _ r hr, blk1_apply V c t p _ r hr, blk2_apply V c t, blk3_apply V c t, blk4_apply V c t]

/-- The projection the body computes at point `t`, row `p` of the block: the product of array row `t * 5000 + p` of the
    node state with the last weight. -/
private theorem pay2_at (t : Fin cfg2.N) (p : Fin 5000) (q : Fin 8) (r : Fin 100000) (hr : r.val = t.val * 5000 + p.val) :
    k2_pay2 (iblk2 V c 0 t) (iblk2 V c 1 t) (iblk2 V c 2 t) (iblk2 V c 3 t) (iblk2 V c 4 t) (iblk2 V c 5 t) (ix2 p q)
      = ∑ k : Fin 32, hi2Of V c r k * a5 V c (ix2 k q) := by
  refine (pay2_apply _ _ _ _ _ _ p q).trans ?_
  simp only [pay1_at V c t p _ r hr, blk5_apply V c t]

/-- The two output arrays as functions of the whole index. -/
private def hiArr : S100000x32.Idx → EReal := fun i => hi2Of V c (i 0) (i 1)
private def yArr : S100000x8.Idx → EReal := fun i => ∑ k : Fin 32, hi2Of V c (i 0) k * a5 V c (ix2 k (i 1))

/-- What point `t` writes back into the node-state array is block row `t` of `hiArr`. -/
private theorem flushed6_eq (t : Fin cfg2.N) :
    (dat2 (F := Ideal) V c).flushed 6 t = ((cfg2.win 6).blk t).view.read (Elt Ideal) (hiArr V c) := by
  show (cfg2.win 6).cut (grid2.coords t) ((dat2 V c).after 6 t) = _
  rw [after2_6]
  unfold out2_6
  rw [View.canon_unit_zero zeros2]
  simp only [View.ld_unit_zero (S := S5000x32) zeros2, View.ld_unit_zero (S := S5000x16) zeros2, View.ld_unit_zero (S := S32x32) zeros2,
    View.ld_unit_zero (S := S16x32) zeros2, View.ld_unit_zero (S := S1x32) zeros2]
  obtain ⟨-, -, -, -, -, -, ⟨e0, e1⟩, -⟩ := block_index t
  have ht := points_lt t
  funext y
  have hr : t.val * 5000 + (y 0).val < 100000 := by have h5 : (y 0).val < 5000 := (y 0).isLt; omega
  have hy : y = ix2 (⟨(y 0).val, (y 0).isLt⟩ : Fin 5000) (⟨(y 1).val, (y 1).isLt⟩ : Fin 32) := by
    funext a; match a with | ⟨0, _⟩ => rfl | ⟨1, _⟩ => rfl
  have hemb : ((cfg2.win 6).blk t).view.emb y = ix2 (⟨t.val * 5000 + (y 0).val, hr⟩ : Fin 100000) (⟨(y 1).val, (y 1).isLt⟩ : Fin 32) := by
    funext a; apply Fin.ext
    match a with
    | ⟨0, _⟩ => show win2_6.index t (0 : Fin 2) * 5000 + 1 * (y 0).val = t.val * 5000 + (y 0).val; rw [e0]; omega
    | ⟨1, _⟩ => show win2_6.index t (1 : Fin 2) * 32 + 1 * (y 1).val = (y 1).val; rw [e1]; omega
  rw [View.read_apply, hemb]
  refine Eq.trans ?_ (pay1_at V c t ⟨(y 0).val, (y 0).isLt⟩ ⟨(y 1).val, (y 1).isLt⟩ ⟨t.val * 5000 + (y 0).val, hr⟩ rfl)
  exact congrArg _ hy

/-- What point `t` writes back into the projection array is block row `t` of `yArr`. -/
private theorem flushed7_eq (t : Fin cfg2.N) :
    (dat2 (F := Ideal) V c).flushed 7 t = ((cfg2.win 7).blk t).view.read (Elt Ideal) (yArr V c) := by
  show (cfg2.win 7).cut (grid2.coords t) ((dat2 V c).after 7 t) = _
  rw [after2_7]
  unfold out2_7
  rw [View.canon_unit_zero zeros2]
  simp only [View.ld_unit_zero (S := S5000x32) zeros2, View.ld_unit_zero (S := S5000x16) zeros2, View.ld_unit_zero (S := S32x32) zeros2,
    View.ld_unit_zero (S := S16x32) zeros2, View.ld_unit_zero (S := S1x32) zeros2, View.ld_unit_zero (S := S32x8) zeros2]
  obtain ⟨-, -, -, -, -, -, -, ⟨e0, e1⟩⟩ := block_index t
  have ht := points_lt t
  funext y
  have hr : t.val * 5000 + (y 0).val < 100000 := by have h5 : (y 0).val < 5000 := (y 0).isLt; omega
  have hy : y = ix2 (⟨(y 0).val, (y 0).isLt⟩ : Fin 5000) (⟨(y 1).val, (y 1).isLt⟩ : Fin 8) := by
    funext a; match a with | ⟨0, _⟩ => rfl | ⟨1, _⟩ => rfl
  have hemb : ((cfg2.win 7).blk t).view.emb y = ix2 (⟨t.val * 5000 + (y 0).val, hr⟩ : Fin 100000) (⟨(y 1).val, (y 1).isLt⟩ : Fin 8) := by
    funext a; apply Fin.ext
    match a with
    | ⟨0, _⟩ => show win2_7.index t (0 : Fin 2) * 5000 + 1 * (y 0).val = t.val * 5000 + (y 0).val; rw [e0]; omega
    | ⟨1, _⟩ => show win2_7.index t (1 : Fin 2) * 8 + 1 * (y 1).val = (y 1).val; rw [e1]; omega
  rw [View.read_apply, hemb]
  refine Eq.trans ?_ (pay2_at V c t ⟨(y 0).val, (y 0).isLt⟩ ⟨(y 1).val, (y 1).isLt⟩ ⟨t.val * 5000 + (y 0).val, hr⟩ rfl)
  exact congrArg _ hy

/-! The cover: an index of either output array is in the block of the point at its row divided by the block's rows. -/

private theorem mem_blk6 (t : Fin cfg2.N) (i : S100000x32.Idx) :
    i ∈ ((cfg2.win 6).blk t).view.set ↔ ∀ a : Fin 2, win2_6.index t a * S5000x32.size a ≤ (i a).val ∧ (i a).val < win2_6.index t a * S5000x32.size a + S5000x32.size a := by
  show i ∈ ((View.whole main_v37_0).slice (win2_6.rect t)).set ↔ _
  rw [View.set_slice_whole, Rect.mem_set_unit]
  exact Iff.rfl

private theorem mem_blk7 (t : Fin cfg2.N) (i : S100000x8.Idx) :
    i ∈ ((cfg2.win 7).blk t).view.set ↔ ∀ a : Fin 2, win2_7.index t a * S5000x8.size a ≤ (i a).val ∧ (i a).val < win2_7.index t a * S5000x8.size a + S5000x8.size a := by
  show i ∈ ((View.whole main_v37_1).slice (win2_7.rect t)).set ↔ _
  rw [View.set_slice_whole, Rect.mem_set_unit]
  exact Iff.rfl

private theorem cover6 (i : S100000x32.Idx) :
    ∃ t : Fin cfg2.N, (cfg2.win 6).flush t = true ∧ i ∈ ((cfg2.win 6).blk t).view.set := by
  have hi0 : (i 0).val < 100000 := (i 0).isLt
  have hi1 : (i 1).val < 32 := (i 1).isLt
  have hN : cfg2.N = 20 := N_2
  have hlt : (i 0).val / 5000 < cfg2.N := by rw [hN]; omega
  obtain ⟨-, -, -, -, -, -, ⟨e0, e1⟩, -⟩ := block_index ⟨(i 0).val / 5000, hlt⟩
  refine ⟨⟨(i 0).val / 5000, hlt⟩, flush2_6 _, ?_⟩
  rw [mem_blk6]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, hlt⟩ (1 : Fin 2) * 32 ≤ (i 1).val ∧ (i 1).val < win2_6.index ⟨(i 0).val / 5000, hlt⟩ (1 : Fin 2) * 32 + 32
    rw [e1]; omega

private theorem cover7 (i : S100000x8.Idx) :
    ∃ t : Fin cfg2.N, (cfg2.win 7).flush t = true ∧ i ∈ ((cfg2.win 7).blk t).view.set := by
  have hi0 : (i 0).val < 100000 := (i 0).isLt
  have hi1 : (i 1).val < 8 := (i 1).isLt
  have hN : cfg2.N = 20 := N_2
  have hlt : (i 0).val / 5000 < cfg2.N := by rw [hN]; omega
  obtain ⟨-, -, -, -, -, -, -, ⟨e0, e1⟩⟩ := block_index ⟨(i 0).val / 5000, hlt⟩
  refine ⟨⟨(i 0).val / 5000, hlt⟩, flush2_7 _, ?_⟩
  rw [mem_blk7]
  intro a
  match a with
  | ⟨0, _⟩ =>
    show win2_7.index ⟨(i 0).val / 5000, hlt⟩ (0 : Fin 2) * 5000 ≤ (i 0).val ∧ (i 0).val < win2_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_7.index ⟨(i 0).val / 5000, hlt⟩ (1 : Fin 2) * 8 ≤ (i 1).val ∧ (i 1).val < win2_7.index ⟨(i 0).val / 5000, hlt⟩ (1 : Fin 2) * 8 + 8
    rw [e1]; omega

/-- After the region the node-state array is `hiArr` everywhere: every point writes its block of it back and the blocks
    cover the array. -/
private theorem arr6_eq : (dat2 (F := Ideal) V c).arrAt 6 cfg2.N = hiArr V c :=
  (dat2 V c).arrAt_eq_of_cover 6 (hiArr V c) (fun t _ => flushed6_eq V c t) cover6

/-- And the projection array is `yArr`. -/
private theorem arr7_eq : (dat2 (F := Ideal) V c).arrAt 7 cfg2.N = yArr V c :=
  (dat2 V c).arrAt_eq_of_cover 7 (yArr V c) (fun t _ => flushed7_eq V c t) cover7

theorem out_hi2 (r : Fin 100000) (j : Fin 32) :
    ((dat2 (F := Ideal) V c).arrAt 6 cfg2.N : S100000x32.Idx → EReal) (ix2 r j) = hi2Of V c r j := by
  rw [arr6_eq]
  rfl

theorem out_y (r : Fin 100000) (j : Fin 8) :
    ((dat2 (F := Ideal) V c).arrAt 7 cfg2.N : S100000x8.Idx → EReal) (ix2 r j) = ∑ t : Fin 32, hi2Of V c r t * a5 V c (ix2 t j) := by
  rw [arr7_eq]
  rfl

end Cert.KernelIdeal.Reg2

end
-- ==== Proof.KStage2.lean ====
/-
  The kernel program from the exit of region 1 to the exit of region 2, read at an index: the host stretch
  between them is the segment mean of the edge rows over the source index; region 2 leaves the aggregated node
  state `h₂` and its left projection `y = h₂ · W_l`. The buffers later stages read are carried to region 2's
  exit unchanged.
-/
import proofs.«415651_j317827579953_3_alg».proof.Proof.KStage1
import proofs.«415651_j317827579953_3_alg».proof.Proof.Reg2
import proofs.«415651_j317827579953_3_alg».proof.Proof.Indexing
import proofs.«415651_j317827579953_3_alg».proof.Proof.Gen.ReferenceIdeal
import Idealize.ShloMosaic.Lib.ValueIdx
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

namespace Cert.KernelIdeal.KVal

open Idealize.ShloMosaic Idealize.ShloMosaic.TcCoe Idealize.SL.Sem Idealize.ShloMosaic.ValueIdx Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## Buffers the host stretch between regions 1 and 2 does not write

None of the stretch's sixteen operations has one of these buffers as its result, so each holds at region 2's
entry what it held at region 1's exit. -/

/-- Closes `after ops V b = V b` for a buffer `b` that is the result of none of the operations `ops`. -/
local macro "not_written_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

private theorem W6_keeps_v1 : W6 m ρ c (Proc.devRef .tc main_v1) = W5 m ρ c (Proc.devRef .tc main_v1) := by
  not_written_by hostOps2
private theorem W6_keeps_v3 : W6 m ρ c (Proc.devRef .tc main_v3) = W5 m ρ c (Proc.devRef .tc main_v3) := by
  not_written_by hostOps2
private theorem W6_keeps_arg4 : W6 m ρ c (Proc.devRef .tc main_arg4) = W5 m ρ c (Proc.devRef .tc main_arg4) := by
  not_written_by hostOps2
private theorem W6_keeps_arg13 : W6 m ρ c (Proc.devRef .tc main_arg13) = W5 m ρ c (Proc.devRef .tc main_arg13) := by
  not_written_by hostOps2
private theorem W6_keeps_arg14 : W6 m ρ c (Proc.devRef .tc main_arg14) = W5 m ρ c (Proc.devRef .tc main_arg14) := by
  not_written_by hostOps2
private theorem W6_keeps_arg15 : W6 m ρ c (Proc.devRef .tc main_arg15) = W5 m ρ c (Proc.devRef .tc main_arg15) := by
  not_written_by hostOps2
private theorem W6_keeps_v21_0 : W6 m ρ c (Proc.devRef .tc main_v21_0) = W5 m ρ c (Proc.devRef .tc main_v21_0) := by
  not_written_by hostOps2
private theorem W6_keeps_v8 : W6 m ρ c (Proc.devRef .tc main_v8) = W5 m ρ c (Proc.devRef .tc main_v8) := by
  not_written_by hostOps2
private theorem W6_keeps_v9 : W6 m ρ c (Proc.devRef .tc main_v9) = W5 m ρ c (Proc.devRef .tc main_v9) := by
  not_written_by hostOps2
private theorem W6_keeps_v19 : W6 m ρ c (Proc.devRef .tc main_v19) = W5 m ρ c (Proc.devRef .tc main_v19) := by
  not_written_by hostOps2

/-! ## The host stretch's quotient, read at an index

The stretch scatter-adds the edge rows into a zero table along the source index, scatter-adds a one per edge into
a zero column along the same index, raises the count to at least one, and divides the first by the second
broadcast along the columns. -/

/-- The stretch's result as a function of the two buffers it reads: the source row of the edge index and the
    edge rows. -/
private def meanOf (v1 : IVec S1600000 32) (v24 : FVec Ideal S1600000x16 .f32) : FVec Ideal S100000x16 .f32 :=
  Host.divf (F := Ideal)
    (Host.scatterAdd (F := Ideal) scatter_S100000x16_S1600000x1_S1600000x16_1_0_0_1
      (broadcastInDim S100000x16 ![] bcast_S_S100000x16 (constant (F := Ideal) S_ .f32 0x00000000#32))
      (broadcastInDim S1600000x1 ![0] bcast_S1600000_S1600000x1_0 v1)
      v24)
    (broadcastInDim S100000x16 ![0, 1] bcast_S100000x1_S100000x16_0_1
      (broadcastInDim S100000x1 ![0] bcast_S100000_S100000x1_0
        (maximumf
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 v1)
            (broadcastInDim S1600000 ![] bcast_S_S1600000 (constant (F := Ideal) S_ .f32 0x3F800000#32)))
          (broadcastInDim S100000 ![] bcast_S_S100000 (constant (F := Ideal) S_ .f32 0x3F800000#32)))))

/-- At region 2's entry the quotient's buffer holds the stretch's term over region 1's exit contents. -/
private theorem W6_v36_term :
    (W6 m ρ c (Proc.devRef .tc main_v36) : S100000x16.Idx → EReal)
      = meanOf (W5 m ρ c (Proc.devRef .tc main_v1)) (W5 m ρ c (Proc.devRef .tc main_v24)) := by
  show StableHlo.after hostOps2 (W5 m ρ c) (Proc.devRef .tc main_v36) = _
  after_results_simp
  rfl

/-- The column of start indices handed to both scatters, at member `e`, is the source row's entry `e`. -/
private theorem idxCol_apply (v : IVec S1600000 32) (e : Fin 1600000) :
    broadcastInDim S1600000x1 ![0] bcast_S1600000_S1600000x1_0 v (ix2 e (0 : Fin 1)) = v (ix1 e) :=
  broadcastInDim_apply _ bcast_S1600000_S1600000x1_0 v (ix2 e (0 : Fin 1)) (ix1 e) (fun a => match a with
    | ⟨0, _⟩ => by show e.val = if (1600000 : Nat) = 1 then 0 else e.val; rw [if_neg (by decide)])

/-- The count raised to at least one, as a column and then along the sixteen columns, at `(n, j)` is its entry `n`. -/
private theorem countCols_apply (x : FVec Ideal S100000 .f32) (n : Fin 100000) (j : Fin 16) :
    broadcastInDim S100000x16 ![0, 1] bcast_S100000x1_S100000x16_0_1
      (broadcastInDim S100000x1 ![0] bcast_S100000_S100000x1_0 x) (ix2 n j) = x (ix1 n) := by
  generalize hy : broadcastInDim S100000x1 ![0] bcast_S100000_S100000x1_0 x = y
  have e1 : broadcastInDim S100000x16 ![0, 1] bcast_S100000x1_S100000x16_0_1 y (ix2 n j) = y (ix2 n (0 : Fin 1)) :=
    broadcastInDim_apply _ bcast_S100000x1_S100000x16_0_1 y (ix2 n j) (ix2 n (0 : Fin 1)) (fun a => match a with
      | ⟨0, _⟩ => by show n.val = if (100000 : Nat) = 1 then 0 else n.val; rw [if_neg (by decide)]
      | ⟨1, _⟩ => by show 0 = if (1 : Nat) = 1 then 0 else j.val; rw [if_pos rfl])
  rw [e1, ← hy]
  exact broadcastInDim_apply _ bcast_S100000_S100000x1_0 x (ix2 n (0 : Fin 1)) (ix1 n) (fun a => match a with
    | ⟨0, _⟩ => by show n.val = if (100000 : Nat) = 1 then 0 else n.val; rw [if_neg (by decide)])

/-- A constant word broadcast to any shape reads, everywhere, as the word's value. -/
private theorem splat_apply {T : Shape} (h : S_.BroadcastsInDim T ![]) (b : BitVec 32) (i : T.Idx) :
    broadcastInDim T ![] h (constant (F := Ideal) S_ .f32 b) i = Ideal.ofBits .f32 b :=
  (broadcastInDim_scalar_apply h _ i).trans rfl

/-- The quotient at `(n, j)` is the segment mean of the edge rows over the members whose start index is `n`. -/
private theorem meanOf_apply (v1 : IVec S1600000 32) (v24 : FVec Ideal S1600000x16 .f32) (n : Fin 100000) (j : Fin 16) :
    meanOf v1 v24 (ix2 n j)
      = Hub.segMean (Cert.Indexing.hits (broadcastInDim S1600000x1 ![0] bcast_S1600000_S1600000x1_0 v1) n)
          (fun e j' => v24 (ix2 e j')) j := by
  unfold meanOf Hub.segMean
  rw [hostDivf_apply, Cert.Indexing.K_scatter16, countCols_apply, maximumf_apply, Cert.Indexing.K_scatterCount]
  have z16 : broadcastInDim S100000x16 ![] bcast_S_S100000x16 (constant (F := Ideal) S_ .f32 0x00000000#32) (ix2 n j) = (0 : EReal) :=
    (splat_apply bcast_S_S100000x16 _ _).trans Ideal.ofBits_zero_f32
  have z1 : broadcastInDim S100000 ![] bcast_S_S100000 (constant (F := Ideal) S_ .f32 0x00000000#32) (ix1 n) = (0 : EReal) :=
    (splat_apply bcast_S_S100000 _ _).trans Ideal.ofBits_zero_f32
  have o1 : broadcastInDim S100000 ![] bcast_S_S100000 (constant (F := Ideal) S_ .f32 0x3F800000#32) (ix1 n) = (1 : EReal) :=
    (splat_apply bcast_S_S100000 _ _).trans Ideal.ofBits_one_f32
  have oe : ∀ e : Fin 1600000,
      broadcastInDim S1600000 ![] bcast_S_S1600000 (constant (F := Ideal) S_ .f32 0x3F800000#32) (ix1 e) = (1 : EReal) :=
    fun e => (splat_apply bcast_S_S1600000 _ _).trans Ideal.ofBits_one_f32
  exact congrArg₂ Ideal.div (congrArg₂ (· + ·) z16 rfl)
    (congrArg₂ max (congrArg₂ (· + ·) z1 (Finset.sum_congr rfl fun e _ => oe e)) o1)

/-- The members the scatters add into segment `n` are the entries of the edge index's source row equal to `n`. -/
private theorem hits_src (v : IVec S1600000 32) (a3 : S2x1600000.Idx → BitVec 32)
    (h : ∀ e : Fin 1600000, v (ix1 e) = a3 (ix2 (0 : Fin 2) e)) (n : Fin 100000) :
    Cert.Indexing.hits (broadcastInDim S1600000x1 ![0] bcast_S1600000_S1600000x1_0 v) n = Hub.hitOf a3 0 n := by
  unfold Cert.Indexing.hits Hub.hitOf
  refine Finset.filter_congr fun e _ => ?_
  rw [idxCol_apply, h]

/-! ## At region 2's entry (`W6`): the per-node mean of the edge rows -/

theorem W6_v36 (hidx : ∀ i, 0 ≤ (A3 m c i).toInt ∧ (A3 m c i).toInt < 100000) (n : Fin 100000) (j : Fin 16) :
    (W6 m ρ c (Proc.devRef .tc main_v36) : S100000x16.Idx → EReal) (ix2 n j) = Hub.mN (A0 m c) (A1 m c) (A2 m c) (A3 m c) (A5 m c) (A6 m c) (A7 m c) (A8 m c) (A9 m c) (A10 m c) n j := by
  rw [W6_v36_term, meanOf_apply, hits_src _ (A3 m c) (W5_v1 m ρ c)]
  unfold Hub.mN
  exact congrArg (fun u => Hub.segMean (Hub.hitOf (A3 m c) 0 n) u j)
    (funext fun e => funext fun j' => W5_v24 m ρ c hidx e j')

/-! ## Region 2's input arrays at its entry -/

private theorem W6_v21_0 (r : Fin 100000) (j : Fin 32) :
    (W6 m ρ c (Proc.devRef .tc main_v21_0) : S100000x32.Idx → EReal) (ix2 r j) = Hub.hi (A0 m c) (A5 m c) (A6 m c) r j := by
  rw [W6_keeps_v21_0]; exact W5_v21_0 m ρ c r j
private theorem W6_v8 (t : Fin 32) (j : Fin 32) :
    (W6 m ρ c (Proc.devRef .tc main_v8) : S32x32.Idx → EReal) (ix2 t j) = A11 m c (ix2 ⟨t.val, by omega⟩ j) := by
  rw [W6_keeps_v8]; exact W5_v8 m ρ c t j
private theorem W6_v9 (t : Fin 16) (j : Fin 32) :
    (W6 m ρ c (Proc.devRef .tc main_v9) : S16x32.Idx → EReal) (ix2 t j) = A11 m c (ix2 ⟨32 + t.val, by omega⟩ j) := by
  rw [W6_keeps_v9]; exact W5_v9 m ρ c t j
private theorem W6_v19 (j : Fin 32) : (W6 m ρ c (Proc.devRef .tc main_v19) : S1x32.Idx → EReal) (ix2 0 j)
    = (∑ t : Fin 16, Hub.hG (A2 m c) (A7 m c) (A8 m c) t * A11 m c (ix2 ⟨48 + t.val, by omega⟩ j)) + A12 m c (ix1 j) := by
  rw [W6_keeps_v19]; exact W5_v19 m ρ c j
private theorem W6_arg13 : (W6 m ρ c (Proc.devRef .tc main_arg13) : S32x8.Idx → EReal) = A13 m c := by
  rw [W6_keeps_arg13]; exact W5_arg13 m ρ c

/-- Region 2's aggregated node state over its entry contents is the node aggregator: the region adds the node
    constant (the graph embedding's product plus the bias) as one term, the plain formula adds the product and then
    the bias. -/
private theorem hi2Of_eq (hidx : ∀ i, 0 ≤ (A3 m c i).toInt ∧ (A3 m c i).toInt < 100000) (r : Fin 100000) (j : Fin 32) :
    Reg2.hi2Of (V6 m ρ) c r j = Hub.hi2 (A0 m c) (A1 m c) (A2 m c) (A3 m c) (A5 m c) (A6 m c) (A7 m c) (A8 m c) (A9 m c) (A10 m c) (A11 m c) (A12 m c) r j := by
  have e0 : (∑ t : Fin 32, Reg2.a0 (V6 m ρ) c (ix2 r t) * Reg2.a2 (V6 m ρ) c (ix2 t j))
      = ∑ t : Fin 32, Hub.hi (A0 m c) (A5 m c) (A6 m c) r t * A11 m c (ix2 ⟨t.val, by omega⟩ j) :=
    Finset.sum_congr rfl fun t _ => congrArg₂ (· * ·) (W6_v21_0 m ρ c r t) (W6_v8 m ρ c t j)
  have e1 : (∑ t : Fin 16, Reg2.a1 (V6 m ρ) c (ix2 r t) * Reg2.a3 (V6 m ρ) c (ix2 t j))
      = ∑ t : Fin 16, Hub.mN (A0 m c) (A1 m c) (A2 m c) (A3 m c) (A5 m c) (A6 m c) (A7 m c) (A8 m c) (A9 m c) (A10 m c) r t
          * A11 m c (ix2 ⟨32 + t.val, by omega⟩ j) :=
    Finset.sum_congr rfl fun t _ => congrArg₂ (· * ·) (W6_v36 m ρ c hidx r t) (W6_v9 m ρ c t j)
  have e2 : Reg2.a4 (V6 m ρ) c (ix2 0 j)
      = (∑ t : Fin 16, Hub.hG (A2 m c) (A7 m c) (A8 m c) t * A11 m c (ix2 ⟨48 + t.val, by omega⟩ j)) + A12 m c (ix1 j) :=
    W6_v19 m ρ c j
  unfold Reg2.hi2Of Hub.hi2
  rw [e0, e1, e2, ← add_assoc]

/-! ## At region 2's exit (`W7`) -/

/-- Region 2's two output arrays at its exit are what its write-backs leave. -/
private theorem W7_v37_0_arr : (W7 m ρ c (Proc.devRef .tc main_v37_0) : S100000x32.Idx → EReal)
    = ((dat2 (V6 m ρ) c).arrAt 6 cfg2.N : S100000x32.Idx → EReal) := W7_arr m ρ c 6
private theorem W7_v37_1_arr : (W7 m ρ c (Proc.devRef .tc main_v37_1) : S100000x8.Idx → EReal)
    = ((dat2 (V6 m ρ) c).arrAt 7 cfg2.N : S100000x8.Idx → EReal) := W7_arr m ρ c 7

theorem W7_v37_0 (hidx : ∀ i, 0 ≤ (A3 m c i).toInt ∧ (A3 m c i).toInt < 100000) (r : Fin 100000) (j : Fin 32) :
    (W7 m ρ c (Proc.devRef .tc main_v37_0) : S100000x32.Idx → EReal) (ix2 r j) = Hub.hi2 (A0 m c) (A1 m c) (A2 m c) (A3 m c) (A5 m c) (A6 m c) (A7 m c) (A8 m c) (A9 m c) (A10 m c) (A11 m c) (A12 m c) r j :=
  (congrFun (W7_v37_0_arr m ρ c) (ix2 r j)).trans ((Reg2.out_hi2 (V6 m ρ) c r j).trans (hi2Of_eq m ρ c hidx r j))
theorem W7_v37_1 (hidx : ∀ i, 0 ≤ (A3 m c i).toInt ∧ (A3 m c i).toInt < 100000) (r : Fin 100000) (j : Fin 8) :
    (W7 m ρ c (Proc.devRef .tc main_v37_1) : S100000x8.Idx → EReal) (ix2 r j)
      = ∑ t : Fin 32, Hub.hi2 (A0 m c) (A1 m c) (A2 m c) (A3 m c) (A5 m c) (A6 m c) (A7 m c) (A8 m c) (A9 m c) (A10 m c) (A11 m c) (A12 m c) r t * A13 m c (ix2 t j) :=
  (congrFun (W7_v37_1_arr m ρ c) (ix2 r j)).trans ((Reg2.out_y (V6 m ρ) c r j).trans
    (Finset.sum_congr (M := EReal) rfl fun t _ =>
      congrArg₂ (· * ·) (hi2Of_eq m ρ c hidx r t) (congrFun (W6_arg13 m ρ c) (ix2 t j))))

/-- Carried to region 2's exit unchanged. -/
theorem W7_v1 (e : Fin 1600000) : (W7 m ρ c (Proc.devRef .tc main_v1) : S1600000.Idx → BitVec 32) (ix1 e) = A3 m c (ix2 0 e) := by
  rw [W7_of_ne m ρ c main_v1 (by decide), W6_keeps_v1]; exact W5_v1 m ρ c e
theorem W7_v3 (e : Fin 1600000) : (W7 m ρ c (Proc.devRef .tc main_v3) : S1600000.Idx → BitVec 32) (ix1 e) = A3 m c (ix2 1 e) := by
  rw [W7_of_ne m ρ c main_v3 (by decide), W6_keeps_v3]; exact W5_v3 m ρ c e
theorem W7_arg4 : (W7 m ρ c (Proc.devRef .tc main_arg4) : S100000.Idx → BitVec 32) = A4 m c := by
  rw [W7_of_ne m ρ c main_arg4 (by decide), W6_keeps_arg4]; exact W5_arg4 m ρ c
theorem W7_arg14 : (W7 m ρ c (Proc.devRef .tc main_arg14) : S8.Idx → EReal) = A14 m c := by
  rw [W7_of_ne m ρ c main_arg14 (by decide), W6_keeps_arg14]; exact W5_arg14 m ρ c
theorem W7_arg15 : (W7 m ρ c (Proc.devRef .tc main_arg15) : S32x8.Idx → EReal) = A15 m c := by
  rw [W7_of_ne m ρ c main_arg15 (by decide), W6_keeps_arg15]; exact W5_arg15 m ρ c

end Cert.KernelIdeal.KVal

end
-- ==== Proof.Reg3.lean ====
/-
  Region 3 (the output layer), read as a whole array at an index: for ANY contents `V` of the core's buffers at
  the region's entry, the output array after the region is, row by row, `(agg + b_l) + h₂ · W_r`.
-/
import proofs.«415651_j317827579953_3_alg».proof.Proof.Gen.KernelIdeal.Frame
import proofs.«415651_j317827579953_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg3

open Idealize.ShloMosaic Idealize.ShloMosaic.TcCoe Idealize.SL.Sem Idealize.ShloMosaic.ValueIdx
open Cert.KernelIdeal Cert.KernelIdeal.Gen Cert.Spec

variable (V : (c : Dev nD) → (b : Ref sig .tc) → Buf (Elt Ideal) ((c : Thread nD τ).loc b)) (c : Dev nD)

/-- The region's four input arrays as it finds them. -/
abbrev a0 : S100000x8.Idx → EReal := V c (Pipeline.arrRef spec3 0)
abbrev a1 : S1x8.Idx → EReal := V c (Pipeline.arrRef spec3 1)
abbrev a2 : S100000x32.Idx → EReal := V c (Pipeline.arrRef spec3 2)
abbrev a3 : S32x8.Idx → EReal := V c (Pipeline.arrRef spec3 3)

/-! ## The product's operand indices, axis by axis -/

private theorem lhs_axis0 (i : S5000x8.Idx) (q : dot_S5000x32_S32x8_S5000x8_1_0_0_1_n_n.contr.Idx) :
    (dot_S5000x32_S32x8_S5000x8_1_0_0_1_n_n.lhsIdx i q 0).val = (i 0).val := by
  unfold DotDims.lhsIdx
  rw [dif_neg (show ¬(0 : Fin S5000x32.rank) ∈ dot_S5000x32_S32x8_S5000x8_1_0_0_1_n_n.lhsBatch by decide), dif_pos (show (0 : Fin S5000x32.rank) ∈ dot_S5000x32_S32x8_S5000x8_1_0_0_1_n_n.lhsNonContracting by decide)]
  rfl
private theorem lhs_axis1 (i : S5000x8.Idx) (q : dot_S5000x32_S32x8_S5000x8_1_0_0_1_n_n.contr.Idx) :
    (dot_S5000x32_S32x8_S5000x8_1_0_0_1_n_n.lhsIdx i q 1).val = (q ⟨0, by decide⟩).val :=
  dot_S5000x32_S32x8_S5000x8_1_0_0_1_n_n.lhsIdx_val_of_single rfl i q
private theorem rhs_axis0 (i : S5000x8.Idx) (q : dot_S5000x32_S32x8_S5000x8_1_0_0_1_n_n.contr.Idx) :
    (dot_S5000x32_S32x8_S5000x8_1_0_0_1_n_n.rhsIdx i q 0).val = (q ⟨0, by decide⟩).val :=
  dot_S5000x32_S32x8_S5000x8_1_0_0_1_n_n.rhsIdx_val_of_single rfl i q
private theorem rhs_axis1 (i : S5000x8.Idx) (q : dot_S5000x32_S32x8_S5000x8_1_0_0_1_n_n.contr.Idx) :
    (dot_S5000x32_S32x8_S5000x8_1_0_0_1_n_n.rhsIdx i q 1).val = (i 1).val := by
  unfold DotDims.rhsIdx
  rw [dif_neg (show ¬(1 : Fin S32x8.rank) ∈ dot_S5000x32_S32x8_S5000x8_1_0_0_1_n_n.rhsBatch by decide), dif_pos (show (1 : Fin S32x8.rank) ∈ dot_S5000x32_S32x8_S5000x8_1_0_0_1_n_n.rhsNonContracting by decide)]
  rfl

/-- The block product into the zero accumulator, at row `p` and column `q`: the sum over the 32 contracted
    positions of the left block's row `p` times the right matrix's column `q`. -/
private theorem matmul_at (l : FVec Ideal S5000x32 .bf16) (w : FVec Ideal S32x8 .bf16) (p : Fin 5000) (q : Fin 8) :
    matmul dot_S5000x32_S32x8_S5000x8_1_0_0_1_n_n none l w (constant (F := Ideal) S5000x8 .f32 0x00000000#32) (ix2 p q)
      = ∑ t : Fin 32, l (ix2 p t) * w (ix2 t q) := by
  simp only [matmul]
  rw [Ideal.matmul_constant_zero_apply, ← Equiv.sum_comp (contrEquiv1 dot_S5000x32_S32x8_S5000x8_1_0_0_1_n_n 32 rfl rfl).symm]
  refine Finset.sum_congr rfl fun k _ => ?_
  have hk := contrEquiv1_symm_val dot_S5000x32_S32x8_S5000x8_1_0_0_1_n_n 32 rfl rfl k
  have el : dot_S5000x32_S32x8_S5000x8_1_0_0_1_n_n.lhsIdx (ix2 p q) ((contrEquiv1 dot_S5000x32_S32x8_S5000x8_1_0_0_1_n_n 32 rfl rfl).symm k) = ix2 p k := funext fun a => Fin.ext (by
    match a with
    | ⟨0, _⟩ => exact lhs_axis0 _ _
    | ⟨1, _⟩ => exact (lhs_axis1 _ _).trans hk)
  have er : dot_S5000x32_S32x8_S5000x8_1_0_0_1_n_n.rhsIdx (ix2 p q) ((contrEquiv1 dot_S5000x32_S32x8_S5000x8_1_0_0_1_n_n 32 rfl rfl).symm k) = ix2 k q := funext fun a => Fin.ext (by
    match a with
    | ⟨0, _⟩ => exact (rhs_axis0 _ _).trans hk
    | ⟨1, _⟩ => exact rhs_axis1 _ _)
  rw [el, er]

/-- The body's stored value at row `p`, column `q` of the block: the aggregate block there plus the one-row array at
    column `q`, plus the product of the feature block's row `p` with the weight matrix's column `q` — in this order. -/
private theorem pay_at (v0 : Vec Ideal S5000x32 .f32) (v3 : Vec Ideal S32x8 .f32) (v6 : Vec Ideal S5000x8 .f32) (v8 : Vec Ideal S1x8 .f32)
    (p : Fin 5000) (q : Fin 8) :
    k3_pay1 (F := Ideal) v0 v3 v6 v8 (ix2 p q)
      = (v6 (ix2 p q) + v8 (ix2 (0 : Fin 1) q)) + ∑ t : Fin 32, v0 (ix2 p t) * v3 (ix2 t q) := by
  unfold k3_pay1
  rw [addf_apply, addf_apply, matmul_at, shapeCast_self, shapeCast_self, shapeCast_self, broadcastTo_1b_ab_apply]
  rfl

/-! ## The whole output array as one function of the four input arrays -/

/-- Row `i 0`, column `i 1` of the output: the aggregate there plus the one-row array at that column, plus the
    product of the feature array's row with the weight matrix's column. -/
private def G (A0 : S100000x8.Idx → EReal) (A1 : S1x8.Idx → EReal) (A2 : S100000x32.Idx → EReal) (A3 : S32x8.Idx → EReal) :
    S100000x8.Idx → EReal := fun i =>
  (A0 (ix2 (⟨(i 0).val, idx2_lt0 i⟩ : Fin 100000) (⟨(i 1).val, idx2_lt1 i⟩ : Fin 8)) + A1 (ix2 (0 : Fin 1) (⟨(i 1).val, idx2_lt1 i⟩ : Fin 8)))
    + ∑ t : Fin 32, A2 (ix2 (⟨(i 0).val, idx2_lt0 i⟩ : Fin 100000) t) * A3 (ix2 t (⟨(i 1).val, idx2_lt1 i⟩ : Fin 8))

/-- Two rank-2 indices of literal extents with equal coordinates are equal. -/
private theorem ix2_ext {n0 n1 : Nat} (i k : (⟨2, ![n0, n1]⟩ : Shape).Idx) (h0 : (i 0).val = (k 0).val) (h1 : (i 1).val = (k 1).val) : i = k := by
  funext a
  match a with
  | ⟨0, _⟩ => exact Fin.ext h0
  | ⟨1, _⟩ => exact Fin.ext h1

/-- The body's stored block is the block of `G`: stated over any four blocks `x0 … x3` that read the arrays
    `A0 … A3` at the rows of block number `T` (the row blocks) or whole (the one-row array and the weight matrix). -/
private theorem pay_block (A0 : S100000x8.Idx → EReal) (A1 : S1x8.Idx → EReal) (A2 : S100000x32.Idx → EReal) (A3 : S32x8.Idx → EReal)
    (x0 : Vec Ideal S5000x8 .f32) (x1 : Vec Ideal S1x8 .f32) (x2 : Vec Ideal S5000x32 .f32) (x3 : Vec Ideal S32x8 .f32) (T : Nat)
    (h0 : ∀ (x : S5000x8.Idx) (k : S100000x8.Idx), (k 0).val = 5000 * T + (x 0).val → (k 1).val = (x 1).val → x0 x = A0 k)
    (h1 : ∀ x : S1x8.Idx, x1 x = A1 x)
    (h2 : ∀ (x : S5000x32.Idx) (k : S100000x32.Idx), (k 0).val = 5000 * T + (x 0).val → (k 1).val = (x 1).val → x2 x = A2 k)
    (h3 : ∀ x : S32x8.Idx, x3 x = A3 x)
    (y : S5000x8.Idx) (i : S100000x8.Idx) (hi0 : (i 0).val = 5000 * T + (y 0).val) (hi1 : (i 1).val = (y 1).val) :
    k3_pay1 (F := Ideal) x2 x3 x0 x1 y = G A0 A1 A2 A3 i := by
  obtain ⟨p, q, rfl⟩ : ∃ (p : Fin 5000) (q : Fin 8), y = ix2 p q := ⟨y 0, y 1, eq_ix2 y⟩
  rw [pay_at]
  unfold G
  have hq : (⟨(i 1).val, idx2_lt1 i⟩ : Fin 8) = q := Fin.ext hi1
  rw [hq, h0 (ix2 p q) (ix2 (⟨(i 0).val, idx2_lt0 i⟩ : Fin 100000) q) hi0 rfl, h1]
  refine congrArg _ (Finset.sum_congr rfl fun t _ => ?_)
  rw [h2 (ix2 p t) (ix2 (⟨(i 0).val, idx2_lt0 i⟩ : Fin 100000) t) hi0 rfl, h3]

/-! ## The windows' blocks as rows of their arrays -/

private theorem hz : (![0, 0] : Fin 2 → Nat) = fun _ => 0 := funext fun a => by
  match a with
  | ⟨0, _⟩ => rfl
  | ⟨1, _⟩ => rfl

/-- The printed index maps over the grid's twenty points: the three row-block windows sit at block `t` of the rows and
    block 0 of the columns, the one-row array's and the weight matrix's windows at block 0 of both. -/
private theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point `t` is rows `5000 t … 5000 t + 4999` of the aggregate array. -/
private theorem blk0_at (t : Fin cfg3.N) (x : S5000x8.Idx) (k : S100000x8.Idx)
    (hk0 : (k 0).val = 5000 * t.val + (x 0).val) (hk1 : (k 1).val = (x 1).val) :
    (iblk3 (F := Ideal) V c 0 t : Vec Ideal S5000x8 .f32) x = a0 V c k := by
  obtain ⟨e0, e1, -⟩ := idx_facts t
  show V c (Pipeline.arrRef spec3 0) (((cfg3.win 0).blk t).view.emb x) = V c (Pipeline.arrRef spec3 0) k
  refine congrArg _ (ix2_ext _ _ ?_ ?_)
  · show win3_0.index t (0 : Fin 2) * 5000 + 1 * (x 0).val = (k 0).val
    rw [e0, hk0]; omega
  · show win3_0.index t (1 : Fin 2) * 8 + 1 * (x 1).val = (k 1).val
    rw [e1, hk1]; omega

/-- Window 1's block at every point is the whole one-row array. -/
private theorem blk1_at (t : Fin cfg3.N) (x : S1x8.Idx) :
    (iblk3 (F := Ideal) V c 1 t : Vec Ideal S1x8 .f32) x = a1 V c x := by
  obtain ⟨-, -, e0, e1, -⟩ := idx_facts t
  show V c (Pipeline.arrRef spec3 1) (((cfg3.win 1).blk t).view.emb x) = V c (Pipeline.arrRef spec3 1) x
  refine congrArg _ (ix2_ext _ _ ?_ ?_)
  · show win3_1.index t (0 : Fin 2) * 1 + 1 * (x 0).val = (x 0).val
    rw [e0]; omega
  · show win3_1.index t (1 : Fin 2) * 8 + 1 * (x 1).val = (x 1).val
    rw [e1]; omega

/-- Window 2's block at point `t` is rows `5000 t … 5000 t + 4999` of the feature array. -/
private theorem blk2_at (t : Fin cfg3.N) (x : S5000x32.Idx) (k : S100000x32.Idx)
    (hk0 : (k 0).val = 5000 * t.val + (x 0).val) (hk1 : (k 1).val = (x 1).val) :
    (iblk3 (F := Ideal) V c 2 t : Vec Ideal S5000x32 .f32) x = a2 V c k := by
  obtain ⟨-, -, -, -, e0, e1, -⟩ := idx_facts t
  show V c (Pipeline.arrRef spec3 2) (((cfg3.win 2).blk t).view.emb x) = V c (Pipeline.arrRef spec3 2) k
  refine congrArg _ (ix2_ext _ _ ?_ ?_)
  · show win3_2.index t (0 : Fin 2) * 5000 + 1 * (x 0).val = (k 0).val
    rw [e0, hk0]; omega
  · show win3_2.index t (1 : Fin 2) * 32 + 1 * (x 1).val = (k 1).val
    rw [e1, hk1]; omega

/-- Window 3's block at every point is the whole weight matrix. -/
private theorem blk3_at (t : Fin cfg3.N) (x : S32x8.Idx) :
    (iblk3 (F := Ideal) V c 3 t : Vec Ideal S32x8 .f32) x = a3 V c x := by
  obtain ⟨-, -, -, -, -, -, e0, e1, -⟩ := idx_facts t
  show V c (Pipeline.arrRef spec3 3) (((cfg3.win 3).blk t).view.emb x) = V c (Pipeline.arrRef spec3 3) x
  refine congrArg _ (ix2_ext _ _ ?_ ?_)
  · show win3_3.index t (0 : Fin 2) * 32 + 1 * (x 0).val = (x 0).val
    rw [e0]; omega
  · show win3_3.index t (1 : Fin 2) * 8 + 1 * (x 1).val = (x 1).val
    rw [e1]; omega

/-! ## What a point writes back, and the cover -/

/-- What point `t` writes back into the output array is block `t` of `G` of the four input arrays. -/
private theorem flushed_eq (t : Fin cfg3.N) :
    (dat3 (F := Ideal) V c).flushed 4 t
      = ((cfg3.win 4).blk t).view.read (Elt Ideal) (G (a0 V c) (a1 V c) (a2 V c) (a3 V c)) := by
  show (cfg3.win 4).cut (grid3.coords t) ((dat3 V c).after 4 t) = _
  rw [after3_4]
  unfold out3_4
  rw [View.canon_unit_zero hz]
  simp only [View.ld_unit_zero (S := S5000x8) hz, View.ld_unit_zero (S := S1x8) hz, View.ld_unit_zero (S := S5000x32) hz,
    View.ld_unit_zero (S := S32x8) hz]
  obtain ⟨-, -, -, -, -, -, -, -, e0, e1⟩ := idx_facts t
  funext y
  show k3_pay1 (F := Ideal) (iblk3 V c 2 t) (iblk3 V c 3 t) (iblk3 V c 0 t) (iblk3 V c 1 t) y
    = G (a0 V c) (a1 V c) (a2 V c) (a3 V c) (((cfg3.win 4).blk t).view.emb y)
  refine pay_block (a0 V c) (a1 V c) (a2 V c) (a3 V c) _ _ _ _ t.val
    (fun x k h0 h1 => blk0_at V c t x k h0 h1) (fun x => blk1_at V c t x)
    (fun x k h0 h1 => blk2_at V c t x k h0 h1) (fun x => blk3_at V c t x) y _ ?_ ?_
  · show win3_4.index t (0 : Fin 2) * 5000 + 1 * (y 0).val = 5000 * t.val + (y 0).val
    rw [e0]; omega
  · show win3_4.index t (1 : Fin 2) * 8 + 1 * (y 1).val = (y 1).val
    rw [e1]; omega

/-- An index of the output array is in point `t`'s block iff each coordinate is in the block's range on its axis. -/
private theorem mem_blk (t : Fin cfg3.N) (i : S100000x8.Idx) :
    i ∈ ((cfg3.win 4).blk t).view.set ↔ ∀ a : Fin 2, win3_4.index t a * S5000x8.size a ≤ (i a).val ∧ (i a).val < win3_4.index t a * S5000x8.size a + S5000x8.size a := by
  show i ∈ ((View.whole main_v52).slice (win3_4.rect t)).set ↔ _
  rw [View.set_slice_whole, Rect.mem_set_unit]
  exact Iff.rfl

/-- Every row of the output is in the block of the point numbered by the row divided by 5000. -/
private theorem cover (i : S100000x8.Idx) : ∃ t : Fin cfg3.N, (cfg3.win 4).flush t = true ∧ i ∈ ((cfg3.win 4).blk t).view.set := by
  have hi0 : (i 0).val < 100000 := idx2_lt0 i
  have hi1 : (i 1).val < 8 := idx2_lt1 i
  have hN : cfg3.N = 20 := N_3
  let t : Fin cfg3.N := ⟨(i 0).val / 5000, by rw [hN]; omega⟩
  obtain ⟨-, -, -, -, -, -, -, -, e0, e1⟩ := idx_facts t
  have ht : t.val = (i 0).val / 5000 := rfl
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    rw [e0, ht]; omega
  | ⟨1, _⟩ =>
    show win3_4.index t (1 : Fin 2) * 8 ≤ (i 1).val ∧ (i 1).val < win3_4.index t (1 : Fin 2) * 8 + 8
    rw [e1]; omega

/-- The output array after the region is `G` of the four input arrays. -/
private theorem final : ((dat3 (F := Ideal) V c).arrAt 4 cfg3.N : S100000x8.Idx → EReal) = G (a0 V c) (a1 V c) (a2 V c) (a3 V c) :=
  (dat3 (F := Ideal) V c).arrAt_eq_of_cover 4 (G (a0 V c) (a1 V c) (a2 V c) (a3 V c)) (fun t _ => flushed_eq V c t) (cover)

theorem out_nodes (r : Fin 100000) (j : Fin 8) :
    ((dat3 (F := Ideal) V c).arrAt 4 cfg3.N : S100000x8.Idx → EReal) (ix2 r j)
      = (a0 V c (ix2 r j) + a1 V c (ix2 0 j)) + ∑ t : Fin 32, a2 V c (ix2 r t) * a3 V c (ix2 t j) := by
  rw [final V c]
  rfl

end Cert.KernelIdeal.Reg3

end
-- ==== Proof.KStage3.lean ====
/-
  The kernel program from the exit of region 2 to the exit of region 3, read at an index: the take gathers the
  left projection's rows along the edges, the host stretch averages them per destination node, and region 3 adds
  the bias row and the right projection: the output layer in the kernel's order.
-/
import proofs.«415651_j317827579953_3_alg».proof.Proof.KStage2
import proofs.«415651_j317827579953_3_alg».proof.Proof.Reg3
import proofs.«415651_j317827579953_3_alg».proof.Proof.Indexing
import proofs.«415651_j317827579953_3_alg».proof.Proof.Gen.ReferenceIdeal
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.IdealHost
import Idealize.ShloMosaic.Lib.Affine

set_option maxRecDepth 16384

noncomputable section

namespace Cert.KernelIdeal.KVal

open Idealize.ShloMosaic Idealize.ShloMosaic.TcCoe Idealize.SL.Sem Idealize.ShloMosaic.ValueIdx Idealize.ShloMosaic.StableHlo
open Cert.KernelIdeal Cert.KernelIdeal.Gen Cert.Spec

variable (m : (ℓ : Loc nD τ sig) → Buf (Elt Ideal) ℓ) (ρ : Dev nD → PrngReg) (c : Dev nD)

/-- The output layer in the kernel's order, one level open. -/
private theorem nodesK_open (a0 : (⟨2, ![100000, 32]⟩ : Shape).Idx → EReal) (a1 : (⟨2, ![1600000, 16]⟩ : Shape).Idx → EReal)
    (a2 : (⟨2, ![1, 16]⟩ : Shape).Idx → EReal) (a3 : (⟨2, ![2, 1600000]⟩ : Shape).Idx → BitVec 32)
    (a5 : (⟨2, ![32, 32]⟩ : Shape).Idx → EReal) (a6 : (⟨1, ![32]⟩ : Shape).Idx → EReal)
    (a7 : (⟨2, ![16, 16]⟩ : Shape).Idx → EReal) (a8 : (⟨1, ![16]⟩ : Shape).Idx → EReal)
    (a9 : (⟨2, ![96, 16]⟩ : Shape).Idx → EReal) (a10 : (⟨1, ![16]⟩ : Shape).Idx → EReal)
    (a11 : (⟨2, ![64, 32]⟩ : Shape).Idx → EReal) (a12 : (⟨1, ![32]⟩ : Shape).Idx → EReal)
    (a13 : (⟨2, ![32, 8]⟩ : Shape).Idx → EReal) (a14 : (⟨1, ![8]⟩ : Shape).Idx → EReal)
    (a15 : (⟨2, ![32, 8]⟩ : Shape).Idx → EReal) (r : Fin 100000) (j : Fin 8) :
    Hub.nodesK a0 a1 a2 a3 a5 a6 a7 a8 a9 a10 a11 a12 a13 a14 a15 r j
      = (Hub.segMean (Hub.hitOf a3 1 r)
            (fun e j' => ∑ t : Fin 32, Hub.hi2 a0 a1 a2 a3 a5 a6 a7 a8 a9 a10 a11 a12 (Hub.rowOf a3 0 e) t * a13 (ix2 t j')) j
          + a14 (ix1 j))
        + ∑ t : Fin 32, Hub.hi2 a0 a1 a2 a3 a5 a6 a7 a8 a9 a10 a11 a12 r t * a15 (ix2 t j) := rfl

/-! ## Generic readings -/

/-- A conjunction over a finite set of bits that are all one, from one, is one. -/
private theorem fold_andi_one {ι : Type} [DecidableEq ι] (S : Finset ι) (x : ι → BitVec 1) (h : ∀ i ∈ S, x i = 1#1) :
    S.fold IntOp.andi 1#1 x = 1#1 := by
  induction S using Finset.induction_on with
  | empty => rfl
  | insert a S ha ih =>
    rw [Finset.fold_insert ha, h a (Finset.mem_insert_self _ _), ih (fun i hi => h i (Finset.mem_insert_of_mem hi))]
    decide

/-- A reduction by `and` of an array of ones, from one, is one at every result index. -/
private theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_fold, hinit]
  exact fold_andi_one _ _ (fun i _ => hx i)

/-- A vector laid out as a column reads, at row `e`, the vector at `e`. -/
private theorem col_apply {α : Type} (v : S1600000.Idx → α) (e : Fin 1600000) :
    broadcastInDim S1600000x1 ![0] bcast_S1600000_S1600000x1_0 v (ix2 e 0) = v (ix1 e) :=
  broadcastInDim_apply _ bcast_S1600000_S1600000x1_0 v (ix2 e 0) (ix1 e) (fun a => match a with
    | ⟨0, _⟩ => by show e.val = if (1600000 : Nat) = 1 then 0 else e.val; rw [if_neg (by decide)])

/-- The take's start indices: the source row with its negative entries wrapped by the table's height, as a column. -/
private def takeIdx (v1 : IVec S1600000 32) : IVec S1600000x1 32 :=
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 100000#32))) v1)

/-- The take's range mask: per entry, the conjunction over the column's one coordinate of `0 ≤ index ≤ 99999`. -/
private def takeMask (i5 : IVec S1600000x1 32) : IVec S1600000 1 :=
  Host.reduce IntOp.andi
    (andi (cmpi .sge i5 (broadcastInDim S1600000x1 ![] bcast_S_S1600000x1 (constantI S_ 32 0#32)))
      (cmpi .sle i5 (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The take: the gathered rows where the mask is one, the fill value elsewhere. -/
private def takeVal {F : FTy → Type} [FloatOps F] (x : FVec F S100000x8 .f32) (v1 : IVec S1600000 32) : FVec F S1600000x8 .f32 :=
  select (broadcastInDim S1600000x8 ![0] bcast_S1600000_S1600000x8_0 (takeMask (takeIdx v1)))
    (Host.gather gather_S100000x8_S1600000x1_S1600000x8_1_0_n_n_0_1_18 x (takeIdx v1))
    (broadcastInDim S1600000x8 ![] bcast_S_S1600000x8 (constant (F := F) S_ .f32 0x7FC00000#32))

/-- An entry that is not negative is not wrapped. -/
private theorem takeIdx_apply (v1 : IVec S1600000 32) (e : Fin 1600000) (h : 0 ≤ (v1 (ix1 e)).toInt) :
    takeIdx v1 (ix2 e 0) = v1 (ix1 e) := by
  unfold takeIdx
  refine (col_apply _ e).trans ?_
  have hc : IntOp.cmpi .slt (v1 (ix1 e)) 0#32 = 0#1 := eq_zero_of_ne_one (fun h1 => by
    have h2 := IntOp.cmpi_slt.1 h1
    rw [show (0#32 : BitVec 32).toInt = 0 from by decide] at h2
    omega)
  show Scalar.select (IntOp.cmpi .slt (v1 (ix1 e)) 0#32) _ _ = _
  rw [hc, select_zero]

/-- With every start index inside the table the mask is one everywhere. -/
private theorem takeMask_apply (i5 : IVec S1600000x1 32)
    (h : ∀ e : Fin 1600000, 0 ≤ (i5 (ix2 e 0)).toInt ∧ (i5 (ix2 e 0)).toInt < 100000) (j : S1600000.Idx) :
    takeMask i5 j = 1#1 := by
  unfold takeMask
  refine reduce_andi_of_all _ _ _ _ rfl (fun i => ?_) j
  obtain ⟨e, z, rfl⟩ : ∃ (e : Fin 1600000) (z : Fin 1), i = ix2 e z := ⟨i 0, i 1, eq_ix2 i⟩
  obtain rfl : z = 0 := Subsingleton.elim _ _
  show IntOp.andi (IntOp.cmpi .sge (i5 (ix2 e 0)) 0#32) (IntOp.cmpi .sle (i5 (ix2 e 0)) 99999#32) = 1#1
  refine IntOp.andi_eq_one.2 ⟨IntOp.cmpi_sge.2 ?_, IntOp.cmpi_sle.2 ?_⟩
  · rw [show (0#32 : BitVec 32).toInt = 0 from by decide]; exact (h e).1
  · rw [show (99999#32 : BitVec 32).toInt = 99999 from by decide]; have := (h e).2; omega

/-- With every entry of the source row inside the table, the take reads the table's row the entry names. -/
private theorem takeVal_apply (x : FVec Ideal S100000x8 .f32) (v1 : IVec S1600000 32)
    (hv : ∀ e : Fin 1600000, 0 ≤ (v1 (ix1 e)).toInt ∧ (v1 (ix1 e)).toInt < 100000) (e : Fin 1600000) (j : Fin 8) :
    takeVal (F := Ideal) x v1 (ix2 e j) = x (ix2 (Cert.Indexing.rowAt (takeIdx v1) e) j) := by
  unfold takeVal
  have hm : broadcastInDim S1600000x8 ![0] bcast_S1600000_S1600000x8_0 (takeMask (takeIdx v1)) (ix2 e j) = 1#1 := by
    refine (broadcastInDim_apply _ bcast_S1600000_S1600000x8_0 _ (ix2 e j) (ix1 e) (fun a => match a with
      | ⟨0, _⟩ => by show e.val = if (1600000 : Nat) = 1 then 0 else e.val; rw [if_neg (by decide)])).trans ?_
    exact takeMask_apply _ (fun e' => by rw [takeIdx_apply v1 e' (hv e').1]; exact hv e') _
  rw [select_apply, hm, select_one]
  exact Cert.Indexing.K_gather8 x (takeIdx v1) e j

/-- The host stretch before region 3: the per-node quotient of the scattered rows' sum (from zero) by the
    scattered count of ones (from zero) raised to at least one, the count laid along each row. -/
private def meanVal {F : FTy → Type} [FloatOps F] (u : FVec F S1600000x8 .f32) (v3 : IVec S1600000 32) : FVec F S100000x8 .f32 :=
  Host.divf
    (Host.scatterAdd (F := F) scatter_S100000x8_S1600000x1_S1600000x8_1_0_0_1
      (broadcastInDim S100000x8 ![] bcast_S_S100000x8 (constant (F := F) S_ .f32 0x00000000#32))
      (broadcastInDim S1600000x1 ![0] bcast_S1600000_S1600000x1_0 v3) u)
    (broadcastInDim S100000x8 ![0, 1] bcast_S100000x1_S100000x8_0_1
      (broadcastInDim S100000x1 ![0] bcast_S100000_S100000x1_0
        (maximumf
          (Host.scatterAdd (F := F) scatter_S100000_S1600000x1_S1600000_n_0_0_1
            (broadcastInDim S100000 ![] bcast_S_S100000 (constant (F := F) S_ .f32 0x00000000#32))
            (broadcastInDim S1600000x1 ![0] bcast_S1600000_S1600000x1_0 v3)
            (broadcastInDim S1600000 ![] bcast_S_S1600000 (constant (F := F) S_ .f32 0x3F800000#32)))
          (broadcastInDim S100000 ![] bcast_S_S100000 (constant (F := F) S_ .f32 0x3F800000#32)))))

/-- Read at a node and a column: the segment mean over the entries of the destination row that name the node. -/
private theorem meanVal_apply (u : FVec Ideal S1600000x8 .f32) (v3 : IVec S1600000 32) (r : Fin 100000) (j : Fin 8) :
    meanVal (F := Ideal) u v3 (ix2 r j)
      = Hub.segMean (Cert.Indexing.hits (broadcastInDim S1600000x1 ![0] bcast_S1600000_S1600000x1_0 v3) r)
          (fun e j' => u (ix2 e j')) j := by
  unfold meanVal Hub.segMean
  rw [hostDivf_apply]
  refine congrArg₂ Ideal.div ?_ ?_
  · refine (Cert.Indexing.K_scatter8 _ _ _ r j).trans ?_
    exact congrArg (fun z : EReal => z + _) Ideal.ofBits_zero_f32
  · refine (broadcastInDim_apply _ bcast_S100000x1_S100000x8_0_1 _ (ix2 r j) (ix2 r 0) (fun a => match a with
      | ⟨0, _⟩ => by show r.val = if (100000 : Nat) = 1 then 0 else r.val; rw [if_neg (by decide)]
      | ⟨1, _⟩ => by show 0 = if (1 : Nat) = 1 then 0 else j.val; rw [if_pos rfl])).trans ?_
    refine (broadcastInDim_apply _ bcast_S100000_S100000x1_0 _ (ix2 r 0) (ix1 r) (fun a => match a with
      | ⟨0, _⟩ => by show r.val = if (100000 : Nat) = 1 then 0 else r.val; rw [if_neg (by decide)])).trans ?_
    rw [maximumf_apply]
    refine congrArg₂ max ?_ Ideal.ofBits_one_f32
    refine (Cert.Indexing.K_scatterCount _ _ _ r).trans ?_
    exact congrArg₂ (fun a b : EReal => a + b) Ideal.ofBits_zero_f32 (Finset.sum_congr rfl fun e _ => Ideal.ofBits_one_f32)

/-! ## The two host stretches, opened once each over any entry contents -/

section Stretches
variable {F : FTy → Type} [FloatOps F]

local notation "𝒞[" S ", " e "]" => (BufTy.Contents (Elt F) (⟨S, e⟩ : BufTy))

/-- The take's operations with each function at the literal array types of its buffers: the same list as the
    program's, whose operations move the contents between a buffer's own type and the literal type it equals. -/
private abbrev takeOps : List (HloOp τ sig (Elt F)) :=
  [ StableHlo.nullary main_call2_c (constantI S_ 32 0#32 : 𝒞[S_, .i32]),
    StableHlo.unary main_call2_c main_call2_v0 (broadcastInDim S1600000 ![] bcast_S_S1600000 : 𝒞[S_, .i32] → 𝒞[S1600000, .i32]),
    StableHlo.binary main_v1 main_call2_v0 main_call2_v1 (cmpi .slt : 𝒞[S1600000, .i32] → 𝒞[S1600000, .i32] → 𝒞[S1600000, .i1]),
    StableHlo.nullary main_call2_c_0 (constantI S_ 32 100000#32 : 𝒞[S_, .i32]),
    StableHlo.unary main_call2_c_0 main_call2_v2 (broadcastInDim S1600000 ![] bcast_S_S1600000 : 𝒞[S_, .i32] → 𝒞[S1600000, .i32]),
    StableHlo.binary main_v1 main_call2_v2 main_call2_v3 (addi : 𝒞[S1600000, .i32] → 𝒞[S1600000, .i32] → 𝒞[S1600000, .i32]),
    StableHlo.ternary main_call2_v1 main_call2_v3 main_v1 main_call2_v4 (select : 𝒞[S1600000, .i1] → 𝒞[S1600000, .i32] → 𝒞[S1600000, .i32] → 𝒞[S1600000, .i32]),
    StableHlo.unary main_call2_v4 main_call2_v5 (broadcastInDim S1600000x1 ![0] bcast_S1600000_S1600000x1_0 : 𝒞[S1600000, .i32] → 𝒞[S1600000x1, .i32]),
    StableHlo.nullary main_call2_c_1 (constantI S1 32 99999#32 : 𝒞[S1, .i32]),
    StableHlo.nullary main_call2_c_2 (constantI S_ 32 0#32 : 𝒞[S_, .i32]),
    StableHlo.unary main_call2_c_2 main_call2_v6 (broadcastInDim S1600000x1 ![] bcast_S_S1600000x1 : 𝒞[S_, .i32] → 𝒞[S1600000x1, .i32]),
    StableHlo.binary main_call2_v5 main_call2_v6 main_call2_v7 (cmpi .sge : 𝒞[S1600000x1, .i32] → 𝒞[S1600000x1, .i32] → 𝒞[S1600000x1, .i1]),
    StableHlo.unary main_call2_c_1 main_call2_v8 (broadcastInDim S1x1 ![1] bcast_S1_S1x1_1 : 𝒞[S1, .i32] → 𝒞[S1x1, .i32]),
    StableHlo.unary main_call2_v8 main_call2_v9 (broadcastInDim S1600000x1 ![0, 1] bcast_S1x1_S1600000x1_0_1 : 𝒞[S1x1, .i32] → 𝒞[S1600000x1, .i32]),
    StableHlo.binary main_call2_v5 main_call2_v9 main_call2_v10 (cmpi .sle : 𝒞[S1600000x1, .i32] → 𝒞[S1600000x1, .i32] → 𝒞[S1600000x1, .i1]),
    StableHlo.binary main_call2_v7 main_call2_v10 main_call2_v11 (andi : 𝒞[S1600000x1, .i1] → 𝒞[S1600000x1, .i1] → 𝒞[S1600000x1, .i1]),
    StableHlo.nullary main_call2_c_3 (constantI S_ 1 1#1 : 𝒞[S_, .i1]),
    StableHlo.binary main_call2_v11 main_call2_c_3 main_call2_v12 ((fun x v => Host.reduce IntOp.andi x v reducesTo_S1600000x1_S1600000_d1 h_S_) : 𝒞[S1600000x1, .i1] → 𝒞[S_, .i1] → 𝒞[S1600000, .i1]),
    StableHlo.binary main_v37_1 main_call2_v5 main_call2_v13 ((fun x i => Host.gather gather_S100000x8_S1600000x1_S1600000x8_1_0_n_n_0_1_18 x i) : 𝒞[S100000x8, .f32] → 𝒞[S1600000x1, .i32] → 𝒞[S1600000x8, .f32]),
    StableHlo.unary main_call2_v12 main_call2_v14 (broadcastInDim S1600000x8 ![0] bcast_S1600000_S1600000x8_0 : 𝒞[S1600000, .i1] → 𝒞[S1600000x8, .i1]),
    StableHlo.nullary main_call2_cst (constant S_ .f32 0x7FC00000#32 : 𝒞[S_, .f32]),
    StableHlo.unary main_call2_cst main_call2_v15 (broadcastInDim S1600000x8 ![] bcast_S_S1600000x8 : 𝒞[S_, .f32] → 𝒞[S1600000x8, .f32]),
    StableHlo.ternary main_call2_v14 main_call2_v13 main_call2_v15 main_v38 (select : 𝒞[S1600000x8, .i1] → 𝒞[S1600000x8, .f32] → 𝒞[S1600000x8, .f32] → 𝒞[S1600000x8, .f32]) ]

-- a reduction, a gather, a scatter over the full-size index types are compared as they stand, never opened
attribute [local irreducible] Host.reduce Host.gather Host.scatterAdd

private theorem cons_congr {α : Type} {a b : α} {l l' : List α} (h : a = b) (h' : l = l') : a :: l = b :: l' := by
  subst h; subst h'; rfl

/-- Operation by operation the two lists agree: a buffer's own type is the literal type, so the moves are identities. -/
private theorem takeOps_eq : (hostOps3 : List (HloOp τ sig (Elt F))) = takeOps :=
  (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl rfl)))))))))))))))))))))))

/-- The take's stretch leaves in its result buffer the take of the left projection along the source row. -/
private theorem stretch_v38 (V : Valuation τ sig (Elt F)) :
    (StableHlo.after hostOps3 V (Proc.devRef .tc main_v38) : FVec F S1600000x8 .f32)
      = takeVal (V (Proc.devRef .tc main_v37_1)) (V (Proc.devRef .tc main_v1)) := by
  rw [takeOps_eq]
  after_results_simp
  rfl

end Stretches

/-- The stretch before region 3 leaves the per-node mean of the taken rows over the destination row. -/
private theorem stretch_v50 {F : FTy → Type} [FloatOps F] (V : Valuation τ sig (Elt F)) :
    (StableHlo.after hostOps3_1 V (Proc.devRef .tc main_v50) : FVec F S100000x8 .f32)
      = meanVal (V (Proc.devRef .tc main_v38)) (V (Proc.devRef .tc main_v3)) := by
  after_results_simp
  rfl

/-- … and the output bias as one row. -/
private theorem stretch_v51 {F : FTy → Type} [FloatOps F] (V : Valuation τ sig (Elt F)) :
    (StableHlo.after hostOps3_1 V (Proc.devRef .tc main_v51) : FVec F S1x8 .f32)
      = shapeCast S1x8 (V (Proc.devRef .tc main_arg14) : FVec F S8 .f32) shapeCasts_S8_S1x8 := by
  after_results_simp
  rfl

/-- A buffer no operation of a stretch writes keeps its contents through it. -/
local macro "untouched " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## After the take (`W8`) -/

private theorem W8_keep_arg4 : W8 m ρ c (Proc.devRef .tc main_arg4) = W7 m ρ c (Proc.devRef .tc main_arg4) := by untouched hostOps3
private theorem W8_keep_arg14 : W8 m ρ c (Proc.devRef .tc main_arg14) = W7 m ρ c (Proc.devRef .tc main_arg14) := by untouched hostOps3
private theorem W8_keep_arg15 : W8 m ρ c (Proc.devRef .tc main_arg15) = W7 m ρ c (Proc.devRef .tc main_arg15) := by untouched hostOps3
private theorem W8_keep_v3 : W8 m ρ c (Proc.devRef .tc main_v3) = W7 m ρ c (Proc.devRef .tc main_v3) := by untouched hostOps3
private theorem W8_keep_v37_0 : W8 m ρ c (Proc.devRef .tc main_v37_0) = W7 m ρ c (Proc.devRef .tc main_v37_0) := by untouched hostOps3

/-- The destination row of the edge index, still. -/
private theorem W8_v3 (e : Fin 1600000) :
    (W8 m ρ c (Proc.devRef .tc main_v3) : S1600000.Idx → BitVec 32) (ix1 e) = A3 m c (ix2 1 e) :=
  (congrFun (W8_keep_v3 m ρ c) (ix1 e)).trans (W7_v3 m ρ c e)

/-- The taken rows: at entry `e`, the left projection's row at the node the source row names. -/
private theorem W8_v38 (hidx : ∀ i, 0 ≤ (A3 m c i).toInt ∧ (A3 m c i).toInt < 100000) (e : Fin 1600000) (j : Fin 8) :
    (W8 m ρ c (Proc.devRef .tc main_v38) : S1600000x8.Idx → EReal) (ix2 e j)
      = ∑ t : Fin 32, Hub.hi2 (A0 m c) (A1 m c) (A2 m c) (A3 m c) (A5 m c) (A6 m c) (A7 m c) (A8 m c) (A9 m c) (A10 m c) (A11 m c) (A12 m c) (Hub.rowOf (A3 m c) 0 e) t * A13 m c (ix2 t j) := by
  have hv : ∀ e : Fin 1600000, 0 ≤ ((W7 m ρ c (Proc.devRef .tc main_v1) : S1600000.Idx → BitVec 32) (ix1 e)).toInt
      ∧ ((W7 m ρ c (Proc.devRef .tc main_v1) : S1600000.Idx → BitVec 32) (ix1 e)).toInt < 100000 :=
    fun e => by rw [W7_v1]; exact hidx _
  have hrow : Cert.Indexing.rowAt (takeIdx (W7 m ρ c (Proc.devRef .tc main_v1))) e = Hub.rowOf (A3 m c) 0 e := by
    apply Fin.ext
    show min ((takeIdx (W7 m ρ c (Proc.devRef .tc main_v1)) (ix2 e 0)).toInt.toNat) 99999 = min ((A3 m c (ix2 0 e)).toInt.toNat) 99999
    rw [takeIdx_apply _ e (hv e).1, W7_v1]
  refine (congrFun (stretch_v38 (W7 m ρ c)) (ix2 e j)).trans ?_
  rw [takeVal_apply _ _ hv e j, hrow]
  exact W7_v37_1 m ρ c hidx _ j

/-! ## At region 3's entry (`W9`) -/

private theorem W9_keep_arg4 : W9 m ρ c (Proc.devRef .tc main_arg4) = W8 m ρ c (Proc.devRef .tc main_arg4) := by untouched hostOps3_1
private theorem W9_keep_arg15 : W9 m ρ c (Proc.devRef .tc main_arg15) = W8 m ρ c (Proc.devRef .tc main_arg15) := by untouched hostOps3_1
private theorem W9_keep_v37_0 : W9 m ρ c (Proc.devRef .tc main_v37_0) = W8 m ρ c (Proc.devRef .tc main_v37_0) := by untouched hostOps3_1

/-- The aggregated node state, carried. -/
private theorem W9_v37_0 (hidx : ∀ i, 0 ≤ (A3 m c i).toInt ∧ (A3 m c i).toInt < 100000) (r : Fin 100000) (t : Fin 32) :
    (W9 m ρ c (Proc.devRef .tc main_v37_0) : S100000x32.Idx → EReal) (ix2 r t) = Hub.hi2 (A0 m c) (A1 m c) (A2 m c) (A3 m c) (A5 m c) (A6 m c) (A7 m c) (A8 m c) (A9 m c) (A10 m c) (A11 m c) (A12 m c) r t :=
  (congrFun ((W9_keep_v37_0 m ρ c).trans (W8_keep_v37_0 m ρ c)) (ix2 r t)).trans (W7_v37_0 m ρ c hidx r t)

/-- The right projection's weight, carried. -/
private theorem W9_arg15 : (W9 m ρ c (Proc.devRef .tc main_arg15) : S32x8.Idx → EReal) = A15 m c :=
  ((W9_keep_arg15 m ρ c).trans (W8_keep_arg15 m ρ c)).trans (W7_arg15 m ρ c)

/-- The output bias as one row. -/
private theorem W9_v51 (j : Fin 8) :
    (W9 m ρ c (Proc.devRef .tc main_v51) : S1x8.Idx → EReal) (ix2 0 j) = A14 m c (ix1 j) := by
  refine (congrFun (stretch_v51 (W8 m ρ c)) (ix2 0 j)).trans ?_
  refine (shapeCast_apply _ shapeCasts_S8_S1x8 (ix2 0 j) (ix1 j)
    (by rw [Shape.rowMajor_val_one, Shape.rowMajor_val_two]; show j.val = 0 * 8 + j.val; omega)).trans ?_
  exact congrFun ((W8_keep_arg14 m ρ c).trans (W7_arg14 m ρ c)) (ix1 j)

/-- The per-node mean, over the entries whose destination is the node, of the left projection's rows at the
    entries' sources. -/
private theorem W9_v50 (hidx : ∀ i, 0 ≤ (A3 m c i).toInt ∧ (A3 m c i).toInt < 100000) (r : Fin 100000) (j : Fin 8) :
    (W9 m ρ c (Proc.devRef .tc main_v50) : S100000x8.Idx → EReal) (ix2 r j)
      = Hub.segMean (Hub.hitOf (A3 m c) 1 r)
          (fun e j' => ∑ t : Fin 32, Hub.hi2 (A0 m c) (A1 m c) (A2 m c) (A3 m c) (A5 m c) (A6 m c) (A7 m c) (A8 m c) (A9 m c) (A10 m c) (A11 m c) (A12 m c) (Hub.rowOf (A3 m c) 0 e) t * A13 m c (ix2 t j')) j := by
  have hhit : Cert.Indexing.hits (broadcastInDim S1600000x1 ![0] bcast_S1600000_S1600000x1_0
      (W8 m ρ c (Proc.devRef .tc main_v3) : S1600000.Idx → BitVec 32)) r = Hub.hitOf (A3 m c) 1 r := by
    unfold Cert.Indexing.hits Hub.hitOf
    refine Finset.filter_congr (fun e _ => ?_)
    rw [col_apply, W8_v3]
  refine (congrFun (stretch_v50 (W8 m ρ c)) (ix2 r j)).trans ?_
  rw [meanVal_apply, hhit]
  exact congrArg (fun u : Mat 1600000 8 => Hub.segMean (Hub.hitOf (A3 m c) 1 r) u j)
    (funext fun e => funext fun j' => W8_v38 m ρ c hidx e j')

/-! ## At region 3's exit (`W10`) -/

theorem W10_v52 (hidx : ∀ i, 0 ≤ (A3 m c i).toInt ∧ (A3 m c i).toInt < 100000) (r : Fin 100000) (j : Fin 8) :
    (W10 m ρ c (Proc.devRef .tc main_v52) : S100000x8.Idx → EReal) (ix2 r j) = Hub.nodesK (A0 m c) (A1 m c) (A2 m c) (A3 m c) (A5 m c) (A6 m c) (A7 m c) (A8 m c) (A9 m c) (A10 m c) (A11 m c) (A12 m c) (A13 m c) (A14 m c) (A15 m c) r j := by
  -- region 3's inputs at its entry: the mean, the bias row, the aggregated state, the right projection's weight
  have h0 : Cert.KernelIdeal.Reg3.a0 (V9 m ρ) c (ix2 r j)
      = Hub.segMean (Hub.hitOf (A3 m c) 1 r)
          (fun e j' => ∑ t : Fin 32, Hub.hi2 (A0 m c) (A1 m c) (A2 m c) (A3 m c) (A5 m c) (A6 m c) (A7 m c) (A8 m c) (A9 m c) (A10 m c) (A11 m c) (A12 m c) (Hub.rowOf (A3 m c) 0 e) t * A13 m c (ix2 t j')) j :=
    W9_v50 m ρ c hidx r j
  have h1 : Cert.KernelIdeal.Reg3.a1 (V9 m ρ) c (ix2 0 j) = A14 m c (ix1 j) := W9_v51 m ρ c j
  have h2 : ∀ t : Fin 32, Cert.KernelIdeal.Reg3.a2 (V9 m ρ) c (ix2 r t) = Hub.hi2 (A0 m c) (A1 m c) (A2 m c) (A3 m c) (A5 m c) (A6 m c) (A7 m c) (A8 m c) (A9 m c) (A10 m c) (A11 m c) (A12 m c) r t :=
    fun t => W9_v37_0 m ρ c hidx r t
  have h3 : Cert.KernelIdeal.Reg3.a3 (V9 m ρ) c = A15 m c := W9_arg15 m ρ c
  have hs : ∑ t : Fin 32, Cert.KernelIdeal.Reg3.a2 (V9 m ρ) c (ix2 r t) * A15 m c (ix2 t j)
      = ∑ t : Fin 32, Hub.hi2 (A0 m c) (A1 m c) (A2 m c) (A3 m c) (A5 m c) (A6 m c) (A7 m c) (A8 m c) (A9 m c) (A10 m c) (A11 m c) (A12 m c) r t * A15 m c (ix2 t j) :=
    Finset.sum_congr rfl (fun t _ => congrArg (fun z : EReal => z * A15 m c (ix2 t j)) (h2 t))
  -- the output array is what region 3 leaves: the mean plus the bias row, plus the right projection
  refine (congrFun (W10_arr m ρ c 4) (ix2 r j)).trans ?_
  refine (Cert.KernelIdeal.Reg3.out_nodes (V9 m ρ) c r j).trans ?_
  rw [h0, h1, h3, hs]
  exact (nodesK_open (A0 m c) (A1 m c) (A2 m c) (A3 m c) (A5 m c) (A6 m c) (A7 m c) (A8 m c) (A9 m c) (A10 m c)
    (A11 m c) (A12 m c) (A13 m c) (A14 m c) (A15 m c) r j).symm

/-- Carried to region 3's exit unchanged. -/
theorem W10_arg4 : (W10 m ρ c (Proc.devRef .tc main_arg4) : S100000.Idx → BitVec 32) = A4 m c :=
  (((W10_of_ne m ρ c main_arg4 (by decide)).trans (W9_keep_arg4 m ρ c)).trans (W8_keep_arg4 m ρ c)).trans (W7_arg4 m ρ c)

end Cert.KernelIdeal.KVal

end
-- ==== Proof.KTail.lean ====
/-
  The kernel program's last two host stretches, as one function of region 3's output: the mean of all node rows
  whose batch entry is zero (one segment), then the log-softmax along the eight columns. Both programs end with
  these same operations, so they are carried as one function and never opened.
-/
import proofs.«415651_j317827579953_3_alg».proof.Proof.KHost0
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KVal

open Idealize.ShloMosaic Idealize.ShloMosaic.TcCoe Idealize.SL.Sem Idealize.ShloMosaic.ValueIdx Idealize.ShloMosaic.StableHlo
open Cert.KernelIdeal Cert.KernelIdeal.Gen Cert.Spec

variable {F : FTy → Type} [FloatOps F]
variable (m : (ℓ : Loc nD τ sig) → Buf (Elt F) ℓ) (ρ : Dev nD → PrngReg) (c : Dev nD)

/-- The pooled mean over the single segment: the accumulating scatter of the rows into one row by the batch
    assignment, divided by the count raised to at least one. -/
def pooled (hn : FVec F S100000x8 .f32) (b : IVec S100000 32) : FVec F S1x8 .f32 :=
  Host.divf
    (Host.scatterAdd (F := F) scatter_S1x8_S100000x1_S100000x8_1_0_0_1
      (broadcastInDim S1x8 ![] bcast_S_S1x8 (constant (F := F) S_ .f32 0x00000000#32))
      (broadcastInDim S100000x1 ![0] bcast_S100000_S100000x1_0 b) hn)
    (broadcastInDim S1x8 ![0, 1] bcast_S1x1_S1x8_0_1
      (broadcastInDim S1x1 ![0] bcast_S1_S1x1_0
        (maximumf
          (Host.scatterAdd (F := F) scatter_S1_S100000x1_S100000_n_0_0_1
            (broadcastInDim S1 ![] bcast_S_S1 (constant (F := F) S_ .f32 0x00000000#32))
            (broadcastInDim S100000x1 ![0] bcast_S100000_S100000x1_0 b)
            (broadcastInDim S100000 ![] bcast_S_S100000 (constant (F := F) S_ .f32 0x3F800000#32)))
          (broadcastInDim S1 ![] bcast_S_S1 (constant (F := F) S_ .f32 0x3F800000#32)))))

/-- The row shifted by its maximum (the maximum taken against minus infinity first). -/
def shifted (p : FVec F S1x8 .f32) : FVec F S1x8 .f32 :=
  subf p
    (broadcastInDim S1x8 ![0, 1] bcast_S1x1_S1x8_0_1
      (broadcastInDim S1x1 ![0] bcast_S1_S1x1_0
        (maximumf (broadcastInDim S1 ![] bcast_S_S1 (constant (F := F) S_ .f32 0xFF800000#32))
          (Host.reduce FloatOps.maximumf p (constant (F := F) S_ .f32 0xFF800000#32) reducesTo_S1x8_S1_d1 h_S_))))

/-- The log-softmax of one row of eight. -/
def lsm (p : FVec F S1x8 .f32) : FVec F S1x8 .f32 :=
  subf (shifted p)
    (broadcastInDim S1x8 ![0, 1] bcast_S1x1_S1x8_0_1
      (Host.log
        (broadcastInDim S1x1 ![0] bcast_S1_S1x1_0
          (Host.reduceAdd (Host.exp (shifted p)) (constant (F := F) S_ .f32 0x00000000#32) reducesTo_S1x8_S1_d1 h_S_))))

set_option maxHeartbeats 4000000 in
/-- The result buffer after the last stretch is the log-softmax of the pooled mean of region 3's output. -/
theorem W12_v65 :
    (W12 m ρ c (Proc.devRef .tc main_v65) : FVec F S1x8 .f32)
      = lsm (pooled (W10 m ρ c (Proc.devRef .tc main_v52)) (W10 m ρ c (Proc.devRef .tc main_arg4))) := by
  dsimp only [W12, W11]
  after_results_simp
  rfl

end Cert.KernelIdeal.KVal

end
-- ==== Proof.Alg.lean ====
/-
  The algebra of this certificate, on the extended reals: real-valuedness is closed under the operations the two
  programs use; a sum over 96 (resp. 64) contracted indices splits at the seams of a concatenation; and, for
  real-valued data, dividing a segment's sum by its (positive, real) count commutes with a matrix product on the
  right — the one law of this certificate that needs finiteness.
-/
import proofs.«415651_j317827579953_3_alg».proof.Proof.Spec
import Idealize.ShloMosaic.PureOps.Ideal

noncomputable section

namespace Cert.Alg

open Idealize.ShloMosaic Cert.Spec

/-! ## Real-valued extended reals -/

/-- The coercion of the reals commutes with a finite sum (induction on the index set, by `coe_add`). -/
private theorem coe_sum {ι : Type*} (S : Finset ι) (f : ι → ℝ) :
    ((∑ i ∈ S, f i : ℝ) : EReal) = ∑ i ∈ S, (f i : EReal) := by
  classical
  induction S using Finset.induction_on with
  | empty => rw [Finset.sum_empty, Finset.sum_empty, EReal.coe_zero]
  | insert i s hi ih => rw [Finset.sum_insert hi, Finset.sum_insert hi, EReal.coe_add, ih]

/-- A real whose coercion is at least one is at least one. -/
private theorem one_le_of_coe {b : ℝ} (h : (1 : EReal) ≤ (b : EReal)) : (1 : ℝ) ≤ b := by
  rw [← EReal.coe_one] at h
  exact EReal.coe_le_coe_iff.mp h

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩
theorem isReal_add {x y : EReal} (hx : IsReal x) (hy : IsReal y) : IsReal (x + y) := by
  obtain ⟨a, rfl⟩ := hx
  obtain ⟨b, rfl⟩ := hy
  exact ⟨a + b, (EReal.coe_add a b).symm⟩
theorem isReal_mul {x y : EReal} (hx : IsReal x) (hy : IsReal y) : IsReal (x * y) := by
  obtain ⟨a, rfl⟩ := hx
  obtain ⟨b, rfl⟩ := hy
  exact ⟨a * b, (EReal.coe_mul a b).symm⟩
theorem isReal_max {x y : EReal} (hx : IsReal x) (hy : IsReal y) : IsReal (max x y) := by
  obtain ⟨a, rfl⟩ := hx
  obtain ⟨b, rfl⟩ := hy
  -- the coercion is monotone, so it commutes with the maximum
  exact ⟨max a b, (EReal.coe_strictMono.monotone.map_max).symm⟩
theorem isReal_sum {ι : Type*} (S : Finset ι) (f : ι → EReal) (hf : ∀ i ∈ S, IsReal (f i)) : IsReal (∑ i ∈ S, f i) := by
  classical
  induction S using Finset.induction_on with
  | empty => rw [Finset.sum_empty]; exact isReal_zero
  | insert i s hi ih =>
    rw [Finset.sum_insert hi]
    exact isReal_add (hf i (Finset.mem_insert_self i s)) (ih fun j hj => hf j (Finset.mem_insert_of_mem hj))
/-- A real divided (the ideal instance's quotient) by a real that is at least one is real. -/
theorem isReal_div {x y : EReal} (hx : IsReal x) (hy : IsReal y) (h1 : 1 ≤ y) : IsReal (Ideal.div x y) := by
  obtain ⟨a, rfl⟩ := hx
  obtain ⟨b, rfl⟩ := hy
  have hb : b ≠ 0 := ne_of_gt (lt_of_lt_of_le one_pos (one_le_of_coe h1))
  -- division by a nonzero real is the product with its reciprocal
  rw [Ideal.div_coe hb, ← EReal.coe_mul]
  exact ⟨_, rfl⟩
/-- A float word whose absolute value is below the infinity is a real number. -/
theorem isReal_of_abs_lt_top {x : EReal} (h : max x (-x) < ⊤) : IsReal x := by
  induction x using EReal.rec with
  | bot => rw [EReal.neg_bot, max_eq_right bot_le] at h; exact absurd h (lt_irrefl _)
  | coe r => exact ⟨r, rfl⟩
  | top => rw [EReal.neg_top, max_eq_left bot_le] at h; exact absurd h (lt_irrefl _)

/-! ## A contracted sum split at the seams of a concatenation -/

/-- A sum over `n = a + b` indices is the sum over the first `a` plus the sum over the last `b`. -/
private theorem sum_seam {n : ℕ} (a b : ℕ) (h : a + b = n) (f : Fin n → EReal) :
    ∑ t : Fin n, f t = ∑ t : Fin a, f ⟨t.val, by omega⟩ + ∑ t : Fin b, f ⟨a + t.val, by omega⟩ := by
  subst h
  rw [Fin.sum_univ_add]
  rfl

/-- Associativity, in the shape the four-block split needs. -/
private theorem reassoc4 (A B C D : EReal) : A + (B + (C + D)) = ((A + B) + C) + D := by
  rw [add_assoc, add_assoc]

/-- 96 = 32 + 32 + 16 + 16. -/
theorem sum96 (f : Fin 96 → EReal) :
    ∑ t : Fin 96, f t
      = ((∑ t : Fin 32, f ⟨t.val, by omega⟩ + ∑ t : Fin 32, f ⟨32 + t.val, by omega⟩)
          + ∑ t : Fin 16, f ⟨64 + t.val, by omega⟩) + ∑ t : Fin 16, f ⟨80 + t.val, by omega⟩ := by
  -- split at 32, then the remaining 64 at 32, then the remaining 32 at 16; reassociate at the end
  have h1 : ∑ t : Fin 96, f t = ∑ t : Fin 32, f ⟨t.val, by omega⟩ + ∑ t : Fin 64, f ⟨32 + t.val, by omega⟩ :=
    sum_seam 32 64 rfl f
  have h2 : ∑ t : Fin 64, f ⟨32 + t.val, by omega⟩
      = ∑ t : Fin 32, f ⟨32 + t.val, by omega⟩ + ∑ t : Fin 32, f ⟨64 + t.val, by omega⟩ := by
    refine (sum_seam 32 32 rfl (fun t : Fin 64 => f ⟨32 + t.val, by omega⟩)).trans ?_
    refine congrArg₂ (· + ·) (Finset.sum_congr rfl fun t _ => congrArg f (Fin.ext ?_))
      (Finset.sum_congr rfl fun t _ => congrArg f (Fin.ext ?_))
    · rfl
    · show 32 + (32 + t.val) = 64 + t.val
      omega
  have h3 : ∑ t : Fin 32, f ⟨64 + t.val, by omega⟩
      = ∑ t : Fin 16, f ⟨64 + t.val, by omega⟩ + ∑ t : Fin 16, f ⟨80 + t.val, by omega⟩ := by
    refine (sum_seam 16 16 rfl (fun t : Fin 32 => f ⟨64 + t.val, by omega⟩)).trans ?_
    refine congrArg₂ (· + ·) (Finset.sum_congr rfl fun t _ => congrArg f (Fin.ext ?_))
      (Finset.sum_congr rfl fun t _ => congrArg f (Fin.ext ?_))
    · rfl
    · show 64 + (16 + t.val) = 80 + t.val
      omega
  rw [h1, h2, h3]
  exact reassoc4 _ _ _ _

/-- 64 = 32 + 16 + 16. -/
theorem sum64 (f : Fin 64 → EReal) :
    ∑ t : Fin 64, f t
      = (∑ t : Fin 32, f ⟨t.val, by omega⟩ + ∑ t : Fin 16, f ⟨32 + t.val, by omega⟩)
          + ∑ t : Fin 16, f ⟨48 + t.val, by omega⟩ := by
  -- split at 32, then the remaining 32 at 16; reassociate at the end
  have h1 : ∑ t : Fin 64, f t = ∑ t : Fin 32, f ⟨t.val, by omega⟩ + ∑ t : Fin 32, f ⟨32 + t.val, by omega⟩ :=
    sum_seam 32 32 rfl f
  have h2 : ∑ t : Fin 32, f ⟨32 + t.val, by omega⟩
      = ∑ t : Fin 16, f ⟨32 + t.val, by omega⟩ + ∑ t : Fin 16, f ⟨48 + t.val, by omega⟩ := by
    refine (sum_seam 16 16 rfl (fun t : Fin 32 => f ⟨32 + t.val, by omega⟩)).trans ?_
    refine congrArg₂ (· + ·) (Finset.sum_congr rfl fun t _ => congrArg f (Fin.ext ?_))
      (Finset.sum_congr rfl fun t _ => congrArg f (Fin.ext ?_))
    · rfl
    · show 32 + (16 + t.val) = 48 + t.val
      omega
  rw [h1, h2]
  exact (add_assoc _ _ _).symm

/-! ## The segment mean commutes with a product on the right -/

/-- For real-valued rows `a e`, a real-valued column `w` and a real count `c ≥ 1`: the mean over the segment `S`
    of the rows' products with `w` is the product of the rows' mean with `w`. Both sides start their sums from
    `z = 0` as the programs' scatter-adds do. -/
theorem segmean_mm {ι : Type*} {K : ℕ} (S : Finset ι) (a : ι → Fin K → EReal) (w : Fin K → EReal) (c : EReal)
    (ha : ∀ e t, IsReal (a e t)) (hw : ∀ t, IsReal (w t)) (hc : IsReal c) (h1 : 1 ≤ c) :
    Ideal.div (0 + ∑ e ∈ S, ∑ t : Fin K, a e t * w t) c
      = ∑ t : Fin K, Ideal.div (0 + ∑ e ∈ S, a e t) c * w t := by
  -- real witnesses for every entry, for the column and for the count
  choose A hA using ha
  choose W hW using hw
  obtain ⟨C, rfl⟩ := hc
  have hC : C ≠ 0 := ne_of_gt (lt_of_lt_of_le one_pos (one_le_of_coe h1))
  obtain rfl : a = fun e t => (A e t : EReal) := funext fun e => funext fun t => hA e t
  obtain rfl : w = fun t => (W t : EReal) := funext hW
  -- the left side is the coercion of a real
  have L : Ideal.div (0 + ∑ e ∈ S, ∑ t : Fin K, (A e t : EReal) * (W t : EReal)) (C : EReal)
      = (((∑ e ∈ S, ∑ t : Fin K, A e t * W t) * (1 / C) : ℝ) : EReal) := by
    rw [zero_add, Ideal.div_coe hC, EReal.coe_mul, coe_sum]
    refine congrArg (· * ((1 / C : ℝ) : EReal)) (Finset.sum_congr rfl fun e _ => ?_)
    rw [coe_sum]
    exact Finset.sum_congr rfl fun t _ => (EReal.coe_mul _ _).symm
  -- each term of the right side is the coercion of a real
  have R : ∀ t : Fin K, Ideal.div (0 + ∑ e ∈ S, (A e t : EReal)) (C : EReal) * (W t : EReal)
      = (((∑ e ∈ S, A e t) * (1 / C) * W t : ℝ) : EReal) := by
    intro t
    rw [zero_add, Ideal.div_coe hC, EReal.coe_mul, EReal.coe_mul, coe_sum]
  rw [L, Finset.sum_congr rfl fun t _ => R t, ← coe_sum]
  refine congrArg Real.toEReal ?_
  -- in the reals: exchange the two sums and move the constant factor through
  rw [Finset.sum_comm, Finset.sum_mul]
  refine Finset.sum_congr rfl fun t _ => ?_
  rw [← Finset.sum_mul]
  ring

/-- The count of a segment, as the programs compute it (zero plus a one per member, then at least one), is a
    real number that is at least one. -/
theorem count_real_ge_one {ι : Type*} (S : Finset ι) :
    IsReal (max (0 + ∑ _e ∈ S, (1 : EReal)) 1) ∧ (1 : EReal) ≤ max (0 + ∑ _e ∈ S, (1 : EReal)) 1 :=
  ⟨isReal_max (isReal_add isReal_zero (isReal_sum S _ fun _ _ => isReal_one)) isReal_one, le_max_right _ _⟩

end Cert.Alg

end
-- ==== Proof.RStage1.lean ====
/-
  The reference program up to the edge aggregator, read at an index: the node embedding `h = x · W_n + b_n`, and
  the edge rows `max (concat [h[src], h[dst], e, h_G] · W_e + b_e) 0` with the contracted sum over the 96
  concatenated columns split at the seams (for an edge index inside the node table the gathers read the rows
  the index names).
-/
import proofs.«415651_j317827579953_3_alg».proof.Proof.ReadP
import proofs.«415651_j317827579953_3_alg».proof.Proof.Hub
import proofs.«415651_j317827579953_3_alg».proof.Proof.Indexing
import proofs.«415651_j317827579953_3_alg».proof.Proof.Alg
import proofs.«415651_j317827579953_3_alg».proof.Proof.Gen.KernelIdeal
import Idealize.ShloMosaic.Lib.ValueIdx
import Idealize.ShloMosaic.Lib.Pipeline.Value
import Idealize.ShloMosaic.PureOps.Ideal.Laws

noncomputable section

namespace Cert.ReferenceIdeal.RVal

open Idealize.ShloMosaic Idealize.ShloMosaic.TcCoe Idealize.SL.Sem Idealize.ShloMosaic.ValueIdx
open Cert.ReferenceIdeal Cert.ReferenceIdeal.ReadP Cert.Spec

variable (x0 : S100000x32.Idx → EReal) (x1 : S1600000x16.Idx → EReal) (x2 : S1x16.Idx → EReal) (x3 : S2x1600000.Idx → BitVec 32)
  (x5 : S32x32.Idx → EReal) (x6 : S32.Idx → EReal) (x7 : S16x16.Idx → EReal) (x8 : S16.Idx → EReal) (x9 : S96x16.Idx → EReal)
  (x10 : S16.Idx → EReal) (x11 : S64x32.Idx → EReal) (x12 : S32.Idx → EReal) (x13 : S32x8.Idx → EReal) (x14 : S8.Idx → EReal)
  (x15 : S32x8.Idx → EReal)

/-- The node embedding. -/
theorem R_v7 (r : Fin 100000) (j : Fin 32) :
    (val_main_v7 (F := Ideal) x0 x5 x6 : S100000x32.Idx → EReal) (ix2 r j) = Hub.hi x0 x5 x6 r j := by
  have el : ∀ k : Fin 32, lidx_main_v4 (ix2 r j) k = ix2 r k := fun k =>
    funext fun a => Fin.ext (by match a with | ⟨0, _⟩ => rfl | ⟨1, _⟩ => rfl)
  have er : ∀ k : Fin 32, ridx_main_v4 (ix2 r j) k = ix2 k j := fun k =>
    funext fun a => Fin.ext (by match a with | ⟨0, _⟩ => rfl | ⟨1, _⟩ => rfl)
  have eb : idx_main_v5 (idx_main_v6 (ix2 r j)) = ix1 j :=
    funext fun a => Fin.ext (by match a with | ⟨0, _⟩ => rfl)
  rw [val_main_v7_apply, val_main_v4_apply, val_main_v6_apply, val_main_v5_apply]
  simp only [Ideal.addf_def, el, er, eb]
  rfl

/-- The graph embedding. -/
theorem R_v10 (j : Fin 16) :
    (val_main_v10 (F := Ideal) x2 x7 x8 : S1x16.Idx → EReal) (ix2 0 j) = Hub.hG x2 x7 x8 j := by
  have el : ∀ k : Fin 16, lidx_main_v8 (ix2 (0 : Fin 1) j) k = ix2 0 k := fun k =>
    funext fun a => Fin.ext (by match a with | ⟨0, _⟩ => rfl | ⟨1, _⟩ => rfl)
  have er : ∀ k : Fin 16, ridx_main_v8 (ix2 (0 : Fin 1) j) k = ix2 k j := fun k =>
    funext fun a => Fin.ext (by match a with | ⟨0, _⟩ => rfl | ⟨1, _⟩ => rfl)
  have eb : idx_main_v9 (ix2 (0 : Fin 1) j) = ix1 j :=
    funext fun a => Fin.ext (by match a with | ⟨0, _⟩ => rfl)
  rw [val_main_v10_apply, val_main_v8_apply, val_main_v9_apply]
  simp only [Ideal.addf_def, el, er, eb]
  rfl

/-- A select on "the word is negative, read signed" is the word itself where it is not negative. -/
private theorem wrap_of_nonneg (w a : BitVec 32) (h : 0 ≤ w.toInt) :
    Scalar.select (IntOp.cmpi .slt w 0#32) a w = w := by
  have hc : ¬ IntOp.cmpi .slt w 0#32 = 1#1 := fun hh => by
    have h1 := IntOp.cmpi_slt.1 hh
    rw [show (0#32 : BitVec 32).toInt = 0 from by decide] at h1
    omega
  exact if_neg hc

/-- The start index the first gather is handed, at member e: row 0 of the edge index at e. -/
private theorem wrapped_src (hidx : ∀ i, 0 ≤ (x3 i).toInt ∧ (x3 i).toInt < 100000) (e : Fin 1600000) :
    (val_main_v17 (F := Ideal) x3 : S1600000x1.Idx → BitVec 32) (ix2 e 0) = x3 (ix2 0 e) := by
  have e1 : idx_main_v17 (ix2 e (0 : Fin 1)) = ix1 e :=
    funext fun a => Fin.ext (by match a with | ⟨0, _⟩ => rfl)
  have e2 : idx_main_v0 (idx_main_v1 (ix1 e)) = ix2 0 e :=
    funext fun a => Fin.ext (by
      match a with
      | ⟨0, _⟩ => rfl
      | ⟨1, _⟩ => exact Nat.mod_eq_of_lt e.isLt)
  rw [val_main_v17_apply, e1, val_main_v16_apply, val_main_v13_apply, val_main_v12_apply, val_main_c_apply,
    val_main_v1_apply, val_main_v0_apply, e2]
  exact wrap_of_nonneg _ _ (hidx _).1

/-- The start index the second gather is handed, at member e: row 1 of the edge index at e. -/
private theorem wrapped_dst (hidx : ∀ i, 0 ≤ (x3 i).toInt ∧ (x3 i).toInt < 100000) (e : Fin 1600000) :
    (val_main_v24 (F := Ideal) x3 : S1600000x1.Idx → BitVec 32) (ix2 e 0) = x3 (ix2 1 e) := by
  have e1 : idx_main_v24 (ix2 e (0 : Fin 1)) = ix1 e :=
    funext fun a => Fin.ext (by match a with | ⟨0, _⟩ => rfl)
  have e2 : idx_main_v2 (idx_main_v3 (ix1 e)) = ix2 1 e :=
    funext fun a => Fin.ext (by
      match a with
      | ⟨0, _⟩ => rfl
      | ⟨1, _⟩ => exact Nat.mod_eq_of_lt e.isLt)
  rw [val_main_v24_apply, e1, val_main_v23_apply, val_main_v20_apply, val_main_v19_apply, val_main_c_1_apply,
    val_main_v3_apply, val_main_v2_apply, e2]
  exact wrap_of_nonneg _ _ (hidx _).1

/-- The row the first gather reads at member e is the source row of the edge. -/
private theorem rowAt_src (hidx : ∀ i, 0 ≤ (x3 i).toInt ∧ (x3 i).toInt < 100000) (e : Fin 1600000) :
    Indexing.rowAt (val_main_v17 (F := Ideal) x3) e = Hub.rowOf x3 0 e := by
  refine Fin.ext ?_
  show min ((val_main_v17 (F := Ideal) x3 : S1600000x1.Idx → BitVec 32) (ix2 e 0)).toInt.toNat 99999
    = min (x3 (ix2 0 e)).toInt.toNat 99999
  rw [wrapped_src x3 hidx e]

/-- The row the second gather reads at member e is the destination row of the edge. -/
private theorem rowAt_dst (hidx : ∀ i, 0 ≤ (x3 i).toInt ∧ (x3 i).toInt < 100000) (e : Fin 1600000) :
    Indexing.rowAt (val_main_v24 (F := Ideal) x3) e = Hub.rowOf x3 1 e := by
  refine Fin.ext ?_
  show min ((val_main_v24 (F := Ideal) x3 : S1600000x1.Idx → BitVec 32) (ix2 e 0)).toInt.toNat 99999
    = min (x3 (ix2 1 e)).toInt.toNat 99999
  rw [wrapped_dst x3 hidx e]

/-- The first gather at (e, t): the node embedding at the edge's source row. -/
private theorem v18_at (hidx : ∀ i, 0 ≤ (x3 i).toInt ∧ (x3 i).toInt < 100000) (e : Fin 1600000) (t : Fin 32) :
    (val_main_v18 (F := Ideal) x0 x3 x5 x6 : S1600000x32.Idx → EReal) (ix2 e t)
      = Hub.hi x0 x5 x6 (Hub.rowOf x3 0 e) t := by
  unfold val_main_v18
  rw [Indexing.R_gather32, R_v7, rowAt_src x3 hidx e]

/-- The second gather at (e, t): the node embedding at the edge's destination row. -/
private theorem v25_at (hidx : ∀ i, 0 ≤ (x3 i).toInt ∧ (x3 i).toInt < 100000) (e : Fin 1600000) (t : Fin 32) :
    (val_main_v25 (F := Ideal) x0 x3 x5 x6 : S1600000x32.Idx → EReal) (ix2 e t)
      = Hub.hi x0 x5 x6 (Hub.rowOf x3 1 e) t := by
  unfold val_main_v25
  rw [Indexing.R_gather32, R_v7, rowAt_dst x3 hidx e]

/-- The broadcast graph embedding at (e, t). -/
private theorem v11_at (e : Fin 1600000) (t : Fin 16) :
    (val_main_v11 (F := Ideal) x2 x7 x8 : S1600000x16.Idx → EReal) (ix2 e t) = Hub.hG x2 x7 x8 t := by
  have e1 : idx_main_v11 (ix2 e t) = ix2 0 t :=
    funext fun a => Fin.ext (by match a with | ⟨0, _⟩ => rfl | ⟨1, _⟩ => rfl)
  rw [val_main_v11_apply, e1, R_v10]

/-- The four column ranges of the concatenated input of the edge aggregator, at row e. -/
private theorem v26_cols (e : Fin 1600000) :
    (∀ t : Fin 32, (val_main_v26 (F := Ideal) x0 x1 x2 x3 x5 x6 x7 x8 : S1600000x96.Idx → EReal) (ix2 e ⟨t.val, by omega⟩)
        = val_main_v18 (F := Ideal) x0 x3 x5 x6 (ix2 e t))
    ∧ (∀ t : Fin 32, (val_main_v26 (F := Ideal) x0 x1 x2 x3 x5 x6 x7 x8 : S1600000x96.Idx → EReal) (ix2 e ⟨32 + t.val, by omega⟩)
        = val_main_v25 (F := Ideal) x0 x3 x5 x6 (ix2 e t))
    ∧ (∀ t : Fin 16, (val_main_v26 (F := Ideal) x0 x1 x2 x3 x5 x6 x7 x8 : S1600000x96.Idx → EReal) (ix2 e ⟨64 + t.val, by omega⟩)
        = x1 (ix2 e t))
    ∧ (∀ t : Fin 16, (val_main_v26 (F := Ideal) x0 x1 x2 x3 x5 x6 x7 x8 : S1600000x96.Idx → EReal) (ix2 e ⟨80 + t.val, by omega⟩)
        = val_main_v11 (F := Ideal) x2 x7 x8 (ix2 e t)) := by
  unfold val_main_v26
  exact Indexing.R_concat96 (val_main_v18 (F := Ideal) x0 x3 x5 x6) (val_main_v25 (F := Ideal) x0 x3 x5 x6) x1
    (val_main_v11 (F := Ideal) x2 x7 x8) _ e

/-- The edge aggregator's rows. -/
theorem R_v31 (hidx : ∀ i, 0 ≤ (x3 i).toInt ∧ (x3 i).toInt < 100000) (e : Fin 1600000) (j : Fin 16) :
    (val_main_v31 (F := Ideal) x0 x1 x2 x3 x5 x6 x7 x8 x9 x10 : S1600000x16.Idx → EReal) (ix2 e j) = Hub.edge x0 x1 x2 x3 x5 x6 x7 x8 x9 x10 e j := by
  have el : ∀ k : Fin 96, lidx_main_v27 (ix2 e j) k = ix2 e k := fun k =>
    funext fun a => Fin.ext (by match a with | ⟨0, _⟩ => rfl | ⟨1, _⟩ => rfl)
  have er : ∀ k : Fin 96, ridx_main_v27 (ix2 e j) k = ix2 k j := fun k =>
    funext fun a => Fin.ext (by match a with | ⟨0, _⟩ => rfl | ⟨1, _⟩ => rfl)
  have eb : idx_main_v28 (idx_main_v29 (ix2 e j)) = ix1 j :=
    funext fun a => Fin.ext (by match a with | ⟨0, _⟩ => rfl)
  obtain ⟨c0, c1, c2, c3⟩ := v26_cols x0 x1 x2 x3 x5 x6 x7 x8 e
  -- the maximum with the zero word of the sum over the 96 contracted columns plus the bias at column j
  rw [val_main_v31_apply, val_main_v30_apply, val_main_v27_apply, val_main_v29_apply, val_main_v28_apply,
    val_main_call0_v0_apply, val_main_call0_cst_apply]
  simp only [Ideal.maximumf_def, Ideal.addf_def, Ideal.ofBits_def, Ideal.ofBits_zero_f32, el, er, eb]
  -- split at the seams 32 | 32 | 16 | 16; each range reads its own piece of the concatenation: the embedding at the
  -- source row, at the destination row, the edge attributes, the graph embedding
  rw [Cert.Alg.sum96]
  simp only [c0, c1, c2, c3, v18_at x0 x3 x5 x6 hidx, v25_at x0 x3 x5 x6 hidx, v11_at x2 x7 x8]
  rfl

end Cert.ReferenceIdeal.RVal

end
-- ==== Proof.RStage2.lean ====
/-
  The reference program from the edge aggregator to the node aggregator, read at an index: the per-node mean of
  the edge rows over the source index, and `h₂ = max (concat [h, m, h_G] · W_a + b_a) 0` with the contracted sum
  over the 64 concatenated columns split at the seams.
-/
import proofs.«415651_j317827579953_3_alg».proof.Proof.ReadP
import proofs.«415651_j317827579953_3_alg».proof.Proof.RStage1
import proofs.«415651_j317827579953_3_alg».proof.Proof.Gen.KernelIdeal
import Idealize.ShloMosaic.Lib.ValueIdx
import Idealize.ShloMosaic.Lib.Pipeline.Value
import Idealize.ShloMosaic.PureOps.Ideal.Laws

noncomputable section

namespace Cert.ReferenceIdeal.RVal

open Idealize.ShloMosaic Idealize.ShloMosaic.TcCoe Idealize.SL.Sem Idealize.ShloMosaic.ValueIdx
open Cert.ReferenceIdeal Cert.ReferenceIdeal.ReadP Cert.Spec

variable (x0 : S100000x32.Idx → EReal) (x1 : S1600000x16.Idx → EReal) (x2 : S1x16.Idx → EReal) (x3 : S2x1600000.Idx → BitVec 32)
  (x5 : S32x32.Idx → EReal) (x6 : S32.Idx → EReal) (x7 : S16x16.Idx → EReal) (x8 : S16.Idx → EReal) (x9 : S96x16.Idx → EReal)
  (x10 : S16.Idx → EReal) (x11 : S64x32.Idx → EReal) (x12 : S32.Idx → EReal) (x13 : S32x8.Idx → EReal) (x14 : S8.Idx → EReal)
  (x15 : S32x8.Idx → EReal)

/-! ## The segment mean over the source index -/

/-- The word `0x3F800000` (sign 0, exponent 127, fraction 0) is the number one: `2^23 · 2^(127 − 127 − 23)`. -/
private theorem ofBits_one : Ideal.ofBits .f32 0x3F800000#32 = (1 : EReal) := by
  simp [Ideal.ofBits, Ideal.ieee]
  rw [← EReal.coe_mul, ← EReal.coe_one]
  congr 1
  norm_num

/-- Entry `e` of the source row: row 0 of the edge index sliced out and flattened. -/
private theorem src_entry (e : Fin 1600000) :
    (val_main_v1 (F := Ideal) x3 : S1600000.Idx → BitVec 32) (ix1 e) = x3 (ix2 0 e) := by
  rw [val_main_v1_apply, val_main_v0_apply]
  congr 1
  funext a
  refine Fin.ext ?_
  match a with
  | ⟨0, _⟩ => rfl
  | ⟨1, _⟩ =>
    show e.val % 1600000 = e.val
    exact Nat.mod_eq_of_lt e.isLt

/-- The start-index column of the rows' scatter holds the raw source row. -/
private theorem v33_entry (e : Fin 1600000) :
    (val_main_v33 (F := Ideal) x3 : S1600000x1.Idx → BitVec 32) (ix2 e 0) = x3 (ix2 0 e) := by
  rw [val_main_v33_apply]
  exact src_entry x3 e

/-- The start-index column of the count's scatter holds the raw source row. -/
private theorem v37_entry (e : Fin 1600000) :
    (val_main_v37 (F := Ideal) x3 : S1600000x1.Idx → BitVec 32) (ix2 e 0) = x3 (ix2 0 e) := by
  rw [val_main_v37_apply]
  exact src_entry x3 e

/-- The members the rows' scatter adds into row `n` are the edges whose source is `n`. -/
private theorem hits_v33 (n : Fin 100000) :
    Cert.Indexing.hits (val_main_v33 (F := Ideal) x3) n = Hub.hitOf x3 0 n := by
  unfold Cert.Indexing.hits Hub.hitOf
  refine Finset.filter_congr fun e _ => ?_
  rw [v33_entry]

/-- The members the count's scatter adds into entry `n` are the same edges. -/
private theorem hits_v37 (n : Fin 100000) :
    Cert.Indexing.hits (val_main_v37 (F := Ideal) x3) n = Hub.hitOf x3 0 n := by
  unfold Cert.Indexing.hits Hub.hitOf
  refine Finset.filter_congr fun e _ => ?_
  rw [v37_entry]

/-- The per-node mean of the edge rows. -/
theorem R_v43 (hidx : ∀ i, 0 ≤ (x3 i).toInt ∧ (x3 i).toInt < 100000) (n : Fin 100000) (j : Fin 16) :
    (val_main_v43 (F := Ideal) x0 x1 x2 x3 x5 x6 x7 x8 x9 x10 : S100000x16.Idx → EReal) (ix2 n j) = Hub.mN x0 x1 x2 x3 x5 x6 x7 x8 x9 x10 n j := by
  -- the numerator: a zero table plus, in row `n`, the edge rows of the edges whose source is `n`
  have hnum : (val_main_v34 (F := Ideal) x0 x1 x2 x3 x5 x6 x7 x8 x9 x10 : S100000x16.Idx → EReal) (ix2 n j)
      = 0 + ∑ e ∈ Hub.hitOf x3 0 n, Hub.edge x0 x1 x2 x3 x5 x6 x7 x8 x9 x10 e j := by
    unfold val_main_v34
    rw [Cert.Indexing.R_scatter16, hits_v33, val_main_v32_apply, val_main_cst_apply, Ideal.ofBits_def, Ideal.ofBits_zero_f32]
    exact congrArg (fun s : EReal => 0 + s)
      (Finset.sum_congr rfl fun e _ => R_v31 x0 x1 x2 x3 x5 x6 x7 x8 x9 x10 hidx e j)
  -- the denominator: the count (zero plus a one per such edge) raised to at least one, the same in every column
  have hden : (val_main_v42 (F := Ideal) x3 : S100000x16.Idx → EReal) (ix2 n j)
      = max (0 + ∑ _e ∈ Hub.hitOf x3 0 n, (1 : EReal)) 1 := by
    have hi : idx_main_v41 (idx_main_v42 (ix2 n j)) = ix1 n :=
      funext fun a => Fin.ext (by match a with | ⟨0, _⟩ => rfl)
    rw [val_main_v42_apply, val_main_v41_apply, val_main_v40_apply, hi, val_main_v39_apply, val_main_cst_5_apply]
    unfold val_main_v38
    rw [Cert.Indexing.R_scatterCount, hits_v37, val_main_v36_apply, val_main_cst_4_apply]
    simp only [val_main_v35_apply, val_main_cst_3_apply, Ideal.ofBits_def, Ideal.ofBits_zero_f32, ofBits_one,
      Ideal.maximumf_def]
  rw [val_main_v43_apply, Ideal.hostDivf_def, hnum, hden]
  unfold Hub.mN Hub.segMean
  rfl

/-! ## The node aggregator -/

/-- Columns 0–31 of the concatenation are the node embedding. -/
private theorem v45_left (r : Fin 100000) (t : Fin 32) :
    (val_main_v45 (F := Ideal) x0 x1 x2 x3 x5 x6 x7 x8 x9 x10 : S100000x64.Idx → EReal) (ix2 r ⟨t.val, by omega⟩)
      = Hub.hi x0 x5 x6 r t := by
  unfold val_main_v45
  refine ((Cert.Indexing.R_concat64 _ _ _ _ r).1 t).trans ?_
  exact R_v7 x0 x5 x6 r t

/-- Columns 32–47 of the concatenation are the per-node mean of the edge rows. -/
private theorem v45_mid (hidx : ∀ i, 0 ≤ (x3 i).toInt ∧ (x3 i).toInt < 100000) (r : Fin 100000) (t : Fin 16) :
    (val_main_v45 (F := Ideal) x0 x1 x2 x3 x5 x6 x7 x8 x9 x10 : S100000x64.Idx → EReal) (ix2 r ⟨32 + t.val, by omega⟩)
      = Hub.mN x0 x1 x2 x3 x5 x6 x7 x8 x9 x10 r t := by
  unfold val_main_v45
  refine ((Cert.Indexing.R_concat64 _ _ _ _ r).2.1 t).trans ?_
  exact R_v43 x0 x1 x2 x3 x5 x6 x7 x8 x9 x10 hidx r t

/-- Columns 48–63 of the concatenation are the graph embedding's one row, repeated in every row. -/
private theorem v45_right (r : Fin 100000) (t : Fin 16) :
    (val_main_v45 (F := Ideal) x0 x1 x2 x3 x5 x6 x7 x8 x9 x10 : S100000x64.Idx → EReal) (ix2 r ⟨48 + t.val, by omega⟩)
      = Hub.hG x2 x7 x8 t := by
  unfold val_main_v45
  refine ((Cert.Indexing.R_concat64 _ _ _ _ r).2.2 t).trans ?_
  have ei : idx_main_v44 (ix2 r t) = ix2 0 t :=
    funext fun a => Fin.ext (by match a with | ⟨0, _⟩ => rfl | ⟨1, _⟩ => rfl)
  rw [val_main_v44_apply, ei]
  exact R_v10 x2 x7 x8 t

/-- The aggregated node state. -/
theorem R_v50 (hidx : ∀ i, 0 ≤ (x3 i).toInt ∧ (x3 i).toInt < 100000) (r : Fin 100000) (j : Fin 32) :
    (val_main_v50 (F := Ideal) x0 x1 x2 x3 x5 x6 x7 x8 x9 x10 x11 x12 : S100000x32.Idx → EReal) (ix2 r j) = Hub.hi2 x0 x1 x2 x3 x5 x6 x7 x8 x9 x10 x11 x12 r j := by
  -- the product reads row `r` of the concatenation against column `j` of the weights; the bias is entry `j`
  have el : ∀ k : Fin 64, lidx_main_v46 (ix2 r j) k = ix2 r k := fun k =>
    funext fun a => Fin.ext (by match a with | ⟨0, _⟩ => rfl | ⟨1, _⟩ => rfl)
  have er : ∀ k : Fin 64, ridx_main_v46 (ix2 r j) k = ix2 k j := fun k =>
    funext fun a => Fin.ext (by match a with | ⟨0, _⟩ => rfl | ⟨1, _⟩ => rfl)
  have eb : idx_main_v47 (idx_main_v48 (ix2 r j)) = ix1 j :=
    funext fun a => Fin.ext (by match a with | ⟨0, _⟩ => rfl)
  rw [val_main_v50_apply, val_main_v49_apply, val_main_v46_apply, val_main_v48_apply, val_main_v47_apply, eb,
    val_main_call1_v0_apply, val_main_call1_cst_apply]
  simp only [el, er]
  -- 64 = 32 + 16 + 16: the contracted sum split at the seams, each block read from its piece
  rw [Cert.Alg.sum64]
  simp only [v45_left x0 x1 x2 x3 x5 x6 x7 x8 x9 x10 r, v45_mid x0 x1 x2 x3 x5 x6 x7 x8 x9 x10 hidx r,
    v45_right x0 x1 x2 x3 x5 x6 x7 x8 x9 x10 r, Ideal.ofBits_def, Ideal.ofBits_zero_f32, Ideal.addf_def,
    Ideal.maximumf_def]
  unfold Hub.hi2
  rfl

end Cert.ReferenceIdeal.RVal

end
-- ==== Proof.RStage3.lean ====
/-
  The reference program's output layer, read at an index: the rows of `h₂` gathered along the edges and averaged
  per destination node, times `W_l`, plus the bias, plus `h₂ · W_r`.
-/
import proofs.«415651_j317827579953_3_alg».proof.Proof.ReadP
import proofs.«415651_j317827579953_3_alg».proof.Proof.RStage2
import proofs.«415651_j317827579953_3_alg».proof.Proof.Gen.KernelIdeal
import Idealize.ShloMosaic.Lib.ValueIdx
import Idealize.ShloMosaic.Lib.Pipeline.Value
import Idealize.ShloMosaic.PureOps.Ideal.Laws

noncomputable section

namespace Cert.ReferenceIdeal.RVal

open Idealize.ShloMosaic Idealize.ShloMosaic.TcCoe Idealize.SL.Sem Idealize.ShloMosaic.ValueIdx
open Cert.ReferenceIdeal Cert.ReferenceIdeal.ReadP Cert.Spec

variable (x0 : S100000x32.Idx → EReal) (x1 : S1600000x16.Idx → EReal) (x2 : S1x16.Idx → EReal) (x3 : S2x1600000.Idx → BitVec 32)
  (x5 : S32x32.Idx → EReal) (x6 : S32.Idx → EReal) (x7 : S16x16.Idx → EReal) (x8 : S16.Idx → EReal) (x9 : S96x16.Idx → EReal)
  (x10 : S16.Idx → EReal) (x11 : S64x32.Idx → EReal) (x12 : S32.Idx → EReal) (x13 : S32x8.Idx → EReal) (x14 : S8.Idx → EReal)
  (x15 : S32x8.Idx → EReal)

/-! ## The two rows of the edge index -/

/-- The word `0x3F800000` (sign 0, exponent 127, fraction 0) is one. -/
private theorem ofBits_one : Ideal.ofBits .f32 0x3F800000#32 = (1 : EReal) := by
  simp [Ideal.ofBits, Ideal.ieee]
  rw [← EReal.coe_mul]
  norm_num

/-- Entry `e` of the first slice, flattened, is entry `(0, e)` of the edge index. -/
private theorem v1_at (e : Fin 1600000) : val_main_v1 (F := Ideal) x3 (ix1 e) = x3 (ix2 0 e) := by
  rw [val_main_v1_apply, val_main_v0_apply]
  congr 1
  funext a
  refine Fin.ext ?_
  match a with
  | ⟨0, _⟩ => rfl
  | ⟨1, _⟩ => exact Nat.mod_eq_of_lt e.isLt

/-- Entry `e` of the second slice, flattened, is entry `(1, e)` of the edge index. -/
private theorem v3_at (e : Fin 1600000) : val_main_v3 (F := Ideal) x3 (ix1 e) = x3 (ix2 1 e) := by
  rw [val_main_v3_apply, val_main_v2_apply]
  congr 1
  funext a
  refine Fin.ext ?_
  match a with
  | ⟨0, _⟩ => rfl
  | ⟨1, _⟩ => exact Nat.mod_eq_of_lt e.isLt

/-- A word whose signed value is not negative is not below zero, so the wrap-around select keeps it. -/
private theorem wrap_keep (w : BitVec 32) (h : 0 ≤ w.toInt) :
    Scalar.select (IntOp.cmpi .slt w 0#32) (IntOp.addi w 100000#32) w = w := by
  have hc : ¬ IntOp.cmpi .slt w 0#32 = 1#1 := by
    intro hh
    have := IntOp.cmpi_slt.1 hh
    rw [show (0#32 : BitVec 32).toInt = 0 from by decide] at this
    omega
  rw [eq_zero_of_ne_one hc, select_zero]

/-- The start indices of the gather of `h₂`: the wrapped first row, as a column. Inside the table the wrap is idle. -/
private theorem v56_at (hidx : ∀ i, 0 ≤ (x3 i).toInt ∧ (x3 i).toInt < 100000) (e : Fin 1600000) :
    val_main_v56 (F := Ideal) x3 (ix2 e 0) = x3 (ix2 0 e) := by
  have ei : idx_main_v56 (ix2 e (0 : Fin 1)) = ix1 e := funext fun a => Fin.ext (by match a with | ⟨0, _⟩ => rfl)
  rw [val_main_v56_apply, ei, val_main_v55_apply, val_main_v52_apply, val_main_v54_apply, val_main_v51_apply,
    val_main_v53_apply, val_main_c_6_apply, val_main_c_7_apply, v1_at]
  exact wrap_keep _ (hidx _).1

/-- The start indices of the two scatters: the second row, as a column. -/
private theorem v59_at (e : Fin 1600000) : val_main_v59 (F := Ideal) x3 (ix2 e 0) = x3 (ix2 1 e) := by
  have ei : idx_main_v59 (ix2 e (0 : Fin 1)) = ix1 e := funext fun a => Fin.ext (by match a with | ⟨0, _⟩ => rfl)
  rw [val_main_v59_apply, ei, v3_at]

private theorem v63_at (e : Fin 1600000) : val_main_v63 (F := Ideal) x3 (ix2 e 0) = x3 (ix2 1 e) := by
  have ei : idx_main_v63 (ix2 e (0 : Fin 1)) = ix1 e := funext fun a => Fin.ext (by match a with | ⟨0, _⟩ => rfl)
  rw [val_main_v63_apply, ei, v3_at]

/-- The row the gather reads for member `e` is the source row. -/
private theorem rowAt_v56 (hidx : ∀ i, 0 ≤ (x3 i).toInt ∧ (x3 i).toInt < 100000) (e : Fin 1600000) :
    Indexing.rowAt (val_main_v56 (F := Ideal) x3) e = Hub.rowOf x3 0 e := by
  unfold Indexing.rowAt Hub.rowOf
  refine Fin.ext ?_
  show min (val_main_v56 (F := Ideal) x3 (ix2 e 0)).toInt.toNat 99999 = min (x3 (ix2 0 e)).toInt.toNat 99999
  rw [v56_at x3 hidx e]

/-- The members a scatter adds into row `n` are the edges whose destination is `n`. -/
private theorem hits_v59 (n : Fin 100000) : Indexing.hits (val_main_v59 (F := Ideal) x3) n = Hub.hitOf x3 1 n := by
  unfold Indexing.hits Hub.hitOf
  refine Finset.filter_congr fun e _ => ?_
  rw [v59_at]

private theorem hits_v63 (n : Fin 100000) : Indexing.hits (val_main_v63 (F := Ideal) x3) n = Hub.hitOf x3 1 n := by
  unfold Indexing.hits Hub.hitOf
  refine Finset.filter_congr fun e _ => ?_
  rw [v63_at]

/-! ## The mean over the destination index -/

/-- The accumulated rows: zero plus the rows of `h₂` at the sources of the edges that arrive at `r`. -/
private theorem v60_at (hidx : ∀ i, 0 ≤ (x3 i).toInt ∧ (x3 i).toInt < 100000) (r : Fin 100000) (t : Fin 32) :
    (val_main_v60 (F := Ideal) x0 x1 x2 x3 x5 x6 x7 x8 x9 x10 x11 x12 : S100000x32.Idx → EReal) (ix2 r t)
      = 0 + ∑ e ∈ Hub.hitOf x3 1 r, Hub.hi2 x0 x1 x2 x3 x5 x6 x7 x8 x9 x10 x11 x12 (Hub.rowOf x3 0 e) t := by
  unfold val_main_v60
  rw [Indexing.R_scatter32, hits_v59, val_main_v58_apply, val_main_cst_8_apply, Ideal.ofBits_def, Ideal.ofBits_zero_f32]
  refine congrArg (fun s : EReal => 0 + s) ?_
  refine Finset.sum_congr rfl fun e _ => ?_
  unfold val_main_v57
  rw [Indexing.R_gather32, rowAt_v56 x3 hidx, R_v50 x0 x1 x2 x3 x5 x6 x7 x8 x9 x10 x11 x12 hidx]

/-- The count: zero plus a one per edge that arrives at `r`. -/
private theorem v64_at (r : Fin 100000) :
    (val_main_v64 (F := Ideal) x3 : S100000.Idx → EReal) (ix1 r) = 0 + ∑ _e ∈ Hub.hitOf x3 1 r, (1 : EReal) := by
  unfold val_main_v64
  rw [Indexing.R_scatterCount, hits_v63, val_main_v62_apply, val_main_cst_10_apply, Ideal.ofBits_def, Ideal.ofBits_zero_f32]
  refine congrArg (fun s : EReal => 0 + s) ?_
  refine Finset.sum_congr rfl fun e _ => ?_
  rw [val_main_v61_apply, val_main_cst_9_apply, Ideal.ofBits_def, ofBits_one]

/-- The mean of the gathered rows of `h₂` over the edges that arrive at `r`. -/
private theorem v69_at (hidx : ∀ i, 0 ≤ (x3 i).toInt ∧ (x3 i).toInt < 100000) (r : Fin 100000) (t : Fin 32) :
    (val_main_v69 (F := Ideal) x0 x1 x2 x3 x5 x6 x7 x8 x9 x10 x11 x12 : S100000x32.Idx → EReal) (ix2 r t)
      = Hub.segMean (Hub.hitOf x3 1 r) (fun e t' => Hub.hi2 x0 x1 x2 x3 x5 x6 x7 x8 x9 x10 x11 x12 (Hub.rowOf x3 0 e) t') t := by
  have e68 : idx_main_v67 (idx_main_v68 (ix2 r t)) = ix1 r := funext fun a => Fin.ext (by match a with | ⟨0, _⟩ => rfl)
  rw [val_main_v69_apply, val_main_v68_apply, val_main_v67_apply, e68, val_main_v66_apply, val_main_v65_apply,
    val_main_cst_11_apply, Ideal.ofBits_def, ofBits_one, v60_at x0 x1 x2 x3 x5 x6 x7 x8 x9 x10 x11 x12 hidx, v64_at]
  rfl

/-! ## The output layer -/

/-- The output layer, in the reference's order. -/
theorem R_v75 (hidx : ∀ i, 0 ≤ (x3 i).toInt ∧ (x3 i).toInt < 100000) (r : Fin 100000) (j : Fin 8) :
    (val_main_v75 (F := Ideal) x0 x1 x2 x3 x5 x6 x7 x8 x9 x10 x11 x12 x13 x14 x15 : S100000x8.Idx → EReal) (ix2 r j) = Hub.nodes x0 x1 x2 x3 x5 x6 x7 x8 x9 x10 x11 x12 x13 x14 x15 r j := by
  have el70 : ∀ k : Fin 32, lidx_main_v70 (ix2 r j) k = ix2 r k := fun k =>
    funext fun a => Fin.ext (by match a with | ⟨0, _⟩ => rfl | ⟨1, _⟩ => rfl)
  have er70 : ∀ k : Fin 32, ridx_main_v70 (ix2 r j) k = ix2 k j := fun k =>
    funext fun a => Fin.ext (by match a with | ⟨0, _⟩ => rfl | ⟨1, _⟩ => rfl)
  have el74 : ∀ k : Fin 32, lidx_main_v74 (ix2 r j) k = ix2 r k := fun k =>
    funext fun a => Fin.ext (by match a with | ⟨0, _⟩ => rfl | ⟨1, _⟩ => rfl)
  have er74 : ∀ k : Fin 32, ridx_main_v74 (ix2 r j) k = ix2 k j := fun k =>
    funext fun a => Fin.ext (by match a with | ⟨0, _⟩ => rfl | ⟨1, _⟩ => rfl)
  have e72 : idx_main_v71 (idx_main_v72 (ix2 r j)) = ix1 j :=
    funext fun a => Fin.ext (by match a with | ⟨0, _⟩ => rfl)
  rw [val_main_v75_apply, val_main_v73_apply, val_main_v70_apply, val_main_v72_apply, val_main_v71_apply,
    val_main_v74_apply, e72]
  simp only [el70, er70, el74, er74, Ideal.addf_def, v69_at x0 x1 x2 x3 x5 x6 x7 x8 x9 x10 x11 x12 hidx, R_v50 x0 x1 x2 x3 x5 x6 x7 x8 x9 x10 x11 x12 hidx]
  rfl

end Cert.ReferenceIdeal.RVal

end
-- ==== Proof.RRun.lean ====
/-
  The reference program's run: every weakly fair execution of its @main (a straight line of host operations)
  terminates, nothing faulting; the result buffer ends at the value of the last operation as a function of the
  argument arrays (the stage values composed in program order), and the argument arrays end as launched.
-/
import proofs.«415651_j317827579953_3_alg».proof.Proof.ReadP
import Idealize.ShloMosaic.Lib.StableHlo.Run
import Idealize.ShloMosaic.Lib.Pipeline.Frame

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! ## The line, cut at its stage boundaries

The reference's @main is a straight line of 125 host operations (the three outlined functions stand inline at their
calls). It is cut into seven stretches, each starting where a stage value is complete; a join of several arrays is
always the FIRST operation of its stretch, so that every operand of a join is read from the contents the stretch
starts from. -/

/-- %0 … %11: the two index rows (sources, targets), the node embedding `x·W + b`, the graph embedding and its broadcast over the edges. -/
private def opsA : List (HloOp τ sig (Elt F)) :=
  [ unary main_arg3 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg3 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg5 main_v4 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_arg6 main_v5 (broadcastInDim S1x32 ![1] bcast_S32_S1x32_1 : (⟨S32, .f32⟩ : BufTy).Contents (Elt F) → (⟨S1x32, .f32⟩ : BufTy).Contents (Elt F)),
    unary main_v5 main_v6 (broadcastInDim S100000x32 ![0, 1] bcast_S1x32_S100000x32_0_1 : (⟨S1x32, .f32⟩ : BufTy).Contents (Elt F) → (⟨S100000x32, .f32⟩ : BufTy).Contents (Elt F)),
    binary main_v4 main_v6 main_v7 (addf : (⟨S100000x32, .f32⟩ : BufTy).Contents (Elt F) → (⟨S100000x32, .f32⟩ : BufTy).Contents (Elt F) → (⟨S100000x32, .f32⟩ : BufTy).Contents (Elt F)),
    binary main_arg2 main_arg7 main_v8 ((fun l r => Host.dotGeneral dot_S1x16_S16x16_S1x16_1_0_0_1_n_n none l r) : (⟨S1x16, .f32⟩ : BufTy).Contents (Elt F) → (⟨S16x16, .f32⟩ : BufTy).Contents (Elt F) → (⟨S1x16, .f32⟩ : BufTy).Contents (Elt F)),
    unary main_arg8 main_v9 (broadcastInDim S1x16 ![1] bcast_S16_S1x16_1 : (⟨S16, .f32⟩ : BufTy).Contents (Elt F) → (⟨S1x16, .f32⟩ : BufTy).Contents (Elt F)),
    binary main_v8 main_v9 main_v10 (addf : (⟨S1x16, .f32⟩ : BufTy).Contents (Elt F) → (⟨S1x16, .f32⟩ : BufTy).Contents (Elt F) → (⟨S1x16, .f32⟩ : BufTy).Contents (Elt F)),
    unary main_v10 main_v11 (broadcastInDim S1600000x16 ![0, 1] bcast_S1x16_S1600000x16_0_1 : (⟨S1x16, .f32⟩ : BufTy).Contents (Elt F) → (⟨S1600000x16, .f32⟩ : BufTy).Contents (Elt F)) ]

/-- %12 … %25: each index row wrapped into range (a negative index plus the node count), and the node embedding gathered at it. -/
private def opsB1 : List (HloOp τ sig (Elt F)) :=
  [ nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v7 main_v17 main_v18 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_c_1 (constantI S_ 32 0#32),
    unary main_c_1 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v7 main_v24 main_v25 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) ]

/-- %26 … %31: the edge rows — the join of the two gathered rows, the edge features and the graph row; the edge layer; its rectifier. -/
private def opsB2 : List (HloOp τ sig (Elt F)) :=
  [ nary ![main_v18, main_v25, main_arg1, main_v11] main_v26 (fun u => concatenate S1600000x96 1 [⟨S1600000x32, u 0⟩, ⟨S1600000x32, u 1⟩, ⟨S1600000x16, u 2⟩, ⟨S1600000x16, u 3⟩] concatenates_S1600000x32_S1600000x32_S1600000x16_S1600000x16_S1600000x96_d1),
    binary main_v26 main_arg9 main_v27 ((fun l r => Host.dotGeneral dot_S1600000x96_S96x16_S1600000x16_1_0_0_1_n_n none l r) : (⟨S1600000x96, .f32⟩ : BufTy).Contents (Elt F) → (⟨S96x16, .f32⟩ : BufTy).Contents (Elt F) → (⟨S1600000x16, .f32⟩ : BufTy).Contents (Elt F)),
    unary main_arg10 main_v28 (broadcastInDim S1x16 ![1] bcast_S16_S1x16_1 : (⟨S16, .f32⟩ : BufTy).Contents (Elt F) → (⟨S1x16, .f32⟩ : BufTy).Contents (Elt F)),
    unary main_v28 main_v29 (broadcastInDim S1600000x16 ![0, 1] bcast_S1x16_S1600000x16_0_1 : (⟨S1x16, .f32⟩ : BufTy).Contents (Elt F) → (⟨S1600000x16, .f32⟩ : BufTy).Contents (Elt F)),
    binary main_v27 main_v29 main_v30 (addf : (⟨S1600000x16, .f32⟩ : BufTy).Contents (Elt F) → (⟨S1600000x16, .f32⟩ : BufTy).Contents (Elt F) → (⟨S1600000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x16, .f32⟩) main_call0_v0) (broadcastInDim S1600000x16 ![] bcast_S_S1600000x16),
    TRef.binary (TRef.of (T := ⟨S1600000x16, .f32⟩) main_v30) (TRef.of (T := ⟨S1600000x16, .f32⟩) main_call0_v0) (TRef.of (T := ⟨S1600000x16, .f32⟩) main_v31) maximumf ]

/-- %32 … %44: the per-node mean of the edge rows (scatter-add over the source row, divided by the count clamped below by one), and the
    graph embedding broadcast over the nodes. -/
private def opsC : List (HloOp τ sig (Elt F)) :=
  [ nullary main_cst (constant S_ .f32 0x00000000#32),
    unary main_cst main_v32 (broadcastInDim S100000x16 ![] bcast_S_S100000x16 : (⟨S_, .f32⟩ : BufTy).Contents (Elt F) → (⟨S100000x16, .f32⟩ : BufTy).Contents (Elt F)),
    unary main_v1 main_v33 (broadcastInDim S1600000x1 ![0] bcast_S1600000_S1600000x1_0 : (⟨S1600000, .i32⟩ : BufTy).Contents (Elt F) → (⟨S1600000x1, .i32⟩ : BufTy).Contents (Elt F)),
    ternary main_v32 main_v33 main_v31 main_v34 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    nullary main_cst_3 (constant S_ .f32 0x3F800000#32),
    unary main_cst_3 main_v35 (broadcastInDim S1600000 ![] bcast_S_S1600000 : (⟨S_, .f32⟩ : BufTy).Contents (Elt F) → (⟨S1600000, .f32⟩ : BufTy).Contents (Elt F)),
    nullary main_cst_4 (constant S_ .f32 0x00000000#32),
    unary main_cst_4 main_v36 (broadcastInDim S100000 ![] bcast_S_S100000 : (⟨S_, .f32⟩ : BufTy).Contents (Elt F) → (⟨S100000, .f32⟩ : BufTy).Contents (Elt F)),
    unary main_v1 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_5 (constant S_ .f32 0x3F800000#32),
    unary main_cst_5 main_v39 (broadcastInDim S100000 ![] bcast_S_S100000 : (⟨S_, .f32⟩ : BufTy).Contents (Elt F) → (⟨S100000, .f32⟩ : BufTy).Contents (Elt F)),
    binary main_v38 main_v39 main_v40 (maximumf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x16 ![0, 1] bcast_S100000x1_S100000x16_0_1 : (⟨S100000x1, .f32⟩ : BufTy).Contents (Elt F) → (⟨S100000x16, .f32⟩ : BufTy).Contents (Elt F)),
    binary main_v34 main_v42 main_v43 (Host.divf : (⟨S100000x16, .f32⟩ : BufTy).Contents (Elt F) → (⟨S100000x16, .f32⟩ : BufTy).Contents (Elt F) → (⟨S100000x16, .f32⟩ : BufTy).Contents (Elt F)),
    unary main_v10 main_v44 (broadcastInDim S100000x16 ![0, 1] bcast_S1x16_S100000x16_0_1 : (⟨S1x16, .f32⟩ : BufTy).Contents (Elt F) → (⟨S100000x16, .f32⟩ : BufTy).Contents (Elt F)) ]

/-- %45 … %50: the aggregated node state — the join of the node embedding, the mean and the graph row; the node layer; its rectifier. -/
private def opsD : List (HloOp τ sig (Elt F)) :=
  [ nary ![main_v7, main_v43, main_v44] main_v45 (fun u => concatenate S100000x64 1 [⟨S100000x32, u 0⟩, ⟨S100000x16, u 1⟩, ⟨S100000x16, u 2⟩] concatenates_S100000x32_S100000x16_S100000x16_S100000x64_d1),
    binary main_v45 main_arg11 main_v46 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg12 main_v47 (broadcastInDim S1x32 ![1] bcast_S32_S1x32_1 : (⟨S32, .f32⟩ : BufTy).Contents (Elt F) → (⟨S1x32, .f32⟩ : BufTy).Contents (Elt F)),
    unary main_v47 main_v48 (broadcastInDim S100000x32 ![0, 1] bcast_S1x32_S100000x32_0_1 : (⟨S1x32, .f32⟩ : BufTy).Contents (Elt F) → (⟨S100000x32, .f32⟩ : BufTy).Contents (Elt F)),
    binary main_v46 main_v48 main_v49 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v49) (TRef.of (T := ⟨S100000x32, .f32⟩) main_call1_v0) (TRef.of (T := ⟨S100000x32, .f32⟩) main_v50) maximumf ]

/-- %51 … %75: the output layer — the node state gathered at the wrapped source row, its per-node mean over the target row, the two
    products, the bias row and their sum. -/
private def opsE : List (HloOp τ sig (Elt F)) :=
  [ nullary main_c_6 (constantI S_ 32 0#32),
    unary main_c_6 main_v51 (broadcastInDim S1600000 ![] bcast_S_S1600000 : (⟨S_, .i32⟩ : BufTy).Contents (Elt F) → (⟨S1600000, .i32⟩ : BufTy).Contents (Elt F)),
    binary main_v1 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v53 (broadcastInDim S1600000 ![] bcast_S_S1600000 : (⟨S_, .i32⟩ : BufTy).Contents (Elt F) → (⟨S1600000, .i32⟩ : BufTy).Contents (Elt F)),
    binary main_v1 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v50 main_v56 main_v57 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_8 (constant S_ .f32 0x00000000#32),
    unary main_cst_8 main_v58 (broadcastInDim S100000x32 ![] bcast_S_S100000x32 : (⟨S_, .f32⟩ : BufTy).Contents (Elt F) → (⟨S100000x32, .f32⟩ : BufTy).Contents (Elt F)),
    unary main_v3 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_9 (constant S_ .f32 0x3F800000#32),
    unary main_cst_9 main_v61 (broadcastInDim S1600000 ![] bcast_S_S1600000 : (⟨S_, .f32⟩ : BufTy).Contents (Elt F) → (⟨S1600000, .f32⟩ : BufTy).Contents (Elt F)),
    nullary main_cst_10 (constant S_ .f32 0x00000000#32),
    unary main_cst_10 main_v62 (broadcastInDim S100000 ![] bcast_S_S100000 : (⟨S_, .f32⟩ : BufTy).Contents (Elt F) → (⟨S100000, .f32⟩ : BufTy).Contents (Elt F)),
    unary main_v3 main_v63 (broadcastInDim S1600000x1 ![0] bcast_S1600000_S1600000x1_0 : (⟨S1600000, .i32⟩ : BufTy).Contents (Elt F) → (⟨S1600000x1, .i32⟩ : BufTy).Contents (Elt F)),
    ternary main_v62 main_v63 main_v61 main_v64 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_11 (constant S_ .f32 0x3F800000#32),
    unary main_cst_11 main_v65 (broadcastInDim S100000 ![] bcast_S_S100000 : (⟨S_, .f32⟩ : BufTy).Contents (Elt F) → (⟨S100000, .f32⟩ : BufTy).Contents (Elt F)),
    binary main_v64 main_v65 main_v66 (maximumf : (⟨S100000, .f32⟩ : BufTy).Contents (Elt F) → (⟨S100000, .f32⟩ : BufTy).Contents (Elt F) → (⟨S100000, .f32⟩ : BufTy).Contents (Elt F)),
    unary main_v66 main_v67 (broadcastInDim S100000x1 ![0] bcast_S100000_S100000x1_0 : (⟨S100000, .f32⟩ : BufTy).Contents (Elt F) → (⟨S100000x1, .f32⟩ : BufTy).Contents (Elt F)),
    unary main_v67 main_v68 (broadcastInDim S100000x32 ![0, 1] bcast_S100000x1_S100000x32_0_1 : (⟨S100000x1, .f32⟩ : BufTy).Contents (Elt F) → (⟨S100000x32, .f32⟩ : BufTy).Contents (Elt F)),
    binary main_v60 main_v68 main_v69 (Host.divf : (⟨S100000x32, .f32⟩ : BufTy).Contents (Elt F) → (⟨S100000x32, .f32⟩ : BufTy).Contents (Elt F) → (⟨S100000x32, .f32⟩ : BufTy).Contents (Elt F)),
    binary main_v69 main_arg13 main_v70 ((fun l r => Host.dotGeneral dot_S100000x32_S32x8_S100000x8_1_0_0_1_n_n none l r) : (⟨S100000x32, .f32⟩ : BufTy).Contents (Elt F) → (⟨S32x8, .f32⟩ : BufTy).Contents (Elt F) → (⟨S100000x8, .f32⟩ : BufTy).Contents (Elt F)),
    unary main_arg14 main_v71 (broadcastInDim S1x8 ![1] bcast_S8_S1x8_1 : (⟨S8, .f32⟩ : BufTy).Contents (Elt F) → (⟨S1x8, .f32⟩ : BufTy).Contents (Elt F)),
    unary main_v71 main_v72 (broadcastInDim S100000x8 ![0, 1] bcast_S1x8_S100000x8_0_1 : (⟨S1x8, .f32⟩ : BufTy).Contents (Elt F) → (⟨S100000x8, .f32⟩ : BufTy).Contents (Elt F)),
    binary main_v70 main_v72 main_v73 (addf : (⟨S100000x8, .f32⟩ : BufTy).Contents (Elt F) → (⟨S100000x8, .f32⟩ : BufTy).Contents (Elt F) → (⟨S100000x8, .f32⟩ : BufTy).Contents (Elt F)),
    binary main_v50 main_arg15 main_v74 ((fun l r => Host.dotGeneral dot_S100000x32_S32x8_S100000x8_1_0_0_1_n_n none l r) : (⟨S100000x32, .f32⟩ : BufTy).Contents (Elt F) → (⟨S32x8, .f32⟩ : BufTy).Contents (Elt F) → (⟨S100000x8, .f32⟩ : BufTy).Contents (Elt F)),
    binary main_v73 main_v74 main_v75 (addf : (⟨S100000x8, .f32⟩ : BufTy).Contents (Elt F) → (⟨S100000x8, .f32⟩ : BufTy).Contents (Elt F) → (⟨S100000x8, .f32⟩ : BufTy).Contents (Elt F)) ]

/-- %76 … %88: the pooling (scatter-add over the graph index, divided by the clamped count) and the log-softmax of the pooled row. -/
private def opsF : List (HloOp τ sig (Elt F)) :=
  [ nullary main_cst_12 (constant S_ .f32 0x00000000#32),
    unary main_cst_12 main_v76 (broadcastInDim S1x8 ![] bcast_S_S1x8 : (⟨S_, .f32⟩ : BufTy).Contents (Elt F) → (⟨S1x8, .f32⟩ : BufTy).Contents (Elt F)),
    unary main_arg4 main_v77 (broadcastInDim S100000x1 ![0] bcast_S100000_S100000x1_0 : (⟨S100000, .i32⟩ : BufTy).Contents (Elt F) → (⟨S100000x1, .i32⟩ : BufTy).Contents (Elt F)),
    ternary main_v76 main_v77 main_v75 main_v78 ((fun x i u => Host.scatterAdd scatter_S1x8_S100000x1_S100000x8_1_0_0_1 x i u) : (⟨S1x8, .f32⟩ : BufTy).Contents (Elt F) → (⟨S100000x1, .i32⟩ : BufTy).Contents (Elt F) → (⟨S100000x8, .f32⟩ : BufTy).Contents (Elt F) → (⟨S1x8, .f32⟩ : BufTy).Contents (Elt F)),
    nullary main_cst_13 (constant S_ .f32 0x3F800000#32),
    unary main_cst_13 main_v79 (broadcastInDim S100000 ![] bcast_S_S100000 : (⟨S_, .f32⟩ : BufTy).Contents (Elt F) → (⟨S100000, .f32⟩ : BufTy).Contents (Elt F)),
    nullary main_cst_14 (constant S_ .f32 0x00000000#32),
    unary main_cst_14 main_v80 (broadcastInDim S1 ![] bcast_S_S1 : (⟨S_, .f32⟩ : BufTy).Contents (Elt F) → (⟨S1, .f32⟩ : BufTy).Contents (Elt F)),
    unary main_arg4 main_v81 (broadcastInDim S100000x1 ![0] bcast_S100000_S100000x1_0 : (⟨S100000, .i32⟩ : BufTy).Contents (Elt F) → (⟨S100000x1, .i32⟩ : BufTy).Contents (Elt F)),
    ternary main_v80 main_v81 main_v79 main_v82 ((fun x i u => Host.scatterAdd scatter_S1_S100000x1_S100000_n_0_0_1 x i u) : (⟨S1, .f32⟩ : BufTy).Contents (Elt F) → (⟨S100000x1, .i32⟩ : BufTy).Contents (Elt F) → (⟨S100000, .f32⟩ : BufTy).Contents (Elt F) → (⟨S1, .f32⟩ : BufTy).Contents (Elt F)),
    nullary main_cst_15 (constant S_ .f32 0x3F800000#32),
    unary main_cst_15 main_v83 (broadcastInDim S1 ![] bcast_S_S1 : (⟨S_, .f32⟩ : BufTy).Contents (Elt F) → (⟨S1, .f32⟩ : BufTy).Contents (Elt F)),
    binary main_v82 main_v83 main_v84 (maximumf : (⟨S1, .f32⟩ : BufTy).Contents (Elt F) → (⟨S1, .f32⟩ : BufTy).Contents (Elt F) → (⟨S1, .f32⟩ : BufTy).Contents (Elt F)),
    unary main_v84 main_v85 (broadcastInDim S1x1 ![0] bcast_S1_S1x1_0 : (⟨S1, .f32⟩ : BufTy).Contents (Elt F) → (⟨S1x1, .f32⟩ : BufTy).Contents (Elt F)),
    unary main_v85 main_v86 (broadcastInDim S1x8 ![0, 1] bcast_S1x1_S1x8_0_1 : (⟨S1x1, .f32⟩ : BufTy).Contents (Elt F) → (⟨S1x8, .f32⟩ : BufTy).Contents (Elt F)),
    binary main_v78 main_v86 main_v87 (Host.divf : (⟨S1x8, .f32⟩ : BufTy).Contents (Elt F) → (⟨S1x8, .f32⟩ : BufTy).Contents (Elt F) → (⟨S1x8, .f32⟩ : BufTy).Contents (Elt F)),
    TRef.nullary (TRef.of (T := ⟨S_, .f32⟩) main_call2_cst) (constant S_ .f32 0xFF800000#32),
    TRef.binary (TRef.of (T := ⟨S1x8, .f32⟩) main_v87) (TRef.of (T := ⟨S_, .f32⟩) main_call2_cst) (TRef.of (T := ⟨S1, .f32⟩) main_call2_v0) (fun x v => Host.reduce FloatOps.maximumf x v reducesTo_S1x8_S1_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S1, .f32⟩) main_call2_v1) (broadcastInDim S1 ![] bcast_S_S1),
    TRef.binary (TRef.of (T := ⟨S1, .f32⟩) main_call2_v1) (TRef.of (T := ⟨S1, .f32⟩) main_call2_v0) (TRef.of (T := ⟨S1, .f32⟩) main_call2_v2) maximumf,
    TRef.unary (TRef.of (T := ⟨S1, .f32⟩) main_call2_v2) (TRef.of (T := ⟨S1x1, .f32⟩) main_call2_v3) (broadcastInDim S1x1 ![0] bcast_S1_S1x1_0),
    TRef.unary (TRef.of (T := ⟨S1x1, .f32⟩) main_call2_v3) (TRef.of (T := ⟨S1x8, .f32⟩) main_call2_v4) (broadcastInDim S1x8 ![0, 1] bcast_S1x1_S1x8_0_1),
    TRef.binary (TRef.of (T := ⟨S1x8, .f32⟩) main_v87) (TRef.of (T := ⟨S1x8, .f32⟩) main_call2_v4) (TRef.of (T := ⟨S1x8, .f32⟩) main_call2_v5) subf,
    TRef.unary (TRef.of (T := ⟨S1x8, .f32⟩) main_call2_v5) (TRef.of (T := ⟨S1x8, .f32⟩) main_call2_v6) Host.exp,
    TRef.nullary (TRef.of (T := ⟨S_, .f32⟩) main_call2_cst_1) (constant S_ .f32 0x00000000#32),
    TRef.binary (TRef.of (T := ⟨S1x8, .f32⟩) main_call2_v6) (TRef.of (T := ⟨S_, .f32⟩) main_call2_cst_1) (TRef.of (T := ⟨S1, .f32⟩) main_call2_v7) (fun x v => Host.reduceAdd x v reducesTo_S1x8_S1_d1 h_S_),
    TRef.unary (TRef.of (T := ⟨S1, .f32⟩) main_call2_v7) (TRef.of (T := ⟨S1x1, .f32⟩) main_call2_v8) (broadcastInDim S1x1 ![0] bcast_S1_S1x1_0),
    TRef.unary (TRef.of (T := ⟨S1x1, .f32⟩) main_call2_v8) (TRef.of (T := ⟨S1x1, .f32⟩) main_call2_v9) Host.log,
    TRef.unary (TRef.of (T := ⟨S1x1, .f32⟩) main_call2_v9) (TRef.of (T := ⟨S1x8, .f32⟩) main_call2_v10) (broadcastInDim S1x8 ![0, 1] bcast_S1x1_S1x8_0_1),
    TRef.binary (TRef.of (T := ⟨S1x8, .f32⟩) main_call2_v5) (TRef.of (T := ⟨S1x8, .f32⟩) main_call2_v10) (TRef.of (T := ⟨S1x8, .f32⟩) main_v88) subf ]

/-- The whole line: the seven stretches in order. -/
private def ops : List (HloOp τ sig (Elt F)) := opsA ++ (opsB1 ++ (opsB2 ++ (opsC ++ (opsD ++ (opsE ++ (opsF))))))

/-! ## The line is @main; it touches TensorCore references only and allocates nothing -/

set_option maxRecDepth 16384 in
set_option maxHeartbeats 4000000 in
private theorem main_eq (c : Dev nD) : main (F := F) c = seq ops := rfl

private theorem scopedRefs_eq : (Finset.univ.filter fun b : Ref sig .tc => b.isScoped) = ∅ := by decide
private theorem scopedSems_eq : (Finset.univ.filter fun sm : SemLoc sig => sm.isScoped .tc) = ∅ := by decide

/-- A property of every entry of two lists holds of every entry of their concatenation. -/
private theorem forall_append {α : Type _} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

private theorem opsA_sub : (opsA : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., unary_bufs_sub .., binary_bufs_sub .., unary_bufs_sub ..⟩
private theorem opsA_fresh : (opsA : List (HloOp τ sig (Elt F))).Forall fun op => op.fresh = ∅ := by
  simp only [opsA, List.Forall]; repeat' constructor

private theorem opsB1_sub : (opsB1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
private theorem opsB1_fresh : (opsB1 : List (HloOp τ sig (Elt F))).Forall fun op => op.fresh = ∅ := by
  simp only [opsB1, List.Forall]; repeat' constructor

private theorem opsB2_sub : (opsB2 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩
private theorem opsB2_fresh : (opsB2 : List (HloOp τ sig (Elt F))).Forall fun op => op.fresh = ∅ := by
  simp only [opsB2, List.Forall]; repeat' constructor

private theorem opsC_sub : (opsC : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub ..⟩
private theorem opsC_fresh : (opsC : List (HloOp τ sig (Elt F))).Forall fun op => op.fresh = ∅ := by
  simp only [opsC, List.Forall]; repeat' constructor

private theorem opsD_sub : (opsD : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩
private theorem opsD_fresh : (opsD : List (HloOp τ sig (Elt F))).Forall fun op => op.fresh = ∅ := by
  simp only [opsD, List.Forall]; repeat' constructor

private theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
private theorem opsE_fresh : (opsE : List (HloOp τ sig (Elt F))).Forall fun op => op.fresh = ∅ := by
  simp only [opsE, List.Forall]; repeat' constructor

private theorem opsF_sub : (opsF : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
private theorem opsF_fresh : (opsF : List (HloOp τ sig (Elt F))).Forall fun op => op.fresh = ∅ := by
  simp only [opsF, List.Forall]; repeat' constructor

private theorem ops_sub : (ops : List (HloOp τ sig (Elt F))).Forall fun op => op.bufs ⊆ tcRefs τ sig :=
  forall_append opsA_sub (forall_append opsB1_sub (forall_append opsB2_sub (forall_append opsC_sub (forall_append opsD_sub (forall_append opsE_sub (opsF_sub))))))
private theorem ops_fresh : ∀ op ∈ (ops : List (HloOp τ sig (Elt F))), op.fresh = ∅ :=
  List.forall_iff_forall_mem.mp
    (forall_append opsA_fresh (forall_append opsB1_fresh (forall_append opsB2_fresh (forall_append opsC_fresh (forall_append opsD_fresh (forall_append opsE_fresh (opsF_fresh)))))))

/-! ## What a stretch leaves alone

`W‹X›` lists the references stretch `X` writes (one per operation); a reference outside the list holds after the stretch
what it held before. -/

private noncomputable def WA : List (Ref sig .tc) := [main_v0, main_v1, main_v2, main_v3, main_v4, main_v5, main_v6, main_v7, main_v8, main_v9, main_v10, main_v11]
private theorem frameA (V : Valuation τ sig (Elt F)) {r : Ref sig .tc} (hr : r ∉ WA) :
    after opsA V (Proc.devRef .tc r) = V (Proc.devRef .tc r) :=
  after_of_forall_not_mem (b := Proc.devRef .tc r) _ _ (List.forall_iff_forall_mem.mp (by
    simp only [opsA, List.Forall, nullary_writes, unary_writes, binary_writes, ternary_writes, reshape_writes, nary_writes, Finset.mem_singleton]
    repeat' apply And.intro
    all_goals exact devRef_ne_of_ne (fun e => hr (by subst e; decide))))

private noncomputable def WB1 : List (Ref sig .tc) := [main_c, main_v12, main_v13, main_c_0, main_v14, main_v15, main_v16, main_v17, main_v18, main_c_1, main_v19, main_v20, main_c_2, main_v21, main_v22, main_v23, main_v24, main_v25]
private theorem frameB1 (V : Valuation τ sig (Elt F)) {r : Ref sig .tc} (hr : r ∉ WB1) :
    after opsB1 V (Proc.devRef .tc r) = V (Proc.devRef .tc r) :=
  after_of_forall_not_mem (b := Proc.devRef .tc r) _ _ (List.forall_iff_forall_mem.mp (by
    simp only [opsB1, List.Forall, nullary_writes, unary_writes, binary_writes, ternary_writes, reshape_writes, nary_writes, Finset.mem_singleton]
    repeat' apply And.intro
    all_goals exact devRef_ne_of_ne (fun e => hr (by subst e; decide))))

private noncomputable def WB2 : List (Ref sig .tc) := [main_v26, main_v27, main_v28, main_v29, main_v30, main_call0_cst, main_call0_v0, main_v31]
private theorem frameB2 (V : Valuation τ sig (Elt F)) {r : Ref sig .tc} (hr : r ∉ WB2) :
    after opsB2 V (Proc.devRef .tc r) = V (Proc.devRef .tc r) :=
  after_of_forall_not_mem (b := Proc.devRef .tc r) _ _ (List.forall_iff_forall_mem.mp (by
    simp only [opsB2, List.Forall, nullary_writes, unary_writes, binary_writes, ternary_writes, reshape_writes, nary_writes, Finset.mem_singleton]
    repeat' apply And.intro
    all_goals exact devRef_ne_of_ne (fun e => hr (by subst e; decide))))

private noncomputable def WC : List (Ref sig .tc) := [main_cst, main_v32, main_v33, main_v34, main_cst_3, main_v35, main_cst_4, main_v36, main_v37, main_v38, main_cst_5, main_v39, main_v40, main_v41, main_v42, main_v43, main_v44]
private theorem frameC (V : Valuation τ sig (Elt F)) {r : Ref sig .tc} (hr : r ∉ WC) :
    after opsC V (Proc.devRef .tc r) = V (Proc.devRef .tc r) :=
  after_of_forall_not_mem (b := Proc.devRef .tc r) _ _ (List.forall_iff_forall_mem.mp (by
    simp only [opsC, List.Forall, nullary_writes, unary_writes, binary_writes, ternary_writes, reshape_writes, nary_writes, Finset.mem_singleton]
    repeat' apply And.intro
    all_goals exact devRef_ne_of_ne (fun e => hr (by subst e; decide))))

private noncomputable def WD : List (Ref sig .tc) := [main_v45, main_v46, main_v47, main_v48, main_v49, main_call1_cst, main_call1_v0, main_v50]
private theorem frameD (V : Valuation τ sig (Elt F)) {r : Ref sig .tc} (hr : r ∉ WD) :
    after opsD V (Proc.devRef .tc r) = V (Proc.devRef .tc r) :=
  after_of_forall_not_mem (b := Proc.devRef .tc r) _ _ (List.forall_iff_forall_mem.mp (by
    simp only [opsD, List.Forall, nullary_writes, unary_writes, binary_writes, ternary_writes, reshape_writes, nary_writes, Finset.mem_singleton]
    repeat' apply And.intro
    all_goals exact devRef_ne_of_ne (fun e => hr (by subst e; decide))))

private noncomputable def WE : List (Ref sig .tc) := [main_c_6, main_v51, main_v52, main_c_7, main_v53, main_v54, main_v55, main_v56, main_v57, main_cst_8, main_v58, main_v59, main_v60, main_cst_9, main_v61, main_cst_10, main_v62, main_v63, main_v64, main_cst_11, main_v65, main_v66, main_v67, main_v68, main_v69, main_v70, main_v71, main_v72, main_v73, main_v74, main_v75]
private theorem frameE (V : Valuation τ sig (Elt F)) {r : Ref sig .tc} (hr : r ∉ WE) :
    after opsE V (Proc.devRef .tc r) = V (Proc.devRef .tc r) :=
  after_of_forall_not_mem (b := Proc.devRef .tc r) _ _ (List.forall_iff_forall_mem.mp (by
    simp only [opsE, List.Forall, nullary_writes, unary_writes, binary_writes, ternary_writes, reshape_writes, nary_writes, Finset.mem_singleton]
    repeat' apply And.intro
    all_goals exact devRef_ne_of_ne (fun e => hr (by subst e; decide))))

private noncomputable def WF : List (Ref sig .tc) := [main_cst_12, main_v76, main_v77, main_v78, main_cst_13, main_v79, main_cst_14, main_v80, main_v81, main_v82, main_cst_15, main_v83, main_v84, main_v85, main_v86, main_v87, main_call2_cst, main_call2_v0, main_call2_cst_0, main_call2_v1, main_call2_v2, main_call2_v3, main_call2_v4, main_call2_v5, main_call2_v6, main_call2_cst_1, main_call2_v7, main_call2_v8, main_call2_v9, main_call2_v10, main_v88]
private theorem frameF (V : Valuation τ sig (Elt F)) {r : Ref sig .tc} (hr : r ∉ WF) :
    after opsF V (Proc.devRef .tc r) = V (Proc.devRef .tc r) :=
  after_of_forall_not_mem (b := Proc.devRef .tc r) _ _ (List.forall_iff_forall_mem.mp (by
    simp only [opsF, List.Forall, nullary_writes, unary_writes, binary_writes, ternary_writes, reshape_writes, nary_writes, Finset.mem_singleton]
    repeat' apply And.intro
    all_goals exact devRef_ne_of_ne (fun e => hr (by subst e; decide))))

/-! ## What a stretch computes

Each lemma is over ANY contents `V` the stretch starts from: if the buffers the stretch reads hold the stage values of the
argument arrays `x0 … x15` (an argument's buffer: the array itself), the stretch's result buffer holds the next stage
value. The fold is opened at the result's reference (a join's operands, read through the literal family of their
references, are then put at the references themselves), the hypotheses are rewritten in, and what is left is the stage
value's own definition unfolded down to the stages the stretch starts from. -/

private theorem A_v1 (V : Valuation τ sig (Elt F)) (x3 : (⟨S2x1600000, .i32⟩ : BufTy).Contents (Elt F))
    (h_main_arg3 : V (Proc.devRef .tc main_arg3) = x3) :
    after opsA V (Proc.devRef .tc main_v1) = ReadP.val_main_v1 (F := F) x3 := by
  subst h_main_arg3
  unfold opsA; after_results_simp
  rfl

private theorem A_v3 (V : Valuation τ sig (Elt F)) (x3 : (⟨S2x1600000, .i32⟩ : BufTy).Contents (Elt F))
    (h_main_arg3 : V (Proc.devRef .tc main_arg3) = x3) :
    after opsA V (Proc.devRef .tc main_v3) = ReadP.val_main_v3 (F := F) x3 := by
  subst h_main_arg3
  unfold opsA; after_results_simp
  rfl

private theorem A_v7 (V : Valuation τ sig (Elt F)) (x0 : (⟨S100000x32, .f32⟩ : BufTy).Contents (Elt F)) (x5 : (⟨S32x32, .f32⟩ : BufTy).Contents (Elt F)) (x6 : (⟨S32, .f32⟩ : BufTy).Contents (Elt F))
    (h_main_arg0 : V (Proc.devRef .tc main_arg0) = x0)
    (h_main_arg5 : V (Proc.devRef .tc main_arg5) = x5)
    (h_main_arg6 : V (Proc.devRef .tc main_arg6) = x6) :
    after opsA V (Proc.devRef .tc main_v7) = ReadP.val_main_v7 (F := F) x0 x5 x6 := by
  subst h_main_arg0; subst h_main_arg5; subst h_main_arg6
  unfold opsA; after_results_simp
  rfl

private theorem A_v10 (V : Valuation τ sig (Elt F)) (x2 : (⟨S1x16, .f32⟩ : BufTy).Contents (Elt F)) (x7 : (⟨S16x16, .f32⟩ : BufTy).Contents (Elt F)) (x8 : (⟨S16, .f32⟩ : BufTy).Contents (Elt F))
    (h_main_arg2 : V (Proc.devRef .tc main_arg2) = x2)
    (h_main_arg7 : V (Proc.devRef .tc main_arg7) = x7)
    (h_main_arg8 : V (Proc.devRef .tc main_arg8) = x8) :
    after opsA V (Proc.devRef .tc main_v10) = ReadP.val_main_v10 (F := F) x2 x7 x8 := by
  subst h_main_arg2; subst h_main_arg7; subst h_main_arg8
  unfold opsA; after_results_simp
  rfl

private theorem A_v11 (V : Valuation τ sig (Elt F)) (x2 : (⟨S1x16, .f32⟩ : BufTy).Contents (Elt F)) (x7 : (⟨S16x16, .f32⟩ : BufTy).Contents (Elt F)) (x8 : (⟨S16, .f32⟩ : BufTy).Contents (Elt F))
    (h_main_arg2 : V (Proc.devRef .tc main_arg2) = x2)
    (h_main_arg7 : V (Proc.devRef .tc main_arg7) = x7)
    (h_main_arg8 : V (Proc.devRef .tc main_arg8) = x8) :
    after opsA V (Proc.devRef .tc main_v11) = ReadP.val_main_v11 (F := F) x2 x7 x8 := by
  subst h_main_arg2; subst h_main_arg7; subst h_main_arg8
  unfold opsA; after_results_simp
  rfl

private theorem B1_v18 (V : Valuation τ sig (Elt F)) (x0 : (⟨S100000x32, .f32⟩ : BufTy).Contents (Elt F)) (x3 : (⟨S2x1600000, .i32⟩ : BufTy).Contents (Elt F)) (x5 : (⟨S32x32, .f32⟩ : BufTy).Contents (Elt F)) (x6 : (⟨S32, .f32⟩ : BufTy).Contents (Elt F))
    (h_main_v1 : V (Proc.devRef .tc main_v1) = ReadP.val_main_v1 (F := F) x3)
    (h_main_v7 : V (Proc.devRef .tc main_v7) = ReadP.val_main_v7 (F := F) x0 x5 x6) :
    after opsB1 V (Proc.devRef .tc main_v18) = ReadP.val_main_v18 (F := F) x0 x3 x5 x6 := by
  unfold opsB1; after_results_simp
  rw [h_main_v1, h_main_v7]
  rfl

private theorem B1_v25 (V : Valuation τ sig (Elt F)) (x0 : (⟨S100000x32, .f32⟩ : BufTy).Contents (Elt F)) (x3 : (⟨S2x1600000, .i32⟩ : BufTy).Contents (Elt F)) (x5 : (⟨S32x32, .f32⟩ : BufTy).Contents (Elt F)) (x6 : (⟨S32, .f32⟩ : BufTy).Contents (Elt F))
    (h_main_v3 : V (Proc.devRef .tc main_v3) = ReadP.val_main_v3 (F := F) x3)
    (h_main_v7 : V (Proc.devRef .tc main_v7) = ReadP.val_main_v7 (F := F) x0 x5 x6) :
    after opsB1 V (Proc.devRef .tc main_v25) = ReadP.val_main_v25 (F := F) x0 x3 x5 x6 := by
  unfold opsB1; after_results_simp
  rw [h_main_v3, h_main_v7]
  rfl

private theorem B2_v31 (V : Valuation τ sig (Elt F)) (x0 : (⟨S100000x32, .f32⟩ : BufTy).Contents (Elt F)) (x1 : (⟨S1600000x16, .f32⟩ : BufTy).Contents (Elt F)) (x2 : (⟨S1x16, .f32⟩ : BufTy).Contents (Elt F)) (x3 : (⟨S2x1600000, .i32⟩ : BufTy).Contents (Elt F)) (x5 : (⟨S32x32, .f32⟩ : BufTy).Contents (Elt F)) (x6 : (⟨S32, .f32⟩ : BufTy).Contents (Elt F)) (x7 : (⟨S16x16, .f32⟩ : BufTy).Contents (Elt F)) (x8 : (⟨S16, .f32⟩ : BufTy).Contents (Elt F)) (x9 : (⟨S96x16, .f32⟩ : BufTy).Contents (Elt F)) (x10 : (⟨S16, .f32⟩ : BufTy).Contents (Elt F))
    (h_main_v18 : V (Proc.devRef .tc main_v18) = ReadP.val_main_v18 (F := F) x0 x3 x5 x6)
    (h_main_v25 : V (Proc.devRef .tc main_v25) = ReadP.val_main_v25 (F := F) x0 x3 x5 x6)
    (h_main_arg1 : V (Proc.devRef .tc main_arg1) = x1)
    (h_main_v11 : V (Proc.devRef .tc main_v11) = ReadP.val_main_v11 (F := F) x2 x7 x8)
    (h_main_arg9 : V (Proc.devRef .tc main_arg9) = x9)
    (h_main_arg10 : V (Proc.devRef .tc main_arg10) = x10) :
    after opsB2 V (Proc.devRef .tc main_v31) = ReadP.val_main_v31 (F := F) x0 x1 x2 x3 x5 x6 x7 x8 x9 x10 := by
  subst h_main_arg1; subst h_main_arg9; subst h_main_arg10
  unfold opsB2; after_results_simp
  dsimp only [Matrix.cons_val]
  rw [h_main_v18, h_main_v25, h_main_v11]
  rfl

private theorem C_v43 (V : Valuation τ sig (Elt F)) (x0 : (⟨S100000x32, .f32⟩ : BufTy).Contents (Elt F)) (x1 : (⟨S1600000x16, .f32⟩ : BufTy).Contents (Elt F)) (x2 : (⟨S1x16, .f32⟩ : BufTy).Contents (Elt F)) (x3 : (⟨S2x1600000, .i32⟩ : BufTy).Contents (Elt F)) (x5 : (⟨S32x32, .f32⟩ : BufTy).Contents (Elt F)) (x6 : (⟨S32, .f32⟩ : BufTy).Contents (Elt F)) (x7 : (⟨S16x16, .f32⟩ : BufTy).Contents (Elt F)) (x8 : (⟨S16, .f32⟩ : BufTy).Contents (Elt F)) (x9 : (⟨S96x16, .f32⟩ : BufTy).Contents (Elt F)) (x10 : (⟨S16, .f32⟩ : BufTy).Contents (Elt F))
    (h_main_v1 : V (Proc.devRef .tc main_v1) = ReadP.val_main_v1 (F := F) x3)
    (h_main_v31 : V (Proc.devRef .tc main_v31) = ReadP.val_main_v31 (F := F) x0 x1 x2 x3 x5 x6 x7 x8 x9 x10) :
    after opsC V (Proc.devRef .tc main_v43) = ReadP.val_main_v43 (F := F) x0 x1 x2 x3 x5 x6 x7 x8 x9 x10 := by
  unfold opsC; after_results_simp
  rw [h_main_v1, h_main_v31]
  rfl

private theorem C_v44 (V : Valuation τ sig (Elt F)) (x2 : (⟨S1x16, .f32⟩ : BufTy).Contents (Elt F)) (x7 : (⟨S16x16, .f32⟩ : BufTy).Contents (Elt F)) (x8 : (⟨S16, .f32⟩ : BufTy).Contents (Elt F))
    (h_main_v10 : V (Proc.devRef .tc main_v10) = ReadP.val_main_v10 (F := F) x2 x7 x8) :
    after opsC V (Proc.devRef .tc main_v44) = ReadP.val_main_v44 (F := F) x2 x7 x8 := by
  unfold opsC; after_results_simp
  rw [h_main_v10]
  rfl

private theorem D_v50 (V : Valuation τ sig (Elt F)) (x0 : (⟨S100000x32, .f32⟩ : BufTy).Contents (Elt F)) (x1 : (⟨S1600000x16, .f32⟩ : BufTy).Contents (Elt F)) (x2 : (⟨S1x16, .f32⟩ : BufTy).Contents (Elt F)) (x3 : (⟨S2x1600000, .i32⟩ : BufTy).Contents (Elt F)) (x5 : (⟨S32x32, .f32⟩ : BufTy).Contents (Elt F)) (x6 : (⟨S32, .f32⟩ : BufTy).Contents (Elt F)) (x7 : (⟨S16x16, .f32⟩ : BufTy).Contents (Elt F)) (x8 : (⟨S16, .f32⟩ : BufTy).Contents (Elt F)) (x9 : (⟨S96x16, .f32⟩ : BufTy).Contents (Elt F)) (x10 : (⟨S16, .f32⟩ : BufTy).Contents (Elt F)) (x11 : (⟨S64x32, .f32⟩ : BufTy).Contents (Elt F)) (x12 : (⟨S32, .f32⟩ : BufTy).Contents (Elt F))
    (h_main_v7 : V (Proc.devRef .tc main_v7) = ReadP.val_main_v7 (F := F) x0 x5 x6)
    (h_main_v43 : V (Proc.devRef .tc main_v43) = ReadP.val_main_v43 (F := F) x0 x1 x2 x3 x5 x6 x7 x8 x9 x10)
    (h_main_v44 : V (Proc.devRef .tc main_v44) = ReadP.val_main_v44 (F := F) x2 x7 x8)
    (h_main_arg11 : V (Proc.devRef .tc main_arg11) = x11)
    (h_main_arg12 : V (Proc.devRef .tc main_arg12) = x12) :
    after opsD V (Proc.devRef .tc main_v50) = ReadP.val_main_v50 (F := F) x0 x1 x2 x3 x5 x6 x7 x8 x9 x10 x11 x12 := by
  subst h_main_arg11; subst h_main_arg12
  unfold opsD; after_results_simp
  dsimp only [Matrix.cons_val]
  rw [h_main_v7, h_main_v43, h_main_v44]
  rfl

private theorem E_v75 (V : Valuation τ sig (Elt F)) (x0 : (⟨S100000x32, .f32⟩ : BufTy).Contents (Elt F)) (x1 : (⟨S1600000x16, .f32⟩ : BufTy).Contents (Elt F)) (x2 : (⟨S1x16, .f32⟩ : BufTy).Contents (Elt F)) (x3 : (⟨S2x1600000, .i32⟩ : BufTy).Contents (Elt F)) (x5 : (⟨S32x32, .f32⟩ : BufTy).Contents (Elt F)) (x6 : (⟨S32, .f32⟩ : BufTy).Contents (Elt F)) (x7 : (⟨S16x16, .f32⟩ : BufTy).Contents (Elt F)) (x8 : (⟨S16, .f32⟩ : BufTy).Contents (Elt F)) (x9 : (⟨S96x16, .f32⟩ : BufTy).Contents (Elt F)) (x10 : (⟨S16, .f32⟩ : BufTy).Contents (Elt F)) (x11 : (⟨S64x32, .f32⟩ : BufTy).Contents (Elt F)) (x12 : (⟨S32, .f32⟩ : BufTy).Contents (Elt F)) (x13 : (⟨S32x8, .f32⟩ : BufTy).Contents (Elt F)) (x14 : (⟨S8, .f32⟩ : BufTy).Contents (Elt F)) (x15 : (⟨S32x8, .f32⟩ : BufTy).Contents (Elt F))
    (h_main_v1 : V (Proc.devRef .tc main_v1) = ReadP.val_main_v1 (F := F) x3)
    (h_main_v3 : V (Proc.devRef .tc main_v3) = ReadP.val_main_v3 (F := F) x3)
    (h_main_v50 : V (Proc.devRef .tc main_v50) = ReadP.val_main_v50 (F := F) x0 x1 x2 x3 x5 x6 x7 x8 x9 x10 x11 x12)
    (h_main_arg13 : V (Proc.devRef .tc main_arg13) = x13)
    (h_main_arg14 : V (Proc.devRef .tc main_arg14) = x14)
    (h_main_arg15 : V (Proc.devRef .tc main_arg15) = x15) :
    after opsE V (Proc.devRef .tc main_v75) = ReadP.val_main_v75 (F := F) x0 x1 x2 x3 x5 x6 x7 x8 x9 x10 x11 x12 x13 x14 x15 := by
  subst h_main_arg13; subst h_main_arg14; subst h_main_arg15
  unfold opsE; after_results_simp
  rw [h_main_v1, h_main_v3, h_main_v50]
  rfl

private theorem F_v88 (V : Valuation τ sig (Elt F)) (x0 : (⟨S100000x32, .f32⟩ : BufTy).Contents (Elt F)) (x1 : (⟨S1600000x16, .f32⟩ : BufTy).Contents (Elt F)) (x2 : (⟨S1x16, .f32⟩ : BufTy).Contents (Elt F)) (x3 : (⟨S2x1600000, .i32⟩ : BufTy).Contents (Elt F)) (x4 : (⟨S100000, .i32⟩ : BufTy).Contents (Elt F)) (x5 : (⟨S32x32, .f32⟩ : BufTy).Contents (Elt F)) (x6 : (⟨S32, .f32⟩ : BufTy).Contents (Elt F)) (x7 : (⟨S16x16, .f32⟩ : BufTy).Contents (Elt F)) (x8 : (⟨S16, .f32⟩ : BufTy).Contents (Elt F)) (x9 : (⟨S96x16, .f32⟩ : BufTy).Contents (Elt F)) (x10 : (⟨S16, .f32⟩ : BufTy).Contents (Elt F)) (x11 : (⟨S64x32, .f32⟩ : BufTy).Contents (Elt F)) (x12 : (⟨S32, .f32⟩ : BufTy).Contents (Elt F)) (x13 : (⟨S32x8, .f32⟩ : BufTy).Contents (Elt F)) (x14 : (⟨S8, .f32⟩ : BufTy).Contents (Elt F)) (x15 : (⟨S32x8, .f32⟩ : BufTy).Contents (Elt F))
    (h_main_arg4 : V (Proc.devRef .tc main_arg4) = x4)
    (h_main_v75 : V (Proc.devRef .tc main_v75) = ReadP.val_main_v75 (F := F) x0 x1 x2 x3 x5 x6 x7 x8 x9 x10 x11 x12 x13 x14 x15) :
    after opsF V (Proc.devRef .tc main_v88) = ReadP.val_main_v88 (F := F) x0 x1 x2 x3 x4 x5 x6 x7 x8 x9 x10 x11 x12 x13 x14 x15 := by
  subst h_main_arg4
  unfold opsF; after_results_simp
  rw [h_main_v75]
  rfl

/-! ## The whole line -/

private theorem after_ops (V : Valuation τ sig (Elt F)) :
    after ops V = after opsF (after opsE (after opsD (after opsC (after opsB2 (after opsB1 (after opsA V)))))) := by
  simp only [ops, after_append]

/-- The whole line at the result buffer: the last stage value of the argument arrays the line starts from. -/
private theorem after_v88 (V : Valuation τ sig (Elt F)) (x0 : (⟨S100000x32, .f32⟩ : BufTy).Contents (Elt F)) (x1 : (⟨S1600000x16, .f32⟩ : BufTy).Contents (Elt F)) (x2 : (⟨S1x16, .f32⟩ : BufTy).Contents (Elt F)) (x3 : (⟨S2x1600000, .i32⟩ : BufTy).Contents (Elt F)) (x4 : (⟨S100000, .i32⟩ : BufTy).Contents (Elt F)) (x5 : (⟨S32x32, .f32⟩ : BufTy).Contents (Elt F)) (x6 : (⟨S32, .f32⟩ : BufTy).Contents (Elt F)) (x7 : (⟨S16x16, .f32⟩ : BufTy).Contents (Elt F)) (x8 : (⟨S16, .f32⟩ : BufTy).Contents (Elt F)) (x9 : (⟨S96x16, .f32⟩ : BufTy).Contents (Elt F)) (x10 : (⟨S16, .f32⟩ : BufTy).Contents (Elt F)) (x11 : (⟨S64x32, .f32⟩ : BufTy).Contents (Elt F)) (x12 : (⟨S32, .f32⟩ : BufTy).Contents (Elt F)) (x13 : (⟨S32x8, .f32⟩ : BufTy).Contents (Elt F)) (x14 : (⟨S8, .f32⟩ : BufTy).Contents (Elt F)) (x15 : (⟨S32x8, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_arg5 : V (Proc.devRef .tc main_arg5) = x5)
    (h_main_arg6 : V (Proc.devRef .tc main_arg6) = x6)
    (h_main_arg7 : V (Proc.devRef .tc main_arg7) = x7)
    (h_main_arg8 : V (Proc.devRef .tc main_arg8) = x8)
    (h_main_arg9 : V (Proc.devRef .tc main_arg9) = x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13)
    (h_main_arg14 : V (Proc.devRef .tc main_arg14) = x14)
    (h_main_arg15 : V (Proc.devRef .tc main_arg15) = x15) :
    after ops V (Proc.devRef .tc main_v88) = ReadP.val_main_v88 (F := F) x0 x1 x2 x3 x4 x5 x6 x7 x8 x9 x10 x11 x12 x13 x14 x15 := by
  rw [after_ops]
  have f_v1_A := A_v1 V x3 h_main_arg3
  have f_v3_A := A_v3 V x3 h_main_arg3
  have f_v7_A := A_v7 V x0 x5 x6 h_main_arg0 h_main_arg5 h_main_arg6
  have f_v10_A := A_v10 V x2 x7 x8 h_main_arg2 h_main_arg7 h_main_arg8
  have f_v11_A := A_v11 V x2 x7 x8 h_main_arg2 h_main_arg7 h_main_arg8
  have f_arg1_A := (frameA V (r := main_arg1) (by decide)).trans h_main_arg1
  have f_arg4_A := (frameA V (r := main_arg4) (by decide)).trans h_main_arg4
  have f_arg9_A := (frameA V (r := main_arg9) (by decide)).trans h_main_arg9
  have f_arg10_A := (frameA V (r := main_arg10) (by decide)).trans h_main_arg10
  have f_arg11_A := (frameA V (r := main_arg11) (by decide)).trans h_main_arg11
  have f_arg12_A := (frameA V (r := main_arg12) (by decide)).trans h_main_arg12
  have f_arg13_A := (frameA V (r := main_arg13) (by decide)).trans h_main_arg13
  have f_arg14_A := (frameA V (r := main_arg14) (by decide)).trans h_main_arg14
  have f_arg15_A := (frameA V (r := main_arg15) (by decide)).trans h_main_arg15
  have f_v18_B1 := B1_v18 _ x0 x3 x5 x6 f_v1_A f_v7_A
  have f_v25_B1 := B1_v25 _ x0 x3 x5 x6 f_v3_A f_v7_A
  have f_v1_B1 := (frameB1 _ (r := main_v1) (by decide)).trans f_v1_A
  have f_v3_B1 := (frameB1 _ (r := main_v3) (by decide)).trans f_v3_A
  have f_v7_B1 := (frameB1 _ (r := main_v7) (by decide)).trans f_v7_A
  have f_v10_B1 := (frameB1 _ (r := main_v10) (by decide)).trans f_v10_A
  have f_v11_B1 := (frameB1 _ (r := main_v11) (by decide)).trans f_v11_A
  have f_arg1_B1 := (frameB1 _ (r := main_arg1) (by decide)).trans f_arg1_A
  have f_arg4_B1 := (frameB1 _ (r := main_arg4) (by decide)).trans f_arg4_A
  have f_arg9_B1 := (frameB1 _ (r := main_arg9) (by decide)).trans f_arg9_A
  have f_arg10_B1 := (frameB1 _ (r := main_arg10) (by decide)).trans f_arg10_A
  have f_arg11_B1 := (frameB1 _ (r := main_arg11) (by decide)).trans f_arg11_A
  have f_arg12_B1 := (frameB1 _ (r := main_arg12) (by decide)).trans f_arg12_A
  have f_arg13_B1 := (frameB1 _ (r := main_arg13) (by decide)).trans f_arg13_A
  have f_arg14_B1 := (frameB1 _ (r := main_arg14) (by decide)).trans f_arg14_A
  have f_arg15_B1 := (frameB1 _ (r := main_arg15) (by decide)).trans f_arg15_A
  have f_v31_B2 := B2_v31 _ x0 x1 x2 x3 x5 x6 x7 x8 x9 x10 f_v18_B1 f_v25_B1 f_arg1_B1 f_v11_B1 f_arg9_B1 f_arg10_B1
  have f_v1_B2 := (frameB2 _ (r := main_v1) (by decide)).trans f_v1_B1
  have f_v3_B2 := (frameB2 _ (r := main_v3) (by decide)).trans f_v3_B1
  have f_v7_B2 := (frameB2 _ (r := main_v7) (by decide)).trans f_v7_B1
  have f_v10_B2 := (frameB2 _ (r := main_v10) (by decide)).trans f_v10_B1
  have f_arg4_B2 := (frameB2 _ (r := main_arg4) (by decide)).trans f_arg4_B1
  have f_arg11_B2 := (frameB2 _ (r := main_arg11) (by decide)).trans f_arg11_B1
  have f_arg12_B2 := (frameB2 _ (r := main_arg12) (by decide)).trans f_arg12_B1
  have f_arg13_B2 := (frameB2 _ (r := main_arg13) (by decide)).trans f_arg13_B1
  have f_arg14_B2 := (frameB2 _ (r := main_arg14) (by decide)).trans f_arg14_B1
  have f_arg15_B2 := (frameB2 _ (r := main_arg15) (by decide)).trans f_arg15_B1
  have f_v43_C := C_v43 _ x0 x1 x2 x3 x5 x6 x7 x8 x9 x10 f_v1_B2 f_v31_B2
  have f_v44_C := C_v44 _ x2 x7 x8 f_v10_B2
  have f_v1_C := (frameC _ (r := main_v1) (by decide)).trans f_v1_B2
  have f_v3_C := (frameC _ (r := main_v3) (by decide)).trans f_v3_B2
  have f_v7_C := (frameC _ (r := main_v7) (by decide)).trans f_v7_B2
  have f_arg4_C := (frameC _ (r := main_arg4) (by decide)).trans f_arg4_B2
  have f_arg11_C := (frameC _ (r := main_arg11) (by decide)).trans f_arg11_B2
  have f_arg12_C := (frameC _ (r := main_arg12) (by decide)).trans f_arg12_B2
  have f_arg13_C := (frameC _ (r := main_arg13) (by decide)).trans f_arg13_B2
  have f_arg14_C := (frameC _ (r := main_arg14) (by decide)).trans f_arg14_B2
  have f_arg15_C := (frameC _ (r := main_arg15) (by decide)).trans f_arg15_B2
  have f_v50_D := D_v50 _ x0 x1 x2 x3 x5 x6 x7 x8 x9 x10 x11 x12 f_v7_C f_v43_C f_v44_C f_arg11_C f_arg12_C
  have f_v1_D := (frameD _ (r := main_v1) (by decide)).trans f_v1_C
  have f_v3_D := (frameD _ (r := main_v3) (by decide)).trans f_v3_C
  have f_arg4_D := (frameD _ (r := main_arg4) (by decide)).trans f_arg4_C
  have f_arg13_D := (frameD _ (r := main_arg13) (by decide)).trans f_arg13_C
  have f_arg14_D := (frameD _ (r := main_arg14) (by decide)).trans f_arg14_C
  have f_arg15_D := (frameD _ (r := main_arg15) (by decide)).trans f_arg15_C
  have f_v75_E := E_v75 _ x0 x1 x2 x3 x5 x6 x7 x8 x9 x10 x11 x12 x13 x14 x15 f_v1_D f_v3_D f_v50_D f_arg13_D f_arg14_D f_arg15_D
  have f_arg4_E := (frameE _ (r := main_arg4) (by decide)).trans f_arg4_D
  have f_v88_F := F_v88 _ x0 x1 x2 x3 x4 x5 x6 x7 x8 x9 x10 x11 x12 x13 x14 x15 f_arg4_E f_v75_E
  exact f_v88_F

/-- A buffer no operation of the line writes keeps its contents. -/
private theorem after_frame (V : Valuation τ sig (Elt F)) {r : Ref sig .tc} (hA : r ∉ WA) (hB1 : r ∉ WB1) (hB2 : r ∉ WB2) (hC : r ∉ WC) (hD : r ∉ WD) (hE : r ∉ WE) (hF : r ∉ WF) :
    after ops V (Proc.devRef .tc r) = V (Proc.devRef .tc r) := by
  rw [after_ops, frameF _ hF, frameE _ hE, frameD _ hD, frameC _ hC, frameB2 _ hB2, frameB1 _ hB1, frameA _ hA]

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88)
        = Cert.ReferenceIdeal.ReadP.val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v88).trans (after_v88 (launchContents m c) _ _ _ _ _ _ _ _ _ _ _ _ _ _ _ _
        rfl rfl rfl rfl rfl rfl rfl rfl rfl rfl rfl rfl rfl rfl rfl rfl),
      (h c main_arg0).trans (after_frame (launchContents m c) (by decide) (by decide) (by decide) (by decide) (by decide) (by decide) (by decide)),
      (h c main_arg1).trans (after_frame (launchContents m c) (by decide) (by decide) (by decide) (by decide) (by decide) (by decide) (by decide)),
      (h c main_arg2).trans (after_frame (launchContents m c) (by decide) (by decide) (by decide) (by decide) (by decide) (by decide) (by decide)),
      (h c main_arg3).trans (after_frame (launchContents m c) (by decide) (by decide) (by decide) (by decide) (by decide) (by decide) (by decide)),
      (h c main_arg4).trans (after_frame (launchContents m c) (by decide) (by decide) (by decide) (by decide) (by decide) (by decide) (by decide)),
      (h c main_arg5).trans (after_frame (launchContents m c) (by decide) (by decide) (by decide) (by decide) (by decide) (by decide) (by decide)),
      (h c main_arg6).trans (after_frame (launchContents m c) (by decide) (by decide) (by decide) (by decide) (by decide) (by decide) (by decide)),
      (h c main_arg7).trans (after_frame (launchContents m c) (by decide) (by decide) (by decide) (by decide) (by decide) (by decide) (by decide)),
      (h c main_arg8).trans (after_frame (launchContents m c) (by decide) (by decide) (by decide) (by decide) (by decide) (by decide) (by decide)),
      (h c main_arg9).trans (after_frame (launchContents m c) (by decide) (by decide) (by decide) (by decide) (by decide) (by decide) (by decide)),
      (h c main_arg10).trans (after_frame (launchContents m c) (by decide) (by decide) (by decide) (by decide) (by decide) (by decide) (by decide)),
      (h c main_arg11).trans (after_frame (launchContents m c) (by decide) (by decide) (by decide) (by decide) (by decide) (by decide) (by decide)),
      (h c main_arg12).trans (after_frame (launchContents m c) (by decide) (by decide) (by decide) (by decide) (by decide) (by decide) (by decide)),
      (h c main_arg13).trans (after_frame (launchContents m c) (by decide) (by decide) (by decide) (by decide) (by decide) (by decide) (by decide)),
      (h c main_arg14).trans (after_frame (launchContents m c) (by decide) (by decide) (by decide) (by decide) (by decide) (by decide) (by decide)),
      (h c main_arg15).trans (after_frame (launchContents m c) (by decide) (by decide) (by decide) (by decide) (by decide) (by decide) (by decide))⟩)
    (run_seq scopedRefs_eq scopedSems_eq defs main (fun _ => ops) main_eq (fun _ => ops_sub) m ρ (hfresh := fun _ => ops_fresh))

end Cert.ReferenceIdeal.RRun

end
-- ==== Proof.RTail.lean ====
/-
  The reference program's last operations are the kernel program's: the pooled mean over the batch assignment's
  single segment and the log-softmax of that row. So the reference's result is that same function applied to the
  reference's output-layer value; the function itself is never opened.
-/
import proofs.«415651_j317827579953_3_alg».proof.Proof.ReadP
import proofs.«415651_j317827579953_3_alg».proof.Proof.KTail
import proofs.«415651_j317827579953_3_alg».proof.Proof.Gen.ReferenceIdeal

set_option maxRecDepth 16384

noncomputable section

namespace Cert.RTail

open Idealize.ShloMosaic Cert.ReferenceIdeal.ReadP

variable {F : FTy → Type} [FloatOps F]

set_option maxHeartbeats 4000000 in
/-- The reference's result is the log-softmax of the pooled mean of its output-layer value. -/
theorem val88_eq (x0 : FVec F Cert.ReferenceIdeal.S100000x32 .f32) (x1 : FVec F Cert.ReferenceIdeal.S1600000x16 .f32) (x2 : FVec F Cert.ReferenceIdeal.S1x16 .f32) (x3 : IVec Cert.ReferenceIdeal.S2x1600000 32) (x4 : IVec Cert.ReferenceIdeal.S100000 32) (x5 : FVec F Cert.ReferenceIdeal.S32x32 .f32) (x6 : FVec F Cert.ReferenceIdeal.S32 .f32) (x7 : FVec F Cert.ReferenceIdeal.S16x16 .f32) (x8 : FVec F Cert.ReferenceIdeal.S16 .f32) (x9 : FVec F Cert.ReferenceIdeal.S96x16 .f32) (x10 : FVec F Cert.ReferenceIdeal.S16 .f32) (x11 : FVec F Cert.ReferenceIdeal.S64x32 .f32) (x12 : FVec F Cert.ReferenceIdeal.S32 .f32) (x13 : FVec F Cert.ReferenceIdeal.S32x8 .f32) (x14 : FVec F Cert.ReferenceIdeal.S8 .f32) (x15 : FVec F Cert.ReferenceIdeal.S32x8 .f32) :
    val_main_v88 (F := F) x0 x1 x2 x3 x4 x5 x6 x7 x8 x9 x10 x11 x12 x13 x14 x15
      = Cert.KernelIdeal.KVal.lsm (F := F) (Cert.KernelIdeal.KVal.pooled (F := F) (val_main_v75 (F := F) x0 x1 x2 x3 x5 x6 x7 x8 x9 x10 x11 x12 x13 x14 x15) x4) := by
  rfl

end Cert.RTail

end
-- ==== Proof.Bridge.lean ====
/-
  The one law of this certificate that is more than a regrouping of sums: for real-valued inputs the kernel's
  output layer (the product with `W_l` taken at node resolution, then gathered along the edges and averaged per
  destination) is the reference's (gathered and averaged first, then the product). Every stage value is real
  when the inputs are — sums and products of reals, a maximum with zero, a quotient by a count that is at least
  one — and on reals the mean commutes with the product.
-/
import proofs.«415651_j317827579953_3_alg».proof.Proof.Hub
import proofs.«415651_j317827579953_3_alg».proof.Proof.Alg

noncomputable section

namespace Cert.Bridge

open Idealize.ShloMosaic Idealize.ShloMosaic.ValueIdx Cert.Spec Cert.Hub

variable (a0 : (⟨2, ![100000, 32]⟩ : Shape).Idx → EReal) (a1 : (⟨2, ![1600000, 16]⟩ : Shape).Idx → EReal)
  (a2 : (⟨2, ![1, 16]⟩ : Shape).Idx → EReal) (a3 : (⟨2, ![2, 1600000]⟩ : Shape).Idx → BitVec 32)
  (a5 : (⟨2, ![32, 32]⟩ : Shape).Idx → EReal) (a6 : (⟨1, ![32]⟩ : Shape).Idx → EReal)
  (a7 : (⟨2, ![16, 16]⟩ : Shape).Idx → EReal) (a8 : (⟨1, ![16]⟩ : Shape).Idx → EReal)
  (a9 : (⟨2, ![96, 16]⟩ : Shape).Idx → EReal) (a10 : (⟨1, ![16]⟩ : Shape).Idx → EReal)
  (a11 : (⟨2, ![64, 32]⟩ : Shape).Idx → EReal) (a12 : (⟨1, ![32]⟩ : Shape).Idx → EReal)
  (a13 : (⟨2, ![32, 8]⟩ : Shape).Idx → EReal) (a14 : (⟨1, ![8]⟩ : Shape).Idx → EReal)
  (a15 : (⟨2, ![32, 8]⟩ : Shape).Idx → EReal)

open Cert.Alg

/-- The node embedding is real: a sum of products of reals plus a real. -/
private theorem hi_real (h0 : ∀ i, IsReal (a0 i)) (h5 : ∀ i, IsReal (a5 i)) (h6 : ∀ i, IsReal (a6 i))
    (r : Fin 100000) (j : Fin 32) : IsReal (hi a0 a5 a6 r j) := by
  unfold hi
  exact isReal_add (isReal_sum _ _ fun t _ => isReal_mul (h0 _) (h5 _)) (h6 _)

/-- The graph embedding is real: a sum of products of reals plus a real. -/
private theorem hG_real (h2 : ∀ i, IsReal (a2 i)) (h7 : ∀ i, IsReal (a7 i)) (h8 : ∀ i, IsReal (a8 i))
    (j : Fin 16) : IsReal (hG a2 a7 a8 j) := by
  unfold hG
  exact isReal_add (isReal_sum _ _ fun t _ => isReal_mul (h2 _) (h7 _)) (h8 _)

/-- The edge aggregator is real: four contracted sums over real factors (the two endpoint embeddings, the edge
    attributes, the graph embedding), a real bias, and a maximum with zero. -/
private theorem edge_real (h0 : ∀ i, IsReal (a0 i)) (h1 : ∀ i, IsReal (a1 i)) (h2 : ∀ i, IsReal (a2 i))
    (h5 : ∀ i, IsReal (a5 i)) (h6 : ∀ i, IsReal (a6 i)) (h7 : ∀ i, IsReal (a7 i)) (h8 : ∀ i, IsReal (a8 i))
    (h9 : ∀ i, IsReal (a9 i)) (h10 : ∀ i, IsReal (a10 i)) (e : Fin 1600000) (j : Fin 16) :
    IsReal (edge a0 a1 a2 a3 a5 a6 a7 a8 a9 a10 e j) := by
  unfold edge
  refine isReal_max (isReal_add (isReal_add (isReal_add (isReal_add ?_ ?_) ?_) ?_) (h10 _)) isReal_zero
  · exact isReal_sum _ _ fun t _ => isReal_mul (hi_real a0 a5 a6 h0 h5 h6 _ _) (h9 _)
  · exact isReal_sum _ _ fun t _ => isReal_mul (hi_real a0 a5 a6 h0 h5 h6 _ _) (h9 _)
  · exact isReal_sum _ _ fun t _ => isReal_mul (h1 _) (h9 _)
  · exact isReal_sum _ _ fun t _ => isReal_mul (hG_real a2 a7 a8 h2 h7 h8 _) (h9 _)

/-- The per-node mean of the outgoing edges is real: zero plus a sum of reals, divided by a real count that is
    at least one. -/
private theorem mN_real (h0 : ∀ i, IsReal (a0 i)) (h1 : ∀ i, IsReal (a1 i)) (h2 : ∀ i, IsReal (a2 i))
    (h5 : ∀ i, IsReal (a5 i)) (h6 : ∀ i, IsReal (a6 i)) (h7 : ∀ i, IsReal (a7 i)) (h8 : ∀ i, IsReal (a8 i))
    (h9 : ∀ i, IsReal (a9 i)) (h10 : ∀ i, IsReal (a10 i)) (n : Fin 100000) (j : Fin 16) :
    IsReal (mN a0 a1 a2 a3 a5 a6 a7 a8 a9 a10 n j) := by
  unfold mN segMean
  exact isReal_div
    (isReal_add isReal_zero
      (isReal_sum _ _ fun e _ => edge_real a0 a1 a2 a3 a5 a6 a7 a8 a9 a10 h0 h1 h2 h5 h6 h7 h8 h9 h10 e j))
    (count_real_ge_one _).1 (count_real_ge_one _).2

/-- The aggregated node state is real-valued when the inputs it depends on are. -/
theorem hi2_real (h0 : ∀ i, IsReal (a0 i)) (h1 : ∀ i, IsReal (a1 i)) (h2 : ∀ i, IsReal (a2 i)) (h5 : ∀ i, IsReal (a5 i))
    (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i)) (h12 : ∀ i, IsReal (a12 i)) (r : Fin 100000) (j : Fin 32) :
    IsReal (hi2 a0 a1 a2 a3 a5 a6 a7 a8 a9 a10 a11 a12 r j) := by
  -- three contracted sums (the node embedding, the edge mean, the graph embedding), a real bias, a maximum with zero
  unfold hi2
  refine isReal_max (isReal_add (isReal_add (isReal_add ?_ ?_) ?_) (h12 _)) isReal_zero
  · exact isReal_sum _ _ fun t _ => isReal_mul (hi_real a0 a5 a6 h0 h5 h6 _ _) (h11 _)
  · exact isReal_sum _ _ fun t _ =>
      isReal_mul (mN_real a0 a1 a2 a3 a5 a6 a7 a8 a9 a10 h0 h1 h2 h5 h6 h7 h8 h9 h10 _ _) (h11 _)
  · exact isReal_sum _ _ fun t _ => isReal_mul (hG_real a2 a7 a8 h2 h7 h8 _) (h11 _)

/-- The kernel's output layer is the reference's, entry by entry. -/
theorem nodesK_eq_nodes (h0 : ∀ i, IsReal (a0 i)) (h1 : ∀ i, IsReal (a1 i)) (h2 : ∀ i, IsReal (a2 i)) (h5 : ∀ i, IsReal (a5 i))
    (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i)) (h12 : ∀ i, IsReal (a12 i)) (h13 : ∀ i, IsReal (a13 i))
    (r : Fin 100000) (j : Fin 8) :
    nodesK a0 a1 a2 a3 a5 a6 a7 a8 a9 a10 a11 a12 a13 a14 a15 r j = nodes a0 a1 a2 a3 a5 a6 a7 a8 a9 a10 a11 a12 a13 a14 a15 r j := by
  -- the two sides differ only in their first summand: the mean over the destination segment of the gathered
  -- rows' products with column `j` of `W_l`, against the product of the gathered rows' mean with that column;
  -- the rows are real (the aggregated node state), the column is real, the count is real and at least one
  have key := segmean_mm (hitOf a3 1 r)
    (fun e t => hi2 a0 a1 a2 a3 a5 a6 a7 a8 a9 a10 a11 a12 (rowOf a3 0 e) t)
    (fun t => a13 (ix2 t j)) (max (0 + ∑ _e ∈ hitOf a3 1 r, (1 : EReal)) 1)
    (fun e t => hi2_real a0 a1 a2 a3 a5 a6 a7 a8 a9 a10 a11 a12 h0 h1 h2 h5 h6 h7 h8 h9 h10 h11 h12 _ _)
    (fun t => h13 _) (count_real_ge_one _).1 (count_real_ge_one _).2
  unfold nodesK nodes segMean
  exact congrArg
    (fun x => (x + a14 (ix1 j)) + ∑ t : Fin 32, hi2 a0 a1 a2 a3 a5 a6 a7 a8 a9 a10 a11 a12 r t * a15 (ix2 t j)) key

end Cert.Bridge

end
-- ==== Proof.PreFacts.lean ====
/-
  What the precondition says, element by element: every float input is a real number (its absolute value is
  below the infinity), and every entry of the edge index lies in `[0, 100000)` as a signed integer.
-/
import proofs.«415651_j317827579953_3_alg».proof.Pre_finite_inputs
import proofs.«415651_j317827579953_3_alg».proof.Proof.Spec
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Cert.Pre_finite_inputs Cert.Spec

/-- A rank-0 array has one index. -/
local instance : Subsingleton S_.Idx := ⟨fun a b => funext fun d => d.elim0⟩

/-- The word `0x7F800000` (sign 0, exponent all ones, fraction 0) is the positive infinity. -/
private theorem ofBits_inf : Ideal.ofBits .f32 0x7F800000#32 = (⊤ : EReal) := by
  simp [Ideal.ofBits, Ideal.ieee]

/-- `|x| < +∞` on the extended reals, with `|x| = max x (-x)`: then `x` is neither infinity (at `⊥` and at `⊤` the
    maximum is `⊤`), so it is a real number. -/
private theorem isReal_of_abs_lt (x : EReal)
    (h : Ideal.cmp .olt (max x (-x)) (Ideal.ofBits .f32 0x7F800000#32) = 1#1) : IsReal x := by
  rw [ofBits_inf] at h
  have h' : max x (-x) < ⊤ := by
    unfold Ideal.cmp at h
    simpa [StableHlo.Predicate.ofBool_eq_one_iff] using h
  induction x using EReal.rec with
  | bot => simp at h'
  | top => simp at h'
  | coe r => exact ⟨r, rfl⟩

/-- One float conjunct, at any shape: the conjunction over all indices of `|a i| < +∞` (the infinity a scalar laid
    over the whole shape) being one, every `a i` is real. The conjunction over all axes gives the fact at each
    index; there the comparison is the one of `isReal_of_abs_lt`. -/
private theorem real_of_all {S : Shape} {axes : List (Fin S.rank)}
    (hb : S_.BroadcastsInDim S (![] : Fin 0 → Fin S.rank)) (hr : S.ReducesTo axes S_) (h0 : 0 < S_.numel)
    (a : FVec Ideal S .f32)
    (hall : Host.reduce IntOp.andi
      (cmpf .olt (Host.absf a) (broadcastInDim S ![] hb (constant (F := Ideal) S_ .f32 0x7F800000#32)))
      (constantI S_ 1 1#1) hr h0 ValueIdx.ix0 = 1#1) (i : S.Idx) : IsReal (a i) := by
  have e := Host.reduce_andi_all _ _ hr h0 ValueIdx.ix0 hall i
  rw [ValueIdx.cmpf_apply, StableHlo.Predicate.bcast_scalar hb h0] at e
  exact isReal_of_abs_lt (a i) e

/-- The integer conjunct at one word: `x ≥ 0` and `x < 100000`, both signed, read as inequalities between the
    signed values (the two literal words have the signed values `0` and `100000`). -/
private theorem edge_range (x : BitVec 32)
    (h : IntOp.andi (IntOp.cmpi .sge x 0#32) (IntOp.cmpi .slt x 100000#32) = 1#1) :
    0 ≤ x.toInt ∧ x.toInt < 100000 := by
  obtain ⟨h1, h2⟩ := IntOp.andi_eq_one.1 h
  have h1' := IntOp.cmpi_sge.1 h1
  have h2' := IntOp.cmpi_slt.1 h2
  rw [show (0#32 : BitVec 32).toInt = 0 from by decide] at h1'
  rw [show (100000#32 : BitVec 32).toInt = 100000 from by decide] at h2'
  exact ⟨h1', h2'⟩

variable [hP : Cert.Pre_finite_inputs.Facts]

/-- The printed predicate all ones gives: the thirteen float inputs real-valued (in the order of the arguments,
    the two integer inputs left out), then the edge index in range. -/
theorem of_fn (a0 : FVec Ideal S100000x32 .f32) (a1 : FVec Ideal S1600000x16 .f32) (a2 : FVec Ideal S1x16 .f32)
    (a3 : IVec S2x1600000 32) (a4 : IVec S100000 32) (a5 : FVec Ideal S32x32 .f32) (a6 : FVec Ideal S32 .f32)
    (a7 : FVec Ideal S16x16 .f32) (a8 : FVec Ideal S16 .f32) (a9 : FVec Ideal S96x16 .f32) (a10 : FVec Ideal S16 .f32)
    (a11 : FVec Ideal S64x32 .f32) (a12 : FVec Ideal S32 .f32) (a13 : FVec Ideal S32x8 .f32) (a14 : FVec Ideal S8 .f32)
    (a15 : FVec Ideal S32x8 .f32)
    (h : fn (F := Ideal) a0 a1 a2 a3 a4 a5 a6 a7 a8 a9 a10 a11 a12 a13 a14 a15 = fun _ => 1#1) :
    (∀ i, IsReal (a0 i)) ∧ (∀ i, IsReal (a1 i)) ∧ (∀ i, IsReal (a2 i)) ∧ (∀ i, IsReal (a5 i)) ∧ (∀ i, IsReal (a6 i))
    ∧ (∀ i, IsReal (a7 i)) ∧ (∀ i, IsReal (a8 i)) ∧ (∀ i, IsReal (a9 i)) ∧ (∀ i, IsReal (a10 i)) ∧ (∀ i, IsReal (a11 i))
    ∧ (∀ i, IsReal (a12 i)) ∧ (∀ i, IsReal (a13 i)) ∧ (∀ i, IsReal (a14 i)) ∧ (∀ i, IsReal (a15 i))
    ∧ (∀ i, 0 ≤ (a3 i).toInt ∧ (a3 i).toInt < 100000) := by
  -- the predicate at its one index, as the chain of its operations
  have e := congrFun h ValueIdx.ix0
  dsimp only [fn, fn_part1, fn_part2, fn_part3, fn_part4] at e
  -- the chain of conjunctions is nested to the left: the last conjunct (the edge index) comes off first, the first
  -- two (arguments 0 and 1) last
  obtain ⟨e, e3⟩ := IntOp.andi_eq_one.1 e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e2⟩ := IntOp.andi_eq_one.1 e
  obtain ⟨e0, e1⟩ := IntOp.andi_eq_one.1 e
  refine ⟨real_of_all _ _ _ a0 e0, real_of_all _ _ _ a1 e1, real_of_all _ _ _ a2 e2, real_of_all _ _ _ a5 e5,
    real_of_all _ _ _ a6 e6, real_of_all _ _ _ a7 e7, real_of_all _ _ _ a8 e8, real_of_all _ _ _ a9 e9,
    real_of_all _ _ _ a10 e10, real_of_all _ _ _ a11 e11, real_of_all _ _ _ a12 e12, real_of_all _ _ _ a13 e13,
    real_of_all _ _ _ a14 e14, real_of_all _ _ _ a15 e15, fun i => ?_⟩
  -- the edge index: the conjunction over all entries gives the two comparisons at entry `i`, the bounds there
  -- being the scalars `0` and `100000` laid over the shape
  exact edge_range (a3 i) (Host.reduce_andi_all _ _ _ _ ValueIdx.ix0 e3 i)

end Cert.PreFacts

end
-- ==== Proof.Assembly.lean ====
/-
  The algebraic claim assembled. The kernel's run ends with its result buffer at the fold of @main's segments; that
  value is the shared tail (pooled mean, log-softmax) of region 3's output, which entry by entry is the output
  layer in the kernel's order; for real-valued inputs and an edge index inside the node table that is the output
  layer in the reference's order, which is what the reference's output-layer value is; and the reference's run ends
  with its result at the same tail of that value.
-/
import proofs.«415651_j317827579953_3_alg».proof.Defs
import proofs.«415651_j317827579953_3_alg».proof.Proof.Gen.Pre_finite_inputs
import proofs.«415651_j317827579953_3_alg».proof.Proof.KRun
import proofs.«415651_j317827579953_3_alg».proof.Proof.KStage3
import proofs.«415651_j317827579953_3_alg».proof.Proof.KTail
import proofs.«415651_j317827579953_3_alg».proof.Proof.RStage3
import proofs.«415651_j317827579953_3_alg».proof.Proof.RRun
import proofs.«415651_j317827579953_3_alg».proof.Proof.RTail
import proofs.«415651_j317827579953_3_alg».proof.Proof.Bridge
import proofs.«415651_j317827579953_3_alg».proof.Proof.PreFacts

set_option maxRecDepth 16384

noncomputable section

namespace Cert.Proof.Assembly

open Idealize.ShloMosaic Idealize.ShloMosaic.TcCoe Idealize.SL.Sem Idealize.ShloMosaic.ValueIdx
open Cert.KernelIdeal.KVal

/-- The reference's frame: its run with the result dropped. -/
theorem frame_ri : Cert.frame_ReferenceIdeal := fun m ρ _ =>
  (θ_run Cert.ReferenceIdeal.defs _ _).mono (fun _ h c => (h c).2) (Cert.ReferenceIdeal.RRun.run (F := Ideal) m ρ)

theorem algebraic : Cert.algebraic_KernelIdeal_ReferenceIdeal := by
  intro m ρ m' ρ' hpre hagree
  refine ⟨fun c => Cert.KernelIdeal.Gen.W12 m ρ c (Proc.devRef .tc Cert.KernelIdeal.main_v65),
    Cert.KernelIdeal.KRun.run_result (F := Ideal) m ρ, ?_⟩
  refine (θ_run Cert.ReferenceIdeal.defs _ _).mono (fun r h c => ⟨(h c).1.trans ?_, (h c).2⟩)
    (Cert.ReferenceIdeal.RRun.run (F := Ideal) m' ρ')
  obtain ⟨e0, e1, e2, e3, e4, e5, e6, e7, e8, e9, e10, e11, e12, e13, e14, e15⟩ := hagree c
  rw [e0, e1, e2, e3, e4, e5, e6, e7, e8, e9, e10, e11, e12, e13, e14, e15]
  obtain ⟨h0, h1, h2, h5, h6, h7, h8, h9, h10, h11, h12, h13, h14, h15, hidx⟩ :=
    Cert.PreFacts.of_fn _ _ _ _ _ _ _ _ _ _ _ _ _ _ _ _ (hpre c)
  rw [Cert.RTail.val88_eq]
  show _ = Cert.KernelIdeal.Gen.W12 m ρ c (Proc.devRef .tc Cert.KernelIdeal.main_v65)
  rw [W12_v65 m ρ c, W10_arg4 m ρ c]
  refine congrArg (fun hn => lsm (F := Ideal) (pooled (F := Ideal) hn (A4 m c))) ?_
  funext i
  obtain ⟨r, j, rfl⟩ : ∃ (r : Fin 100000) (j : Fin 8), i = ix2 r j := ⟨i 0, i 1, eq_ix2 i⟩
  rw [Cert.ReferenceIdeal.RVal.R_v75 _ _ _ _ _ _ _ _ _ _ _ _ _ _ _ hidx r j, W10_v52 m ρ c hidx r j]
  exact (Cert.Bridge.nodesK_eq_nodes _ _ _ _ _ _ _ _ _ _ _ _ _ _ _ h0 h1 h2 h5 h6 h7 h8 h9 h10 h11 h12 h13 r j).symm

end Cert.Proof.Assembly

end
-- ==== Proof.lean ====
/-
  The certificate: the message-passing network's Pallas implementation (four kernels among host gathers and
  segment means) against its plain reference, over the extended reals, for finite float inputs and an edge index
  inside the node table.

  The kernel pushes each linear layer through the concatenation it acts on (a product with a row-stacked weight
  is the sum of the products with the row blocks), through the gathers (a gathered row of `h · W` is the gathered
  row of `h` times `W`), and, in the output layer, through the segment mean (the mean of `(h₂ · W_l)[src]` over a
  destination's incoming edges is the mean of `h₂[src]` times `W_l`). The first two are regroupings of finite sums
  and hold on all extended reals; the last distributes a product over a sum and a quotient, and is where the
  finiteness of the inputs is used: every stage value is then a real number. The index range is what makes the
  kernel's bounds-checked `take` (which fills out-of-range rows) and the reference's clamped indexing read the same
  rows.

  Proof/Hub.lean states the stage values as plain formulas; Proof/KStage1–3, KTail read the kernel's fold of host
  stretches and regions (Proof/Reg0–3: each region's output arrays from its blocks) against them; Proof/RStage1–3,
  RTail, RRun do the same for the reference; Proof/Bridge.lean is the law for real-valued data; Proof/Assembly.lean
  joins them. The three frames: the two kernels' are the generated launch over the segments, the reference's is its
  run with the result dropped. `preserves` has no entry to prove: the idealization rewrote nothing.
-/
import proofs.«415651_j317827579953_3_alg».proof.Defs
import proofs.«415651_j317827579953_3_alg».proof.Proof.Gen.Kernel
import proofs.«415651_j317827579953_3_alg».proof.Proof.Gen.Kernel.Skeleton
import proofs.«415651_j317827579953_3_alg».proof.Proof.Gen.Kernel.Launch
import proofs.«415651_j317827579953_3_alg».proof.Proof.Gen.Kernel.Points
import proofs.«415651_j317827579953_3_alg».proof.Proof.Gen.Kernel.Frame
import proofs.«415651_j317827579953_3_alg».proof.Proof.Gen.KernelIdeal
import proofs.«415651_j317827579953_3_alg».proof.Proof.Gen.KernelIdeal.Skeleton
import proofs.«415651_j317827579953_3_alg».proof.Proof.Gen.KernelIdeal.Launch
import proofs.«415651_j317827579953_3_alg».proof.Proof.Gen.KernelIdeal.Points
import proofs.«415651_j317827579953_3_alg».proof.Proof.Gen.KernelIdeal.Frame
import proofs.«415651_j317827579953_3_alg».proof.Proof.Gen.ReferenceIdeal
import proofs.«415651_j317827579953_3_alg».proof.Proof.Gen.Pre_finite_inputs
import proofs.«415651_j317827579953_3_alg».proof.Proof.Assembly
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.Assembly.frame_ri,
  trivial,
  Cert.Proof.Assembly.algebraic⟩

end Cert.Proof

end
